-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_v145) = v1 c
          ∧ r.2.mem ((c.tc : Thread Cert.ReferenceIdeal.nD Cert.ReferenceIdeal.τ).loc Cert.ReferenceIdeal.main_v96) = v2 c
          ∧ r.2.mem ((c.tc : Thread Cert.ReferenceIdeal.nD Cert.ReferenceIdeal.τ).loc Cert.ReferenceIdeal.main_v97) = v3 c
          ∧ r.2.mem ((c.tc : Thread Cert.ReferenceIdeal.nD Cert.ReferenceIdeal.τ).loc Cert.ReferenceIdeal.main_v146) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_v176) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S50000x64 : Shape := ⟨2, ![50000, 64]⟩
abbrev S64x2 : Shape := ⟨2, ![64, 2]⟩
abbrev S11x64 : Shape := ⟨2, ![11, 64]⟩
abbrev S100000x2 : Shape := ⟨2, ![100000, 2]⟩
abbrev S50000 : Shape := ⟨1, ![50000]⟩
abbrev S4000000 : Shape := ⟨1, ![4000000]⟩
abbrev S2000000 : Shape := ⟨1, ![2000000]⟩
abbrev S500000 : Shape := ⟨1, ![500000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S50000x64 : S_.BroadcastsInDim S50000x64 (![] : Fin 0 → Fin S50000x64.rank)
  reducesTo_S50000x64_S_d0_1 : S50000x64.ReducesTo [0, 1] S_
  bcast_S_S64x2 : S_.BroadcastsInDim S64x2 (![] : Fin 0 → Fin S64x2.rank)
  reducesTo_S64x2_S_d0_1 : S64x2.ReducesTo [0, 1] S_
  bcast_S_S11x64 : S_.BroadcastsInDim S11x64 (![] : Fin 0 → Fin S11x64.rank)
  reducesTo_S11x64_S_d0_1 : S11x64.ReducesTo [0, 1] S_
  bcast_S_S100000x2 : S_.BroadcastsInDim S100000x2 (![] : Fin 0 → Fin S100000x2.rank)
  reducesTo_S100000x2_S_d0_1 : S100000x2.ReducesTo [0, 1] S_
  bcast_S_S4000000 : S_.BroadcastsInDim S4000000 (![] : Fin 0 → Fin S4000000.rank)
  reducesTo_S4000000_S_d0 : S4000000.ReducesTo [0] S_
  bcast_S_S2000000 : S_.BroadcastsInDim S2000000 (![] : Fin 0 → Fin S2000000.rank)
  reducesTo_S2000000_S_d0 : S2000000.ReducesTo [0] S_
  bcast_S_S500000 : S_.BroadcastsInDim S500000 (![] : Fin 0 → Fin S500000.rank)
  reducesTo_S500000_S_d0 : S500000.ReducesTo [0] S_

variable [Facts]

def fn_part3 {F : FTy → Type} [FloatOps F] (main_v48 : IVec S_ 1) (main_v50 : IVec S100000x2 1) : IVec S_ 1 :=
  let main_c_19 : IVec S_ 1 := constantI S_ 1 1#1
  let main_v51 : IVec S_ 1 := (fun x v => Host.reduce IntOp.andi x v reducesTo_S100000x2_S_d0_1 h_S_) main_v50 main_c_19
  let main_v52 : IVec S_ 1 := andi main_v48 main_v51
  main_v52

def fn_part2 {F : FTy → Type} [FloatOps F] (main_arg5 : FVec F S100000x2 .f32) (main_arg12 : FVec F S2000000 .f32) (main_arg15 : FVec F S2000000 .f32) (main_arg18 : FVec F S500000 .f32) (main_v33 : IVec S_ 1) : IVec S_ 1 :=
  let main_v34 : FVec F S2000000 .f32 := Host.absf main_arg12
  let main_cst_12 : FVec F S_ .f32 := constant S_ .f32 0x7F800000#32
  let main_v35 : FVec F S2000000 .f32 := broadcastInDim S2000000 ![] bcast_S_S2000000 main_cst_12
  let main_v36 : IVec S2000000 1 := cmpf .olt main_v34 main_v35
  let main_c_13 : IVec S_ 1 := constantI S_ 1 1#1
  let main_v37 : IVec S_ 1 := (fun x v => Host.reduce IntOp.andi x v reducesTo_S2000000_S_d0 h_S_) main_v36 main_c_13
  let main_v38 : IVec S_ 1 := andi main_v33 main_v37
  let main_v39 : FVec F S2000000 .f32 := Host.absf main_arg15
  let main_cst_14 : FVec F S_ .f32 := constant S_ .f32 0x7F800000#32
  let main_v40 : FVec F S2000000 .f32 := broadcastInDim S2000000 ![] bcast_S_S2000000 main_cst_14
  let main_v41 : IVec S2000000 1 := cmpf .olt main_v39 main_v40
  let main_c_15 : IVec S_ 1 := constantI S_ 1 1#1
  let main_v42 : IVec S_ 1 := (fun x v => Host.reduce IntOp.andi x v reducesTo_S2000000_S_d0 h_S_) main_v41 main_c_15
  let main_v43 : IVec S_ 1 := andi main_v38 main_v42
  let main_v44 : FVec F S500000 .f32 := Host.absf main_arg18
  let main_cst_16 : FVec F S_ .f32 := constant S_ .f32 0x7F800000#32
  let main_v45 : FVec F S500000 .f32 := broadcastInDim S500000 ![] bcast_S_S500000 main_cst_16
  let main_v46 : IVec S500000 1 := cmpf .olt main_v44 main_v45
  let main_c_17 : IVec S_ 1 := constantI S_ 1 1#1
  let main_v47 : IVec S_ 1 := (fun x v => Host.reduce IntOp.andi x v reducesTo_S500000_S_d0 h_S_) main_v46 main_c_17
  let main_v48 : IVec S_ 1 := andi main_v43 main_v47
  let main_cst_18 : FVec F S_ .f32 := constant S_ .f32 0xBF800000#32
  let main_v49 : FVec F S100000x2 .f32 := broadcastInDim S100000x2 ![] bcast_S_S100000x2 main_cst_18
  let main_v50 : IVec S100000x2 1 := cmpf .ogt main_arg5 main_v49
  fn_part3 (F := F) main_v48 main_v50

def fn_part1 {F : FTy → Type} [FloatOps F] (main_arg4 : FVec F S11x64 .f32) (main_arg5 : FVec F S100000x2 .f32) (main_arg9 : FVec F S4000000 .f32) (main_arg12 : FVec F S2000000 .f32) (main_arg15 : FVec F S2000000 .f32) (main_arg18 : FVec F S500000 .f32) (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  let main_v19 : FVec F S11x64 .f32 := Host.absf main_arg4
  let main_cst_6 : FVec F S_ .f32 := constant S_ .f32 0x7F800000#32
  let main_v20 : FVec F S11x64 .f32 := broadcastInDim S11x64 ![] bcast_S_S11x64 main_cst_6
  let main_v21 : IVec S11x64 1 := cmpf .olt main_v19 main_v20
  let main_c_7 : IVec S_ 1 := constantI S_ 1 1#1
  let main_v22 : IVec S_ 1 := (fun x v => Host.reduce IntOp.andi x v reducesTo_S11x64_S_d0_1 h_S_) main_v21 main_c_7
  let main_v23 : IVec S_ 1 := andi main_v18 main_v22
  let main_v24 : FVec F S100000x2 .f32 := Host.absf main_arg5
  let main_cst_8 : FVec F S_ .f32 := constant S_ .f32 0x7F800000#32
  let main_v25 : FVec F S100000x2 .f32 := broadcastInDim S100000x2 ![] bcast_S_S100000x2 main_cst_8
  let main_v26 : IVec S100000x2 1 := cmpf .olt main_v24 main_v25
  let main_c_9 : IVec S_ 1 := constantI S_ 1 1#1
  let main_v27 : IVec S_ 1 := (fun x v => Host.reduce IntOp.andi x v reducesTo_S100000x2_S_d0_1 h_S_) main_v26 main_c_9
  let main_v28 : IVec S_ 1 := andi main_v23 main_v27
  let main_v29 : FVec F S4000000 .f32 := Host.absf main_arg9
  let main_cst_10 : FVec F S_ .f32 := constant S_ .f32 0x7F800000#32
  let main_v30 : FVec F S4000000 .f32 := broadcastInDim S4000000 ![] bcast_S_S4000000 main_cst_10
  let main_v31 : IVec S4000000 1 := cmpf .olt main_v29 main_v30
  let main_c_11 : IVec S_ 1 := constantI S_ 1 1#1
  let main_v32 : IVec S_ 1 := (fun x v => Host.reduce IntOp.andi x v reducesTo_S4000000_S_d0 h_S_) main_v31 main_c_11
  let main_v33 : IVec S_ 1 := andi main_v28 main_v32
  fn_part2 (F := F) main_arg5 main_arg12 main_arg15 main_arg18 main_v33

def fn {F : FTy → Type} [FloatOps F] (main_arg0 : FVec F S200000x64 .f32) (main_arg1 : FVec F S100000x64 .f32) (main_arg2 : FVec F S50000x64 .f32) (main_arg3 : FVec F S64x2 .f32) (main_arg4 : FVec F S11x64 .f32) (main_arg5 : FVec F S100000x2 .f32) (main_arg6 : IVec S50000 32) (main_arg7 : IVec S4000000 32) (main_arg8 : IVec S4000000 32) (main_arg9 : FVec F S4000000 .f32) (main_arg10 : IVec S2000000 32) (main_arg11 : IVec S2000000 32) (main_arg12 : FVec F S2000000 .f32) (main_arg13 : IVec S2000000 32) (main_arg14 : IVec S2000000 32) (main_arg15 : FVec F S2000000 .f32) (main_arg16 : IVec S500000 32) (main_arg17 : IVec S500000 32) (main_arg18 : FVec F S500000 .f32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_arg4 main_arg5 main_arg9 main_arg12 main_arg15 main_arg18 main_v13 main_v16
-- ==== Kernel.lean ====
abbrev S200000x64 : Shape := ⟨2, ![200000, 64]⟩
abbrev S100000x64 : Shape := ⟨2, ![100000, 64]⟩
abbrev S50000x64 : Shape := ⟨2, ![50000, 64]⟩
abbrev S64x2 : Shape := ⟨2, ![64, 2]⟩
abbrev S11x64 : Shape := ⟨2, ![11, 64]⟩
abbrev S100000x2 : Shape := ⟨2, ![100000, 2]⟩
abbrev S50000 : Shape := ⟨1, ![50000]⟩
abbrev S4000000 : Shape := ⟨1, ![4000000]⟩
abbrev S2000000 : Shape := ⟨1, ![2000000]⟩
abbrev S500000 : Shape := ⟨1, ![500000]⟩
abbrev S300000x64 : Shape := ⟨2, ![300000, 64]⟩
abbrev S4000000x1 : Shape := ⟨2, ![4000000, 1]⟩
abbrev S_ : Shape := ⟨0, ![]⟩
abbrev S4000000x64 : Shape := ⟨2, ![4000000, 64]⟩
abbrev S150000x128 : Shape := ⟨2, ![150000, 128]⟩
abbrev S150000x64 : Shape := ⟨2, ![150000, 64]⟩
abbrev S2000000x1 : Shape := ⟨2, ![2000000, 1]⟩
abbrev S2000000x64 : Shape := ⟨2, ![2000000, 64]⟩
abbrev S75000x128 : Shape := ⟨2, ![75000, 128]⟩
abbrev S250000x64 : Shape := ⟨2, ![250000, 64]⟩
abbrev S125000x128 : Shape := ⟨2, ![125000, 128]⟩
abbrev S500000x1 : Shape := ⟨2, ![500000, 1]⟩
abbrev S500000x64 : Shape := ⟨2, ![500000, 64]⟩
abbrev S500000x2 : Shape := ⟨2, ![500000, 2]⟩
abbrev S50000x2 : Shape := ⟨2, ![50000, 2]⟩
abbrev S50000x1 : Shape := ⟨2, ![50000, 1]⟩
abbrev S5000x128 : Shape := ⟨2, ![5000, 128]⟩
abbrev S5000x64 : Shape := ⟨2, ![5000, 64]⟩
abbrev S5000 : Shape := ⟨1, ![5000]⟩
abbrev S5000x1 : Shape := ⟨2, ![5000, 1]⟩
abbrev S5000x2 : Shape := ⟨2, ![5000, 2]⟩
abbrev S64x1 : Shape := ⟨2, ![64, 1]⟩
abbrev S64 : Shape := ⟨1, ![64]⟩
abbrev S1x64 : Shape := ⟨2, ![1, 64]⟩

abbrev nBuf : Space → Nat
  | .hbm => 183
  | .vmem => 46
  | .smem => 0
  | _ => 0

abbrev hbmTy0_0 (i : Nat) : BufTy := match i % 128 with
  | 0 => ⟨S200000x64, .f32⟩
  | 1 => ⟨S100000x64, .f32⟩
  | 2 => ⟨S50000x64, .f32⟩
  | 3 => ⟨S64x2, .f32⟩
  | 4 => ⟨S11x64, .f32⟩
  | 5 => ⟨S100000x2, .f32⟩
  | 6 => ⟨S50000, .i32⟩
  | 7 => ⟨S4000000, .i32⟩
  | 8 => ⟨S4000000, .i32⟩
  | 9 => ⟨S4000000, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S500000, .i32⟩
  | 17 => ⟨S500000, .i32⟩
  | 18 => ⟨S500000, .f32⟩
  | 19 => ⟨S300000x64, .f32⟩
  | 20 => ⟨S4000000x1, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000x64, .f32⟩
  | 30 => ⟨S4000000x64, .f32⟩
  | 31 => ⟨S4000000x64, .f32⟩
  | 32 => ⟨S_, .f32⟩
  | 33 => ⟨S300000x64, .f32⟩
  | 34 => ⟨S4000000x1, .i32⟩
  | 35 => ⟨S300000x64, .f32⟩
  | 36 => ⟨S150000x128, .f32⟩
  | 37 => ⟨S150000x128, .f32⟩
  | 38 => ⟨S150000x128, .f32⟩
  | 39 => ⟨S300000x64, .f32⟩
  | 40 => ⟨S4000000x1, .f32⟩
  | 41 => ⟨S_, .i32⟩
  | 42 => ⟨S4000000, .i32⟩
  | 43 => ⟨S4000000, .i1⟩
  | 44 => ⟨S_, .i32⟩
  | 45 => ⟨S4000000, .i32⟩
  | 46 => ⟨S4000000, .i32⟩
  | 47 => ⟨S4000000, .i32⟩
  | 48 => ⟨S4000000x1, .i32⟩
  | 49 => ⟨S4000000x64, .f32⟩
  | 50 => ⟨S4000000x64, .f32⟩
  | 51 => ⟨S4000000x64, .f32⟩
  | 52 => ⟨S_, .f32⟩
  | 53 => ⟨S300000x64, .f32⟩
  | 54 => ⟨S4000000x1, .i32⟩
  | 55 => ⟨S300000x64, .f32⟩
  | 56 => ⟨S150000x128, .f32⟩
  | 57 => ⟨S150000x128, .f32⟩
  | 58 => ⟨S150000x128, .f32⟩
  | 59 => ⟨S300000x64, .f32⟩
  | 60 => ⟨S200000x64, .f32⟩
  | 61 => ⟨S100000x64, .f32⟩
  | 62 => ⟨S150000x64, .f32⟩
  | 63 => ⟨S2000000x1, .f32⟩
  | 64 => ⟨S_, .i32⟩
  | 65 => ⟨S2000000, .i32⟩
  | 66 => ⟨S2000000, .i1⟩
  | 67 => ⟨S_, .i32⟩
  | 68 => ⟨S2000000, .i32⟩
  | 69 => ⟨S2000000, .i32⟩
  | 70 => ⟨S2000000, .i32⟩
  | 71 => ⟨S2000000x1, .i32⟩
  | 72 => ⟨S2000000x64, .f32⟩
  | 73 => ⟨S2000000x64, .f32⟩
  | 74 => ⟨S2000000x64, .f32⟩
  | 75 => ⟨S_, .f32⟩
  | 76 => ⟨S150000x64, .f32⟩
  | 77 => ⟨S2000000x1, .i32⟩
  | 78 => ⟨S150000x64, .f32⟩
  | 79 => ⟨S75000x128, .f32⟩
  | 80 => ⟨S75000x128, .f32⟩
  | 81 => ⟨S75000x128, .f32⟩
  | 82 => ⟨S150000x64, .f32⟩
  | 83 => ⟨S2000000x1, .f32⟩
  | 84 => ⟨S_, .i32⟩
  | 85 => ⟨S2000000, .i32⟩
  | 86 => ⟨S2000000, .i1⟩
  | 87 => ⟨S_, .i32⟩
  | 88 => ⟨S2000000, .i32⟩
  | 89 => ⟨S2000000, .i32⟩
  | 90 => ⟨S2000000, .i32⟩
  | 91 => ⟨S2000000x1, .i32⟩
  | 92 => ⟨S2000000x64, .f32⟩
  | 93 => ⟨S2000000x64, .f32⟩
  | 94 => ⟨S2000000x64, .f32⟩
  | 95 => ⟨S_, .f32⟩
  | 96 => ⟨S150000x64, .f32⟩
  | 97 => ⟨S2000000x1, .i32⟩
  | 98 => ⟨S150000x64, .f32⟩
  | 99 => ⟨S75000x128, .f32⟩
  | 100 => ⟨S75000x128, .f32⟩
  | 101 => ⟨S75000x128, .f32⟩
  | 102 => ⟨S150000x64, .f32⟩
  | 103 => ⟨S50000x64, .f32⟩
  | 104 => ⟨S100000x64, .f32⟩
  | 105 => ⟨S250000x64, .f32⟩
  | 106 => ⟨S2000000x1, .f32⟩
  | 107 => ⟨S_, .i32⟩
  | 108 => ⟨S2000000, .i32⟩
  | 109 => ⟨S2000000, .i1⟩
  | 110 => ⟨S_, .i32⟩
  | 111 => ⟨S2000000, .i32⟩
  | 112 => ⟨S2000000, .i32⟩
  | 113 => ⟨S2000000, .i32⟩
  | 114 => ⟨S2000000x1, .i32⟩
  | 115 => ⟨S2000000x64, .f32⟩
  | 116 => ⟨S2000000x64, .f32⟩
  | 117 => ⟨S2000000x64, .f32⟩
  | 118 => ⟨S_, .f32⟩
  | 119 => ⟨S250000x64, .f32⟩
  | 120 => ⟨S2000000x1, .i32⟩
  | 121 => ⟨S250000x64, .f32⟩
  | 122 => ⟨S125000x128, .f32⟩
  | 123 => ⟨S125000x128, .f32⟩
  | 124 => ⟨S125000x128, .f32⟩
  | 125 => ⟨S250000x64, .f32⟩
  | 126 => ⟨S2000000x1, .f32⟩
  | 127 => ⟨S_, .i32⟩
  | _ => ⟨S200000x64, .f32⟩

abbrev hbmTy0_1 (i : Nat) : BufTy := match i % 128 with
  | 0 => ⟨S2000000, .i32⟩
  | 1 => ⟨S2000000, .i1⟩
  | 2 => ⟨S_, .i32⟩
  | 3 => ⟨S2000000, .i32⟩
  | 4 => ⟨S2000000, .i32⟩
  | 5 => ⟨S2000000, .i32⟩
  | 6 => ⟨S2000000x1, .i32⟩
  | 7 => ⟨S2000000x64, .f32⟩
  | 8 => ⟨S2000000x64, .f32⟩
  | 9 => ⟨S2000000x64, .f32⟩
  | 10 => ⟨S_, .f32⟩
  | 11 => ⟨S250000x64, .f32⟩
  | 12 => ⟨S2000000x1, .i32⟩
  | 13 => ⟨S250000x64, .f32⟩
  | 14 => ⟨S125000x128, .f32⟩
  | 15 => ⟨S125000x128, .f32⟩
  | 16 => ⟨S125000x128, .f32⟩
  | 17 => ⟨S250000x64, .f32⟩
  | 18 => ⟨S200000x64, .f32⟩
  | 19 => ⟨S50000x64, .f32⟩
  | 20 => ⟨S100000x2, .f32⟩
  | 21 => ⟨S500000x1, .f32⟩
  | 22 => ⟨S_, .i32⟩
  | 23 => ⟨S500000, .i32⟩
  | 24 => ⟨S500000, .i1⟩
  | 25 => ⟨S_, .i32⟩
  | 26 => ⟨S500000, .i32⟩
  | 27 => ⟨S500000, .i32⟩
  | 28 => ⟨S500000, .i32⟩
  | 29 => ⟨S500000x1, .i32⟩
  | 30 => ⟨S500000x64, .f32⟩
  | 31 => ⟨S500000x64, .f32⟩
  | 32 => ⟨S500000x64, .f32⟩
  | 33 => ⟨S_, .f32⟩
  | 34 => ⟨S50000x64, .f32⟩
  | 35 => ⟨S500000x1, .i32⟩
  | 36 => ⟨S50000x64, .f32⟩
  | 37 => ⟨S500000x1, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000x2, .f32⟩
  | 47 => ⟨S500000x2, .f32⟩
  | 48 => ⟨S500000x2, .f32⟩
  | 49 => ⟨S_, .f32⟩
  | 50 => ⟨S50000x2, .f32⟩
  | 51 => ⟨S500000x1, .i32⟩
  | 52 => ⟨S50000x2, .f32⟩
  | 53 => ⟨S50000x1, .i32⟩
  | 54 => ⟨S50000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S5000x64, .f32⟩
  | .local _ .vmem, ⟨37, _⟩ => ⟨S5000x64, .f32⟩
  | .local _ .vmem, ⟨38, _⟩ => ⟨S5000x2, .f32⟩
  | .local _ .vmem, ⟨39, _⟩ => ⟨S5000x2, .f32⟩
  | .local _ .vmem, ⟨40, _⟩ => ⟨S64x2, .f32⟩
  | .local _ .vmem, ⟨41, _⟩ => ⟨S5000x1, .i32⟩
  | .local _ .vmem, ⟨42, _⟩ => ⟨S5000x1, .i32⟩
  | .local _ .vmem, ⟨43, _⟩ => ⟨S11x64, .f32⟩
  | .local _ .vmem, ⟨44, _⟩ => ⟨S5000x64, .f32⟩
  | .local _ .vmem, ⟨45, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_v0 : Ref sig .tc := ⟨.hbm, 19, rfl⟩
abbrev main_call0_v1 : Ref sig .tc := ⟨.hbm, 20, rfl⟩
abbrev main_call0_c : Ref sig .tc := ⟨.hbm, 21, rfl⟩
abbrev main_call0_v2 : Ref sig .tc := ⟨.hbm, 22, rfl⟩
abbrev main_call0_v3 : Ref sig .tc := ⟨.hbm, 23, rfl⟩
abbrev main_call0_c_0 : Ref sig .tc := ⟨.hbm, 24, rfl⟩
abbrev main_call0_v4 : Ref sig .tc := ⟨.hbm, 25, rfl⟩
abbrev main_call0_v5 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_cst : Ref sig .tc := ⟨.hbm, 32, rfl⟩
abbrev main_call0_v11 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_v15 : Ref sig .tc := ⟨.hbm, 37, rfl⟩
abbrev main_call0_v16 : Ref sig .tc := ⟨.hbm, 38, rfl⟩
abbrev main_call0_v17 : Ref sig .tc := ⟨.hbm, 39, rfl⟩
abbrev main_call0_v18 : Ref sig .tc := ⟨.hbm, 40, rfl⟩
abbrev main_call0_c_1 : Ref sig .tc := ⟨.hbm, 41, rfl⟩
abbrev main_call0_v19 : Ref sig .tc := ⟨.hbm, 42, rfl⟩
abbrev main_call0_v20 : Ref sig .tc := ⟨.hbm, 43, rfl⟩
abbrev main_call0_c_2 : Ref sig .tc := ⟨.hbm, 44, rfl⟩
abbrev main_call0_v21 : Ref sig .tc := ⟨.hbm, 45, rfl⟩
abbrev main_call0_v22 : Ref sig .tc := ⟨.hbm, 46, rfl⟩
abbrev main_call0_v23 : Ref sig .tc := ⟨.hbm, 47, rfl⟩
abbrev main_call0_v24 : Ref sig .tc := ⟨.hbm, 48, rfl⟩
abbrev main_call0_v25 : Ref sig .tc := ⟨.hbm, 49, rfl⟩
abbrev main_call0_v26 : Ref sig .tc := ⟨.hbm, 50, rfl⟩
abbrev main_call0_v27 : Ref sig .tc := ⟨.hbm, 51, rfl⟩
abbrev main_call0_cst_3 : Ref sig .tc := ⟨.hbm, 52, rfl⟩
abbrev main_call0_v28 : Ref sig .tc := ⟨.hbm, 53, rfl⟩
abbrev main_call0_v29 : Ref sig .tc := ⟨.hbm, 54, rfl⟩
abbrev main_call0_v30 : Ref sig .tc := ⟨.hbm, 55, rfl⟩
abbrev main_call0_v31 : Ref sig .tc := ⟨.hbm, 56, rfl⟩
abbrev main_call0_v32 : Ref sig .tc := ⟨.hbm, 57, rfl⟩
abbrev main_call0_v33 : Ref sig .tc := ⟨.hbm, 58, rfl⟩
abbrev main_call0_v34 : Ref sig .tc := ⟨.hbm, 59, rfl⟩
abbrev main_v0_0 : Ref sig .tc := ⟨.hbm, 60, rfl⟩
abbrev main_v0_5 : Ref sig .tc := ⟨.hbm, 61, rfl⟩
abbrev main_call0_v37 : Ref sig .tc := ⟨.hbm, 62, rfl⟩
abbrev main_call0_v38 : Ref sig .tc := ⟨.hbm, 63, rfl⟩
abbrev main_call0_c_4 : Ref sig .tc := ⟨.hbm, 64, rfl⟩
abbrev main_call0_v39 : Ref sig .tc := ⟨.hbm, 65, rfl⟩
abbrev main_call0_v40 : Ref sig .tc := ⟨.hbm, 66, rfl⟩
abbrev main_call0_c_5 : Ref sig .tc := ⟨.hbm, 67, rfl⟩
abbrev main_call0_v41 : Ref sig .tc := ⟨.hbm, 68, rfl⟩
abbrev main_call0_v42 : Ref sig .tc := ⟨.hbm, 69, rfl⟩
abbrev main_call0_v43 : Ref sig .tc := ⟨.hbm, 70, rfl⟩
abbrev main_call0_v44 : Ref sig .tc := ⟨.hbm, 71, rfl⟩
abbrev main_call0_v45 : Ref sig .tc := ⟨.hbm, 72, rfl⟩
abbrev main_call0_v46 : Ref sig .tc := ⟨.hbm, 73, rfl⟩
abbrev main_call0_v47 : Ref sig .tc := ⟨.hbm, 74, rfl⟩
abbrev main_call0_cst_6 : Ref sig .tc := ⟨.hbm, 75, rfl⟩
abbrev main_call0_v48 : Ref sig .tc := ⟨.hbm, 76, rfl⟩
abbrev main_call0_v49 : Ref sig .tc := ⟨.hbm, 77, rfl⟩
abbrev main_call0_v50 : Ref sig .tc := ⟨.hbm, 78, rfl⟩
abbrev main_call0_v51 : Ref sig .tc := ⟨.hbm, 79, rfl⟩
abbrev main_call0_v52 : Ref sig .tc := ⟨.hbm, 80, rfl⟩
abbrev main_call0_v53 : Ref sig .tc := ⟨.hbm, 81, rfl⟩
abbrev main_call0_v54 : Ref sig .tc := ⟨.hbm, 82, rfl⟩
abbrev main_call0_v55 : Ref sig .tc := ⟨.hbm, 83, rfl⟩
abbrev main_call0_c_7 : Ref sig .tc := ⟨.hbm, 84, rfl⟩
abbrev main_call0_v56 : Ref sig .tc := ⟨.hbm, 85, rfl⟩
abbrev main_call0_v57 : Ref sig .tc := ⟨.hbm, 86, rfl⟩
abbrev main_call0_c_8 : Ref sig .tc := ⟨.hbm, 87, rfl⟩
abbrev main_call0_v58 : Ref sig .tc := ⟨.hbm, 88, rfl⟩
abbrev main_call0_v59 : Ref sig .tc := ⟨.hbm, 89, rfl⟩
abbrev main_call0_v60 : Ref sig .tc := ⟨.hbm, 90, rfl⟩
abbrev main_call0_v61 : Ref sig .tc := ⟨.hbm, 91, rfl⟩
abbrev main_call0_v62 : Ref sig .tc := ⟨.hbm, 92, rfl⟩
abbrev main_call0_v63 : Ref sig .tc := ⟨.hbm, 93, rfl⟩
abbrev main_call0_v64 : Ref sig .tc := ⟨.hbm, 94, rfl⟩
abbrev main_call0_cst_9 : Ref sig .tc := ⟨.hbm, 95, rfl⟩
abbrev main_call0_v65 : Ref sig .tc := ⟨.hbm, 96, rfl⟩
abbrev main_call0_v66 : Ref sig .tc := ⟨.hbm, 97, rfl⟩
abbrev main_call0_v67 : Ref sig .tc := ⟨.hbm, 98, rfl⟩
abbrev main_call0_v68 : Ref sig .tc := ⟨.hbm, 99, rfl⟩
abbrev main_call0_v69 : Ref sig .tc := ⟨.hbm, 100, rfl⟩
abbrev main_call0_v70 : Ref sig .tc := ⟨.hbm, 101, rfl⟩
abbrev main_call0_v71 : Ref sig .tc := ⟨.hbm, 102, rfl⟩
abbrev main_v0_2 : Ref sig .tc := ⟨.hbm, 103, rfl⟩
abbrev main_v0_3 : Ref sig .tc := ⟨.hbm, 104, rfl⟩
abbrev main_call0_v74 : Ref sig .tc := ⟨.hbm, 105, rfl⟩
abbrev main_call0_v75 : Ref sig .tc := ⟨.hbm, 106, rfl⟩
abbrev main_call0_c_10 : Ref sig .tc := ⟨.hbm, 107, rfl⟩
abbrev main_call0_v76 : Ref sig .tc := ⟨.hbm, 108, rfl⟩
abbrev main_call0_v77 : Ref sig .tc := ⟨.hbm, 109, rfl⟩
abbrev main_call0_c_11 : Ref sig .tc := ⟨.hbm, 110, rfl⟩
abbrev main_call0_v78 : Ref sig .tc := ⟨.hbm, 111, rfl⟩
abbrev main_call0_v79 : Ref sig .tc := ⟨.hbm, 112, rfl⟩
abbrev main_call0_v80 : Ref sig .tc := ⟨.hbm, 113, rfl⟩
abbrev main_call0_v81 : Ref sig .tc := ⟨.hbm, 114, rfl⟩
abbrev main_call0_v82 : Ref sig .tc := ⟨.hbm, 115, rfl⟩
abbrev main_call0_v83 : Ref sig .tc := ⟨.hbm, 116, rfl⟩
abbrev main_call0_v84 : Ref sig .tc := ⟨.hbm, 117, rfl⟩
abbrev main_call0_cst_12 : Ref sig .tc := ⟨.hbm, 118, rfl⟩
abbrev main_call0_v85 : Ref sig .tc := ⟨.hbm, 119, rfl⟩
abbrev main_call0_v86 : Ref sig .tc := ⟨.hbm, 120, rfl⟩
abbrev main_call0_v87 : Ref sig .tc := ⟨.hbm, 121, rfl⟩
abbrev main_call0_v88 : Ref sig .tc := ⟨.hbm, 122, rfl⟩
abbrev main_call0_v89 : Ref sig .tc := ⟨.hbm, 123, rfl⟩
abbrev main_call0_v90 : Ref sig .tc := ⟨.hbm, 124, rfl⟩
abbrev main_call0_v91 : Ref sig .tc := ⟨.hbm, 125, rfl⟩
abbrev main_call0_v92 : Ref sig .tc := ⟨.hbm, 126, rfl⟩
abbrev main_call0_c_13 : Ref sig .tc := ⟨.hbm, 127, rfl⟩
abbrev main_call0_v93 : Ref sig .tc := ⟨.hbm, 128, rfl⟩
abbrev main_call0_v94 : Ref sig .tc := ⟨.hbm, 129, rfl⟩
abbrev main_call0_c_14 : Ref sig .tc := ⟨.hbm, 130, rfl⟩
abbrev main_call0_v95 : Ref sig .tc := ⟨.hbm, 131, rfl⟩
abbrev main_call0_v96 : Ref sig .tc := ⟨.hbm, 132, rfl⟩
abbrev main_call0_v97 : Ref sig .tc := ⟨.hbm, 133, rfl⟩
abbrev main_call0_v98 : Ref sig .tc := ⟨.hbm, 134, rfl⟩
abbrev main_call0_v99 : Ref sig .tc := ⟨.hbm, 135, rfl⟩
abbrev main_call0_v100 : Ref sig .tc := ⟨.hbm, 136, rfl⟩
abbrev main_call0_v101 : Ref sig .tc := ⟨.hbm, 137, rfl⟩
abbrev main_call0_cst_15 : Ref sig .tc := ⟨.hbm, 138, rfl⟩
abbrev main_call0_v102 : Ref sig .tc := ⟨.hbm, 139, rfl⟩
abbrev main_call0_v103 : Ref sig .tc := ⟨.hbm, 140, rfl⟩
abbrev main_call0_v104 : Ref sig .tc := ⟨.hbm, 141, rfl⟩
abbrev main_call0_v105 : Ref sig .tc := ⟨.hbm, 142, rfl⟩
abbrev main_call0_v106 : Ref sig .tc := ⟨.hbm, 143, rfl⟩
abbrev main_call0_v107 : Ref sig .tc := ⟨.hbm, 144, rfl⟩
abbrev main_call0_v108 : Ref sig .tc := ⟨.hbm, 145, rfl⟩
abbrev main_v0_1 : Ref sig .tc := ⟨.hbm, 146, rfl⟩
abbrev main_v0_4 : Ref sig .tc := ⟨.hbm, 147, rfl⟩
abbrev main_call0_v111 : Ref sig .tc := ⟨.hbm, 148, rfl⟩
abbrev main_call0_v112 : Ref sig .tc := ⟨.hbm, 149, rfl⟩
abbrev main_call0_c_16 : Ref sig .tc := ⟨.hbm, 150, rfl⟩
abbrev main_call0_v113 : Ref sig .tc := ⟨.hbm, 151, rfl⟩
abbrev main_call0_v114 : Ref sig .tc := ⟨.hbm, 152, rfl⟩
abbrev main_call0_c_17 : Ref sig .tc := ⟨.hbm, 153, rfl⟩
abbrev main_call0_v115 : Ref sig .tc := ⟨.hbm, 154, rfl⟩
abbrev main_call0_v116 : Ref sig .tc := ⟨.hbm, 155, rfl⟩
abbrev main_call0_v117 : Ref sig .tc := ⟨.hbm, 156, rfl⟩
abbrev main_call0_v118 : Ref sig .tc := ⟨.hbm, 157, rfl⟩
abbrev main_call0_v119 : Ref sig .tc := ⟨.hbm, 158, rfl⟩
abbrev main_call0_v120 : Ref sig .tc := ⟨.hbm, 159, rfl⟩
abbrev main_call0_v121 : Ref sig .tc := ⟨.hbm, 160, rfl⟩
abbrev main_call0_cst_18 : Ref sig .tc := ⟨.hbm, 161, rfl⟩
abbrev main_call0_v122 : Ref sig .tc := ⟨.hbm, 162, rfl⟩
abbrev main_call0_v123 : Ref sig .tc := ⟨.hbm, 163, rfl⟩
abbrev main_call0_v124 : Ref sig .tc := ⟨.hbm, 164, rfl⟩
abbrev main_call0_v125 : Ref sig .tc := ⟨.hbm, 165, rfl⟩
abbrev main_call0_c_19 : Ref sig .tc := ⟨.hbm, 166, rfl⟩
abbrev main_call0_v126 : Ref sig .tc := ⟨.hbm, 167, rfl⟩
abbrev main_call0_v127 : Ref sig .tc := ⟨.hbm, 168, rfl⟩
abbrev main_call0_c_20 : Ref sig .tc := ⟨.hbm, 169, rfl⟩
abbrev main_call0_v128 : Ref sig .tc := ⟨.hbm, 170, rfl⟩
abbrev main_call0_v129 : Ref sig .tc := ⟨.hbm, 171, rfl⟩
abbrev main_call0_v130 : Ref sig .tc := ⟨.hbm, 172, rfl⟩
abbrev main_call0_v131 : Ref sig .tc := ⟨.hbm, 173, rfl⟩
abbrev main_call0_v132 : Ref sig .tc := ⟨.hbm, 174, rfl⟩
abbrev main_call0_v133 : Ref sig .tc := ⟨.hbm, 175, rfl⟩
abbrev main_call0_v134 : Ref sig .tc := ⟨.hbm, 176, rfl⟩
abbrev main_call0_cst_21 : Ref sig .tc := ⟨.hbm, 177, rfl⟩
abbrev main_call0_v135 : Ref sig .tc := ⟨.hbm, 178, rfl⟩
abbrev main_call0_v136 : Ref sig .tc := ⟨.hbm, 179, rfl⟩
abbrev main_call0_v137 : Ref sig .tc := ⟨.hbm, 180, rfl⟩
abbrev main_call0_v138 : Ref sig .tc := ⟨.hbm, 181, rfl⟩
abbrev main_v0_6 : Ref sig .tc := ⟨.hbm, 182, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc6_stg2_0 : Ref sig .tc := ⟨.vmem, 40, rfl⟩
abbrev cc6_stg3_0 : Ref sig .tc := ⟨.vmem, 41, rfl⟩
abbrev cc6_stg3_1 : Ref sig .tc := ⟨.vmem, 42, rfl⟩
abbrev cc6_stg4_0 : Ref sig .tc := ⟨.vmem, 43, rfl⟩
abbrev cc6_stg5_0 : Ref sig .tc := ⟨.vmem, 44, rfl⟩
abbrev cc6_stg5_1 : Ref sig .tc := ⟨.vmem, 45, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39
abbrev cc6_sem2_0 : DmaSem sig := 40
abbrev cc6_sem3_0 : DmaSem sig := 41
abbrev cc6_sem3_1 : DmaSem sig := 42
abbrev cc6_sem4_0 : DmaSem sig := 43
abbrev cc6_sem5_0 : DmaSem sig := 44
abbrev cc6_sem5_1 : DmaSem sig := 45

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![15], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![15], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x2 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x2 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x1 .i32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S11x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x64 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

class Facts₀ : Prop where
  concatenates_S200000x64_S100000x64_S300000x64_d0 : Shape.Concatenates [S200000x64, S100000x64] S300000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  shapeCasts_S300000x64_S150000x128 : S300000x64.ShapeCasts S150000x128
  shapeCasts_S150000x128_S300000x64 : S150000x128.ShapeCasts S300000x64
  slices_S300000x64_S200000x64_0_0 : S300000x64.Slices ![0, 0] S200000x64
  slices_S300000x64_S100000x64_200000_0 : S300000x64.Slices ![200000, 0] S100000x64
  concatenates_S50000x64_S100000x64_S150000x64_d0 : Shape.Concatenates [S50000x64, S100000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  shapeCasts_S150000x64_S75000x128 : S150000x64.ShapeCasts S75000x128
  shapeCasts_S75000x128_S150000x64 : S75000x128.ShapeCasts S150000x64
  slices_S150000x64_S50000x64_0_0 : S150000x64.Slices ![0, 0] S50000x64
  slices_S150000x64_S100000x64_50000_0 : S150000x64.Slices ![50000, 0] S100000x64
  concatenates_S200000x64_S50000x64_S250000x64_d0 : Shape.Concatenates [S200000x64, S50000x64] S250000x64 0
  bcast_S_S250000x64 : S_.BroadcastsInDim S250000x64 (![] : Fin 0 → Fin S250000x64.rank)
  shapeCasts_S250000x64_S125000x128 : S250000x64.ShapeCasts S125000x128
  shapeCasts_S125000x128_S250000x64 : S125000x128.ShapeCasts S250000x64
  slices_S250000x64_S200000x64_0_0 : S250000x64.Slices ![0, 0] S200000x64
  slices_S250000x64_S50000x64_200000_0 : S250000x64.Slices ![200000, 0] S50000x64
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  bcast_S500000x1_S500000x2_0_1 : S500000x1.BroadcastsInDim S500000x2 (![0, 1] : Fin 2 → Fin S500000x2.rank)
  bcast_S_S50000x2 : S_.BroadcastsInDim S50000x2 (![] : Fin 0 → Fin S50000x2.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  slices_S5000x128_o0_0_S5000x64 : S5000x128.Slices ![0, 0] S5000x64
  slices_S5000x128_o0_64_S5000x64 : S5000x128.Slices ![0, 64] S5000x64
  reduces_S5000x64_S5000 : S5000x64.Reduces [1] S5000
  shapeCasts_S5000_S5000x1 : S5000.ShapeCasts S5000x1
  broadcasts_S5000x1_S5000x64 : S5000x1.Broadcasts S5000x64
  inb_S5000x128_S5000x64_0_0 : ∀ a, (![0, 0] : Fin 2 → Nat) a + S5000x64.size a ≤ S5000x128.size a
  h_S5000x64 : 0 < S5000x64.numel
  inb_S5000x128_S5000x64_0_64 : ∀ a, (![0, 64] : Fin 2 → Nat) a + S5000x64.size a ≤ S5000x128.size a
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S64x2_S64x2_0_0 : ∀ a, (![0, 0] : Fin 2 → Nat) a + S64x2.size a ≤ S64x2.size a
  h_S64x2 : 0 < S64x2.numel
  slices_S64x2_o0_0_S64x1 : S64x2.Slices ![0, 0] S64x1
  shapeCasts_S64x1_S64 : S64x1.ShapeCasts S64
  slices_S64x2_o0_1_S64x1 : S64x2.Slices ![0, 1] S64x1
  slices_S5000x2_o0_0_S5000x1 : S5000x2.Slices ![0, 0] S5000x1
  slices_S5000x2_o0_1_S5000x1 : S5000x2.Slices ![0, 1] S5000x1
  shapeCasts_S64_S1x64 : S64.ShapeCasts S1x64
  broadcasts_S1x64_S5000x64 : S1x64.Broadcasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  inb_S11x64_S11x64_0_0 : ∀ a, (![0, 0] : Fin 2 → Nat) a + S11x64.size a ≤ S11x64.size a
  h_S11x64 : 0 < S11x64.numel
  natLt_1_32 : 1 < 32
  slices_S11x64_o0_0_S1x64 : S11x64.Slices ![0, 0] S1x64
  slices_S11x64_o1_0_S1x64 : S11x64.Slices ![1, 0] S1x64
  slices_S11x64_o2_0_S1x64 : S11x64.Slices ![2, 0] S1x64
  slices_S11x64_o3_0_S1x64 : S11x64.Slices ![3, 0] S1x64
  slices_S11x64_o4_0_S1x64 : S11x64.Slices ![4, 0] S1x64
  slices_S11x64_o5_0_S1x64 : S11x64.Slices ![5, 0] S1x64
  slices_S11x64_o6_0_S1x64 : S11x64.Slices ![6, 0] S1x64
  slices_S11x64_o7_0_S1x64 : S11x64.Slices ![7, 0] S1x64
  slices_S11x64_o8_0_S1x64 : S11x64.Slices ![8, 0] S1x64
  slices_S11x64_o9_0_S1x64 : S11x64.Slices ![9, 0] S1x64
  slices_S11x64_o10_0_S1x64 : S11x64.Slices ![10, 0] S1x64
  inb_S5000x64_S5000x64_0_0 : ∀ a, (![0, 0] : Fin 2 → Nat) a + S5000x64.size a ≤ S5000x64.size a
  shapeCasts_S5000x64_S5000x64 : S5000x64.ShapeCasts S5000x64
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S250000x64_S2000000x1_S2000000x64_1_0_n_n_0_1_164_wf : GatherDims.WF S250000x64 S2000000x1 S2000000x64 [1] [0] [] [0] [] 1 ![1, 64]
  scatter_S250000x64_S2000000x1_S2000000x64_1_0_0_1_wf : ScatterDims.WF S250000x64 S2000000x1 S2000000x64 [1] [0] [0] 1
  gather_S100000x64_S500000x1_S500000x64_1_0_n_n_0_1_164_wf : GatherDims.WF S100000x64 S500000x1 S500000x64 [1] [0] [] [0] [] 1 ![1, 64]
  scatter_S50000x64_S500000x1_S500000x64_1_0_0_1_wf : ScatterDims.WF S50000x64 S500000x1 S500000x64 [1] [0] [0] 1
  gather_S100000x2_S500000x1_S500000x2_1_0_n_n_0_1_12_wf : GatherDims.WF S100000x2 S500000x1 S500000x2 [1] [0] [] [0] [] 1 ![1, 2]
  scatter_S50000x2_S500000x1_S500000x2_1_0_0_1_wf : ScatterDims.WF S50000x2 S500000x1 S500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S150000x128.size a
  hwx0_0 : ∀ i : grid0.Coords, EltTy.bits .f32 = 32 ∨ (Rect.block (s := S150000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S150000x128.size a
  hwx0_1 : ∀ i : grid0.Coords, EltTy.bits .f32 = 32 ∨ (Rect.block (s := S150000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S150000x128.size a
  hwx0_2 : ∀ i : grid0.Coords, EltTy.bits .f32 = 32 ∨ (Rect.block (s := S150000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S150000x128.size a
  hwx1_0 : ∀ i : grid1.Coords, EltTy.bits .f32 = 32 ∨ (Rect.block (s := S150000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S150000x128.size a
  hwx1_1 : ∀ i : grid1.Coords, EltTy.bits .f32 = 32 ∨ (Rect.block (s := S150000x128) S5000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S150000x128.size a
  hwx1_2 : ∀ i : grid1.Coords, EltTy.bits .f32 = 32 ∨ (Rect.block (s := S150000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S75000x128.size a
  hwx2_0 : ∀ i : grid2.Coords, EltTy.bits .f32 = 32 ∨ (Rect.block (s := S75000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S75000x128.size a
  hwx2_1 : ∀ i : grid2.Coords, EltTy.bits .f32 = 32 ∨ (Rect.block (s := S75000x128) S5000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S75000x128.size a
  hwx2_2 : ∀ i : grid2.Coords, EltTy.bits .f32 = 32 ∨ (Rect.block (s := S75000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S75000x128.size a
  hwx3_0 : ∀ i : grid3.Coords, EltTy.bits .f32 = 32 ∨ (Rect.block (s := S75000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S75000x128.size a
  hwx3_1 : ∀ i : grid3.Coords, EltTy.bits .f32 = 32 ∨ (Rect.block (s := S75000x128) S5000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S75000x128.size a
  hwx3_2 : ∀ i : grid3.Coords, EltTy.bits .f32 = 32 ∨ (Rect.block (s := S75000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S125000x128.size a
  hwx4_0 : ∀ i : grid4.Coords, EltTy.bits .f32 = 32 ∨ (Rect.block (s := S125000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S125000x128.size a
  hwx4_1 : ∀ i : grid4.Coords, EltTy.bits .f32 = 32 ∨ (Rect.block (s := S125000x128) S5000x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x128.size a ≤ S125000x128.size a
  hwx4_2 : ∀ i : grid4.Coords, EltTy.bits .f32 = 32 ∨ (Rect.block (s := S125000x128) S5000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S125000x128.size a
  hwx5_0 : ∀ i : grid5.Coords, EltTy.bits .f32 = 32 ∨ (Rect.block (s := S125000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S125000x128.size a
  hwx5_1 : ∀ i : grid5.Coords, EltTy.bits .f32 = 32 ∨ (Rect.block (s := S125000x128) S5000x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x128.size a ≤ S125000x128.size a
  hwx5_2 : ∀ i : grid5.Coords, EltTy.bits .f32 = 32 ∨ (Rect.block (s := S125000x128) S5000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x2.size a ≤ S50000x2.size a
  hwx6_1 : ∀ i : grid6.Coords, EltTy.bits .f32 = 32 ∨ (Rect.block (s := S50000x2) S5000x2.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x2.size a ≤ S64x2.size a
  hwx6_2 : ∀ i : grid6.Coords, EltTy.bits .f32 = 32 ∨ (Rect.block (s := S64x2) S64x2.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x1.size a ≤ S50000x1.size a
  hwx6_3 : ∀ i : grid6.Coords, EltTy.bits .i32 = 32 ∨ (Rect.block (s := S50000x1) S5000x1.size (cc6_transform_3 i) (hinb6_3 i)).WholeWords (EltTy.packing .i32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S11x64.size a ≤ S11x64.size a
  hwx6_4 : ∀ i : grid6.Coords, EltTy.bits .f32 = 32 ∨ (Rect.block (s := S11x64) S11x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x64.size a ≤ S50000x64.size a
  hwx6_5 : ∀ i : grid6.Coords, EltTy.bits .f32 = 32 ∨ (Rect.block (s := S50000x64) S5000x64.size (cc6_transform_5 i) (hinb6_5 i)).WholeWords (EltTy.packing .f32)

variable [Facts₀]

def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S250000x64_S2000000x1_S2000000x64_1_0_n_n_0_1_164 : GatherDims S250000x64 S2000000x1 S2000000x64 where
  offsetDims := [1]
  collapsedSliceDims := [0]
  operandBatchingDims := []
  startIndicesBatchingDims := []
  startIndexMap := [0]
  indexVectorDim := 1
  sliceSizes := ![1, 64]
  wf := gather_S250000x64_S2000000x1_S2000000x64_1_0_n_n_0_1_164_wf
def scatter_S250000x64_S2000000x1_S2000000x64_1_0_0_1 : ScatterDims S250000x64 S2000000x1 S2000000x64 where
  updateWindowDims := [1]
  insertedWindowDims := [0]
  scatterDimsToOperandDims := [0]
  indexVectorDim := 1
  wf := scatter_S250000x64_S2000000x1_S2000000x64_1_0_0_1_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S100000x2_S500000x1_S500000x2_1_0_n_n_0_1_12 : GatherDims S100000x2 S500000x1 S500000x2 where
  offsetDims := [1]
  collapsedSliceDims := [0]
  operandBatchingDims := []
  startIndicesBatchingDims := []
  startIndexMap := [0]
  indexVectorDim := 1
  sliceSizes := ![1, 2]
  wf := gather_S100000x2_S500000x1_S500000x2_1_0_n_n_0_1_12_wf
def scatter_S50000x2_S500000x1_S500000x2_1_0_0_1 : ScatterDims S50000x2 S500000x1 S500000x2 where
  updateWindowDims := [1]
  insertedWindowDims := [0]
  scatterDimsToOperandDims := [0]
  indexVectorDim := 1
  wf := scatter_S50000x2_S500000x1_S500000x2_1_0_0_1_wf

abbrev win0_0 : Pipeline.Window sig grid0 :=
  Pipeline.Window.ofSpec (Memref.whole main_call0_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v15) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v16) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_call0_v31) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v32) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v33) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_call0_v51) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v52) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_call0_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_call0_v68) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v69) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_call0_v70) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_call0_v88) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v89) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_call0_v90) S5000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_call0_v105) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v106) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_call0_v107) S5000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_call0_v124) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_call0_v137) S5000x2.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg3) S64x2.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v138) S5000x1.size cc6_transform_3 reads6_3 false false 2 stage6_3 sem6_3
    hrank6 hreads6_3 hinb6_3 nbuf6_3 (Memref.isWhole_whole _) hwx6_3 hstage6_3

abbrev win6_4 : Pipeline.Window sig grid6 :=
  Pipeline.Window.ofSpec (Memref.whole main_arg4) S11x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v0_6) S5000x64.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S50000x64 : Shape := ⟨2, ![50000, 64]⟩
abbrev S64x2 : Shape := ⟨2, ![64, 2]⟩
abbrev S11x64 : Shape := ⟨2, ![11, 64]⟩
abbrev S100000x2 : Shape := ⟨2, ![100000, 2]⟩
abbrev S50000 : Shape := ⟨1, ![50000]⟩
abbrev S4000000 : Shape := ⟨1, ![4000000]⟩
abbrev S2000000 : Shape := ⟨1, ![2000000]⟩
abbrev S500000 : Shape := ⟨1, ![500000]⟩
abbrev S300000x64 : Shape := ⟨2, ![300000, 64]⟩
abbrev S4000000x1 : Shape := ⟨2, ![4000000, 1]⟩
abbrev S_ : Shape := ⟨0, ![]⟩
abbrev S4000000x64 : Shape := ⟨2, ![4000000, 64]⟩
abbrev S300000 : Shape := ⟨1, ![300000]⟩
abbrev S300000x1 : Shape := ⟨2, ![300000, 1]⟩
abbrev S150000x64 : Shape := ⟨2, ![150000, 64]⟩
abbrev S2000000x1 : Shape := ⟨2, ![2000000, 1]⟩
abbrev S2000000x64 : Shape := ⟨2, ![2000000, 64]⟩
abbrev S150000 : Shape := ⟨1, ![150000]⟩
abbrev S150000x1 : Shape := ⟨2, ![150000, 1]⟩
abbrev S250000x64 : Shape := ⟨2, ![250000, 64]⟩
abbrev S250000 : Shape := ⟨1, ![250000]⟩
abbrev S250000x1 : Shape := ⟨2, ![250000, 1]⟩
abbrev S2x64 : Shape := ⟨2, ![2, 64]⟩
abbrev S500000x1 : Shape := ⟨2, ![500000, 1]⟩
abbrev S500000x64 : Shape := ⟨2, ![500000, 64]⟩
abbrev S50000x1 : Shape := ⟨2, ![50000, 1]⟩

abbrev nBuf : Space → Nat
  | .hbm => 243
  | .vmem => 0
  | .smem => 0
  | _ => 0

abbrev hbmTy0_0 (i : Nat) : BufTy := match i % 128 with
  | 0 => ⟨S200000x64, .f32⟩
  | 1 => ⟨S100000x64, .f32⟩
  | 2 => ⟨S50000x64, .f32⟩
  | 3 => ⟨S64x2, .f32⟩
  | 4 => ⟨S11x64, .f32⟩
  | 5 => ⟨S100000x2, .f32⟩
  | 6 => ⟨S50000, .i32⟩
  | 7 => ⟨S4000000, .i32⟩
  | 8 => ⟨S4000000, .i32⟩
  | 9 => ⟨S4000000, .f32⟩
  | 10 => ⟨S2000000, .i32⟩
  | 11 => ⟨S2000000, .i32⟩
  | 12 => ⟨S2000000, .f32⟩
  | 13 => ⟨S2000000, .i32⟩
  | 14 => ⟨S2000000, .i32⟩
  | 15 => ⟨S2000000, .f32⟩
  | 16 => ⟨S500000, .i32⟩
  | 17 => ⟨S500000, .i32⟩
  | 18 => ⟨S500000, .f32⟩
  | 19 => ⟨S300000x64, .f32⟩
  | 20 => ⟨S4000000x1, .f32⟩
  | 21 => ⟨S_, .i32⟩
  | 22 => ⟨S4000000, .i32⟩
  | 23 => ⟨S4000000, .i1⟩
  | 24 => ⟨S_, .i32⟩
  | 25 => ⟨S4000000, .i32⟩
  | 26 => ⟨S4000000, .i32⟩
  | 27 => ⟨S4000000, .i32⟩
  | 28 => ⟨S4000000x1, .i32⟩
  | 29 => ⟨S4000000x64, .f32⟩
  | 30 => ⟨S4000000x64, .f32⟩
  | 31 => ⟨S4000000x64, .f32⟩
  | 32 => ⟨S_, .f32⟩
  | 33 => ⟨S300000x64, .f32⟩
  | 34 => ⟨S4000000x1, .i32⟩
  | 35 => ⟨S300000x64, .f32⟩
  | 36 => ⟨S300000x64, .f32⟩
  | 37 => ⟨S_, .f32⟩
  | 38 => ⟨S300000, .f32⟩
  | 39 => ⟨S300000x1, .f32⟩
  | 40 => ⟨S300000x1, .f32⟩
  | 41 => ⟨S_, .f32⟩
  | 42 => ⟨S300000x1, .f32⟩
  | 43 => ⟨S300000x1, .f32⟩
  | 44 => ⟨S300000x64, .f32⟩
  | 45 => ⟨S300000x64, .f32⟩
  | 46 => ⟨S300000x64, .f32⟩
  | 47 => ⟨S4000000x1, .f32⟩
  | 48 => ⟨S_, .i32⟩
  | 49 => ⟨S4000000, .i32⟩
  | 50 => ⟨S4000000, .i1⟩
  | 51 => ⟨S_, .i32⟩
  | 52 => ⟨S4000000, .i32⟩
  | 53 => ⟨S4000000, .i32⟩
  | 54 => ⟨S4000000, .i32⟩
  | 55 => ⟨S4000000x1, .i32⟩
  | 56 => ⟨S4000000x64, .f32⟩
  | 57 => ⟨S4000000x64, .f32⟩
  | 58 => ⟨S4000000x64, .f32⟩
  | 59 => ⟨S_, .f32⟩
  | 60 => ⟨S300000x64, .f32⟩
  | 61 => ⟨S4000000x1, .i32⟩
  | 62 => ⟨S300000x64, .f32⟩
  | 63 => ⟨S300000x64, .f32⟩
  | 64 => ⟨S_, .f32⟩
  | 65 => ⟨S300000, .f32⟩
  | 66 => ⟨S300000x1, .f32⟩
  | 67 => ⟨S300000x1, .f32⟩
  | 68 => ⟨S_, .f32⟩
  | 69 => ⟨S300000x1, .f32⟩
  | 70 => ⟨S300000x1, .f32⟩
  | 71 => ⟨S300000x64, .f32⟩
  | 72 => ⟨S300000x64, .f32⟩
  | 73 => ⟨S300000x64, .f32⟩
  | 74 => ⟨S_, .f32⟩
  | 75 => ⟨S300000x64, .f32⟩
  | 76 => ⟨S300000x64, .f32⟩
  | 77 => ⟨S200000x64, .f32⟩
  | 78 => ⟨S100000x64, .f32⟩
  | 79 => ⟨S150000x64, .f32⟩
  | 80 => ⟨S2000000x1, .f32⟩
  | 81 => ⟨S_, .i32⟩
  | 82 => ⟨S2000000, .i32⟩
  | 83 => ⟨S2000000, .i1⟩
  | 84 => ⟨S_, .i32⟩
  | 85 => ⟨S2000000, .i32⟩
  | 86 => ⟨S2000000, .i32⟩
  | 87 => ⟨S2000000, .i32⟩
  | 88 => ⟨S2000000x1, .i32⟩
  | 89 => ⟨S2000000x64, .f32⟩
  | 90 => ⟨S2000000x64, .f32⟩
  | 91 => ⟨S2000000x64, .f32⟩
  | 92 => ⟨S_, .f32⟩
  | 93 => ⟨S150000x64, .f32⟩
  | 94 => ⟨S2000000x1, .i32⟩
  | 95 => ⟨S150000x64, .f32⟩
  | 96 => ⟨S150000x64, .f32⟩
  | 97 => ⟨S_, .f32⟩
  | 98 => ⟨S150000, .f32⟩
  | 99 => ⟨S150000x1, .f32⟩
  | 100 => ⟨S150000x1, .f32⟩
  | 101 => ⟨S_, .f32⟩
  | 102 => ⟨S150000x1, .f32⟩
  | 103 => ⟨S150000x1, .f32⟩
  | 104 => ⟨S150000x64, .f32⟩
  | 105 => ⟨S150000x64, .f32⟩
  | 106 => ⟨S150000x64, .f32⟩
  | 107 => ⟨S2000000x1, .f32⟩
  | 108 => ⟨S_, .i32⟩
  | 109 => ⟨S2000000, .i32⟩
  | 110 => ⟨S2000000, .i1⟩
  | 111 => ⟨S_, .i32⟩
  | 112 => ⟨S2000000, .i32⟩
  | 113 => ⟨S2000000, .i32⟩
  | 114 => ⟨S2000000, .i32⟩
  | 115 => ⟨S2000000x1, .i32⟩
  | 116 => ⟨S2000000x64, .f32⟩
  | 117 => ⟨S2000000x64, .f32⟩
  | 118 => ⟨S2000000x64, .f32⟩
  | 119 => ⟨S_, .f32⟩
  | 120 => ⟨S150000x64, .f32⟩
  | 121 => ⟨S2000000x1, .i32⟩
  | 122 => ⟨S150000x64, .f32⟩
  | 123 => ⟨S150000x64, .f32⟩
  | 124 => ⟨S_, .f32⟩
  | 125 => ⟨S150000, .f32⟩
  | 126 => ⟨S150000x1, .f32⟩
  | 127 => ⟨S150000x1, .f32⟩
  | _ => ⟨S200000x64, .f32⟩

abbrev hbmTy0_1 (i : Nat) : BufTy := match i % 128 with
  | 0 => ⟨S_, .f32⟩
  | 1 => ⟨S150000x1, .f32⟩
  | 2 => ⟨S150000x1, .f32⟩
  | 3 => ⟨S150000x64, .f32⟩
  | 4 => ⟨S150000x64, .f32⟩
  | 5 => ⟨S150000x64, .f32⟩
  | 6 => ⟨S_, .f32⟩
  | 7 => ⟨S150000x64, .f32⟩
  | 8 => ⟨S150000x64, .f32⟩
  | 9 => ⟨S50000x64, .f32⟩
  | 10 => ⟨S100000x64, .f32⟩
  | 11 => ⟨S250000x64, .f32⟩
  | 12 => ⟨S2000000x1, .f32⟩
  | 13 => ⟨S_, .i32⟩
  | 14 => ⟨S2000000, .i32⟩
  | 15 => ⟨S2000000, .i1⟩
  | 16 => ⟨S_, .i32⟩
  | 17 => ⟨S2000000, .i32⟩
  | 18 => ⟨S2000000, .i32⟩
  | 19 => ⟨S2000000, .i32⟩
  | 20 => ⟨S2000000x1, .i32⟩
  | 21 => ⟨S2000000x64, .f32⟩
  | 22 => ⟨S2000000x64, .f32⟩
  | 23 => ⟨S2000000x64, .f32⟩
  | 24 => ⟨S_, .f32⟩
  | 25 => ⟨S250000x64, .f32⟩
  | 26 => ⟨S2000000x1, .i32⟩
  | 27 => ⟨S250000x64, .f32⟩
  | 28 => ⟨S250000x64, .f32⟩
  | 29 => ⟨S_, .f32⟩
  | 30 => ⟨S250000, .f32⟩
  | 31 => ⟨S250000x1, .f32⟩
  | 32 => ⟨S250000x1, .f32⟩
  | 33 => ⟨S_, .f32⟩
  | 34 => ⟨S250000x1, .f32⟩
  | 35 => ⟨S250000x1, .f32⟩
  | 36 => ⟨S250000x64, .f32⟩
  | 37 => ⟨S250000x64, .f32⟩
  | 38 => ⟨S250000x64, .f32⟩
  | 39 => ⟨S2000000x1, .f32⟩
  | 40 => ⟨S_, .i32⟩
  | 41 => ⟨S2000000, .i32⟩
  | 42 => ⟨S2000000, .i1⟩
  | 43 => ⟨S_, .i32⟩
  | 44 => ⟨S2000000, .i32⟩
  | 45 => ⟨S2000000, .i32⟩
  | 46 => ⟨S2000000, .i32⟩
  | 47 => ⟨S2000000x1, .i32⟩
  | 48 => ⟨S2000000x64, .f32⟩
  | 49 => ⟨S2000000x64, .f32⟩
  | 50 => ⟨S2000000x64, .f32⟩
  | 51 => ⟨S_, .f32⟩
  | 52 => ⟨S250000x64, .f32⟩
  | 53 => ⟨S2000000x1, .i32⟩
  | 54 => ⟨S250000x64, .f32⟩
  | 55 => ⟨S250000x64, .f32⟩
  | 56 => ⟨S_, .f32⟩
  | 57 => ⟨S250000, .f32⟩
  | 58 => ⟨S250000x1, .f32⟩
  | 59 => ⟨S250000x1, .f32⟩
  | 60 => ⟨S_, .f32⟩
  | 61 => ⟨S250000x1, .f32⟩
  | 62 => ⟨S250000x1, .f32⟩
  | 63 => ⟨S250000x64, .f32⟩
  | 64 => ⟨S250000x64, .f32⟩
  | 65 => ⟨S250000x64, .f32⟩
  | 66 => ⟨S_, .f32⟩
  | 67 => ⟨S250000x64, .f32⟩
  | 68 => ⟨S250000x64, .f32⟩
  | 69 => ⟨S200000x64, .f32⟩
  | 70 => ⟨S50000x64, .f32⟩
  | 71 => ⟨S100000x2, .f32⟩
  | 72 => ⟨S2x64, .f32⟩
  | 73 => ⟨S100000x64, .f32⟩
  | 74 => ⟨S_, .f32⟩
  | 75 => ⟨S100000x64, .f32⟩
  | 76 => ⟨S100000x64, .f32⟩
  | 77 => ⟨S100000x64, .f32⟩
  | 78 => ⟨S500000x1, .f32⟩
  | 79 => ⟨S_, .i32⟩
  | 80 => ⟨S500000, .i32⟩
  | 81 => ⟨S500000, .i1⟩
  | 82 => ⟨S_, .i32⟩
  | 83 => ⟨S500000, .i32⟩
  | 84 => ⟨S500000, .i32⟩
  | 85 => ⟨S500000, .i32⟩
  | 86 => ⟨S500000x1, .i32⟩
  | 87 => ⟨S500000x64, .f32⟩
  | 88 => ⟨S500000x64, .f32⟩
  | 89 => ⟨S500000x64, .f32⟩
  | 90 => ⟨S_, .f32⟩
  | 91 => ⟨S50000x64, .f32⟩
  | 92 => ⟨S500000x1, .i32⟩
  | 93 => ⟨S50000x64, .f32⟩
  | 94 => ⟨S_, .i32⟩
  | 95 => ⟨S_, .i32⟩
  | 96 => ⟨S_, .i32⟩
  | 97 => ⟨S50000, .i32⟩
  | 98 => ⟨S50000, .i32⟩
  | 99 => ⟨S_, .i32⟩
  | 100 => ⟨S50000, .i32⟩
  | 101 => ⟨S50000, .i32⟩
  | 102 => ⟨S_, .i32⟩
  | 103 => ⟨S50000, .i32⟩
  | 104 => ⟨S50000, .i1⟩
  | 105 => ⟨S_, .i32⟩
  | 106 => ⟨S50000, .i32⟩
  | 107 => ⟨S50000, .i32⟩
  | 108 => ⟨S50000, .i32⟩
  | 109 => ⟨S50000x1, .i32⟩
  | 110 => ⟨S50000x64, .f32⟩
  | 111 => ⟨S_, .f32⟩
  | 112 => ⟨S50000x64, .f32⟩
  | 113 => ⟨S50000x64, .f32⟩
  | 114 => ⟨S50000x64, .f32⟩
  | _ => ⟨S200000x64, .f32⟩

abbrev hbmTy (i : Nat) : BufTy := match i / 128 with
  | 0 => hbmTy0_0 i
  | 1 => hbmTy0_1 i
  | _ => ⟨S200000x64, .f32⟩

abbrev bufTy : (tb : Table) → Fin (tcTables nBuf tb) → BufTy
  | .hbm, ⟨i, _⟩ => hbmTy i
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_3 : Ref sig .tc := ⟨.hbm, 48, rfl⟩
abbrev main_v24 : Ref sig .tc := ⟨.hbm, 49, rfl⟩
abbrev main_v25 : Ref sig .tc := ⟨.hbm, 50, rfl⟩
abbrev main_c_4 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_cst_5 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_cst_6 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_7 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_cst_8 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_c_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_cst_11 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_13 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_c_14 : Ref sig .tc := ⟨.hbm, 108, rfl⟩
abbrev main_v73 : Ref sig .tc := ⟨.hbm, 109, rfl⟩
abbrev main_v74 : Ref sig .tc := ⟨.hbm, 110, rfl⟩
abbrev main_c_15 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_16 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_17 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_cst_18 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_cst_19 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_c_20 : Ref sig .tc := ⟨.hbm, 141, rfl⟩
abbrev main_v100 : Ref sig .tc := ⟨.hbm, 142, rfl⟩
abbrev main_v101 : Ref sig .tc := ⟨.hbm, 143, rfl⟩
abbrev main_c_21 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_cst_22 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_cst_23 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_cst_24 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_c_25 : Ref sig .tc := ⟨.hbm, 168, rfl⟩
abbrev main_v122 : Ref sig .tc := ⟨.hbm, 169, rfl⟩
abbrev main_v123 : Ref sig .tc := ⟨.hbm, 170, rfl⟩
abbrev main_c_26 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_cst_27 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_28 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_cst_29 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_cst_30 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_cst_31 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_c_32 : Ref sig .tc := ⟨.hbm, 207, rfl⟩
abbrev main_v154 : Ref sig .tc := ⟨.hbm, 208, rfl⟩
abbrev main_v155 : Ref sig .tc := ⟨.hbm, 209, rfl⟩
abbrev main_c_33 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_cst_34 : Ref sig .tc := ⟨.hbm, 218, rfl⟩
abbrev main_v163 : Ref sig .tc := ⟨.hbm, 219, rfl⟩
abbrev main_v164 : Ref sig .tc := ⟨.hbm, 220, rfl⟩
abbrev main_v165 : Ref sig .tc := ⟨.hbm, 221, rfl⟩
abbrev main_c_35 : Ref sig .tc := ⟨.hbm, 222, rfl⟩
abbrev main_c_36 : Ref sig .tc := ⟨.hbm, 223, rfl⟩
abbrev main_call0_v0 : Ref sig .tc := ⟨.hbm, 224, rfl⟩
abbrev main_call0_v1 : Ref sig .tc := ⟨.hbm, 225, rfl⟩
abbrev main_call0_v2 : Ref sig .tc := ⟨.hbm, 226, rfl⟩
abbrev main_call0_v3 : Ref sig .tc := ⟨.hbm, 227, rfl⟩
abbrev main_call0_v4 : Ref sig .tc := ⟨.hbm, 228, rfl⟩
abbrev main_v166 : Ref sig .tc := ⟨.hbm, 229, rfl⟩
abbrev main_c_37 : Ref sig .tc := ⟨.hbm, 230, rfl⟩
abbrev main_v167 : Ref sig .tc := ⟨.hbm, 231, rfl⟩
abbrev main_v168 : Ref sig .tc := ⟨.hbm, 232, rfl⟩
abbrev main_c_38 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_39 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩

abbrev nD : Nat := 1
abbrev τ : Topo := Topo.v7x

variable {F : FTy → Type} [FloatOps F]

class Facts₀ : Prop where
  concatenates_S200000x64_S100000x64_S300000x64_d0 : Shape.Concatenates [S200000x64, S100000x64] S300000x64 0
  bcast_S4000000_S4000000x1_0 : S4000000.BroadcastsInDim S4000000x1 (![0] : Fin 1 → Fin S4000000x1.rank)
  bcast_S_S4000000 : S_.BroadcastsInDim S4000000 (![] : Fin 0 → Fin S4000000.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  reducesTo_S300000x64_S300000_d1 : S300000x64.ReducesTo [1] S300000
  h_S_ : 0 < S_.numel
  bcast_S300000_S300000x1_0 : S300000.BroadcastsInDim S300000x1 (![0] : Fin 1 → Fin S300000x1.rank)
  bcast_S_S300000x1 : S_.BroadcastsInDim S300000x1 (![] : Fin 0 → Fin S300000x1.rank)
  bcast_S300000x1_S300000x64_0_1 : S300000x1.BroadcastsInDim S300000x64 (![0, 1] : Fin 2 → Fin S300000x64.rank)
  slices_S300000x64_S200000x64_0_0 : S300000x64.Slices ![0, 0] S200000x64
  slices_S300000x64_S100000x64_200000_0 : S300000x64.Slices ![200000, 0] S100000x64
  concatenates_S50000x64_S100000x64_S150000x64_d0 : Shape.Concatenates [S50000x64, S100000x64] S150000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S150000x64 : S_.BroadcastsInDim S150000x64 (![] : Fin 0 → Fin S150000x64.rank)
  reducesTo_S150000x64_S150000_d1 : S150000x64.ReducesTo [1] S150000
  bcast_S150000_S150000x1_0 : S150000.BroadcastsInDim S150000x1 (![0] : Fin 1 → Fin S150000x1.rank)
  bcast_S_S150000x1 : S_.BroadcastsInDim S150000x1 (![] : Fin 0 → Fin S150000x1.rank)
  bcast_S150000x1_S150000x64_0_1 : S150000x1.BroadcastsInDim S150000x64 (![0, 1] : Fin 2 → Fin S150000x64.rank)
  slices_S150000x64_S50000x64_0_0 : S150000x64.Slices ![0, 0] S50000x64
  slices_S150000x64_S100000x64_50000_0 : S150000x64.Slices ![50000, 0] S100000x64
  concatenates_S200000x64_S50000x64_S250000x64_d0 : Shape.Concatenates [S200000x64, S50000x64] S250000x64 0
  bcast_S_S250000x64 : S_.BroadcastsInDim S250000x64 (![] : Fin 0 → Fin S250000x64.rank)
  reducesTo_S250000x64_S250000_d1 : S250000x64.ReducesTo [1] S250000
  bcast_S250000_S250000x1_0 : S250000.BroadcastsInDim S250000x1 (![0] : Fin 1 → Fin S250000x1.rank)
  bcast_S_S250000x1 : S_.BroadcastsInDim S250000x1 (![] : Fin 0 → Fin S250000x1.rank)
  bcast_S250000x1_S250000x64_0_1 : S250000x1.BroadcastsInDim S250000x64 (![0, 1] : Fin 2 → Fin S250000x64.rank)
  slices_S250000x64_S200000x64_0_0 : S250000x64.Slices ![0, 0] S200000x64
  slices_S250000x64_S50000x64_200000_0 : S250000x64.Slices ![200000, 0] S50000x64
  transposes_S64x2_S2x64_1_0 : S64x2.Transposes [1, 0] S2x64
  bcast_S_S100000x64 : S_.BroadcastsInDim S100000x64 (![] : Fin 0 → Fin S100000x64.rank)
  bcast_S500000_S500000x1_0 : S500000.BroadcastsInDim S500000x1 (![0] : Fin 1 → Fin S500000x1.rank)
  bcast_S_S500000 : S_.BroadcastsInDim S500000 (![] : Fin 0 → Fin S500000.rank)
  bcast_S500000x1_S500000x64_0_1 : S500000x1.BroadcastsInDim S500000x64 (![0, 1] : Fin 2 → Fin S500000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1
  gather_S150000x64_S2000000x1_S2000000x64_1_0_n_n_0_1_164_wf : GatherDims.WF S150000x64 S2000000x1 S2000000x64 [1] [0] [] [0] [] 1 ![1, 64]
  scatter_S150000x64_S2000000x1_S2000000x64_1_0_0_1_wf : ScatterDims.WF S150000x64 S2000000x1 S2000000x64 [1] [0] [0] 1
  gather_S250000x64_S2000000x1_S2000000x64_1_0_n_n_0_1_164_wf : GatherDims.WF S250000x64 S2000000x1 S2000000x64 [1] [0] [] [0] [] 1 ![1, 64]
  scatter_S250000x64_S2000000x1_S2000000x64_1_0_0_1_wf : ScatterDims.WF S250000x64 S2000000x1 S2000000x64 [1] [0] [0] 1
  dot_S100000x2_S2x64_S100000x64_1_0_0_1_n_n_wf : DotDims.WF S100000x2 S2x64 S100000x64 [1] [0] [0] [1] [] []
  gather_S100000x64_S500000x1_S500000x64_1_0_n_n_0_1_164_wf : GatherDims.WF S100000x64 S500000x1 S500000x64 [1] [0] [] [0] [] 1 ![1, 64]
  scatter_S50000x64_S500000x1_S500000x64_1_0_0_1_wf : ScatterDims.WF S50000x64 S500000x1 S500000x64 [1] [0] [0] 1
  gather_S11x64_S50000x1_S50000x64_1_0_n_n_0_1_164_wf : GatherDims.WF S11x64 S50000x1 S50000x64 [1] [0] [] [0] [] 1 ![1, 64]

variable [Facts₀]

def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf
def gather_S150000x64_S2000000x1_S2000000x64_1_0_n_n_0_1_164 : GatherDims S150000x64 S2000000x1 S2000000x64 where
  offsetDims := [1]
  collapsedSliceDims := [0]
  operandBatchingDims := []
  startIndicesBatchingDims := []
  startIndexMap := [0]
  indexVectorDim := 1
  sliceSizes := ![1, 64]
  wf := gather_S150000x64_S2000000x1_S2000000x64_1_0_n_n_0_1_164_wf
def scatter_S150000x64_S2000000x1_S2000000x64_1_0_0_1 : ScatterDims S150000x64 S2000000x1 S2000000x64 where
  updateWindowDims := [1]
  insertedWindowDims := [0]
  scatterDimsToOperandDims := [0]
  indexVectorDim := 1
  wf := scatter_S150000x64_S2000000x1_S2000000x64_1_0_0_1_wf
def gather_S250000x64_S2000000x1_S2000000x64_1_0_n_n_0_1_164 : GatherDims S250000x64 S2000000x1 S2000000x64 where
  offsetDims := [1]
  collapsedSliceDims := [0]
  operandBatchingDims := []
  startIndicesBatchingDims := []
  startIndexMap := [0]
  indexVectorDim := 1
  sliceSizes := ![1, 64]
  wf := gather_S250000x64_S2000000x1_S2000000x64_1_0_n_n_0_1_164_wf
def scatter_S250000x64_S2000000x1_S2000000x64_1_0_0_1 : ScatterDims S250000x64 S2000000x1 S2000000x64 where
  updateWindowDims := [1]
  insertedWindowDims := [0]
  scatterDimsToOperandDims := [0]
  indexVectorDim := 1
  wf := scatter_S250000x64_S2000000x1_S2000000x64_1_0_0_1_wf
def dot_S100000x2_S2x64_S100000x64_1_0_0_1_n_n : DotDims S100000x2 S2x64 S100000x64 where
  lhsContracting := [1]
  rhsContracting := [0]
  lhsNonContracting := [0]
  rhsNonContracting := [1]
  lhsBatch := []
  rhsBatch := []
  wf := dot_S100000x2_S2x64_S100000x64_1_0_0_1_n_n_wf
def gather_S100000x64_S500000x1_S500000x64_1_0_n_n_0_1_164 : GatherDims S100000x64 S500000x1 S500000x64 where
  offsetDims := [1]
  collapsedSliceDims := [0]
  operandBatchingDims := []
  startIndicesBatchingDims := []
  startIndexMap := [0]
  indexVectorDim := 1
  sliceSizes := ![1, 64]
  wf := gather_S100000x64_S500000x1_S500000x64_1_0_n_n_0_1_164_wf
def scatter_S50000x64_S500000x1_S500000x64_1_0_0_1 : ScatterDims S50000x64 S500000x1 S500000x64 where
  updateWindowDims := [1]
  insertedWindowDims := [0]
  scatterDimsToOperandDims := [0]
  indexVectorDim := 1
  wf := scatter_S50000x64_S500000x1_S500000x64_1_0_0_1_wf
def gather_S11x64_S50000x1_S50000x64_1_0_n_n_0_1_164 : GatherDims S11x64 S50000x1 S50000x64 where
  offsetDims := [1]
  collapsedSliceDims := [0]
  operandBatchingDims := []
  startIndicesBatchingDims := []
  startIndexMap := [0]
  indexVectorDim := 1
  sliceSizes := ![1, 64]
  wf := gather_S11x64_S50000x1_S50000x64_1_0_n_n_0_1_164_wf

class Facts : Prop extends Facts₀ where

variable [Facts]
-- ==== Proof.Spec.lean ====
/-
  The mathematics the two programs share, over the extended reals.

  A propagation layer takes the running sum `acc` and a layer output `f` (both with 64 columns) and adds to each row of
  `acc` the row of `f` divided by its Euclidean norm, the norm clamped below by a small constant. The kernel does this
  on a re-laid array: two consecutive rows share one 128-lane row, and each 64-lane half is normalised by its own
  lanes. `normAddP` is that packed step, `normAdd` the plain one, and `pack` the re-laying that joins them.
-/
import Idealize.ShloMosaic.PureOps.Ideal
import Idealize.ShloMosaic.Lib.ValueIdx

noncomputable section

namespace Cert.Spec

open Idealize.ShloMosaic Idealize.ShloMosaic.ValueIdx

/-- A rank-2 array of extended reals with `n` rows and `k` columns. -/
abbrev Arr (n k : ℕ) := (⟨2, ![n, k]⟩ : Shape).Idx → EReal

/-- The clamp under the row norm. -/
abbrev eps : EReal := Ideal.ofBits .f32 0x2B8CBCCC#32
/-- The divisor of a layer that is not the last: one. -/
abbrev one : EReal := Ideal.ofBits .f32 0x3F800000#32
/-- The divisor of the last layer: the number of summands. -/
abbrev three : EReal := Ideal.ofBits .f32 0x40400000#32
/-- The weight of the degree and size terms. -/
abbrev kap : EReal := Ideal.ofBits .f32 0x3D4CCCCD#32

/-- The Euclidean norm of row `i`, clamped below. -/
def rowNrm {n : ℕ} (f : Arr n 64) (i : Fin n) : EReal :=
  max (Ideal.sqrt (∑ k : Fin 64, f (ix2 i k) * f (ix2 i k))) eps

/-- One layer: `acc` plus the row-normalised `f`. -/
def normAdd {n : ℕ} (f acc : Arr n 64) : Arr n 64 :=
  fun j => acc j + Ideal.div (f j) (rowNrm f (j 0))

/-- Two layers and the mean of the three summands. -/
def prop3 {n : ℕ} (feat f1 f2 : Arr n 64) : Arr n 64 :=
  fun j => Ideal.div (normAdd f2 (normAdd f1 feat) j) three

/-- The lane `64 * (l / 64) + k` of a 128-lane row: lane `k` of the half that lane `l` lies in. -/
def halfLane (l : Fin 128) (k : Fin 64) : Fin 128 := ⟨64 * (l.val / 64) + k.val, by omega⟩

/-- The norm of the 64-lane half of packed row `r` that lane `l` lies in, clamped below. -/
def halfNrm {h : ℕ} (f : Arr h 128) (r : Fin h) (l : Fin 128) : EReal :=
  max (Ideal.sqrt (∑ k : Fin 64, f (ix2 r (halfLane l k)) * f (ix2 r (halfLane l k)))) eps

/-- One layer on the packed layout, divided by `dv`. -/
def normAddP {h : ℕ} (dv : EReal) (f acc : Arr h 128) : Arr h 128 :=
  fun j => Ideal.div (acc j + Ideal.div (f j) (halfNrm f (j 0) (j 1))) dv

/-- Packing: lane `l` of packed row `r` is column `l % 64` of row `2 r + l / 64`. -/
def pack {n h : ℕ} (hn : n = 2 * h) (x : Arr n 64) : Arr h 128 :=
  fun j => x (ix2 ⟨2 * (j 0).val + (j 1).val / 64, by
      have h0 : (j 0).val < h := (j 0).isLt
      have h1 : (j 1).val < 128 := (j 1).isLt
      omega⟩
    ⟨(j 1).val % 64, Nat.mod_lt _ (by decide)⟩)

/-- Unpacking: column `d` of row `i` is lane `64 * (i % 2) + d` of packed row `i / 2`. -/
def unpack {n h : ℕ} (hn : n = 2 * h) (y : Arr h 128) : Arr n 64 :=
  fun j => y (ix2 ⟨(j 0).val / 2, by
      have h0 : (j 0).val < n := (j 0).isLt
      omega⟩
    ⟨64 * ((j 0).val % 2) + (j 1).val, by
      have h1 : (j 1).val < 64 := (j 1).isLt
      omega⟩)

/-- Rows `o … o + k − 1` of an array. -/
def rowsFrom (o : ℕ) {n k : ℕ} (h : o + k ≤ n) (x : Arr n 64) : Arr k 64 :=
  fun j => x (ix2 ⟨o + (j 0).val, by have h0 : (j 0).val < k := (j 0).isLt; omega⟩ (j 1))

/-- A size clamped into the table's rows `0 … 10`. -/
def clip11 (z : BitVec 32) : Fin 11 := ⟨(min (max z.toInt 0) 10).toNat, by omega⟩

/-- A bundle's embedding as the kernel forms it: the mean item embedding, plus the weighted degree term (the two
    accumulated log-degrees against the two columns of the weight matrix), plus the weighted row of the size table. -/
def bundleK {nb : ℕ} (mean : Arr nb 64) (dp : Arr nb 2) (w : Arr 64 2) (sz : Fin nb → BitVec 32) (tab : Arr 11 64) : Arr nb 64 :=
  fun j => mean j + kap * (dp (ix2 (j 0) 0) * w (ix2 (j 1) 0) + dp (ix2 (j 0) 1) * w (ix2 (j 1) 1))
    + kap * tab (ix2 (clip11 (sz (j 0))) (j 1))

end Cert.Spec

end
-- ==== Proof.SpecHost.lean ====
/-
  The host-side chain the two programs share, written once over the printed operations: the stacking of two node sets,
  the sparse product of a graph (gather, scale, scatter-add), and the two accumulations that feed the bundle embedding.
  Both programs are read against these terms, so neither sparse product is ever opened.
-/
import proofs.«408083_j64364379898214_3_alg».proof.Proof.Gen.KernelIdeal
import proofs.«408083_j64364379898214_3_alg».proof.Proof.Spec

noncomputable section

namespace Cert.KernelIdeal.SpecHost

open Cert.KernelIdeal Cert.KernelIdeal.Facts₀ Cert.KernelIdeal.Facts Idealize.ShloMosaic

/-- Users stacked over items. -/
def featUI (u : FVec Ideal S200000x64 .f32) (i : FVec Ideal S100000x64 .f32) : FVec Ideal S300000x64 .f32 :=
  concatenate S300000x64 0 [⟨S200000x64, u⟩, ⟨S100000x64, i⟩] concatenates_S200000x64_S100000x64_S300000x64_d0
/-- Bundles stacked over items. -/
def featBI (b : FVec Ideal S50000x64 .f32) (i : FVec Ideal S100000x64 .f32) : FVec Ideal S150000x64 .f32 :=
  concatenate S150000x64 0 [⟨S50000x64, b⟩, ⟨S100000x64, i⟩] concatenates_S50000x64_S100000x64_S150000x64_d0
/-- Users stacked over bundles. -/
def featUB (u : FVec Ideal S200000x64 .f32) (b : FVec Ideal S50000x64 .f32) : FVec Ideal S250000x64 .f32 :=
  concatenate S250000x64 0 [⟨S200000x64, u⟩, ⟨S50000x64, b⟩] concatenates_S200000x64_S50000x64_S250000x64_d0

/-- One sparse product on the graph of 300000 nodes and 4000000 edges: gather the source rows (a negative index counts from the
    end), scale each by its edge value, and add each into its destination row. -/
def spmm300000 (row col : IVec S4000000 32) (val : FVec Ideal S4000000 .f32) (x : FVec Ideal S300000x64 .f32) : FVec Ideal S300000x64 .f32 :=
  Host.scatterAdd scatter_S300000x64_S4000000x1_S4000000x64_1_0_0_1
    (broadcastInDim S300000x64 ![] bcast_S_S300000x64 (constant (F := Ideal) S_ .f32 0x00000000#32))
    (broadcastInDim S4000000x1 ![0] bcast_S4000000_S4000000x1_0 row)
    (mulf (broadcastInDim S4000000x64 ![0, 1] bcast_S4000000x1_S4000000x64_0_1 (broadcastInDim S4000000x1 ![0] bcast_S4000000_S4000000x1_0 val))
      (Host.gather gather_S300000x64_S4000000x1_S4000000x64_1_0_n_n_0_1_164 x
        (broadcastInDim S4000000x1 ![0] bcast_S4000000_S4000000x1_0
          (select (cmpi .slt col (broadcastInDim S4000000 ![] bcast_S_S4000000 (constantI S_ 32 0#32)))
            (addi col (broadcastInDim S4000000 ![] bcast_S_S4000000 (constantI S_ 32 300000#32))) col))))

/-- Two layers on that graph from the stacked features `feat`, and the mean of the three summands. -/
def prop300000 (row col : IVec S4000000 32) (val : FVec Ideal S4000000 .f32) (feat : FVec Ideal S300000x64 .f32) : Cert.Spec.Arr 300000 64 :=
  Cert.Spec.prop3 feat (spmm300000 row col val feat) (spmm300000 row col val (spmm300000 row col val feat))

/-- One sparse product on the graph of 150000 nodes and 2000000 edges: gather the source rows (a negative index counts from the
    end), scale each by its edge value, and add each into its destination row. -/
def spmm150000 (row col : IVec S2000000 32) (val : FVec Ideal S2000000 .f32) (x : FVec Ideal S150000x64 .f32) : FVec Ideal S150000x64 .f32 :=
  Host.scatterAdd scatter_S150000x64_S2000000x1_S2000000x64_1_0_0_1
    (broadcastInDim S150000x64 ![] bcast_S_S150000x64 (constant (F := Ideal) S_ .f32 0x00000000#32))
    (broadcastInDim S2000000x1 ![0] bcast_S2000000_S2000000x1_0 row)
    (mulf (broadcastInDim S2000000x64 ![0, 1] bcast_S2000000x1_S2000000x64_0_1 (broadcastInDim S2000000x1 ![0] bcast_S2000000_S2000000x1_0 val))
      (Host.gather gather_S150000x64_S2000000x1_S2000000x64_1_0_n_n_0_1_164 x
        (broadcastInDim S2000000x1 ![0] bcast_S2000000_S2000000x1_0
          (select (cmpi .slt col (broadcastInDim S2000000 ![] bcast_S_S2000000 (constantI S_ 32 0#32)))
            (addi col (broadcastInDim S2000000 ![] bcast_S_S2000000 (constantI S_ 32 150000#32))) col))))

/-- Two layers on that graph from the stacked features `feat`, and the mean of the three summands. -/
def prop150000 (row col : IVec S2000000 32) (val : FVec Ideal S2000000 .f32) (feat : FVec Ideal S150000x64 .f32) : Cert.Spec.Arr 150000 64 :=
  Cert.Spec.prop3 feat (spmm150000 row col val feat) (spmm150000 row col val (spmm150000 row col val feat))

/-- One sparse product on the graph of 250000 nodes and 2000000 edges: gather the source rows (a negative index counts from the
    end), scale each by its edge value, and add each into its destination row. -/
def spmm250000 (row col : IVec S2000000 32) (val : FVec Ideal S2000000 .f32) (x : FVec Ideal S250000x64 .f32) : FVec Ideal S250000x64 .f32 :=
  Host.scatterAdd scatter_S250000x64_S2000000x1_S2000000x64_1_0_0_1
    (broadcastInDim S250000x64 ![] bcast_S_S250000x64 (constant (F := Ideal) S_ .f32 0x00000000#32))
    (broadcastInDim S2000000x1 ![0] bcast_S2000000_S2000000x1_0 row)
    (mulf (broadcastInDim S2000000x64 ![0, 1] bcast_S2000000x1_S2000000x64_0_1 (broadcastInDim S2000000x1 ![0] bcast_S2000000_S2000000x1_0 val))
      (Host.gather gather_S250000x64_S2000000x1_S2000000x64_1_0_n_n_0_1_164 x
        (broadcastInDim S2000000x1 ![0] bcast_S2000000_S2000000x1_0
          (select (cmpi .slt col (broadcastInDim S2000000 ![] bcast_S_S2000000 (constantI S_ 32 0#32)))
            (addi col (broadcastInDim S2000000 ![] bcast_S_S2000000 (constantI S_ 32 250000#32))) col))))

/-- Two layers on that graph from the stacked features `feat`, and the mean of the three summands. -/
def prop250000 (row col : IVec S2000000 32) (val : FVec Ideal S2000000 .f32) (feat : FVec Ideal S250000x64 .f32) : Cert.Spec.Arr 250000 64 :=
  Cert.Spec.prop3 feat (spmm250000 row col val feat) (spmm250000 row col val (spmm250000 row col val feat))

/-- The aggregation graph's source index: a negative index counts from the end of the 100000 items. -/
def aggIdx (col : IVec S500000 32) : IVec S500000x1 32 :=
  broadcastInDim S500000x1 ![0] bcast_S500000_S500000x1_0
    (select (cmpi .slt col (broadcastInDim S500000 ![] bcast_S_S500000 (constantI S_ 32 0#32)))
      (addi col (broadcastInDim S500000 ![] bcast_S_S500000 (constantI S_ 32 100000#32))) col)

/-- The weighted sum, per bundle, of the gathered rows of a 64-column item array. -/
def agg64 (row col : IVec S500000 32) (val : FVec Ideal S500000 .f32) (x : FVec Ideal S100000x64 .f32) : FVec Ideal S50000x64 .f32 :=
  Host.scatterAdd scatter_S50000x64_S500000x1_S500000x64_1_0_0_1
    (broadcastInDim S50000x64 ![] bcast_S_S50000x64 (constant (F := Ideal) S_ .f32 0x00000000#32))
    (broadcastInDim S500000x1 ![0] bcast_S500000_S500000x1_0 row)
    (mulf (broadcastInDim S500000x64 ![0, 1] bcast_S500000x1_S500000x64_0_1 (broadcastInDim S500000x1 ![0] bcast_S500000_S500000x1_0 val))
      (Host.gather gather_S100000x64_S500000x1_S500000x64_1_0_n_n_0_1_164 x (aggIdx col)))

/-- The same weighted sum of the gathered rows of a 2-column item array. -/
def agg2 (row col : IVec S500000 32) (val : FVec Ideal S500000 .f32) (x : FVec Ideal S100000x2 .f32) : FVec Ideal S50000x2 .f32 :=
  Host.scatterAdd scatter_S50000x2_S500000x1_S500000x2_1_0_0_1
    (broadcastInDim S50000x2 ![] bcast_S_S50000x2 (constant (F := Ideal) S_ .f32 0x00000000#32))
    (broadcastInDim S500000x1 ![0] bcast_S500000_S500000x1_0 row)
    (mulf (broadcastInDim S500000x2 ![0, 1] bcast_S500000x1_S500000x2_0_1 (broadcastInDim S500000x1 ![0] bcast_S500000_S500000x1_0 val))
      (Host.gather gather_S100000x2_S500000x1_S500000x2_1_0_n_n_0_1_12 x (aggIdx col)))

end Cert.KernelIdeal.SpecHost

end
-- ==== Proof.SpecLemmas.lean ====
/-
  The packed layer is the plain layer re-laid: normalising each 64-lane half of a packed row by its own lanes is
  normalising each of the two rows it holds. Also: a quotient by one is the dividend.
-/
import proofs.«408083_j64364379898214_3_alg».proof.Proof.Spec
import Idealize.ShloMosaic.PureOps.Ideal.Laws
import Idealize.ShloMosaic.Lib.IdealHost

set_option maxRecDepth 16384

noncomputable section

namespace Cert.Spec

open Idealize.ShloMosaic Idealize.ShloMosaic.ValueIdx

/-- Dividing by the float one changes nothing. -/
theorem div_one (x : EReal) : Ideal.div x one = x := by
  unfold one
  rw [Ideal.ofBits_one_f32]
  unfold Ideal.div
  rw [if_neg one_ne_zero, inv_one, mul_one]

/-- Lane `l` of packed row `r` is column `l % 64` of row `2 r + l / 64`. -/
theorem pack_apply {n h : ℕ} (hn : n = 2 * h) (x : Arr n 64) (r : Fin h) (l : Fin 128) :
    pack hn x (ix2 r l) = x (ix2 ⟨2 * r.val + l.val / 64, by have := r.isLt; have := l.isLt; omega⟩
      ⟨l.val % 64, Nat.mod_lt _ (by decide)⟩) := rfl

/-- Column `d` of row `i` is lane `64 * (i % 2) + d` of packed row `i / 2`. -/
theorem unpack_apply {n h : ℕ} (hn : n = 2 * h) (y : Arr h 128) (i : Fin n) (d : Fin 64) :
    unpack hn y (ix2 i d) = y (ix2 ⟨i.val / 2, by have := i.isLt; omega⟩
      ⟨64 * (i.val % 2) + d.val, by have := d.isLt; omega⟩) := rfl

/-- The half's norm on a packed array is the norm of the row the half holds. -/
theorem halfNrm_pack {n h : ℕ} (hn : n = 2 * h) (f : Arr n 64) (r : Fin h) (l : Fin 128) :
    halfNrm (pack hn f) r l = rowNrm f ⟨2 * r.val + l.val / 64, by have := r.isLt; have := l.isLt; omega⟩ := by
  unfold halfNrm rowNrm
  have hl := l.isLt
  have e : ∀ k : Fin 64, pack hn f (ix2 r (halfLane l k))
      = f (ix2 ⟨2 * r.val + l.val / 64, by have := r.isLt; omega⟩ k) := by
    intro k
    have hk := k.isLt
    rw [pack_apply]
    refine congrArg f (congrArg₂ ix2 (Fin.ext ?_) (Fin.ext ?_))
    · show 2 * r.val + (64 * (l.val / 64) + k.val) / 64 = 2 * r.val + l.val / 64
      omega
    · show (64 * (l.val / 64) + k.val) % 64 = k.val
      omega
  simp only [e]

/-- The packed layer of two packed arrays is the packing of the plain layer divided by `dv`. -/
theorem normAddP_pack {n h : ℕ} (hn : n = 2 * h) (dv : EReal) (f acc : Arr n 64) :
    normAddP dv (pack hn f) (pack hn acc) = pack hn (fun j => Ideal.div (normAdd f acc j) dv) := by
  funext j
  obtain ⟨r, l, rfl⟩ : ∃ r l, j = ix2 r l := ⟨j 0, j 1, eq_ix2 j⟩
  show Ideal.div (pack hn acc (ix2 r l) + Ideal.div (pack hn f (ix2 r l)) (halfNrm (pack hn f) r l)) dv = _
  rw [halfNrm_pack]
  rfl

/-- Unpacking undoes packing. -/
theorem unpack_pack {n h : ℕ} (hn : n = 2 * h) (x : Arr n 64) : unpack hn (pack hn x) = x := by
  funext j
  obtain ⟨i, d, rfl⟩ : ∃ i d, j = ix2 i d := ⟨j 0, j 1, eq_ix2 j⟩
  have hi := i.isLt
  have hd := d.isLt
  rw [unpack_apply, pack_apply]
  refine congrArg x (congrArg₂ ix2 (Fin.ext ?_) (Fin.ext ?_))
  · show 2 * (i.val / 2) + (64 * (i.val % 2) + d.val) / 64 = i.val
    omega
  · show (64 * (i.val % 2) + d.val) % 64 = d.val
    omega

end Cert.Spec

end
-- ==== Proof.KNa0.lean ====
/-
  Pipeline 0: what the whole output array holds when the pipeline has run. Every grid point normalises and adds its
  5000 packed rows, the blocks tile the array, so the array is the packed layer `normAddP` of the two input arrays.

  The body's two stores are read at a lane: each 64-lane half of a packed row is divided by the clamped Euclidean norm of
  that half, added to the running sum and divided by the layer's divisor. Together the two stores are the packed layer of
  the two blocks; the packed layer works row by row, so block `t` of the layer of the arrays is the layer of the arrays'
  blocks `t`; and row `r` of the array lies in the block of point `r / 5000`.
-/
import proofs.«408083_j64364379898214_3_alg».proof.Proof.Gen.KernelIdeal.Frame
import proofs.«408083_j64364379898214_3_alg».proof.Proof.Spec
import Idealize.ShloMosaic.Lib.Pipeline.Value
import Idealize.ShloMosaic.PureOps.Ideal.Laws

set_option maxRecDepth 16384

noncomputable section

namespace Cert.KernelIdeal.KNa

open Cert.KernelIdeal Cert.KernelIdeal.Gen Idealize.ShloMosaic Idealize.ShloMosaic.TcCoe Idealize.ShloMosaic.ValueIdx Idealize.SL.Sem

/-- The sum over the 64 lanes of row `r` of a 5000 × 64 block. -/
theorem laneSum_p0 (v : FVec Ideal S5000x64 .f32) (hφ : FKind.Formats .f32)
    (hacc : (0x00000000#32 : BitVec 32) = 0x00000000#32) (r : Fin 5000) :
    multiReduction .add [1] S5000 v 0x00000000#32 Gen.reduces_S5000x64_S5000 hφ hacc (ix1 r)
      = ∑ k : Fin 64, v (ix2 r k) := by
  refine (Ideal.multiReduction_add_single v 0x00000000#32 Gen.reduces_S5000x64_S5000 hφ hacc (ix1 r)).trans ?_
  refine Finset.sum_congr rfl fun k _ => congrArg v ?_
  funext a
  match a with
  | ⟨0, _⟩ => rfl
  | ⟨1, _⟩ => rfl

/-- Lane `k` of the left half of a 128-lane row. -/
abbrev laneL_p0 (k : Fin 64) : Fin 128 := ⟨k.val, by omega⟩
/-- Lane `k` of the right half of a 128-lane row. -/
abbrev laneR_p0 (k : Fin 64) : Fin 128 := ⟨64 + k.val, by omega⟩

/-- The left 64 lanes cut out of a 128-lane block: lane `k` of the cut is lane `k` of the block. -/
theorem sliceL_p0 (x : FVec Ideal S5000x128 .f32) (r : Fin 5000) (k : Fin 64) :
    extractStridedSlice S5000x64 ![0, 0] x Gen.slices_S5000x128_o0_0_S5000x64 (ix2 r k) = x (ix2 r (laneL_p0 k)) := by
  refine extractStridedSlice_apply _ _ _ (ix2 r k) (ix2 r (laneL_p0 k)) fun a => ?_
  match a with
  | ⟨0, _⟩ => show r.val = 0 + r.val; omega
  | ⟨1, _⟩ => show k.val = 0 + k.val; omega

/-- The right 64 lanes cut out of a 128-lane block: lane `k` of the cut is lane `64 + k` of the block. -/
theorem sliceR_p0 (x : FVec Ideal S5000x128 .f32) (r : Fin 5000) (k : Fin 64) :
    extractStridedSlice S5000x64 ![0, 64] x Gen.slices_S5000x128_o0_64_S5000x64 (ix2 r k) = x (ix2 r (laneR_p0 k)) := by
  refine extractStridedSlice_apply _ _ _ (ix2 r k) (ix2 r (laneR_p0 k)) fun a => ?_
  match a with
  | ⟨0, _⟩ => show r.val = 0 + r.val; omega
  | ⟨1, _⟩ => show 64 + k.val = 64 + k.val; rfl

/-- A column vector spread over 64 lanes reads, in every lane of row `r`, the column's entry at `r`. -/
theorem spreadCol_p0 (v : FVec Ideal S5000x1 .f32) (r : Fin 5000) (k : Fin 64) :
    broadcastTo S5000x64 v Gen.broadcasts_S5000x1_S5000x64 (ix2 r k) = v (ix2 r (0 : Fin 1)) := by
  refine broadcastTo_apply _ _ (ix2 r k) (ix2 r (0 : Fin 1)) fun a => ?_
  match a with
  | ⟨0, _⟩ => rfl
  | ⟨1, _⟩ => rfl

/-- A vector of 5000 entries recast as a column holds entry `r` in row `r`. -/
theorem asCol_p0 (v : FVec Ideal S5000 .f32) (r : Fin 5000) :
    shapeCast S5000x1 v Gen.shapeCasts_S5000_S5000x1 (ix2 r (0 : Fin 1)) = v (ix1 r) := by
  refine shapeCast_apply _ _ (ix2 r (0 : Fin 1)) (ix1 r) ?_
  rw [Shape.rowMajor_val_one, Shape.rowMajor_val_two]
  show r.val = r.val * 1 + 0
  omega

/-- The clamped norm of row `r` of a 64-lane half, spread over the half's lanes. -/
theorem halfNorm_p0 (y : FVec Ideal S5000x64 .f32) (hφ : FKind.Formats .f32)
    (hacc : (0x00000000#32 : BitVec 32) = 0x00000000#32) (r : Fin 5000) (k : Fin 64) :
    broadcastTo S5000x64
        (maximumf (sqrt (shapeCast S5000x1 (multiReduction .add [1] S5000 (mulf y y) 0x00000000#32
            Gen.reduces_S5000x64_S5000 hφ hacc) Gen.shapeCasts_S5000_S5000x1))
          (broadcast S5000x1 (Scalar.ofBits .f32 0x2B8CBCCC#32)))
        Gen.broadcasts_S5000x1_S5000x64 (ix2 r k)
      = max (Ideal.sqrt (∑ q : Fin 64, y (ix2 r q) * y (ix2 r q))) Cert.Spec.eps := by
  refine (spreadCol_p0 _ r k).trans ?_
  show max (Ideal.sqrt (shapeCast S5000x1 _ Gen.shapeCasts_S5000_S5000x1 (ix2 r (0 : Fin 1)))) Cert.Spec.eps = _
  rw [asCol_p0, laneSum_p0]
  rfl

/-- What the body stores into the left half: lane `k` of row `r` is the running sum there plus the layer output there
    over the clamped norm of the row's left half, all over the divisor. -/
theorem payL_p0 (x0 x1 : Vec Ideal S5000x128 .f32) (r : Fin 5000) (k : Fin 64) :
    k0_pay3 x0 x1 (ix2 r k)
      = Ideal.div (x1 (ix2 r (laneL_p0 k)) + Ideal.div (x0 (ix2 r (laneL_p0 k)))
          (max (Ideal.sqrt (∑ q : Fin 64, x0 (ix2 r (laneL_p0 q)) * x0 (ix2 r (laneL_p0 q)))) Cert.Spec.eps)) Cert.Spec.one := by
  unfold k0_pay3 k0_pay1 k0_pay2
  dsimp only
  show Ideal.div (extractStridedSlice S5000x64 ![0, 0] (shapeCast S5000x128 x1 _) _ (ix2 r k)
      + Ideal.div (extractStridedSlice S5000x64 ![0, 0] (shapeCast S5000x128 x0 _) _ (ix2 r k))
          (broadcastTo S5000x64 _ _ (ix2 r k))) (Ideal.ofBits .f32 0x3F800000#32) = _
  rw [halfNorm_p0]
  simp only [sliceL_p0, shapeCast_self]

/-- What the body stores into the right half, likewise, over the clamped norm of the row's right half. -/
theorem payR_p0 (x0 x1 : Vec Ideal S5000x128 .f32) (r : Fin 5000) (k : Fin 64) :
    k0_pay4 x0 x1 (ix2 r k)
      = Ideal.div (x1 (ix2 r (laneR_p0 k)) + Ideal.div (x0 (ix2 r (laneR_p0 k)))
          (max (Ideal.sqrt (∑ q : Fin 64, x0 (ix2 r (laneR_p0 q)) * x0 (ix2 r (laneR_p0 q)))) Cert.Spec.eps)) Cert.Spec.one := by
  unfold k0_pay4 k0_pay1 k0_pay2
  dsimp only
  show Ideal.div (extractStridedSlice S5000x64 ![0, 64] (shapeCast S5000x128 x1 _) _ (ix2 r k)
      + Ideal.div (extractStridedSlice S5000x64 ![0, 64] (shapeCast S5000x128 x0 _) _ (ix2 r k))
          (broadcastTo S5000x64 _ _ (ix2 r k))) (Ideal.ofBits .f32 0x3F800000#32) = _
  rw [halfNorm_p0]
  simp only [sliceR_p0, shapeCast_self]

/-- The zero offsets of a whole-buffer access. -/
theorem hz_p0 : (![0, 0] : Fin 2 → Nat) = fun _ => 0 := funext fun a => by fin_cases a <;> rfl

/-- The half of a row that a left-half lane lies in is the left half. -/
theorem halfLane_L_p0 (k q : Fin 64) : Cert.Spec.halfLane (laneL_p0 k) q = laneL_p0 q := by
  apply Fin.ext
  show 64 * (k.val / 64) + q.val = q.val
  have := k.isLt
  omega

/-- The half of a row that a right-half lane lies in is the right half. -/
theorem halfLane_R_p0 (k q : Fin 64) : Cert.Spec.halfLane (laneR_p0 k) q = laneR_p0 q := by
  apply Fin.ext
  show 64 * ((64 + k.val) / 64) + q.val = 64 + q.val
  have := k.isLt
  omega

/-- The left half's store is the packed layer of the two blocks, read where the store's rectangle puts it. -/
theorem pieceL_p0 (x0 x1 : Vec Ideal S5000x128 .f32) (x : S5000x64.Idx) :
    k0_pay3 x0 x1 x = Cert.Spec.normAddP (h := 5000) Cert.Spec.one x0 x1 (r0_1.emb x) := by
  obtain ⟨r, k, rfl⟩ : ∃ (r : Fin 5000) (k : Fin 64), x = ix2 r k := ⟨x 0, x 1, eq_ix2 x⟩
  have e : r0_1.emb (ix2 r k) = ix2 r (laneL_p0 k) := by
    funext a; apply Fin.ext
    match a with
    | ⟨0, _⟩ => show 0 + 1 * r.val = r.val; omega
    | ⟨1, _⟩ => show 0 + 1 * k.val = k.val; omega
  rw [e, payL_p0]
  show _ = Ideal.div (x1 (ix2 r (laneL_p0 k)) + Ideal.div (x0 (ix2 r (laneL_p0 k)))
      (max (Ideal.sqrt (∑ q : Fin 64, x0 (ix2 r (Cert.Spec.halfLane (laneL_p0 k) q)) * x0 (ix2 r (Cert.Spec.halfLane (laneL_p0 k) q)))) Cert.Spec.eps)) Cert.Spec.one
  simp only [halfLane_L_p0]

/-- The right half's store likewise. -/
theorem pieceR_p0 (x0 x1 : Vec Ideal S5000x128 .f32) (x : S5000x64.Idx) :
    k0_pay4 x0 x1 x = Cert.Spec.normAddP (h := 5000) Cert.Spec.one x0 x1 (r0_2.emb x) := by
  obtain ⟨r, k, rfl⟩ : ∃ (r : Fin 5000) (k : Fin 64), x = ix2 r k := ⟨x 0, x 1, eq_ix2 x⟩
  have e : r0_2.emb (ix2 r k) = ix2 r (laneR_p0 k) := by
    funext a; apply Fin.ext
    match a with
    | ⟨0, _⟩ => show 0 + 1 * r.val = r.val; omega
    | ⟨1, _⟩ => show 64 + 1 * k.val = 64 + k.val; omega
  rw [e, payR_p0]
  show _ = Ideal.div (x1 (ix2 r (laneR_p0 k)) + Ideal.div (x0 (ix2 r (laneR_p0 k)))
      (max (Ideal.sqrt (∑ q : Fin 64, x0 (ix2 r (Cert.Spec.halfLane (laneR_p0 k) q)) * x0 (ix2 r (Cert.Spec.halfLane (laneR_p0 k) q)))) Cert.Spec.eps)) Cert.Spec.one
  simp only [halfLane_R_p0]

/-- What the body leaves in the output's staging buffer: the packed layer of the two input blocks. -/
theorem out_p0 (x0 x1 : Vec Ideal S5000x128 .f32) :
    out0_2 x0 x1 = Cert.Spec.normAddP (h := 5000) Cert.Spec.one x0 x1 := by
  funext y
  unfold out0_2
  simp only [View.ld_unit_zero (S := S5000x128) hz_p0]
  refine View.canon_apply_of_pieces (Val := Elt Ideal) (S := S5000x128) (e := .f32)
    (Cert.Spec.normAddP (h := 5000) Cert.Spec.one x0 x1) _ ?_ y (cover0_2 _ _ y)
  intro p hp x
  simp only [List.mem_cons, List.not_mem_nil, or_false] at hp
  rcases hp with rfl | rfl
  · exact pieceR_p0 x0 x1 x
  · exact pieceL_p0 x0 x1 x

variable (V : (c : Dev nD) → (b : Ref sig .tc) → Buf (Elt Ideal) ((c : Thread nD τ).loc b))

/-- The packed layer works row by row: on the 5000 rows of block `b` cut out of the two arrays it is the same rows of
    the layer of the arrays. -/
theorem rows_p0 (dv : EReal) (A0 A1 : Cert.Spec.Arr 150000 128) (x0 x1 : Cert.Spec.Arr 5000 128) (b : ℕ) (hb : b < 30)
    (h0 : ∀ (p : Fin 5000) (l : Fin 128), x0 (ix2 p l) = A0 (ix2 (⟨b * 5000 + p.val, by have := p.isLt; omega⟩ : Fin 150000) l))
    (h1 : ∀ (p : Fin 5000) (l : Fin 128), x1 (ix2 p l) = A1 (ix2 (⟨b * 5000 + p.val, by have := p.isLt; omega⟩ : Fin 150000) l))
    (p : Fin 5000) (l : Fin 128) :
    Cert.Spec.normAddP (h := 5000) dv x0 x1 (ix2 p l)
      = Cert.Spec.normAddP (h := 150000) dv A0 A1 (ix2 (⟨b * 5000 + p.val, by have := p.isLt; omega⟩ : Fin 150000) l) := by
  show Ideal.div (x1 (ix2 p l) + Ideal.div (x0 (ix2 p l))
        (max (Ideal.sqrt (∑ k : Fin 64, x0 (ix2 p (Cert.Spec.halfLane l k)) * x0 (ix2 p (Cert.Spec.halfLane l k)))) Cert.Spec.eps)) dv
      = Ideal.div (A1 (ix2 _ l) + Ideal.div (A0 (ix2 _ l))
        (max (Ideal.sqrt (∑ k : Fin 64, A0 (ix2 _ (Cert.Spec.halfLane l k)) * A0 (ix2 _ (Cert.Spec.halfLane l k)))) Cert.Spec.eps)) dv
  simp only [h0, h1]

/-- The printed index maps over the grid: at point `t` every window's block is block `t` of rows, all 128 lanes. -/
theorem idx_p0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- The layer output's block at point `t` is rows `5000 t … 5000 t + 4999` of its array. -/
theorem blkF_p0 (c : Dev nD) (t : Fin cfg0.N) (ht : t.val < 30) (p : Fin 5000) (l : Fin 128) :
    (iblk0 V c 0 t : Vec Ideal S5000x128 .f32) (ix2 p l)
      = (V c (Pipeline.arrRef spec0 0) : Cert.Spec.Arr 150000 128)
          (ix2 (⟨t.val * 5000 + p.val, by have := p.isLt; omega⟩ : Fin 150000) l) := by
  obtain ⟨e0, e1, -⟩ := idx_p0 t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = t.val * 5000 + p.val; rw [e0]; omega
  | ⟨1, _⟩ => show win0_0.index t (1 : Fin 2) * 128 + 1 * l.val = l.val; rw [e1]; omega

/-- The running sum's block at point `t` is the same rows of its array. -/
theorem blkA_p0 (c : Dev nD) (t : Fin cfg0.N) (ht : t.val < 30) (p : Fin 5000) (l : Fin 128) :
    (iblk0 V c 1 t : Vec Ideal S5000x128 .f32) (ix2 p l)
      = (V c (Pipeline.arrRef spec0 1) : Cert.Spec.Arr 150000 128)
          (ix2 (⟨t.val * 5000 + p.val, by have := p.isLt; omega⟩ : Fin 150000) l) := by
  obtain ⟨-, -, e0, e1, -⟩ := idx_p0 t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 5000 + 1 * p.val = t.val * 5000 + p.val; rw [e0]; omega
  | ⟨1, _⟩ => show win0_1.index t (1 : Fin 2) * 128 + 1 * l.val = l.val; rw [e1]; omega

/-- What point `t` writes back is block `t` of the packed layer of the two whole input arrays. -/
theorem flushed_p0 (c : Dev nD) (t : Fin cfg0.N) :
    (dat0 V c).flushed 2 t = ((cfg0.win 2).blk t).view.read (Elt Ideal)
      (Cert.Spec.normAddP (h := 150000) Cert.Spec.one (V c (Pipeline.arrRef spec0 0)) (V c (Pipeline.arrRef spec0 1))) := by
  have ht : t.val < 30 := by
    have h : t.val < cfg0.N := t.isLt
    have e : cfg0.N = 30 := N_0
    omega
  obtain ⟨-, -, -, -, e0, e1⟩ := idx_p0 t
  show (cfg0.win 2).cut (grid0.coords t) ((dat0 V c).after 2 t) = _
  rw [after0_2, out_p0]
  funext j
  obtain ⟨p, l, rfl⟩ : ∃ (p : Fin 5000) (l : Fin 128), j = ix2 p l := ⟨j 0, j 1, eq_ix2 j⟩
  rw [View.read_apply]
  have e : ((cfg0.win 2).blk t).view.emb (ix2 p l)
      = ix2 (⟨t.val * 5000 + p.val, by have := p.isLt; omega⟩ : Fin 150000) l := by
    funext a
    apply Fin.ext
    match a with
    | ⟨0, _⟩ => show win0_2.index t (0 : Fin 2) * 5000 + 1 * p.val = t.val * 5000 + p.val; rw [e0]; omega
    | ⟨1, _⟩ => show win0_2.index t (1 : Fin 2) * 128 + 1 * l.val = l.val; rw [e1]; omega
  rw [e]
  exact rows_p0 Cert.Spec.one (V c (Pipeline.arrRef spec0 0)) (V c (Pipeline.arrRef spec0 1))
    (iblk0 V c 0 t) (iblk0 V c 1 t) t.val ht (blkF_p0 V c t ht) (blkA_p0 V c t ht) p l

/-- An index of the array is in point `t`'s block iff each coordinate is in the block's range on its axis. -/
theorem mem_blk_p0 (t : Fin cfg0.N) (i : S150000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_call0_v16).slice (win0_2.rect t)).set ↔ _
  rw [View.set_slice_whole, Rect.mem_set_unit]
  exact Iff.rfl

/-- The blocks tile the array: row `r` lies in the block of point `r / 5000`. -/
theorem cover_p0 (i : S150000x128.Idx) :
    ∃ t : Fin cfg0.N, (cfg0.win 2).flush t = true ∧ i ∈ ((cfg0.win 2).blk t).view.set := by
  have hi0 : (i 0).val < 150000 := (i 0).isLt
  have hi1 : (i 1).val < 128 := (i 1).isLt
  have hN : cfg0.N = 30 := N_0
  obtain ⟨t, ht⟩ : ∃ t : Fin cfg0.N, t.val = (i 0).val / 5000 := ⟨⟨(i 0).val / 5000, by rw [hN]; omega⟩, rfl⟩
  obtain ⟨-, -, -, -, e0, e1⟩ := idx_p0 t
  refine ⟨t, flush0_2 t, ?_⟩
  rw [mem_blk_p0]
  intro a
  match a with
  | ⟨0, _⟩ =>
    show win0_2.index t (0 : Fin 2) * 5000 ≤ (i 0).val ∧ (i 0).val < win0_2.index t (0 : Fin 2) * 5000 + 5000
    rw [e0, ht]; omega
  | ⟨1, _⟩ =>
    show win0_2.index t (1 : Fin 2) * 128 ≤ (i 1).val ∧ (i 1).val < win0_2.index t (1 : Fin 2) * 128 + 128
    rw [e1]; omega

/-- The output array after pipeline 0: the packed layer of its two input arrays, divided by the layer's divisor. -/
theorem arrAt0 (c : Dev nD) :
    (dat0 V c).arrAt 2 cfg0.N
      = Cert.Spec.normAddP (h := 150000) Cert.Spec.one (V c (Pipeline.arrRef spec0 0)) (V c (Pipeline.arrRef spec0 1)) :=
  (dat0 V c).arrAt_eq_of_cover 2 _ (fun t _ => flushed_p0 V c t) cover_p0

end Cert.KernelIdeal.KNa

end
-- ==== Proof.KNa1.lean ====
/-
  Pipeline 1: what the whole output array holds when the pipeline has run. Every grid point normalises and adds its
  5000 packed rows, the blocks tile the array, so the array is the packed layer `normAddP` of the two input arrays.

  The body's two stores are read at a lane: each 64-lane half of a packed row is divided by the clamped Euclidean norm of
  that half, added to the running sum and divided by the layer's divisor. Together the two stores are the packed layer of
  the two blocks; the packed layer works row by row, so block `t` of the layer of the arrays is the layer of the arrays'
  blocks `t`; and row `r` of the array lies in the block of point `r / 5000`.
-/
import proofs.«408083_j64364379898214_3_alg».proof.Proof.Gen.KernelIdeal.Frame
import proofs.«408083_j64364379898214_3_alg».proof.Proof.Spec
import Idealize.ShloMosaic.Lib.Pipeline.Value
import Idealize.ShloMosaic.PureOps.Ideal.Laws

set_option maxRecDepth 16384

noncomputable section

namespace Cert.KernelIdeal.KNa

open Cert.KernelIdeal Cert.KernelIdeal.Gen Idealize.ShloMosaic Idealize.ShloMosaic.TcCoe Idealize.ShloMosaic.ValueIdx Idealize.SL.Sem

/-- The sum over the 64 lanes of row `r` of a 5000 × 64 block. -/
theorem laneSum_p1 (v : FVec Ideal S5000x64 .f32) (hφ : FKind.Formats .f32)
    (hacc : (0x00000000#32 : BitVec 32) = 0x00000000#32) (r : Fin 5000) :
    multiReduction .add [1] S5000 v 0x00000000#32 Gen.reduces_S5000x64_S5000 hφ hacc (ix1 r)
      = ∑ k : Fin 64, v (ix2 r k) := by
  refine (Ideal.multiReduction_add_single v 0x00000000#32 Gen.reduces_S5000x64_S5000 hφ hacc (ix1 r)).trans ?_
  refine Finset.sum_congr rfl fun k _ => congrArg v ?_
  funext a
  match a with
  | ⟨0, _⟩ => rfl
  | ⟨1, _⟩ => rfl

/-- Lane `k` of the left half of a 128-lane row. -/
abbrev laneL_p1 (k : Fin 64) : Fin 128 := ⟨k.val, by omega⟩
/-- Lane `k` of the right half of a 128-lane row. -/
abbrev laneR_p1 (k : Fin 64) : Fin 128 := ⟨64 + k.val, by omega⟩

/-- The left 64 lanes cut out of a 128-lane block: lane `k` of the cut is lane `k` of the block. -/
theorem sliceL_p1 (x : FVec Ideal S5000x128 .f32) (r : Fin 5000) (k : Fin 64) :
    extractStridedSlice S5000x64 ![0, 0] x Gen.slices_S5000x128_o0_0_S5000x64 (ix2 r k) = x (ix2 r (laneL_p1 k)) := by
  refine extractStridedSlice_apply _ _ _ (ix2 r k) (ix2 r (laneL_p1 k)) fun a => ?_
  match a with
  | ⟨0, _⟩ => show r.val = 0 + r.val; omega
  | ⟨1, _⟩ => show k.val = 0 + k.val; omega

/-- The right 64 lanes cut out of a 128-lane block: lane `k` of the cut is lane `64 + k` of the block. -/
theorem sliceR_p1 (x : FVec Ideal S5000x128 .f32) (r : Fin 5000) (k : Fin 64) :
    extractStridedSlice S5000x64 ![0, 64] x Gen.slices_S5000x128_o0_64_S5000x64 (ix2 r k) = x (ix2 r (laneR_p1 k)) := by
  refine extractStridedSlice_apply _ _ _ (ix2 r k) (ix2 r (laneR_p1 k)) fun a => ?_
  match a with
  | ⟨0, _⟩ => show r.val = 0 + r.val; omega
  | ⟨1, _⟩ => show 64 + k.val = 64 + k.val; rfl

/-- A column vector spread over 64 lanes reads, in every lane of row `r`, the column's entry at `r`. -/
theorem spreadCol_p1 (v : FVec Ideal S5000x1 .f32) (r : Fin 5000) (k : Fin 64) :
    broadcastTo S5000x64 v Gen.broadcasts_S5000x1_S5000x64 (ix2 r k) = v (ix2 r (0 : Fin 1)) := by
  refine broadcastTo_apply _ _ (ix2 r k) (ix2 r (0 : Fin 1)) fun a => ?_
  match a with
  | ⟨0, _⟩ => rfl
  | ⟨1, _⟩ => rfl

/-- A vector of 5000 entries recast as a column holds entry `r` in row `r`. -/
theorem asCol_p1 (v : FVec Ideal S5000 .f32) (r : Fin 5000) :
    shapeCast S5000x1 v Gen.shapeCasts_S5000_S5000x1 (ix2 r (0 : Fin 1)) = v (ix1 r) := by
  refine shapeCast_apply _ _ (ix2 r (0 : Fin 1)) (ix1 r) ?_
  rw [Shape.rowMajor_val_one, Shape.rowMajor_val_two]
  show r.val = r.val * 1 + 0
  omega

/-- The clamped norm of row `r` of a 64-lane half, spread over the half's lanes. -/
theorem halfNorm_p1 (y : FVec Ideal S5000x64 .f32) (hφ : FKind.Formats .f32)
    (hacc : (0x00000000#32 : BitVec 32) = 0x00000000#32) (r : Fin 5000) (k : Fin 64) :
    broadcastTo S5000x64
        (maximumf (sqrt (shapeCast S5000x1 (multiReduction .add [1] S5000 (mulf y y) 0x00000000#32
            Gen.reduces_S5000x64_S5000 hφ hacc) Gen.shapeCasts_S5000_S5000x1))
          (broadcast S5000x1 (Scalar.ofBits .f32 0x2B8CBCCC#32)))
        Gen.broadcasts_S5000x1_S5000x64 (ix2 r k)
      = max (Ideal.sqrt (∑ q : Fin 64, y (ix2 r q) * y (ix2 r q))) Cert.Spec.eps := by
  refine (spreadCol_p1 _ r k).trans ?_
  show max (Ideal.sqrt (shapeCast S5000x1 _ Gen.shapeCasts_S5000_S5000x1 (ix2 r (0 : Fin 1)))) Cert.Spec.eps = _
  rw [asCol_p1, laneSum_p1]
  rfl

/-- What the body stores into the left half: lane `k` of row `r` is the running sum there plus the layer output there
    over the clamped norm of the row's left half, all over the divisor. -/
theorem payL_p1 (x0 x1 : Vec Ideal S5000x128 .f32) (r : Fin 5000) (k : Fin 64) :
    k1_pay3 x0 x1 (ix2 r k)
      = Ideal.div (x1 (ix2 r (laneL_p1 k)) + Ideal.div (x0 (ix2 r (laneL_p1 k)))
          (max (Ideal.sqrt (∑ q : Fin 64, x0 (ix2 r (laneL_p1 q)) * x0 (ix2 r (laneL_p1 q)))) Cert.Spec.eps)) Cert.Spec.three := by
  unfold k1_pay3 k1_pay1 k1_pay2
  dsimp only
  show Ideal.div (extractStridedSlice S5000x64 ![0, 0] (shapeCast S5000x128 x1 _) _ (ix2 r k)
      + Ideal.div (extractStridedSlice S5000x64 ![0, 0] (shapeCast S5000x128 x0 _) _ (ix2 r k))
          (broadcastTo S5000x64 _ _ (ix2 r k))) (Ideal.ofBits .f32 0x40400000#32) = _
  rw [halfNorm_p1]
  simp only [sliceL_p1, shapeCast_self]

/-- What the body stores into the right half, likewise, over the clamped norm of the row's right half. -/
theorem payR_p1 (x0 x1 : Vec Ideal S5000x128 .f32) (r : Fin 5000) (k : Fin 64) :
    k1_pay4 x0 x1 (ix2 r k)
      = Ideal.div (x1 (ix2 r (laneR_p1 k)) + Ideal.div (x0 (ix2 r (laneR_p1 k)))
          (max (Ideal.sqrt (∑ q : Fin 64, x0 (ix2 r (laneR_p1 q)) * x0 (ix2 r (laneR_p1 q)))) Cert.Spec.eps)) Cert.Spec.three := by
  unfold k1_pay4 k1_pay1 k1_pay2
  dsimp only
  show Ideal.div (extractStridedSlice S5000x64 ![0, 64] (shapeCast S5000x128 x1 _) _ (ix2 r k)
      + Ideal.div (extractStridedSlice S5000x64 ![0, 64] (shapeCast S5000x128 x0 _) _ (ix2 r k))
          (broadcastTo S5000x64 _ _ (ix2 r k))) (Ideal.ofBits .f32 0x40400000#32) = _
  rw [halfNorm_p1]
  simp only [sliceR_p1, shapeCast_self]

/-- The zero offsets of a whole-buffer access. -/
theorem hz_p1 : (![0, 0] : Fin 2 → Nat) = fun _ => 0 := funext fun a => by fin_cases a <;> rfl

/-- The half of a row that a left-half lane lies in is the left half. -/
theorem halfLane_L_p1 (k q : Fin 64) : Cert.Spec.halfLane (laneL_p1 k) q = laneL_p1 q := by
  apply Fin.ext
  show 64 * (k.val / 64) + q.val = q.val
  have := k.isLt
  omega

/-- The half of a row that a right-half lane lies in is the right half. -/
theorem halfLane_R_p1 (k q : Fin 64) : Cert.Spec.halfLane (laneR_p1 k) q = laneR_p1 q := by
  apply Fin.ext
  show 64 * ((64 + k.val) / 64) + q.val = 64 + q.val
  have := k.isLt
  omega

/-- The left half's store is the packed layer of the two blocks, read where the store's rectangle puts it. -/
theorem pieceL_p1 (x0 x1 : Vec Ideal S5000x128 .f32) (x : S5000x64.Idx) :
    k1_pay3 x0 x1 x = Cert.Spec.normAddP (h := 5000) Cert.Spec.three x0 x1 (r1_1.emb x) := by
  obtain ⟨r, k, rfl⟩ : ∃ (r : Fin 5000) (k : Fin 64), x = ix2 r k := ⟨x 0, x 1, eq_ix2 x⟩
  have e : r1_1.emb (ix2 r k) = ix2 r (laneL_p1 k) := by
    funext a; apply Fin.ext
    match a with
    | ⟨0, _⟩ => show 0 + 1 * r.val = r.val; omega
    | ⟨1, _⟩ => show 0 + 1 * k.val = k.val; omega
  rw [e, payL_p1]
  show _ = Ideal.div (x1 (ix2 r (laneL_p1 k)) + Ideal.div (x0 (ix2 r (laneL_p1 k)))
      (max (Ideal.sqrt (∑ q : Fin 64, x0 (ix2 r (Cert.Spec.halfLane (laneL_p1 k) q)) * x0 (ix2 r (Cert.Spec.halfLane (laneL_p1 k) q)))) Cert.Spec.eps)) Cert.Spec.three
  simp only [halfLane_L_p1]

/-- The right half's store likewise. -/
theorem pieceR_p1 (x0 x1 : Vec Ideal S5000x128 .f32) (x : S5000x64.Idx) :
    k1_pay4 x0 x1 x = Cert.Spec.normAddP (h := 5000) Cert.Spec.three x0 x1 (r1_2.emb x) := by
  obtain ⟨r, k, rfl⟩ : ∃ (r : Fin 5000) (k : Fin 64), x = ix2 r k := ⟨x 0, x 1, eq_ix2 x⟩
  have e : r1_2.emb (ix2 r k) = ix2 r (laneR_p1 k) := by
    funext a; apply Fin.ext
    match a with
    | ⟨0, _⟩ => show 0 + 1 * r.val = r.val; omega
    | ⟨1, _⟩ => show 64 + 1 * k.val = 64 + k.val; omega
  rw [e, payR_p1]
  show _ = Ideal.div (x1 (ix2 r (laneR_p1 k)) + Ideal.div (x0 (ix2 r (laneR_p1 k)))
      (max (Ideal.sqrt (∑ q : Fin 64, x0 (ix2 r (Cert.Spec.halfLane (laneR_p1 k) q)) * x0 (ix2 r (Cert.Spec.halfLane (laneR_p1 k) q)))) Cert.Spec.eps)) Cert.Spec.three
  simp only [halfLane_R_p1]

/-- What the body leaves in the output's staging buffer: the packed layer of the two input blocks. -/
theorem out_p1 (x0 x1 : Vec Ideal S5000x128 .f32) :
    out1_2 x0 x1 = Cert.Spec.normAddP (h := 5000) Cert.Spec.three x0 x1 := by
  funext y
  unfold out1_2
  simp only [View.ld_unit_zero (S := S5000x128) hz_p1]
  refine View.canon_apply_of_pieces (Val := Elt Ideal) (S := S5000x128) (e := .f32)
    (Cert.Spec.normAddP (h := 5000) Cert.Spec.three x0 x1) _ ?_ y (cover1_2 _ _ y)
  intro p hp x
  simp only [List.mem_cons, List.not_mem_nil, or_false] at hp
  rcases hp with rfl | rfl
  · exact pieceR_p1 x0 x1 x
  · exact pieceL_p1 x0 x1 x

variable (V : (c : Dev nD) → (b : Ref sig .tc) → Buf (Elt Ideal) ((c : Thread nD τ).loc b))

/-- The packed layer works row by row: on the 5000 rows of block `b` cut out of the two arrays it is the same rows of
    the layer of the arrays. -/
theorem rows_p1 (dv : EReal) (A0 A1 : Cert.Spec.Arr 150000 128) (x0 x1 : Cert.Spec.Arr 5000 128) (b : ℕ) (hb : b < 30)
    (h0 : ∀ (p : Fin 5000) (l : Fin 128), x0 (ix2 p l) = A0 (ix2 (⟨b * 5000 + p.val, by have := p.isLt; omega⟩ : Fin 150000) l))
    (h1 : ∀ (p : Fin 5000) (l : Fin 128), x1 (ix2 p l) = A1 (ix2 (⟨b * 5000 + p.val, by have := p.isLt; omega⟩ : Fin 150000) l))
    (p : Fin 5000) (l : Fin 128) :
    Cert.Spec.normAddP (h := 5000) dv x0 x1 (ix2 p l)
      = Cert.Spec.normAddP (h := 150000) dv A0 A1 (ix2 (⟨b * 5000 + p.val, by have := p.isLt; omega⟩ : Fin 150000) l) := by
  show Ideal.div (x1 (ix2 p l) + Ideal.div (x0 (ix2 p l))
        (max (Ideal.sqrt (∑ k : Fin 64, x0 (ix2 p (Cert.Spec.halfLane l k)) * x0 (ix2 p (Cert.Spec.halfLane l k)))) Cert.Spec.eps)) dv
      = Ideal.div (A1 (ix2 _ l) + Ideal.div (A0 (ix2 _ l))
        (max (Ideal.sqrt (∑ k : Fin 64, A0 (ix2 _ (Cert.Spec.halfLane l k)) * A0 (ix2 _ (Cert.Spec.halfLane l k)))) Cert.Spec.eps)) dv
  simp only [h0, h1]

/-- The printed index maps over the grid: at point `t` every window's block is block `t` of rows, all 128 lanes. -/
theorem idx_p1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- The layer output's block at point `t` is rows `5000 t … 5000 t + 4999` of its array. -/
theorem blkF_p1 (c : Dev nD) (t : Fin cfg1.N) (ht : t.val < 30) (p : Fin 5000) (l : Fin 128) :
    (iblk1 V c 0 t : Vec Ideal S5000x128 .f32) (ix2 p l)
      = (V c (Pipeline.arrRef spec1 0) : Cert.Spec.Arr 150000 128)
          (ix2 (⟨t.val * 5000 + p.val, by have := p.isLt; omega⟩ : Fin 150000) l) := by
  obtain ⟨e0, e1, -⟩ := idx_p1 t
  unfold iblk1
  rw [View.read_apply]
  show V c (Pipeline.arrRef spec1 0) _ = V c (Pipeline.arrRef spec1 0) _
  congr 1
  funext a
  apply Fin.ext
  match a with
  | ⟨0, _⟩ => show win1_0.index t (0 : Fin 2) * 5000 + 1 * p.val = t.val * 5000 + p.val; rw [e0]; omega
  | ⟨1, _⟩ => show win1_0.index t (1 : Fin 2) * 128 + 1 * l.val = l.val; rw [e1]; omega

/-- The running sum's block at point `t` is the same rows of its array. -/
theorem blkA_p1 (c : Dev nD) (t : Fin cfg1.N) (ht : t.val < 30) (p : Fin 5000) (l : Fin 128) :
    (iblk1 V c 1 t : Vec Ideal S5000x128 .f32) (ix2 p l)
      = (V c (Pipeline.arrRef spec1 1) : Cert.Spec.Arr 150000 128)
          (ix2 (⟨t.val * 5000 + p.val, by have := p.isLt; omega⟩ : Fin 150000) l) := by
  obtain ⟨-, -, e0, e1, -⟩ := idx_p1 t
  unfold iblk1
  rw [View.read_apply]
  show V c (Pipeline.arrRef spec1 1) _ = V c (Pipeline.arrRef spec1 1) _
  congr 1
  funext a
  apply Fin.ext
  match a with
  | ⟨0, _⟩ => show win1_1.index t (0 : Fin 2) * 5000 + 1 * p.val = t.val * 5000 + p.val; rw [e0]; omega
  | ⟨1, _⟩ => show win1_1.index t (1 : Fin 2) * 128 + 1 * l.val = l.val; rw [e1]; omega

/-- What point `t` writes back is block `t` of the packed layer of the two whole input arrays. -/
theorem flushed_p1 (c : Dev nD) (t : Fin cfg1.N) :
    (dat1 V c).flushed 2 t = ((cfg1.win 2).blk t).view.read (Elt Ideal)
      (Cert.Spec.normAddP (h := 150000) Cert.Spec.three (V c (Pipeline.arrRef spec1 0)) (V c (Pipeline.arrRef spec1 1))) := by
  have ht : t.val < 30 := by
    have h : t.val < cfg1.N := t.isLt
    have e : cfg1.N = 30 := N_1
    omega
  obtain ⟨-, -, -, -, e0, e1⟩ := idx_p1 t
  show (cfg1.win 2).cut (grid1.coords t) ((dat1 V c).after 2 t) = _
  rw [after1_2, out_p1]
  funext j
  obtain ⟨p, l, rfl⟩ : ∃ (p : Fin 5000) (l : Fin 128), j = ix2 p l := ⟨j 0, j 1, eq_ix2 j⟩
  rw [View.read_apply]
  have e : ((cfg1.win 2).blk t).view.emb (ix2 p l)
      = ix2 (⟨t.val * 5000 + p.val, by have := p.isLt; omega⟩ : Fin 150000) l := by
    funext a
    apply Fin.ext
    match a with
    | ⟨0, _⟩ => show win1_2.index t (0 : Fin 2) * 5000 + 1 * p.val = t.val * 5000 + p.val; rw [e0]; omega
    | ⟨1, _⟩ => show win1_2.index t (1 : Fin 2) * 128 + 1 * l.val = l.val; rw [e1]; omega
  rw [e]
  exact rows_p1 Cert.Spec.three (V c (Pipeline.arrRef spec1 0)) (V c (Pipeline.arrRef spec1 1))
    (iblk1 V c 0 t) (iblk1 V c 1 t) t.val ht (blkF_p1 V c t ht) (blkA_p1 V c t ht) p l

/-- An index of the array is in point `t`'s block iff each coordinate is in the block's range on its axis. -/
theorem mem_blk_p1 (t : Fin cfg1.N) (i : S150000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_call0_v33).slice (win1_2.rect t)).set ↔ _
  rw [View.set_slice_whole, Rect.mem_set_unit]
  exact Iff.rfl

/-- The blocks tile the array: row `r` lies in the block of point `r / 5000`. -/
theorem cover_p1 (i : S150000x128.Idx) :
    ∃ t : Fin cfg1.N, (cfg1.win 2).flush t = true ∧ i ∈ ((cfg1.win 2).blk t).view.set := by
  have hi0 : (i 0).val < 150000 := (i 0).isLt
  have hi1 : (i 1).val < 128 := (i 1).isLt
  have hN : cfg1.N = 30 := N_1
  obtain ⟨t, ht⟩ : ∃ t : Fin cfg1.N, t.val = (i 0).val / 5000 := ⟨⟨(i 0).val / 5000, by rw [hN]; omega⟩, rfl⟩
  obtain ⟨-, -, -, -, e0, e1⟩ := idx_p1 t
  refine ⟨t, flush1_2 t, ?_⟩
  rw [mem_blk_p1]
  intro a
  match a with
  | ⟨0, _⟩ =>
    show win1_2.index t (0 : Fin 2) * 5000 ≤ (i 0).val ∧ (i 0).val < win1_2.index t (0 : Fin 2) * 5000 + 5000
    rw [e0, ht]; omega
  | ⟨1, _⟩ =>
    show win1_2.index t (1 : Fin 2) * 128 ≤ (i 1).val ∧ (i 1).val < win1_2.index t (1 : Fin 2) * 128 + 128
    rw [e1]; omega

/-- The output array after pipeline 1: the packed layer of its two input arrays, divided by the layer's divisor. -/
theorem arrAt1 (c : Dev nD) :
    (dat1 V c).arrAt 2 cfg1.N
      = Cert.Spec.normAddP (h := 150000) Cert.Spec.three (V c (Pipeline.arrRef spec1 0)) (V c (Pipeline.arrRef spec1 1)) :=
  (dat1 V c).arrAt_eq_of_cover 2 _ (fun t _ => flushed_p1 V c t) cover_p1

end Cert.KernelIdeal.KNa

end
-- ==== Proof.KPropUI.lean ====
/-
  The UI graph on the kernel's side: the two host stretches and two pipelines that propagate its features, read
  back as the two layers `prop3` of the stacked features and their sparse products.

  Stretch 0 stacks the two node sets, forms the first sparse product and re-lays both as 150000 rows of 128; pipeline 0
  adds the row-normalised product to the stack on that layout. Stretch 1 un-packs the sum, forms the second sparse
  product and re-lays both; pipeline 1 adds the row-normalised second product and divides by three. Stretch 2 un-packs
  the mean and slices the rows of each node set. A re-laying is `pack` or `unpack`, the packed layer of packed arrays is
  the packing of the plain layer, and un-packing undoes packing, so the two slices are rows of `prop3`.
-/
import proofs.«408083_j64364379898214_3_alg».proof.Proof.Gen.KernelIdeal.Frame
import proofs.«408083_j64364379898214_3_alg».proof.Proof.Spec
import proofs.«408083_j64364379898214_3_alg».proof.Proof.SpecHost
import proofs.«408083_j64364379898214_3_alg».proof.Proof.SpecLemmas
import proofs.«408083_j64364379898214_3_alg».proof.Proof.KNa0
import proofs.«408083_j64364379898214_3_alg».proof.Proof.KNa1
import Idealize.ShloMosaic.Lib.Pipeline.Value

set_option maxRecDepth 16384

noncomputable section

namespace Cert.KernelIdeal.KProp

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

namespace UI

/-- Reads a stretch's result buffer back as the composed term of its operations. -/
local macro "host_results" : tactic =>
  `(tactic| (after_results_simp <;> (try simp only [StableHlo.TRef.ofBuf, StableHlo.TRef.toBuf, cast_eq]) <;> rfl))

/-- A buffer that no operation of the stretch writes keeps its contents. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three host stretches, read over any contents at their start -/

section Stretches
variable (V : Valuation τ sig (Elt Ideal))

/-- Stretch 0 stacks the two node sets, -/
theorem after0_v0 :
    StableHlo.after hostOps0 V (Proc.devRef .tc main_call0_v0)
      = SpecHost.featUI (V (Proc.devRef .tc main_arg0)) (V (Proc.devRef .tc main_arg1)) := by
  host_results

/-- forms the sparse product of the stack, -/
theorem after0_v13 :
    StableHlo.after hostOps0 V (Proc.devRef .tc main_call0_v13)
      = SpecHost.spmm300000 (V (Proc.devRef .tc main_arg7)) (V (Proc.devRef .tc main_arg8)) (V (Proc.devRef .tc main_arg9))
          (SpecHost.featUI (V (Proc.devRef .tc main_arg0)) (V (Proc.devRef .tc main_arg1))) := by
  host_results

/-- and re-lays the product -/
theorem after0_v14 :
    StableHlo.after hostOps0 V (Proc.devRef .tc main_call0_v14)
      = shapeCast S150000x128
          (SpecHost.spmm300000 (V (Proc.devRef .tc main_arg7)) (V (Proc.devRef .tc main_arg8)) (V (Proc.devRef .tc main_arg9))
            (SpecHost.featUI (V (Proc.devRef .tc main_arg0)) (V (Proc.devRef .tc main_arg1))))
          shapeCasts_S300000x64_S150000x128 := by
  host_results

/-- and the stack. -/
theorem after0_v15 :
    StableHlo.after hostOps0 V (Proc.devRef .tc main_call0_v15)
      = shapeCast S150000x128 (SpecHost.featUI (V (Proc.devRef .tc main_arg0)) (V (Proc.devRef .tc main_arg1)))
          shapeCasts_S300000x64_S150000x128 := by
  host_results

/-- Stretch 1 forms the sparse product of the first product and re-lays it, -/
theorem after1_v31 :
    StableHlo.after hostOps1 V (Proc.devRef .tc main_call0_v31)
      = shapeCast S150000x128
          (SpecHost.spmm300000 (V (Proc.devRef .tc main_arg7)) (V (Proc.devRef .tc main_arg8)) (V (Proc.devRef .tc main_arg9))
            (V (Proc.devRef .tc main_call0_v13)))
          shapeCasts_S300000x64_S150000x128 := by
  host_results

/-- and re-lays the first pipeline's output twice. -/
theorem after1_v32 :
    StableHlo.after hostOps1 V (Proc.devRef .tc main_call0_v32)
      = shapeCast S150000x128
          (shapeCast S300000x64 (V (Proc.devRef .tc main_call0_v16) : FVec Ideal S150000x128 .f32) shapeCasts_S150000x128_S300000x64)
          shapeCasts_S300000x64_S150000x128 := by
  host_results

/-- Stretch 2 re-lays the second pipeline's output and slices the first node set's rows -/
theorem after2_v0_0 :
    StableHlo.after hostOps2 V (Proc.devRef .tc main_v0_0)
      = extractStridedSlice S200000x64 ![0, 0]
          (shapeCast S300000x64 (V (Proc.devRef .tc main_call0_v33) : FVec Ideal S150000x128 .f32) shapeCasts_S150000x128_S300000x64)
          slices_S300000x64_S200000x64_0_0 := by
  host_results

/-- and the second node set's. -/
theorem after2_v0_5 :
    StableHlo.after hostOps2 V (Proc.devRef .tc main_v0_5)
      = extractStridedSlice S100000x64 ![200000, 0]
          (shapeCast S300000x64 (V (Proc.devRef .tc main_call0_v33) : FVec Ideal S150000x128 .f32) shapeCasts_S150000x128_S300000x64)
          slices_S300000x64_S100000x64_200000_0 := by
  host_results

end Stretches

/-! ## The re-layings and the row slices -/

/-- Re-laying 300000 rows of 64 as 150000 rows of 128 is packing. -/
theorem shapeCast_pack (x : FVec Ideal S300000x64 .f32) :
    shapeCast S150000x128 x shapeCasts_S300000x64_S150000x128 = Cert.Spec.pack (n := 300000) (h := 150000) (by decide) x := by
  funext j
  refine shapeCast_apply x _ j _ ?_
  rw [Shape.rowMajor_val_two, Shape.rowMajor_val_two]
  show (2 * (j 0).val + (j 1).val / 64) * 64 + (j 1).val % 64 = (j 0).val * 128 + (j 1).val
  omega

/-- Re-laying 150000 rows of 128 as 300000 rows of 64 is unpacking. -/
theorem shapeCast_unpack (y : FVec Ideal S150000x128 .f32) :
    shapeCast S300000x64 y shapeCasts_S150000x128_S300000x64 = Cert.Spec.unpack (n := 300000) (h := 150000) (by decide) y := by
  funext j
  refine shapeCast_apply y _ j _ ?_
  rw [Shape.rowMajor_val_two, Shape.rowMajor_val_two]
  show (j 0).val / 2 * 128 + (64 * ((j 0).val % 2) + (j 1).val) = (j 0).val * 64 + (j 1).val
  omega

/-- The slice of the first 200000 rows. -/
theorem slice_rows0 (x : FVec Ideal S300000x64 .f32) :
    extractStridedSlice S200000x64 ![0, 0] x slices_S300000x64_S200000x64_0_0
      = Cert.Spec.rowsFrom 0 (n := 300000) (k := 200000) (by decide) x := by
  funext j
  refine extractStridedSlice_apply ![0, 0] x _ j _ ?_
  intro a; fin_cases a
  · show 0 + (j 0).val = 0 + (j 0).val; rfl
  · show (j 1).val = 0 + (j 1).val; omega

/-- The slice of the last 100000 rows. -/
theorem slice_rows200000 (x : FVec Ideal S300000x64 .f32) :
    extractStridedSlice S100000x64 ![200000, 0] x slices_S300000x64_S100000x64_200000_0
      = Cert.Spec.rowsFrom 200000 (n := 300000) (k := 100000) (by decide) x := by
  funext j
  refine extractStridedSlice_apply ![200000, 0] x _ j _ ?_
  intro a; fin_cases a
  · show 200000 + (j 0).val = 200000 + (j 0).val; rfl
  · show (j 1).val = 0 + (j 1).val; omega

/-! ## The stacked features and their sparse products -/

/-- The stacked features of the graph's two node sets, -/
abbrev feat (c : Dev nD) : FVec Ideal S300000x64 .f32 :=
  SpecHost.featUI (m ((c : Thread nD τ).loc main_arg0)) (m ((c : Thread nD τ).loc main_arg1))
/-- and the graph's sparse product. -/
abbrev sp (c : Dev nD) (x : FVec Ideal S300000x64 .f32) : FVec Ideal S300000x64 .f32 :=
  SpecHost.spmm300000 (m ((c : Thread nD τ).loc main_arg7)) (m ((c : Thread nD τ).loc main_arg8)) (m ((c : Thread nD τ).loc main_arg9)) x

/-! ## Stretch 0 and pipeline 0: the first layer, packed -/

theorem W1_v13 (c : Dev nD) : (W1 m ρ c (Proc.devRef .tc main_call0_v13) : FVec Ideal S300000x64 .f32) = sp m c (feat m c) :=
  after0_v13 (W0 m ρ c)

theorem W1_v14 (c : Dev nD) :
    (W1 m ρ c (Proc.devRef .tc main_call0_v14) : FVec Ideal S150000x128 .f32)
      = Cert.Spec.pack (n := 300000) (h := 150000) (by decide) (sp m c (feat m c)) :=
  (after0_v14 (W0 m ρ c)).trans (shapeCast_pack _)

theorem W1_v15 (c : Dev nD) :
    (W1 m ρ c (Proc.devRef .tc main_call0_v15) : FVec Ideal S150000x128 .f32)
      = Cert.Spec.pack (n := 300000) (h := 150000) (by decide) (feat m c) :=
  (after0_v15 (W0 m ρ c)).trans (shapeCast_pack _)

/-- The graph's edge arrays are as launched when stretch 1 begins. -/
theorem W2_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl
theorem W2_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := by host_keeps hostOps0
    _ = m ((c : Thread nD τ).loc main_arg8) := rfl
theorem W2_arg9 (c : Dev nD) : W2 m ρ c (Proc.devRef .tc main_arg9) = m ((c : Thread nD τ).loc main_arg9) :=
  calc W2 m ρ c (Proc.devRef .tc main_arg9)
    _ = W1 m ρ c (Proc.devRef .tc main_arg9) := W2_of_ne m ρ c main_arg9 (by decide)
    _ = W0 m ρ c (Proc.devRef .tc main_arg9) := by host_keeps hostOps0
    _ = m ((c : Thread nD τ).loc main_arg9) := rfl

/-- The first sparse product is untouched by pipeline 0. -/
theorem W2_v13 (c : Dev nD) : (W2 m ρ c (Proc.devRef .tc main_call0_v13) : FVec Ideal S300000x64 .f32) = sp m c (feat m c) :=
  (W2_of_ne m ρ c main_call0_v13 (by decide)).trans (W1_v13 m ρ c)

/-- Pipeline 0 leaves the packed first layer in v16. -/
theorem W2_v16 (c : Dev nD) :
    (W2 m ρ c (Proc.devRef .tc main_call0_v16) : FVec Ideal S150000x128 .f32)
      = Cert.Spec.pack (n := 300000) (h := 150000) (by decide) (Cert.Spec.normAdd (sp m c (feat m c)) (feat m c)) := by
  refine (W2_arr m ρ c 2).trans ?_
  rw [KNa.arrAt0 (V1 m ρ) c]
  show Cert.Spec.normAddP Cert.Spec.one (W1 m ρ c (Proc.devRef .tc main_call0_v14)) (W1 m ρ c (Proc.devRef .tc main_call0_v15)) = _
  rw [W1_v14, W1_v15, Cert.Spec.normAddP_pack]
  congr 1; funext j; exact Cert.Spec.div_one _

/-! ## Stretch 1 and pipeline 1: the second layer and the mean, packed -/

/-- The second sparse product, packed. -/
theorem W3_v31 (c : Dev nD) :
    (W3 m ρ c (Proc.devRef .tc main_call0_v31) : FVec Ideal S150000x128 .f32)
      = Cert.Spec.pack (n := 300000) (h := 150000) (by decide) (sp m c (sp m c (feat m c))) := by
  refine (after1_v31 (W2 m ρ c)).trans ?_
  rw [W2_arg7, W2_arg8, W2_arg9, W2_v13, shapeCast_pack]

/-- The first layer, packed again. -/
theorem W3_v32 (c : Dev nD) :
    (W3 m ρ c (Proc.devRef .tc main_call0_v32) : FVec Ideal S150000x128 .f32)
      = Cert.Spec.pack (n := 300000) (h := 150000) (by decide) (Cert.Spec.normAdd (sp m c (feat m c)) (feat m c)) := by
  refine (after1_v32 (W2 m ρ c)).trans ?_
  rw [W2_v16, shapeCast_unpack, Cert.Spec.unpack_pack, shapeCast_pack]

theorem W4_v33 (c : Dev nD) :
    (W4 m ρ c (Proc.devRef .tc main_call0_v33) : FVec Ideal S150000x128 .f32)
      = Cert.Spec.pack (n := 300000) (h := 150000) (by decide)
          (Cert.Spec.prop3 (feat m c) (sp m c (feat m c)) (sp m c (sp m c (feat m c)))) := by
  refine (W4_arr m ρ c 2).trans ?_
  rw [KNa.arrAt1 (V3 m ρ) c]
  show Cert.Spec.normAddP Cert.Spec.three (W3 m ρ c (Proc.devRef .tc main_call0_v31)) (W3 m ρ c (Proc.devRef .tc main_call0_v32)) = _
  rw [W3_v31, W3_v32, Cert.Spec.normAddP_pack]
  rfl

/-! ## Stretch 2: un-pack and slice the two node sets' rows -/

/-- Rows 0 … 199999 of the propagated features, when stretch 2 ends. -/
theorem W5_v0_0 (c : Dev nD) :
    (W5 m ρ c (Proc.devRef .tc main_v0_0) : FVec Ideal S200000x64 .f32)
      = Cert.Spec.rowsFrom 0 (n := 300000) (k := 200000) (by decide)
          (Cert.Spec.prop3 (feat m c) (sp m c (feat m c)) (sp m c (sp m c (feat m c)))) := by
  refine (after2_v0_0 (W4 m ρ c)).trans ?_
  rw [W4_v33, shapeCast_unpack, Cert.Spec.unpack_pack, slice_rows0]

/-- Rows 200000 … 299999 of the propagated features, when stretch 2 ends. -/
theorem W5_v0_5 (c : Dev nD) :
    (W5 m ρ c (Proc.devRef .tc main_v0_5) : FVec Ideal S100000x64 .f32)
      = Cert.Spec.rowsFrom 200000 (n := 300000) (k := 100000) (by decide)
          (Cert.Spec.prop3 (feat m c) (sp m c (feat m c)) (sp m c (sp m c (feat m c)))) := by
  refine (after2_v0_5 (W4 m ρ c)).trans ?_
  rw [W4_v33, shapeCast_unpack, Cert.Spec.unpack_pack, slice_rows200000]

/-! ## The two results are written once: later stretches and pipelines leave them -/

theorem W12_keep_v0_0 (c : Dev nD) : W12 m ρ c (Proc.devRef .tc main_v0_0) = W5 m ρ c (Proc.devRef .tc main_v0_0) :=
  calc W12 m ρ c (Proc.devRef .tc main_v0_0)
    _ = W11 m ρ c (Proc.devRef .tc main_v0_0) := W12_of_ne m ρ c main_v0_0 (by decide)
    _ = W10 m ρ c (Proc.devRef .tc main_v0_0) := by host_keeps hostOps5
    _ = W9 m ρ c (Proc.devRef .tc main_v0_0) := W10_of_ne m ρ c main_v0_0 (by decide)
    _ = W8 m ρ c (Proc.devRef .tc main_v0_0) := by host_keeps hostOps4
    _ = W7 m ρ c (Proc.devRef .tc main_v0_0) := W8_of_ne m ρ c main_v0_0 (by decide)
    _ = W6 m ρ c (Proc.devRef .tc main_v0_0) := by host_keeps hostOps3
    _ = W5 m ρ c (Proc.devRef .tc main_v0_0) := W6_of_ne m ρ c main_v0_0 (by decide)

theorem W12_keep_v0_5 (c : Dev nD) : W12 m ρ c (Proc.devRef .tc main_v0_5) = W5 m ρ c (Proc.devRef .tc main_v0_5) :=
  calc W12 m ρ c (Proc.devRef .tc main_v0_5)
    _ = W11 m ρ c (Proc.devRef .tc main_v0_5) := W12_of_ne m ρ c main_v0_5 (by decide)
    _ = W10 m ρ c (Proc.devRef .tc main_v0_5) := by host_keeps hostOps5
    _ = W9 m ρ c (Proc.devRef .tc main_v0_5) := W10_of_ne m ρ c main_v0_5 (by decide)
    _ = W8 m ρ c (Proc.devRef .tc main_v0_5) := by host_keeps hostOps4
    _ = W7 m ρ c (Proc.devRef .tc main_v0_5) := W8_of_ne m ρ c main_v0_5 (by decide)
    _ = W6 m ρ c (Proc.devRef .tc main_v0_5) := by host_keeps hostOps3
    _ = W5 m ρ c (Proc.devRef .tc main_v0_5) := W6_of_ne m ρ c main_v0_5 (by decide)

theorem W14_keep_v0_0 (c : Dev nD) : W14 m ρ c (Proc.devRef .tc main_v0_0) = W12 m ρ c (Proc.devRef .tc main_v0_0) :=
  calc W14 m ρ c (Proc.devRef .tc main_v0_0)
    _ = W13 m ρ c (Proc.devRef .tc main_v0_0) := W14_of_ne m ρ c main_v0_0 (by decide)
    _ = W12 m ρ c (Proc.devRef .tc main_v0_0) := by host_keeps hostOps6

theorem W14_keep_v0_5 (c : Dev nD) : W14 m ρ c (Proc.devRef .tc main_v0_5) = W12 m ρ c (Proc.devRef .tc main_v0_5) :=
  calc W14 m ρ c (Proc.devRef .tc main_v0_5)
    _ = W13 m ρ c (Proc.devRef .tc main_v0_5) := W14_of_ne m ρ c main_v0_5 (by decide)
    _ = W12 m ρ c (Proc.devRef .tc main_v0_5) := by host_keeps hostOps6

end UI

/-! ## What the run leaves in the two results -/

/-- What the run leaves in result `main_v0_0`: rows 0 … 199999 of the graph's propagated features. -/
theorem W14_main_v0_0 (c : Dev nD) :
    W14 m ρ c (Proc.devRef .tc main_v0_0)
      = Cert.Spec.rowsFrom 0 (n := 300000) (k := 200000) (by decide) (Cert.KernelIdeal.SpecHost.prop300000 (m ((c : Thread nD τ).loc main_arg7)) (m ((c : Thread nD τ).loc main_arg8)) (m ((c : Thread nD τ).loc main_arg9)) (Cert.KernelIdeal.SpecHost.featUI (m ((c : Thread nD τ).loc main_arg0)) (m ((c : Thread nD τ).loc main_arg1)))) :=
  ((UI.W14_keep_v0_0 m ρ c).trans (UI.W12_keep_v0_0 m ρ c)).trans (UI.W5_v0_0 m ρ c)

/-- What pipeline 5 leaves in `main_v0_5`: rows 200000 … 299999 of the graph's propagated features. -/
theorem W12_main_v0_5 (c : Dev nD) :
    W12 m ρ c (Proc.devRef .tc main_v0_5)
      = Cert.Spec.rowsFrom 200000 (n := 300000) (k := 100000) (by decide) (Cert.KernelIdeal.SpecHost.prop300000 (m ((c : Thread nD τ).loc main_arg7)) (m ((c : Thread nD τ).loc main_arg8)) (m ((c : Thread nD τ).loc main_arg9)) (Cert.KernelIdeal.SpecHost.featUI (m ((c : Thread nD τ).loc main_arg0)) (m ((c : Thread nD τ).loc main_arg1)))) :=
  (UI.W12_keep_v0_5 m ρ c).trans (UI.W5_v0_5 m ρ c)

/-- What the run leaves in result `main_v0_5`: rows 200000 … 299999 of the graph's propagated features. -/
theorem W14_main_v0_5 (c : Dev nD) :
    W14 m ρ c (Proc.devRef .tc main_v0_5)
      = Cert.Spec.rowsFrom 200000 (n := 300000) (k := 100000) (by decide) (Cert.KernelIdeal.SpecHost.prop300000 (m ((c : Thread nD τ).loc main_arg7)) (m ((c : Thread nD τ).loc main_arg8)) (m ((c : Thread nD τ).loc main_arg9)) (Cert.KernelIdeal.SpecHost.featUI (m ((c : Thread nD τ).loc main_arg0)) (m ((c : Thread nD τ).loc main_arg1)))) :=
  (UI.W14_keep_v0_5 m ρ c).trans (W12_main_v0_5 m ρ c)

end Cert.KernelIdeal.KProp

end
-- ==== Proof.KNa2.lean ====
/-
  Pipeline 2: what the whole output array holds when the pipeline has run. Every grid point normalises and adds its
  5000 packed rows, the blocks tile the array, so the array is the packed layer `normAddP` of the two input arrays.

  The body's two stores are read at a lane: each 64-lane half of a packed row is divided by the clamped Euclidean norm of
  that half, added to the running sum and divided by the layer's divisor. Together the two stores are the packed layer of
  the two blocks; the packed layer works row by row, so block `t` of the layer of the arrays is the layer of the arrays'
  blocks `t`; and row `r` of the array lies in the block of point `r / 5000`.
-/
import proofs.«408083_j64364379898214_3_alg».proof.Proof.Gen.KernelIdeal.Frame
import proofs.«408083_j64364379898214_3_alg».proof.Proof.Spec
import Idealize.ShloMosaic.Lib.Pipeline.Value
import Idealize.ShloMosaic.PureOps.Ideal.Laws

set_option maxRecDepth 16384

noncomputable section

namespace Cert.KernelIdeal.KNa

open Cert.KernelIdeal Cert.KernelIdeal.Gen Idealize.ShloMosaic Idealize.ShloMosaic.TcCoe Idealize.ShloMosaic.ValueIdx Idealize.SL.Sem

/-- The sum over the 64 lanes of row `r` of a 5000 × 64 block. -/
theorem laneSum_p2 (v : FVec Ideal S5000x64 .f32) (hφ : FKind.Formats .f32)
    (hacc : (0x00000000#32 : BitVec 32) = 0x00000000#32) (r : Fin 5000) :
    multiReduction .add [1] S5000 v 0x00000000#32 Gen.reduces_S5000x64_S5000 hφ hacc (ix1 r)
      = ∑ k : Fin 64, v (ix2 r k) := by
  refine (Ideal.multiReduction_add_single v 0x00000000#32 Gen.reduces_S5000x64_S5000 hφ hacc (ix1 r)).trans ?_
  refine Finset.sum_congr rfl fun k _ => congrArg v ?_
  funext a
  match a with
  | ⟨0, _⟩ => rfl
  | ⟨1, _⟩ => rfl

/-- Lane `k` of the left half of a 128-lane row. -/
abbrev laneL_p2 (k : Fin 64) : Fin 128 := ⟨k.val, by omega⟩
/-- Lane `k` of the right half of a 128-lane row. -/
abbrev laneR_p2 (k : Fin 64) : Fin 128 := ⟨64 + k.val, by omega⟩

/-- The left 64 lanes cut out of a 128-lane block: lane `k` of the cut is lane `k` of the block. -/
theorem sliceL_p2 (x : FVec Ideal S5000x128 .f32) (r : Fin 5000) (k : Fin 64) :
    extractStridedSlice S5000x64 ![0, 0] x Gen.slices_S5000x128_o0_0_S5000x64 (ix2 r k) = x (ix2 r (laneL_p2 k)) := by
  refine extractStridedSlice_apply _ _ _ (ix2 r k) (ix2 r (laneL_p2 k)) fun a => ?_
  match a with
  | ⟨0, _⟩ => show r.val = 0 + r.val; omega
  | ⟨1, _⟩ => show k.val = 0 + k.val; omega

/-- The right 64 lanes cut out of a 128-lane block: lane `k` of the cut is lane `64 + k` of the block. -/
theorem sliceR_p2 (x : FVec Ideal S5000x128 .f32) (r : Fin 5000) (k : Fin 64) :
    extractStridedSlice S5000x64 ![0, 64] x Gen.slices_S5000x128_o0_64_S5000x64 (ix2 r k) = x (ix2 r (laneR_p2 k)) := by
  refine extractStridedSlice_apply _ _ _ (ix2 r k) (ix2 r (laneR_p2 k)) fun a => ?_
  match a with
  | ⟨0, _⟩ => show r.val = 0 + r.val; omega
  | ⟨1, _⟩ => show 64 + k.val = 64 + k.val; rfl

/-- A column vector spread over 64 lanes reads, in every lane of row `r`, the column's entry at `r`. -/
theorem spreadCol_p2 (v : FVec Ideal S5000x1 .f32) (r : Fin 5000) (k : Fin 64) :
    broadcastTo S5000x64 v Gen.broadcasts_S5000x1_S5000x64 (ix2 r k) = v (ix2 r (0 : Fin 1)) := by
  refine broadcastTo_apply _ _ (ix2 r k) (ix2 r (0 : Fin 1)) fun a => ?_
  match a with
  | ⟨0, _⟩ => rfl
  | ⟨1, _⟩ => rfl

/-- A vector of 5000 entries recast as a column holds entry `r` in row `r`. -/
theorem asCol_p2 (v : FVec Ideal S5000 .f32) (r : Fin 5000) :
    shapeCast S5000x1 v Gen.shapeCasts_S5000_S5000x1 (ix2 r (0 : Fin 1)) = v (ix1 r) := by
  refine shapeCast_apply _ _ (ix2 r (0 : Fin 1)) (ix1 r) ?_
  rw [Shape.rowMajor_val_one, Shape.rowMajor_val_two]
  show r.val = r.val * 1 + 0
  omega

/-- The clamped norm of row `r` of a 64-lane half, spread over the half's lanes. -/
theorem halfNorm_p2 (y : FVec Ideal S5000x64 .f32) (hφ : FKind.Formats .f32)
    (hacc : (0x00000000#32 : BitVec 32) = 0x00000000#32) (r : Fin 5000) (k : Fin 64) :
    broadcastTo S5000x64
        (maximumf (sqrt (shapeCast S5000x1 (multiReduction .add [1] S5000 (mulf y y) 0x00000000#32
            Gen.reduces_S5000x64_S5000 hφ hacc) Gen.shapeCasts_S5000_S5000x1))
          (broadcast S5000x1 (Scalar.ofBits .f32 0x2B8CBCCC#32)))
        Gen.broadcasts_S5000x1_S5000x64 (ix2 r k)
      = max (Ideal.sqrt (∑ q : Fin 64, y (ix2 r q) * y (ix2 r q))) Cert.Spec.eps := by
  refine (spreadCol_p2 _ r k).trans ?_
  show max (Ideal.sqrt (shapeCast S5000x1 _ Gen.shapeCasts_S5000_S5000x1 (ix2 r (0 : Fin 1)))) Cert.Spec.eps = _
  rw [asCol_p2, laneSum_p2]
  rfl

/-- What the body stores into the left half: lane `k` of row `r` is the running sum there plus the layer output there
    over the clamped norm of the row's left half, all over the divisor. -/
theorem payL_p2 (x0 x1 : Vec Ideal S5000x128 .f32) (r : Fin 5000) (k : Fin 64) :
    k2_pay3 x0 x1 (ix2 r k)
      = Ideal.div (x1 (ix2 r (laneL_p2 k)) + Ideal.div (x0 (ix2 r (laneL_p2 k)))
          (max (Ideal.sqrt (∑ q : Fin 64, x0 (ix2 r (laneL_p2 q)) * x0 (ix2 r (laneL_p2 q)))) Cert.Spec.eps)) Cert.Spec.one := by
  unfold k2_pay3 k2_pay1 k2_pay2
  dsimp only
  show Ideal.div (extractStridedSlice S5000x64 ![0, 0] (shapeCast S5000x128 x1 _) _ (ix2 r k)
      + Ideal.div (extractStridedSlice S5000x64 ![0, 0] (shapeCast S5000x128 x0 _) _ (ix2 r k))
          (broadcastTo S5000x64 _ _ (ix2 r k))) (Ideal.ofBits .f32 0x3F800000#32) = _
  rw [halfNorm_p2]
  simp only [sliceL_p2, shapeCast_self]

/-- What the body stores into the right half, likewise, over the clamped norm of the row's right half. -/
theorem payR_p2 (x0 x1 : Vec Ideal S5000x128 .f32) (r : Fin 5000) (k : Fin 64) :
    k2_pay4 x0 x1 (ix2 r k)
      = Ideal.div (x1 (ix2 r (laneR_p2 k)) + Ideal.div (x0 (ix2 r (laneR_p2 k)))
          (max (Ideal.sqrt (∑ q : Fin 64, x0 (ix2 r (laneR_p2 q)) * x0 (ix2 r (laneR_p2 q)))) Cert.Spec.eps)) Cert.Spec.one := by
  unfold k2_pay4 k2_pay1 k2_pay2
  dsimp only
  show Ideal.div (extractStridedSlice S5000x64 ![0, 64] (shapeCast S5000x128 x1 _) _ (ix2 r k)
      + Ideal.div (extractStridedSlice S5000x64 ![0, 64] (shapeCast S5000x128 x0 _) _ (ix2 r k))
          (broadcastTo S5000x64 _ _ (ix2 r k))) (Ideal.ofBits .f32 0x3F800000#32) = _
  rw [halfNorm_p2]
  simp only [sliceR_p2, shapeCast_self]

/-- The zero offsets of a whole-buffer access. -/
theorem hz_p2 : (![0, 0] : Fin 2 → Nat) = fun _ => 0 := funext fun a => by fin_cases a <;> rfl

/-- The half of a row that a left-half lane lies in is the left half. -/
theorem halfLane_L_p2 (k q : Fin 64) : Cert.Spec.halfLane (laneL_p2 k) q = laneL_p2 q := by
  apply Fin.ext
  show 64 * (k.val / 64) + q.val = q.val
  have := k.isLt
  omega

/-- The half of a row that a right-half lane lies in is the right half. -/
theorem halfLane_R_p2 (k q : Fin 64) : Cert.Spec.halfLane (laneR_p2 k) q = laneR_p2 q := by
  apply Fin.ext
  show 64 * ((64 + k.val) / 64) + q.val = 64 + q.val
  have := k.isLt
  omega

/-- The left half's store is the packed layer of the two blocks, read where the store's rectangle puts it. -/
theorem pieceL_p2 (x0 x1 : Vec Ideal S5000x128 .f32) (x : S5000x64.Idx) :
    k2_pay3 x0 x1 x = Cert.Spec.normAddP (h := 5000) Cert.Spec.one x0 x1 (r2_1.emb x) := by
  obtain ⟨r, k, rfl⟩ : ∃ (r : Fin 5000) (k : Fin 64), x = ix2 r k := ⟨x 0, x 1, eq_ix2 x⟩
  have e : r2_1.emb (ix2 r k) = ix2 r (laneL_p2 k) := by
    funext a; apply Fin.ext
    match a with
    | ⟨0, _⟩ => show 0 + 1 * r.val = r.val; omega
    | ⟨1, _⟩ => show 0 + 1 * k.val = k.val; omega
  rw [e, payL_p2]
  show _ = Ideal.div (x1 (ix2 r (laneL_p2 k)) + Ideal.div (x0 (ix2 r (laneL_p2 k)))
      (max (Ideal.sqrt (∑ q : Fin 64, x0 (ix2 r (Cert.Spec.halfLane (laneL_p2 k) q)) * x0 (ix2 r (Cert.Spec.halfLane (laneL_p2 k) q)))) Cert.Spec.eps)) Cert.Spec.one
  simp only [halfLane_L_p2]

/-- The right half's store likewise. -/
theorem pieceR_p2 (x0 x1 : Vec Ideal S5000x128 .f32) (x : S5000x64.Idx) :
    k2_pay4 x0 x1 x = Cert.Spec.normAddP (h := 5000) Cert.Spec.one x0 x1 (r2_2.emb x) := by
  obtain ⟨r, k, rfl⟩ : ∃ (r : Fin 5000) (k : Fin 64), x = ix2 r k := ⟨x 0, x 1, eq_ix2 x⟩
  have e : r2_2.emb (ix2 r k) = ix2 r (laneR_p2 k) := by
    funext a; apply Fin.ext
    match a with
    | ⟨0, _⟩ => show 0 + 1 * r.val = r.val; omega
    | ⟨1, _⟩ => show 64 + 1 * k.val = 64 + k.val; omega
  rw [e, payR_p2]
  show _ = Ideal.div (x1 (ix2 r (laneR_p2 k)) + Ideal.div (x0 (ix2 r (laneR_p2 k)))
      (max (Ideal.sqrt (∑ q : Fin 64, x0 (ix2 r (Cert.Spec.halfLane (laneR_p2 k) q)) * x0 (ix2 r (Cert.Spec.halfLane (laneR_p2 k) q)))) Cert.Spec.eps)) Cert.Spec.one
  simp only [halfLane_R_p2]

/-- What the body leaves in the output's staging buffer: the packed layer of the two input blocks. -/
theorem out_p2 (x0 x1 : Vec Ideal S5000x128 .f32) :
    out2_2 x0 x1 = Cert.Spec.normAddP (h := 5000) Cert.Spec.one x0 x1 := by
  funext y
  unfold out2_2
  simp only [View.ld_unit_zero (S := S5000x128) hz_p2]
  refine View.canon_apply_of_pieces (Val := Elt Ideal) (S := S5000x128) (e := .f32)
    (Cert.Spec.normAddP (h := 5000) Cert.Spec.one x0 x1) _ ?_ y (cover2_2 _ _ y)
  intro p hp x
  simp only [List.mem_cons, List.not_mem_nil, or_false] at hp
  rcases hp with rfl | rfl
  · exact pieceR_p2 x0 x1 x
  · exact pieceL_p2 x0 x1 x

variable (V : (c : Dev nD) → (b : Ref sig .tc) → Buf (Elt Ideal) ((c : Thread nD τ).loc b))

/-- The packed layer works row by row: on the 5000 rows of block `b` cut out of the two arrays it is the same rows of
    the layer of the arrays. -/
theorem rows_p2 (dv : EReal) (A0 A1 : Cert.Spec.Arr 75000 128) (x0 x1 : Cert.Spec.Arr 5000 128) (b : ℕ) (hb : b < 15)
    (h0 : ∀ (p : Fin 5000) (l : Fin 128), x0 (ix2 p l) = A0 (ix2 (⟨b * 5000 + p.val, by have := p.isLt; omega⟩ : Fin 75000) l))
    (h1 : ∀ (p : Fin 5000) (l : Fin 128), x1 (ix2 p l) = A1 (ix2 (⟨b * 5000 + p.val, by have := p.isLt; omega⟩ : Fin 75000) l))
    (p : Fin 5000) (l : Fin 128) :
    Cert.Spec.normAddP (h := 5000) dv x0 x1 (ix2 p l)
      = Cert.Spec.normAddP (h := 75000) dv A0 A1 (ix2 (⟨b * 5000 + p.val, by have := p.isLt; omega⟩ : Fin 75000) l) := by
  show Ideal.div (x1 (ix2 p l) + Ideal.div (x0 (ix2 p l))
        (max (Ideal.sqrt (∑ k : Fin 64, x0 (ix2 p (Cert.Spec.halfLane l k)) * x0 (ix2 p (Cert.Spec.halfLane l k)))) Cert.Spec.eps)) dv
      = Ideal.div (A1 (ix2 _ l) + Ideal.div (A0 (ix2 _ l))
        (max (Ideal.sqrt (∑ k : Fin 64, A0 (ix2 _ (Cert.Spec.halfLane l k)) * A0 (ix2 _ (Cert.Spec.halfLane l k)))) Cert.Spec.eps)) dv
  simp only [h0, h1]

/-- The printed index maps over the grid: at point `t` every window's block is block `t` of rows, all 128 lanes. -/
theorem idx_p2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- The layer output's block at point `t` is rows `5000 t … 5000 t + 4999` of its array. -/
theorem blkF_p2 (c : Dev nD) (t : Fin cfg2.N) (ht : t.val < 15) (p : Fin 5000) (l : Fin 128) :
    (iblk2 V c 0 t : Vec Ideal S5000x128 .f32) (ix2 p l)
      = (V c (Pipeline.arrRef spec2 0) : Cert.Spec.Arr 75000 128)
          (ix2 (⟨t.val * 5000 + p.val, by have := p.isLt; omega⟩ : Fin 75000) l) := by
  obtain ⟨e0, e1, -⟩ := idx_p2 t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = t.val * 5000 + p.val; rw [e0]; omega
  | ⟨1, _⟩ => show win2_0.index t (1 : Fin 2) * 128 + 1 * l.val = l.val; rw [e1]; omega

/-- The running sum's block at point `t` is the same rows of its array. -/
theorem blkA_p2 (c : Dev nD) (t : Fin cfg2.N) (ht : t.val < 15) (p : Fin 5000) (l : Fin 128) :
    (iblk2 V c 1 t : Vec Ideal S5000x128 .f32) (ix2 p l)
      = (V c (Pipeline.arrRef spec2 1) : Cert.Spec.Arr 75000 128)
          (ix2 (⟨t.val * 5000 + p.val, by have := p.isLt; omega⟩ : Fin 75000) l) := by
  obtain ⟨-, -, e0, e1, -⟩ := idx_p2 t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 5000 + 1 * p.val = t.val * 5000 + p.val; rw [e0]; omega
  | ⟨1, _⟩ => show win2_1.index t (1 : Fin 2) * 128 + 1 * l.val = l.val; rw [e1]; omega

/-- What point `t` writes back is block `t` of the packed layer of the two whole input arrays. -/
theorem flushed_p2 (c : Dev nD) (t : Fin cfg2.N) :
    (dat2 V c).flushed 2 t = ((cfg2.win 2).blk t).view.read (Elt Ideal)
      (Cert.Spec.normAddP (h := 75000) Cert.Spec.one (V c (Pipeline.arrRef spec2 0)) (V c (Pipeline.arrRef spec2 1))) := by
  have ht : t.val < 15 := by
    have h : t.val < cfg2.N := t.isLt
    have e : cfg2.N = 15 := N_2
    omega
  obtain ⟨-, -, -, -, e0, e1⟩ := idx_p2 t
  show (cfg2.win 2).cut (grid2.coords t) ((dat2 V c).after 2 t) = _
  rw [after2_2, out_p2]
  funext j
  obtain ⟨p, l, rfl⟩ : ∃ (p : Fin 5000) (l : Fin 128), j = ix2 p l := ⟨j 0, j 1, eq_ix2 j⟩
  rw [View.read_apply]
  have e : ((cfg2.win 2).blk t).view.emb (ix2 p l)
      = ix2 (⟨t.val * 5000 + p.val, by have := p.isLt; omega⟩ : Fin 75000) l := by
    funext a
    apply Fin.ext
    match a with
    | ⟨0, _⟩ => show win2_2.index t (0 : Fin 2) * 5000 + 1 * p.val = t.val * 5000 + p.val; rw [e0]; omega
    | ⟨1, _⟩ => show win2_2.index t (1 : Fin 2) * 128 + 1 * l.val = l.val; rw [e1]; omega
  rw [e]
  exact rows_p2 Cert.Spec.one (V c (Pipeline.arrRef spec2 0)) (V c (Pipeline.arrRef spec2 1))
    (iblk2 V c 0 t) (iblk2 V c 1 t) t.val ht (blkF_p2 V c t ht) (blkA_p2 V c t ht) p l

/-- An index of the array is in point `t`'s block iff each coordinate is in the block's range on its axis. -/
theorem mem_blk_p2 (t : Fin cfg2.N) (i : S75000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_call0_v53).slice (win2_2.rect t)).set ↔ _
  rw [View.set_slice_whole, Rect.mem_set_unit]
  exact Iff.rfl

/-- The blocks tile the array: row `r` lies in the block of point `r / 5000`. -/
theorem cover_p2 (i : S75000x128.Idx) :
    ∃ t : Fin cfg2.N, (cfg2.win 2).flush t = true ∧ i ∈ ((cfg2.win 2).blk t).view.set := by
  have hi0 : (i 0).val < 75000 := (i 0).isLt
  have hi1 : (i 1).val < 128 := (i 1).isLt
  have hN : cfg2.N = 15 := N_2
  obtain ⟨t, ht⟩ : ∃ t : Fin cfg2.N, t.val = (i 0).val / 5000 := ⟨⟨(i 0).val / 5000, by rw [hN]; omega⟩, rfl⟩
  obtain ⟨-, -, -, -, e0, e1⟩ := idx_p2 t
  refine ⟨t, flush2_2 t, ?_⟩
  rw [mem_blk_p2]
  intro a
  match a with
  | ⟨0, _⟩ =>
    show win2_2.index t (0 : Fin 2) * 5000 ≤ (i 0).val ∧ (i 0).val < win2_2.index t (0 : Fin 2) * 5000 + 5000
    rw [e0, ht]; omega
  | ⟨1, _⟩ =>
    show win2_2.index t (1 : Fin 2) * 128 ≤ (i 1).val ∧ (i 1).val < win2_2.index t (1 : Fin 2) * 128 + 128
    rw [e1]; omega

/-- The output array after pipeline 2: the packed layer of its two input arrays, divided by the layer's divisor. -/
theorem arrAt2 (c : Dev nD) :
    (dat2 V c).arrAt 2 cfg2.N
      = Cert.Spec.normAddP (h := 75000) Cert.Spec.one (V c (Pipeline.arrRef spec2 0)) (V c (Pipeline.arrRef spec2 1)) :=
  (dat2 V c).arrAt_eq_of_cover 2 _ (fun t _ => flushed_p2 V c t) cover_p2

end Cert.KernelIdeal.KNa

end
-- ==== Proof.KNa3.lean ====
/-
  Pipeline 3: what the whole output array holds when the pipeline has run. Every grid point normalises and adds its
  5000 packed rows, the blocks tile the array, so the array is the packed layer `normAddP` of the two input arrays.

  The body's two stores are read at a lane: each 64-lane half of a packed row is divided by the clamped Euclidean norm of
  that half, added to the running sum and divided by the layer's divisor. Together the two stores are the packed layer of
  the two blocks; the packed layer works row by row, so block `t` of the layer of the arrays is the layer of the arrays'
  blocks `t`; and row `r` of the array lies in the block of point `r / 5000`.
-/
import proofs.«408083_j64364379898214_3_alg».proof.Proof.Gen.KernelIdeal.Frame
import proofs.«408083_j64364379898214_3_alg».proof.Proof.Spec
import Idealize.ShloMosaic.Lib.Pipeline.Value
import Idealize.ShloMosaic.PureOps.Ideal.Laws

set_option maxRecDepth 16384

noncomputable section

namespace Cert.KernelIdeal.KNa

open Cert.KernelIdeal Cert.KernelIdeal.Gen Idealize.ShloMosaic Idealize.ShloMosaic.TcCoe Idealize.ShloMosaic.ValueIdx Idealize.SL.Sem

/-- The sum over the 64 lanes of row `r` of a 5000 × 64 block. -/
theorem laneSum_p3 (v : FVec Ideal S5000x64 .f32) (hφ : FKind.Formats .f32)
    (hacc : (0x00000000#32 : BitVec 32) = 0x00000000#32) (r : Fin 5000) :
    multiReduction .add [1] S5000 v 0x00000000#32 Gen.reduces_S5000x64_S5000 hφ hacc (ix1 r)
      = ∑ k : Fin 64, v (ix2 r k) := by
  refine (Ideal.multiReduction_add_single v 0x00000000#32 Gen.reduces_S5000x64_S5000 hφ hacc (ix1 r)).trans ?_
  refine Finset.sum_congr rfl fun k _ => congrArg v ?_
  funext a
  match a with
  | ⟨0, _⟩ => rfl
  | ⟨1, _⟩ => rfl

/-- Lane `k` of the left half of a 128-lane row. -/
abbrev laneL_p3 (k : Fin 64) : Fin 128 := ⟨k.val, by omega⟩
/-- Lane `k` of the right half of a 128-lane row. -/
abbrev laneR_p3 (k : Fin 64) : Fin 128 := ⟨64 + k.val, by omega⟩

/-- The left 64 lanes cut out of a 128-lane block: lane `k` of the cut is lane `k` of the block. -/
theorem sliceL_p3 (x : FVec Ideal S5000x128 .f32) (r : Fin 5000) (k : Fin 64) :
    extractStridedSlice S5000x64 ![0, 0] x Gen.slices_S5000x128_o0_0_S5000x64 (ix2 r k) = x (ix2 r (laneL_p3 k)) := by
  refine extractStridedSlice_apply _ _ _ (ix2 r k) (ix2 r (laneL_p3 k)) fun a => ?_
  match a with
  | ⟨0, _⟩ => show r.val = 0 + r.val; omega
  | ⟨1, _⟩ => show k.val = 0 + k.val; omega

/-- The right 64 lanes cut out of a 128-lane block: lane `k` of the cut is lane `64 + k` of the block. -/
theorem sliceR_p3 (x : FVec Ideal S5000x128 .f32) (r : Fin 5000) (k : Fin 64) :
    extractStridedSlice S5000x64 ![0, 64] x Gen.slices_S5000x128_o0_64_S5000x64 (ix2 r k) = x (ix2 r (laneR_p3 k)) := by
  refine extractStridedSlice_apply _ _ _ (ix2 r k) (ix2 r (laneR_p3 k)) fun a => ?_
  match a with
  | ⟨0, _⟩ => show r.val = 0 + r.val; omega
  | ⟨1, _⟩ => show 64 + k.val = 64 + k.val; rfl

/-- A column vector spread over 64 lanes reads, in every lane of row `r`, the column's entry at `r`. -/
theorem spreadCol_p3 (v : FVec Ideal S5000x1 .f32) (r : Fin 5000) (k : Fin 64) :
    broadcastTo S5000x64 v Gen.broadcasts_S5000x1_S5000x64 (ix2 r k) = v (ix2 r (0 : Fin 1)) := by
  refine broadcastTo_apply _ _ (ix2 r k) (ix2 r (0 : Fin 1)) fun a => ?_
  match a with
  | ⟨0, _⟩ => rfl
  | ⟨1, _⟩ => rfl

/-- A vector of 5000 entries recast as a column holds entry `r` in row `r`. -/
theorem asCol_p3 (v : FVec Ideal S5000 .f32) (r : Fin 5000) :
    shapeCast S5000x1 v Gen.shapeCasts_S5000_S5000x1 (ix2 r (0 : Fin 1)) = v (ix1 r) := by
  refine shapeCast_apply _ _ (ix2 r (0 : Fin 1)) (ix1 r) ?_
  rw [Shape.rowMajor_val_one, Shape.rowMajor_val_two]
  show r.val = r.val * 1 + 0
  omega

/-- The clamped norm of row `r` of a 64-lane half, spread over the half's lanes. -/
theorem halfNorm_p3 (y : FVec Ideal S5000x64 .f32) (hφ : FKind.Formats .f32)
    (hacc : (0x00000000#32 : BitVec 32) = 0x00000000#32) (r : Fin 5000) (k : Fin 64) :
    broadcastTo S5000x64
        (maximumf (sqrt (shapeCast S5000x1 (multiReduction .add [1] S5000 (mulf y y) 0x00000000#32
            Gen.reduces_S5000x64_S5000 hφ hacc) Gen.shapeCasts_S5000_S5000x1))
          (broadcast S5000x1 (Scalar.ofBits .f32 0x2B8CBCCC#32)))
        Gen.broadcasts_S5000x1_S5000x64 (ix2 r k)
      = max (Ideal.sqrt (∑ q : Fin 64, y (ix2 r q) * y (ix2 r q))) Cert.Spec.eps := by
  refine (spreadCol_p3 _ r k).trans ?_
  show max (Ideal.sqrt (shapeCast S5000x1 _ Gen.shapeCasts_S5000_S5000x1 (ix2 r (0 : Fin 1)))) Cert.Spec.eps = _
  rw [asCol_p3, laneSum_p3]
  rfl

/-- What the body stores into the left half: lane `k` of row `r` is the running sum there plus the layer output there
    over the clamped norm of the row's left half, all over the divisor. -/
theorem payL_p3 (x0 x1 : Vec Ideal S5000x128 .f32) (r : Fin 5000) (k : Fin 64) :
    k3_pay3 x0 x1 (ix2 r k)
      = Ideal.div (x1 (ix2 r (laneL_p3 k)) + Ideal.div (x0 (ix2 r (laneL_p3 k)))
          (max (Ideal.sqrt (∑ q : Fin 64, x0 (ix2 r (laneL_p3 q)) * x0 (ix2 r (laneL_p3 q)))) Cert.Spec.eps)) Cert.Spec.three := by
  unfold k3_pay3 k3_pay1 k3_pay2
  dsimp only
  show Ideal.div (extractStridedSlice S5000x64 ![0, 0] (shapeCast S5000x128 x1 _) _ (ix2 r k)
      + Ideal.div (extractStridedSlice S5000x64 ![0, 0] (shapeCast S5000x128 x0 _) _ (ix2 r k))
          (broadcastTo S5000x64 _ _ (ix2 r k))) (Ideal.ofBits .f32 0x40400000#32) = _
  rw [halfNorm_p3]
  simp only [sliceL_p3, shapeCast_self]

/-- What the body stores into the right half, likewise, over the clamped norm of the row's right half. -/
theorem payR_p3 (x0 x1 : Vec Ideal S5000x128 .f32) (r : Fin 5000) (k : Fin 64) :
    k3_pay4 x0 x1 (ix2 r k)
      = Ideal.div (x1 (ix2 r (laneR_p3 k)) + Ideal.div (x0 (ix2 r (laneR_p3 k)))
          (max (Ideal.sqrt (∑ q : Fin 64, x0 (ix2 r (laneR_p3 q)) * x0 (ix2 r (laneR_p3 q)))) Cert.Spec.eps)) Cert.Spec.three := by
  unfold k3_pay4 k3_pay1 k3_pay2
  dsimp only
  show Ideal.div (extractStridedSlice S5000x64 ![0, 64] (shapeCast S5000x128 x1 _) _ (ix2 r k)
      + Ideal.div (extractStridedSlice S5000x64 ![0, 64] (shapeCast S5000x128 x0 _) _ (ix2 r k))
          (broadcastTo S5000x64 _ _ (ix2 r k))) (Ideal.ofBits .f32 0x40400000#32) = _
  rw [halfNorm_p3]
  simp only [sliceR_p3, shapeCast_self]

/-- The zero offsets of a whole-buffer access. -/
theorem hz_p3 : (![0, 0] : Fin 2 → Nat) = fun _ => 0 := funext fun a => by fin_cases a <;> rfl

/-- The half of a row that a left-half lane lies in is the left half. -/
theorem halfLane_L_p3 (k q : Fin 64) : Cert.Spec.halfLane (laneL_p3 k) q = laneL_p3 q := by
  apply Fin.ext
  show 64 * (k.val / 64) + q.val = q.val
  have := k.isLt
  omega

/-- The half of a row that a right-half lane lies in is the right half. -/
theorem halfLane_R_p3 (k q : Fin 64) : Cert.Spec.halfLane (laneR_p3 k) q = laneR_p3 q := by
  apply Fin.ext
  show 64 * ((64 + k.val) / 64) + q.val = 64 + q.val
  have := k.isLt
  omega

/-- The left half's store is the packed layer of the two blocks, read where the store's rectangle puts it. -/
theorem pieceL_p3 (x0 x1 : Vec Ideal S5000x128 .f32) (x : S5000x64.Idx) :
    k3_pay3 x0 x1 x = Cert.Spec.normAddP (h := 5000) Cert.Spec.three x0 x1 (r3_1.emb x) := by
  obtain ⟨r, k, rfl⟩ : ∃ (r : Fin 5000) (k : Fin 64), x = ix2 r k := ⟨x 0, x 1, eq_ix2 x⟩
  have e : r3_1.emb (ix2 r k) = ix2 r (laneL_p3 k) := by
    funext a; apply Fin.ext
    match a with
    | ⟨0, _⟩ => show 0 + 1 * r.val = r.val; omega
    | ⟨1, _⟩ => show 0 + 1 * k.val = k.val; omega
  rw [e, payL_p3]
  show _ = Ideal.div (x1 (ix2 r (laneL_p3 k)) + Ideal.div (x0 (ix2 r (laneL_p3 k)))
      (max (Ideal.sqrt (∑ q : Fin 64, x0 (ix2 r (Cert.Spec.halfLane (laneL_p3 k) q)) * x0 (ix2 r (Cert.Spec.halfLane (laneL_p3 k) q)))) Cert.Spec.eps)) Cert.Spec.three
  simp only [halfLane_L_p3]

/-- The right half's store likewise. -/
theorem pieceR_p3 (x0 x1 : Vec Ideal S5000x128 .f32) (x : S5000x64.Idx) :
    k3_pay4 x0 x1 x = Cert.Spec.normAddP (h := 5000) Cert.Spec.three x0 x1 (r3_2.emb x) := by
  obtain ⟨r, k, rfl⟩ : ∃ (r : Fin 5000) (k : Fin 64), x = ix2 r k := ⟨x 0, x 1, eq_ix2 x⟩
  have e : r3_2.emb (ix2 r k) = ix2 r (laneR_p3 k) := by
    funext a; apply Fin.ext
    match a with
    | ⟨0, _⟩ => show 0 + 1 * r.val = r.val; omega
    | ⟨1, _⟩ => show 64 + 1 * k.val = 64 + k.val; omega
  rw [e, payR_p3]
  show _ = Ideal.div (x1 (ix2 r (laneR_p3 k)) + Ideal.div (x0 (ix2 r (laneR_p3 k)))
      (max (Ideal.sqrt (∑ q : Fin 64, x0 (ix2 r (Cert.Spec.halfLane (laneR_p3 k) q)) * x0 (ix2 r (Cert.Spec.halfLane (laneR_p3 k) q)))) Cert.Spec.eps)) Cert.Spec.three
  simp only [halfLane_R_p3]

/-- What the body leaves in the output's staging buffer: the packed layer of the two input blocks. -/
theorem out_p3 (x0 x1 : Vec Ideal S5000x128 .f32) :
    out3_2 x0 x1 = Cert.Spec.normAddP (h := 5000) Cert.Spec.three x0 x1 := by
  funext y
  unfold out3_2
  simp only [View.ld_unit_zero (S := S5000x128) hz_p3]
  refine View.canon_apply_of_pieces (Val := Elt Ideal) (S := S5000x128) (e := .f32)
    (Cert.Spec.normAddP (h := 5000) Cert.Spec.three x0 x1) _ ?_ y (cover3_2 _ _ y)
  intro p hp x
  simp only [List.mem_cons, List.not_mem_nil, or_false] at hp
  rcases hp with rfl | rfl
  · exact pieceR_p3 x0 x1 x
  · exact pieceL_p3 x0 x1 x

variable (V : (c : Dev nD) → (b : Ref sig .tc) → Buf (Elt Ideal) ((c : Thread nD τ).loc b))

/-- The packed layer works row by row: on the 5000 rows of block `b` cut out of the two arrays it is the same rows of
    the layer of the arrays. -/
theorem rows_p3 (dv : EReal) (A0 A1 : Cert.Spec.Arr 75000 128) (x0 x1 : Cert.Spec.Arr 5000 128) (b : ℕ) (hb : b < 15)
    (h0 : ∀ (p : Fin 5000) (l : Fin 128), x0 (ix2 p l) = A0 (ix2 (⟨b * 5000 + p.val, by have := p.isLt; omega⟩ : Fin 75000) l))
    (h1 : ∀ (p : Fin 5000) (l : Fin 128), x1 (ix2 p l) = A1 (ix2 (⟨b * 5000 + p.val, by have := p.isLt; omega⟩ : Fin 75000) l))
    (p : Fin 5000) (l : Fin 128) :
    Cert.Spec.normAddP (h := 5000) dv x0 x1 (ix2 p l)
      = Cert.Spec.normAddP (h := 75000) dv A0 A1 (ix2 (⟨b * 5000 + p.val, by have := p.isLt; omega⟩ : Fin 75000) l) := by
  show Ideal.div (x1 (ix2 p l) + Ideal.div (x0 (ix2 p l))
        (max (Ideal.sqrt (∑ k : Fin 64, x0 (ix2 p (Cert.Spec.halfLane l k)) * x0 (ix2 p (Cert.Spec.halfLane l k)))) Cert.Spec.eps)) dv
      = Ideal.div (A1 (ix2 _ l) + Ideal.div (A0 (ix2 _ l))
        (max (Ideal.sqrt (∑ k : Fin 64, A0 (ix2 _ (Cert.Spec.halfLane l k)) * A0 (ix2 _ (Cert.Spec.halfLane l k)))) Cert.Spec.eps)) dv
  simp only [h0, h1]

/-- The printed index maps over the grid: at point `t` every window's block is block `t` of rows, all 128 lanes. -/
theorem idx_p3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- The layer output's block at point `t` is rows `5000 t … 5000 t + 4999` of its array. -/
theorem blkF_p3 (c : Dev nD) (t : Fin cfg3.N) (ht : t.val < 15) (p : Fin 5000) (l : Fin 128) :
    (iblk3 V c 0 t : Vec Ideal S5000x128 .f32) (ix2 p l)
      = (V c (Pipeline.arrRef spec3 0) : Cert.Spec.Arr 75000 128)
          (ix2 (⟨t.val * 5000 + p.val, by have := p.isLt; omega⟩ : Fin 75000) l) := by
  obtain ⟨e0, e1, -⟩ := idx_p3 t
  unfold iblk3
  rw [View.read_apply]
  show V c (Pipeline.arrRef spec3 0) _ = V c (Pipeline.arrRef spec3 0) _
  congr 1
  funext a
  apply Fin.ext
  match a with
  | ⟨0, _⟩ => show win3_0.index t (0 : Fin 2) * 5000 + 1 * p.val = t.val * 5000 + p.val; rw [e0]; omega
  | ⟨1, _⟩ => show win3_0.index t (1 : Fin 2) * 128 + 1 * l.val = l.val; rw [e1]; omega

/-- The running sum's block at point `t` is the same rows of its array. -/
theorem blkA_p3 (c : Dev nD) (t : Fin cfg3.N) (ht : t.val < 15) (p : Fin 5000) (l : Fin 128) :
    (iblk3 V c 1 t : Vec Ideal S5000x128 .f32) (ix2 p l)
      = (V c (Pipeline.arrRef spec3 1) : Cert.Spec.Arr 75000 128)
          (ix2 (⟨t.val * 5000 + p.val, by have := p.isLt; omega⟩ : Fin 75000) l) := by
  obtain ⟨-, -, e0, e1, -⟩ := idx_p3 t
  unfold iblk3
  rw [View.read_apply]
  show V c (Pipeline.arrRef spec3 1) _ = V c (Pipeline.arrRef spec3 1) _
  congr 1
  funext a
  apply Fin.ext
  match a with
  | ⟨0, _⟩ => show win3_1.index t (0 : Fin 2) * 5000 + 1 * p.val = t.val * 5000 + p.val; rw [e0]; omega
  | ⟨1, _⟩ => show win3_1.index t (1 : Fin 2) * 128 + 1 * l.val = l.val; rw [e1]; omega

/-- What point `t` writes back is block `t` of the packed layer of the two whole input arrays. -/
theorem flushed_p3 (c : Dev nD) (t : Fin cfg3.N) :
    (dat3 V c).flushed 2 t = ((cfg3.win 2).blk t).view.read (Elt Ideal)
      (Cert.Spec.normAddP (h := 75000) Cert.Spec.three (V c (Pipeline.arrRef spec3 0)) (V c (Pipeline.arrRef spec3 1))) := by
  have ht : t.val < 15 := by
    have h : t.val < cfg3.N := t.isLt
    have e : cfg3.N = 15 := N_3
    omega
  obtain ⟨-, -, -, -, e0, e1⟩ := idx_p3 t
  show (cfg3.win 2).cut (grid3.coords t) ((dat3 V c).after 2 t) = _
  rw [after3_2, out_p3]
  funext j
  obtain ⟨p, l, rfl⟩ : ∃ (p : Fin 5000) (l : Fin 128), j = ix2 p l := ⟨j 0, j 1, eq_ix2 j⟩
  rw [View.read_apply]
  have e : ((cfg3.win 2).blk t).view.emb (ix2 p l)
      = ix2 (⟨t.val * 5000 + p.val, by have := p.isLt; omega⟩ : Fin 75000) l := by
    funext a
    apply Fin.ext
    match a with
    | ⟨0, _⟩ => show win3_2.index t (0 : Fin 2) * 5000 + 1 * p.val = t.val * 5000 + p.val; rw [e0]; omega
    | ⟨1, _⟩ => show win3_2.index t (1 : Fin 2) * 128 + 1 * l.val = l.val; rw [e1]; omega
  rw [e]
  exact rows_p3 Cert.Spec.three (V c (Pipeline.arrRef spec3 0)) (V c (Pipeline.arrRef spec3 1))
    (iblk3 V c 0 t) (iblk3 V c 1 t) t.val ht (blkF_p3 V c t ht) (blkA_p3 V c t ht) p l

/-- An index of the array is in point `t`'s block iff each coordinate is in the block's range on its axis. -/
theorem mem_blk_p3 (t : Fin cfg3.N) (i : S75000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_call0_v70).slice (win3_2.rect t)).set ↔ _
  rw [View.set_slice_whole, Rect.mem_set_unit]
  exact Iff.rfl

/-- The blocks tile the array: row `r` lies in the block of point `r / 5000`. -/
theorem cover_p3 (i : S75000x128.Idx) :
    ∃ t : Fin cfg3.N, (cfg3.win 2).flush t = true ∧ i ∈ ((cfg3.win 2).blk t).view.set := by
  have hi0 : (i 0).val < 75000 := (i 0).isLt
  have hi1 : (i 1).val < 128 := (i 1).isLt
  have hN : cfg3.N = 15 := N_3
  obtain ⟨t, ht⟩ : ∃ t : Fin cfg3.N, t.val = (i 0).val / 5000 := ⟨⟨(i 0).val / 5000, by rw [hN]; omega⟩, rfl⟩
  obtain ⟨-, -, -, -, e0, e1⟩ := idx_p3 t
  refine ⟨t, flush3_2 t, ?_⟩
  rw [mem_blk_p3]
  intro a
  match a with
  | ⟨0, _⟩ =>
    show win3_2.index t (0 : Fin 2) * 5000 ≤ (i 0).val ∧ (i 0).val < win3_2.index t (0 : Fin 2) * 5000 + 5000
    rw [e0, ht]; omega
  | ⟨1, _⟩ =>
    show win3_2.index t (1 : Fin 2) * 128 ≤ (i 1).val ∧ (i 1).val < win3_2.index t (1 : Fin 2) * 128 + 128
    rw [e1]; omega

/-- The output array after pipeline 3: the packed layer of its two input arrays, divided by the layer's divisor. -/
theorem arrAt3 (c : Dev nD) :
    (dat3 V c).arrAt 2 cfg3.N
      = Cert.Spec.normAddP (h := 75000) Cert.Spec.three (V c (Pipeline.arrRef spec3 0)) (V c (Pipeline.arrRef spec3 1)) :=
  (dat3 V c).arrAt_eq_of_cover 2 _ (fun t _ => flushed_p3 V c t) cover_p3

end Cert.KernelIdeal.KNa

end
-- ==== Proof.KPropBI.lean ====
/-
  The BI graph on the kernel's side: the host stretches and two pipelines that propagate its features, read back as
  the two layers `prop3` of the stacked features and their sparse products.

  The second half of stretch 2 stacks bundles over items, forms the first sparse product and re-lays both as 75000 rows
  of 128; pipeline 2 adds the row-normalised product to the stack on that layout. Stretch 3 un-packs the sum, forms the
  second sparse product and re-lays both; pipeline 3 adds the row-normalised second product and divides by three. Stretch 4
  un-packs the mean and slices the rows of each node set. A re-laying is `pack` or `unpack`, the packed layer of packed
  arrays is the packing of the plain layer, and un-packing undoes packing, so the two slices are rows of `prop3`.
-/
import proofs.«408083_j64364379898214_3_alg».proof.Proof.Gen.KernelIdeal.Frame
import proofs.«408083_j64364379898214_3_alg».proof.Proof.Spec
import proofs.«408083_j64364379898214_3_alg».proof.Proof.SpecHost
import proofs.«408083_j64364379898214_3_alg».proof.Proof.SpecLemmas
import proofs.«408083_j64364379898214_3_alg».proof.Proof.KNa2
import proofs.«408083_j64364379898214_3_alg».proof.Proof.KNa3
import Idealize.ShloMosaic.Lib.Pipeline.Value

set_option maxRecDepth 16384

noncomputable section

namespace Cert.KernelIdeal.KProp

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

namespace BI

/-- Reads a stretch's result buffer back as the composed term of its operations. -/
local macro "host_results" : tactic =>
  `(tactic| (after_results_simp <;> (try simp only [StableHlo.TRef.ofBuf, StableHlo.TRef.toBuf, cast_eq]) <;> rfl))

/-- A buffer that no operation of the stretch writes keeps its contents. -/
local macro "host_keeps" ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## The three host stretches, read over any contents at their start -/

section Stretches
variable (V : Valuation τ sig (Elt Ideal))

/-- Stretch 2 stacks bundles over items, -/
theorem after2_v37 :
    StableHlo.after hostOps2 V (Proc.devRef .tc main_call0_v37)
      = SpecHost.featBI (V (Proc.devRef .tc main_arg2)) (V (Proc.devRef .tc main_arg1)) := by
  host_results

/-- forms the sparse product of the stack, -/
theorem after2_v50 :
    StableHlo.after hostOps2 V (Proc.devRef .tc main_call0_v50)
      = SpecHost.spmm150000 (V (Proc.devRef .tc main_arg10)) (V (Proc.devRef .tc main_arg11)) (V (Proc.devRef .tc main_arg12))
          (SpecHost.featBI (V (Proc.devRef .tc main_arg2)) (V (Proc.devRef .tc main_arg1))) := by
  host_results

/-- and re-lays the product -/
theorem after2_v51 :
    StableHlo.after hostOps2 V (Proc.devRef .tc main_call0_v51)
      = shapeCast S75000x128
          (SpecHost.spmm150000 (V (Proc.devRef .tc main_arg10)) (V (Proc.devRef .tc main_arg11)) (V (Proc.devRef .tc main_arg12))
            (SpecHost.featBI (V (Proc.devRef .tc main_arg2)) (V (Proc.devRef .tc main_arg1))))
          shapeCasts_S150000x64_S75000x128 := by
  host_results

/-- and the stack. -/
theorem after2_v52 :
    StableHlo.after hostOps2 V (Proc.devRef .tc main_call0_v52)
      = shapeCast S75000x128 (SpecHost.featBI (V (Proc.devRef .tc main_arg2)) (V (Proc.devRef .tc main_arg1)))
          shapeCasts_S150000x64_S75000x128 := by
  host_results

/-- Stretch 3 forms the sparse product of the first product and re-lays it, -/
theorem after3_v68 :
    StableHlo.after hostOps3 V (Proc.devRef .tc main_call0_v68)
      = shapeCast S75000x128
          (SpecHost.spmm150000 (V (Proc.devRef .tc main_arg10)) (V (Proc.devRef .tc main_arg11)) (V (Proc.devRef .tc main_arg12))
            (V (Proc.devRef .tc main_call0_v50)))
          shapeCasts_S150000x64_S75000x128 := by
  host_results

/-- and re-lays pipeline 2's output twice. -/
theorem after3_v69 :
    StableHlo.after hostOps3 V (Proc.devRef .tc main_call0_v69)
      = shapeCast S75000x128
          (shapeCast S150000x64 (V (Proc.devRef .tc main_call0_v53) : FVec Ideal S75000x128 .f32) shapeCasts_S75000x128_S150000x64)
          shapeCasts_S150000x64_S75000x128 := by
  host_results

/-- Stretch 4 re-lays pipeline 3's output and slices the bundles' rows -/
theorem after4_v0_2 :
    StableHlo.after hostOps4 V (Proc.devRef .tc main_v0_2)
      = extractStridedSlice S50000x64 ![0, 0]
          (shapeCast S150000x64 (V (Proc.devRef .tc main_call0_v70) : FVec Ideal S75000x128 .f32) shapeCasts_S75000x128_S150000x64)
          slices_S150000x64_S50000x64_0_0 := by
  host_results

/-- and the items'. -/
theorem after4_v0_3 :
    StableHlo.after hostOps4 V (Proc.devRef .tc main_v0_3)
      = extractStridedSlice S100000x64 ![50000, 0]
          (shapeCast S150000x64 (V (Proc.devRef .tc main_call0_v70) : FVec Ideal S75000x128 .f32) shapeCasts_S75000x128_S150000x64)
          slices_S150000x64_S100000x64_50000_0 := by
  host_results

end Stretches

/-! ## The re-layings and the row slices -/

/-- Re-laying 150000 rows of 64 as 75000 rows of 128 is packing. -/
theorem shapeCast_pack (x : FVec Ideal S150000x64 .f32) :
    shapeCast S75000x128 x shapeCasts_S150000x64_S75000x128 = Cert.Spec.pack (n := 150000) (h := 75000) (by decide) x := by
  funext j
  refine shapeCast_apply x _ j _ ?_
  rw [Shape.rowMajor_val_two, Shape.rowMajor_val_two]
  show (2 * (j 0).val + (j 1).val / 64) * 64 + (j 1).val % 64 = (j 0).val * 128 + (j 1).val
  omega

/-- Re-laying 75000 rows of 128 as 150000 rows of 64 is unpacking. -/
theorem shapeCast_unpack (y : FVec Ideal S75000x128 .f32) :
    shapeCast S150000x64 y shapeCasts_S75000x128_S150000x64 = Cert.Spec.unpack (n := 150000) (h := 75000) (by decide) y := by
  funext j
  refine shapeCast_apply y _ j _ ?_
  rw [Shape.rowMajor_val_two, Shape.rowMajor_val_two]
  show (j 0).val / 2 * 128 + (64 * ((j 0).val % 2) + (j 1).val) = (j 0).val * 64 + (j 1).val
  omega

/-- The slice of the first 50000 rows. -/
theorem slice_rows0 (x : FVec Ideal S150000x64 .f32) :
    extractStridedSlice S50000x64 ![0, 0] x slices_S150000x64_S50000x64_0_0
      = Cert.Spec.rowsFrom 0 (n := 150000) (k := 50000) (by decide) x := by
  funext j
  refine extractStridedSlice_apply ![0, 0] x _ j _ ?_
  intro a; fin_cases a
  · show 0 + (j 0).val = 0 + (j 0).val; rfl
  · show (j 1).val = 0 + (j 1).val; omega

/-- The slice of the last 100000 rows. -/
theorem slice_rows50000 (x : FVec Ideal S150000x64 .f32) :
    extractStridedSlice S100000x64 ![50000, 0] x slices_S150000x64_S100000x64_50000_0
      = Cert.Spec.rowsFrom 50000 (n := 150000) (k := 100000) (by decide) x := by
  funext j
  refine extractStridedSlice_apply ![50000, 0] x _ j _ ?_
  intro a; fin_cases a
  · show 50000 + (j 0).val = 50000 + (j 0).val; rfl
  · show (j 1).val = 0 + (j 1).val; omega

/-! ## The stacked features and their sparse products -/

/-- The stacked features of the graph's two node sets, -/
abbrev feat (c : Dev nD) : FVec Ideal S150000x64 .f32 :=
  SpecHost.featBI (m ((c : Thread nD τ).loc main_arg2)) (m ((c : Thread nD τ).loc main_arg1))
/-- and the graph's sparse product. -/
abbrev sp (c : Dev nD) (x : FVec Ideal S150000x64 .f32) : FVec Ideal S150000x64 .f32 :=
  SpecHost.spmm150000 (m ((c : Thread nD τ).loc main_arg10)) (m ((c : Thread nD τ).loc main_arg11)) (m ((c : Thread nD τ).loc main_arg12)) x

/-! ## The arguments are as launched when stretch 2 begins, and the edge arrays when stretch 3 begins -/

theorem W4_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := by host_keeps hostOps1
    _ = W1 m ρ c (Proc.devRef .tc main_arg1) := W2_of_ne m ρ c main_arg1 (by decide)
    _ = W0 m ρ c (Proc.devRef .tc main_arg1) := by host_keeps hostOps0
    _ = m ((c : Thread nD τ).loc main_arg1) := rfl
theorem W4_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := by host_keeps hostOps1
    _ = W1 m ρ c (Proc.devRef .tc main_arg2) := W2_of_ne m ρ c main_arg2 (by decide)
    _ = W0 m ρ c (Proc.devRef .tc main_arg2) := by host_keeps hostOps0
    _ = m ((c : Thread nD τ).loc main_arg2) := rfl
theorem W4_arg10 (c : Dev nD) : W4 m ρ c (Proc.devRef .tc main_arg10) = m ((c : Thread nD τ).loc main_arg10) :=
  calc W4 m ρ c (Proc.devRef .tc main_arg10)
    _ = W3 m ρ c (Proc.devRef .tc main_arg10) := W4_of_ne m ρ c main_arg10 (by decide)
    _ = W2 m ρ c (Proc.devRef .tc main_arg10) := by host_keeps hostOps1
    _ = W1 m ρ c (Proc.devRef .tc main_arg10) := W2_of_ne m ρ c main_arg10 (by decide)
    _ = W0 m ρ c (Proc.devRef .tc main_arg10) := by host_keeps hostOps0
    _ = m ((c : Thread nD τ).loc main_arg10) := rfl
theorem W4_arg11 (c : Dev nD) : W4 m ρ c (Proc.devRef .tc main_arg11) = m ((c : Thread nD τ).loc main_arg11) :=
  calc W4 m ρ c (Proc.devRef .tc main_arg11)
    _ = W3 m ρ c (Proc.devRef .tc main_arg11) := W4_of_ne m ρ c main_arg11 (by decide)
    _ = W2 m ρ c (Proc.devRef .tc main_arg11) := by host_keeps hostOps1
    _ = W1 m ρ c (Proc.devRef .tc main_arg11) := W2_of_ne m ρ c main_arg11 (by decide)
    _ = W0 m ρ c (Proc.devRef .tc main_arg11) := by host_keeps hostOps0
    _ = m ((c : Thread nD τ).loc main_arg11) := rfl
theorem W4_arg12 (c : Dev nD) : W4 m ρ c (Proc.devRef .tc main_arg12) = m ((c : Thread nD τ).loc main_arg12) :=
  calc W4 m ρ c (Proc.devRef .tc main_arg12)
    _ = W3 m ρ c (Proc.devRef .tc main_arg12) := W4_of_ne m ρ c main_arg12 (by decide)
    _ = W2 m ρ c (Proc.devRef .tc main_arg12) := by host_keeps hostOps1
    _ = W1 m ρ c (Proc.devRef .tc main_arg12) := W2_of_ne m ρ c main_arg12 (by decide)
    _ = W0 m ρ c (Proc.devRef .tc main_arg12) := by host_keeps hostOps0
    _ = m ((c : Thread nD τ).loc main_arg12) := rfl

theorem W6_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := by host_keeps hostOps2
    _ = m ((c : Thread nD τ).loc main_arg10) := W4_arg10 m ρ c
theorem W6_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := by host_keeps hostOps2
    _ = m ((c : Thread nD τ).loc main_arg11) := W4_arg11 m ρ c
theorem W6_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := by host_keeps hostOps2
    _ = m ((c : Thread nD τ).loc main_arg12) := W4_arg12 m ρ c

/-! ## Stretch 2 and pipeline 2: the first layer, packed -/

theorem W5_v50 (c : Dev nD) : (W5 m ρ c (Proc.devRef .tc main_call0_v50) : FVec Ideal S150000x64 .f32) = sp m c (feat m c) := by
  refine (after2_v50 (W4 m ρ c)).trans ?_
  rw [W4_arg1, W4_arg2, W4_arg10, W4_arg11, W4_arg12]

theorem W5_v51 (c : Dev nD) :
    (W5 m ρ c (Proc.devRef .tc main_call0_v51) : FVec Ideal S75000x128 .f32)
      = Cert.Spec.pack (n := 150000) (h := 75000) (by decide) (sp m c (feat m c)) := by
  refine (after2_v51 (W4 m ρ c)).trans ?_
  rw [W4_arg1, W4_arg2, W4_arg10, W4_arg11, W4_arg12, shapeCast_pack]

theorem W5_v52 (c : Dev nD) :
    (W5 m ρ c (Proc.devRef .tc main_call0_v52) : FVec Ideal S75000x128 .f32)
      = Cert.Spec.pack (n := 150000) (h := 75000) (by decide) (feat m c) := by
  refine (after2_v52 (W4 m ρ c)).trans ?_
  rw [W4_arg1, W4_arg2, shapeCast_pack]

/-- The first sparse product is untouched by pipeline 2. -/
theorem W6_v50 (c : Dev nD) : (W6 m ρ c (Proc.devRef .tc main_call0_v50) : FVec Ideal S150000x64 .f32) = sp m c (feat m c) :=
  (W6_of_ne m ρ c main_call0_v50 (by decide)).trans (W5_v50 m ρ c)

/-- Pipeline 2 leaves the packed first layer in v53. -/
theorem W6_v53 (c : Dev nD) :
    (W6 m ρ c (Proc.devRef .tc main_call0_v53) : FVec Ideal S75000x128 .f32)
      = Cert.Spec.pack (n := 150000) (h := 75000) (by decide) (Cert.Spec.normAdd (sp m c (feat m c)) (feat m c)) := by
  refine (W6_arr m ρ c 2).trans ?_
  rw [KNa.arrAt2 (V5 m ρ) c]
  show Cert.Spec.normAddP Cert.Spec.one (W5 m ρ c (Proc.devRef .tc main_call0_v51)) (W5 m ρ c (Proc.devRef .tc main_call0_v52)) = _
  rw [W5_v51, W5_v52, Cert.Spec.normAddP_pack]
  congr 1; funext j; exact Cert.Spec.div_one _

/-! ## Stretch 3 and pipeline 3: the second layer and the mean, packed -/

/-- The second sparse product, packed. -/
theorem W7_v68 (c : Dev nD) :
    (W7 m ρ c (Proc.devRef .tc main_call0_v68) : FVec Ideal S75000x128 .f32)
      = Cert.Spec.pack (n := 150000) (h := 75000) (by decide) (sp m c (sp m c (feat m c))) := by
  refine (after3_v68 (W6 m ρ c)).trans ?_
  rw [W6_arg10, W6_arg11, W6_arg12, W6_v50, shapeCast_pack]

/-- The first layer, packed again. -/
theorem W7_v69 (c : Dev nD) :
    (W7 m ρ c (Proc.devRef .tc main_call0_v69) : FVec Ideal S75000x128 .f32)
      = Cert.Spec.pack (n := 150000) (h := 75000) (by decide) (Cert.Spec.normAdd (sp m c (feat m c)) (feat m c)) := by
  refine (after3_v69 (W6 m ρ c)).trans ?_
  rw [W6_v53, shapeCast_unpack, Cert.Spec.unpack_pack, shapeCast_pack]

theorem W8_v70 (c : Dev nD) :
    (W8 m ρ c (Proc.devRef .tc main_call0_v70) : FVec Ideal S75000x128 .f32)
      = Cert.Spec.pack (n := 150000) (h := 75000) (by decide)
          (Cert.Spec.prop3 (feat m c) (sp m c (feat m c)) (sp m c (sp m c (feat m c)))) := by
  refine (W8_arr m ρ c 2).trans ?_
  rw [KNa.arrAt3 (V7 m ρ) c]
  show Cert.Spec.normAddP Cert.Spec.three (W7 m ρ c (Proc.devRef .tc main_call0_v68)) (W7 m ρ c (Proc.devRef .tc main_call0_v69)) = _
  rw [W7_v68, W7_v69, Cert.Spec.normAddP_pack]
  rfl

/-! ## Stretch 4: un-pack and slice the two node sets' rows -/

/-- Rows 0 … 49999 of the propagated features, when stretch 4 ends. -/
theorem W9_v0_2 (c : Dev nD) :
    (W9 m ρ c (Proc.devRef .tc main_v0_2) : FVec Ideal S50000x64 .f32)
      = Cert.Spec.rowsFrom 0 (n := 150000) (k := 50000) (by decide)
          (Cert.Spec.prop3 (feat m c) (sp m c (feat m c)) (sp m c (sp m c (feat m c)))) := by
  refine (after4_v0_2 (W8 m ρ c)).trans ?_
  rw [W8_v70, shapeCast_unpack, Cert.Spec.unpack_pack, slice_rows0]

/-- Rows 50000 … 149999 of the propagated features, when stretch 4 ends. -/
theorem W9_v0_3 (c : Dev nD) :
    (W9 m ρ c (Proc.devRef .tc main_v0_3) : FVec Ideal S100000x64 .f32)
      = Cert.Spec.rowsFrom 50000 (n := 150000) (k := 100000) (by decide)
          (Cert.Spec.prop3 (feat m c) (sp m c (feat m c)) (sp m c (sp m c (feat m c)))) := by
  refine (after4_v0_3 (W8 m ρ c)).trans ?_
  rw [W8_v70, shapeCast_unpack, Cert.Spec.unpack_pack, slice_rows50000]

/-! ## The two results are written once: later stretches and pipelines leave them -/

theorem W14_keep_v0_2 (c : Dev nD) : W14 m ρ c (Proc.devRef .tc main_v0_2) = W9 m ρ c (Proc.devRef .tc main_v0_2) :=
  calc W14 m ρ c (Proc.devRef .tc main_v0_2)
    _ = W13 m ρ c (Proc.devRef .tc main_v0_2) := W14_of_ne m ρ c main_v0_2 (by decide)
    _ = W12 m ρ c (Proc.devRef .tc main_v0_2) := by host_keeps hostOps6
    _ = W11 m ρ c (Proc.devRef .tc main_v0_2) := W12_of_ne m ρ c main_v0_2 (by decide)
    _ = W10 m ρ c (Proc.devRef .tc main_v0_2) := by host_keeps hostOps5
    _ = W9 m ρ c (Proc.devRef .tc main_v0_2) := W10_of_ne m ρ c main_v0_2 (by decide)

theorem W14_keep_v0_3 (c : Dev nD) : W14 m ρ c (Proc.devRef .tc main_v0_3) = W9 m ρ c (Proc.devRef .tc main_v0_3) :=
  calc W14 m ρ c (Proc.devRef .tc main_v0_3)
    _ = W13 m ρ c (Proc.devRef .tc main_v0_3) := W14_of_ne m ρ c main_v0_3 (by decide)
    _ = W12 m ρ c (Proc.devRef .tc main_v0_3) := by host_keeps hostOps6
    _ = W11 m ρ c (Proc.devRef .tc main_v0_3) := W12_of_ne m ρ c main_v0_3 (by decide)
    _ = W10 m ρ c (Proc.devRef .tc main_v0_3) := by host_keeps hostOps5
    _ = W9 m ρ c (Proc.devRef .tc main_v0_3) := W10_of_ne m ρ c main_v0_3 (by decide)

end BI

/-! ## What the run leaves in the two results -/

/-- What the run leaves in result `main_v0_2`: rows 0 … 49999 of the graph's propagated features. -/
theorem W14_main_v0_2 (c : Dev nD) :
    W14 m ρ c (Proc.devRef .tc main_v0_2)
      = Cert.Spec.rowsFrom 0 (n := 150000) (k := 50000) (by decide) (Cert.KernelIdeal.SpecHost.prop150000 (m ((c : Thread nD τ).loc main_arg10)) (m ((c : Thread nD τ).loc main_arg11)) (m ((c : Thread nD τ).loc main_arg12)) (Cert.KernelIdeal.SpecHost.featBI (m ((c : Thread nD τ).loc main_arg2)) (m ((c : Thread nD τ).loc main_arg1)))) :=
  (BI.W14_keep_v0_2 m ρ c).trans (BI.W9_v0_2 m ρ c)

/-- What the run leaves in result `main_v0_3`: rows 50000 … 149999 of the graph's propagated features. -/
theorem W14_main_v0_3 (c : Dev nD) :
    W14 m ρ c (Proc.devRef .tc main_v0_3)
      = Cert.Spec.rowsFrom 50000 (n := 150000) (k := 100000) (by decide) (Cert.KernelIdeal.SpecHost.prop150000 (m ((c : Thread nD τ).loc main_arg10)) (m ((c : Thread nD τ).loc main_arg11)) (m ((c : Thread nD τ).loc main_arg12)) (Cert.KernelIdeal.SpecHost.featBI (m ((c : Thread nD τ).loc main_arg2)) (m ((c : Thread nD τ).loc main_arg1)))) :=
  (BI.W14_keep_v0_3 m ρ c).trans (BI.W9_v0_3 m ρ c)

end Cert.KernelIdeal.KProp

end
-- ==== Proof.KNa4.lean ====
/-
  Pipeline 4: what the whole output array holds when the pipeline has run. Every grid point normalises and adds its
  5000 packed rows, the blocks tile the array, so the array is the packed layer `normAddP` of the two input arrays.

  The body's two stores are read at a lane: each 64-lane half of a packed row is divided by the clamped Euclidean norm of
  that half, added to the running sum and divided by the layer's divisor. Together the two stores are the packed layer of
  the two blocks; the packed layer works row by row, so block `t` of the layer of the arrays is the layer of the arrays'
  blocks `t`; and row `r` of the array lies in the block of point `r / 5000`.
-/
import proofs.«408083_j64364379898214_3_alg».proof.Proof.Gen.KernelIdeal.Frame
import proofs.«408083_j64364379898214_3_alg».proof.Proof.Spec
import Idealize.ShloMosaic.Lib.Pipeline.Value
import Idealize.ShloMosaic.PureOps.Ideal.Laws

set_option maxRecDepth 16384

noncomputable section

namespace Cert.KernelIdeal.KNa

open Cert.KernelIdeal Cert.KernelIdeal.Gen Idealize.ShloMosaic Idealize.ShloMosaic.TcCoe Idealize.ShloMosaic.ValueIdx Idealize.SL.Sem

/-- The sum over the 64 lanes of row `r` of a 5000 × 64 block. -/
theorem laneSum_p4 (v : FVec Ideal S5000x64 .f32) (hφ : FKind.Formats .f32)
    (hacc : (0x00000000#32 : BitVec 32) = 0x00000000#32) (r : Fin 5000) :
    multiReduction .add [1] S5000 v 0x00000000#32 Gen.reduces_S5000x64_S5000 hφ hacc (ix1 r)
      = ∑ k : Fin 64, v (ix2 r k) := by
  refine (Ideal.multiReduction_add_single v 0x00000000#32 Gen.reduces_S5000x64_S5000 hφ hacc (ix1 r)).trans ?_
  refine Finset.sum_congr rfl fun k _ => congrArg v ?_
  funext a
  match a with
  | ⟨0, _⟩ => rfl
  | ⟨1, _⟩ => rfl

/-- Lane `k` of the left half of a 128-lane row. -/
abbrev laneL_p4 (k : Fin 64) : Fin 128 := ⟨k.val, by omega⟩
/-- Lane `k` of the right half of a 128-lane row. -/
abbrev laneR_p4 (k : Fin 64) : Fin 128 := ⟨64 + k.val, by omega⟩

/-- The left 64 lanes cut out of a 128-lane block: lane `k` of the cut is lane `k` of the block. -/
theorem sliceL_p4 (x : FVec Ideal S5000x128 .f32) (r : Fin 5000) (k : Fin 64) :
    extractStridedSlice S5000x64 ![0, 0] x Gen.slices_S5000x128_o0_0_S5000x64 (ix2 r k) = x (ix2 r (laneL_p4 k)) := by
  refine extractStridedSlice_apply _ _ _ (ix2 r k) (ix2 r (laneL_p4 k)) fun a => ?_
  match a with
  | ⟨0, _⟩ => show r.val = 0 + r.val; omega
  | ⟨1, _⟩ => show k.val = 0 + k.val; omega

/-- The right 64 lanes cut out of a 128-lane block: lane `k` of the cut is lane `64 + k` of the block. -/
theorem sliceR_p4 (x : FVec Ideal S5000x128 .f32) (r : Fin 5000) (k : Fin 64) :
    extractStridedSlice S5000x64 ![0, 64] x Gen.slices_S5000x128_o0_64_S5000x64 (ix2 r k) = x (ix2 r (laneR_p4 k)) := by
  refine extractStridedSlice_apply _ _ _ (ix2 r k) (ix2 r (laneR_p4 k)) fun a => ?_
  match a with
  | ⟨0, _⟩ => show r.val = 0 + r.val; omega
  | ⟨1, _⟩ => show 64 + k.val = 64 + k.val; rfl

/-- A column vector spread over 64 lanes reads, in every lane of row `r`, the column's entry at `r`. -/
theorem spreadCol_p4 (v : FVec Ideal S5000x1 .f32) (r : Fin 5000) (k : Fin 64) :
    broadcastTo S5000x64 v Gen.broadcasts_S5000x1_S5000x64 (ix2 r k) = v (ix2 r (0 : Fin 1)) := by
  refine broadcastTo_apply _ _ (ix2 r k) (ix2 r (0 : Fin 1)) fun a => ?_
  match a with
  | ⟨0, _⟩ => rfl
  | ⟨1, _⟩ => rfl

/-- A vector of 5000 entries recast as a column holds entry `r` in row `r`. -/
theorem asCol_p4 (v : FVec Ideal S5000 .f32) (r : Fin 5000) :
    shapeCast S5000x1 v Gen.shapeCasts_S5000_S5000x1 (ix2 r (0 : Fin 1)) = v (ix1 r) := by
  refine shapeCast_apply _ _ (ix2 r (0 : Fin 1)) (ix1 r) ?_
  rw [Shape.rowMajor_val_one, Shape.rowMajor_val_two]
  show r.val = r.val * 1 + 0
  omega

/-- The clamped norm of row `r` of a 64-lane half, spread over the half's lanes. -/
theorem halfNorm_p4 (y : FVec Ideal S5000x64 .f32) (hφ : FKind.Formats .f32)
    (hacc : (0x00000000#32 : BitVec 32) = 0x00000000#32) (r : Fin 5000) (k : Fin 64) :
    broadcastTo S5000x64
        (maximumf (sqrt (shapeCast S5000x1 (multiReduction .add [1] S5000 (mulf y y) 0x00000000#32
            Gen.reduces_S5000x64_S5000 hφ hacc) Gen.shapeCasts_S5000_S5000x1))
          (broadcast S5000x1 (Scalar.ofBits .f32 0x2B8CBCCC#32)))
        Gen.broadcasts_S5000x1_S5000x64 (ix2 r k)
      = max (Ideal.sqrt (∑ q : Fin 64, y (ix2 r q) * y (ix2 r q))) Cert.Spec.eps := by
  refine (spreadCol_p4 _ r k).trans ?_
  show max (Ideal.sqrt (shapeCast S5000x1 _ Gen.shapeCasts_S5000_S5000x1 (ix2 r (0 : Fin 1)))) Cert.Spec.eps = _
  rw [asCol_p4, laneSum_p4]
  rfl

/-- What the body stores into the left half: lane `k` of row `r` is the running sum there plus the layer output there
    over the clamped norm of the row's left half, all over the divisor. -/
theorem payL_p4 (x0 x1 : Vec Ideal S5000x128 .f32) (r : Fin 5000) (k : Fin 64) :
    k4_pay3 x0 x1 (ix2 r k)
      = Ideal.div (x1 (ix2 r (laneL_p4 k)) + Ideal.div (x0 (ix2 r (laneL_p4 k)))
          (max (Ideal.sqrt (∑ q : Fin 64, x0 (ix2 r (laneL_p4 q)) * x0 (ix2 r (laneL_p4 q)))) Cert.Spec.eps)) Cert.Spec.one := by
  unfold k4_pay3 k4_pay1 k4_pay2
  dsimp only
  show Ideal.div (extractStridedSlice S5000x64 ![0, 0] (shapeCast S5000x128 x1 _) _ (ix2 r k)
      + Ideal.div (extractStridedSlice S5000x64 ![0, 0] (shapeCast S5000x128 x0 _) _ (ix2 r k))
          (broadcastTo S5000x64 _ _ (ix2 r k))) (Ideal.ofBits .f32 0x3F800000#32) = _
  rw [halfNorm_p4]
  simp only [sliceL_p4, shapeCast_self]

/-- What the body stores into the right half, likewise, over the clamped norm of the row's right half. -/
theorem payR_p4 (x0 x1 : Vec Ideal S5000x128 .f32) (r : Fin 5000) (k : Fin 64) :
    k4_pay4 x0 x1 (ix2 r k)
      = Ideal.div (x1 (ix2 r (laneR_p4 k)) + Ideal.div (x0 (ix2 r (laneR_p4 k)))
          (max (Ideal.sqrt (∑ q : Fin 64, x0 (ix2 r (laneR_p4 q)) * x0 (ix2 r (laneR_p4 q)))) Cert.Spec.eps)) Cert.Spec.one := by
  unfold k4_pay4 k4_pay1 k4_pay2
  dsimp only
  show Ideal.div (extractStridedSlice S5000x64 ![0, 64] (shapeCast S5000x128 x1 _) _ (ix2 r k)
      + Ideal.div (extractStridedSlice S5000x64 ![0, 64] (shapeCast S5000x128 x0 _) _ (ix2 r k))
          (broadcastTo S5000x64 _ _ (ix2 r k))) (Ideal.ofBits .f32 0x3F800000#32) = _
  rw [halfNorm_p4]
  simp only [sliceR_p4, shapeCast_self]

/-- The zero offsets of a whole-buffer access. -/
theorem hz_p4 : (![0, 0] : Fin 2 → Nat) = fun _ => 0 := funext fun a => by fin_cases a <;> rfl

/-- The half of a row that a left-half lane lies in is the left half. -/
theorem halfLane_L_p4 (k q : Fin 64) : Cert.Spec.halfLane (laneL_p4 k) q = laneL_p4 q := by
  apply Fin.ext
  show 64 * (k.val / 64) + q.val = q.val
  have := k.isLt
  omega

/-- The half of a row that a right-half lane lies in is the right half. -/
theorem halfLane_R_p4 (k q : Fin 64) : Cert.Spec.halfLane (laneR_p4 k) q = laneR_p4 q := by
  apply Fin.ext
  show 64 * ((64 + k.val) / 64) + q.val = 64 + q.val
  have := k.isLt
  omega

/-- The left half's store is the packed layer of the two blocks, read where the store's rectangle puts it. -/
theorem pieceL_p4 (x0 x1 : Vec Ideal S5000x128 .f32) (x : S5000x64.Idx) :
    k4_pay3 x0 x1 x = Cert.Spec.normAddP (h := 5000) Cert.Spec.one x0 x1 (r4_1.emb x) := by
  obtain ⟨r, k, rfl⟩ : ∃ (r : Fin 5000) (k : Fin 64), x = ix2 r k := ⟨x 0, x 1, eq_ix2 x⟩
  have e : r4_1.emb (ix2 r k) = ix2 r (laneL_p4 k) := by
    funext a; apply Fin.ext
    match a with
    | ⟨0, _⟩ => show 0 + 1 * r.val = r.val; omega
    | ⟨1, _⟩ => show 0 + 1 * k.val = k.val; omega
  rw [e, payL_p4]
  show _ = Ideal.div (x1 (ix2 r (laneL_p4 k)) + Ideal.div (x0 (ix2 r (laneL_p4 k)))
      (max (Ideal.sqrt (∑ q : Fin 64, x0 (ix2 r (Cert.Spec.halfLane (laneL_p4 k) q)) * x0 (ix2 r (Cert.Spec.halfLane (laneL_p4 k) q)))) Cert.Spec.eps)) Cert.Spec.one
  simp only [halfLane_L_p4]

/-- The right half's store likewise. -/
theorem pieceR_p4 (x0 x1 : Vec Ideal S5000x128 .f32) (x : S5000x64.Idx) :
    k4_pay4 x0 x1 x = Cert.Spec.normAddP (h := 5000) Cert.Spec.one x0 x1 (r4_2.emb x) := by
  obtain ⟨r, k, rfl⟩ : ∃ (r : Fin 5000) (k : Fin 64), x = ix2 r k := ⟨x 0, x 1, eq_ix2 x⟩
  have e : r4_2.emb (ix2 r k) = ix2 r (laneR_p4 k) := by
    funext a; apply Fin.ext
    match a with
    | ⟨0, _⟩ => show 0 + 1 * r.val = r.val; omega
    | ⟨1, _⟩ => show 64 + 1 * k.val = 64 + k.val; omega
  rw [e, payR_p4]
  show _ = Ideal.div (x1 (ix2 r (laneR_p4 k)) + Ideal.div (x0 (ix2 r (laneR_p4 k)))
      (max (Ideal.sqrt (∑ q : Fin 64, x0 (ix2 r (Cert.Spec.halfLane (laneR_p4 k) q)) * x0 (ix2 r (Cert.Spec.halfLane (laneR_p4 k) q)))) Cert.Spec.eps)) Cert.Spec.one
  simp only [halfLane_R_p4]

/-- What the body leaves in the output's staging buffer: the packed layer of the two input blocks. -/
theorem out_p4 (x0 x1 : Vec Ideal S5000x128 .f32) :
    out4_2 x0 x1 = Cert.Spec.normAddP (h := 5000) Cert.Spec.one x0 x1 := by
  funext y
  unfold out4_2
  simp only [View.ld_unit_zero (S := S5000x128) hz_p4]
  refine View.canon_apply_of_pieces (Val := Elt Ideal) (S := S5000x128) (e := .f32)
    (Cert.Spec.normAddP (h := 5000) Cert.Spec.one x0 x1) _ ?_ y (cover4_2 _ _ y)
  intro p hp x
  simp only [List.mem_cons, List.not_mem_nil, or_false] at hp
  rcases hp with rfl | rfl
  · exact pieceR_p4 x0 x1 x
  · exact pieceL_p4 x0 x1 x

variable (V : (c : Dev nD) → (b : Ref sig .tc) → Buf (Elt Ideal) ((c : Thread nD τ).loc b))

/-- The packed layer works row by row: on the 5000 rows of block `b` cut out of the two arrays it is the same rows of
    the layer of the arrays. -/
theorem rows_p4 (dv : EReal) (A0 A1 : Cert.Spec.Arr 125000 128) (x0 x1 : Cert.Spec.Arr 5000 128) (b : ℕ) (hb : b < 25)
    (h0 : ∀ (p : Fin 5000) (l : Fin 128), x0 (ix2 p l) = A0 (ix2 (⟨b * 5000 + p.val, by have := p.isLt; omega⟩ : Fin 125000) l))
    (h1 : ∀ (p : Fin 5000) (l : Fin 128), x1 (ix2 p l) = A1 (ix2 (⟨b * 5000 + p.val, by have := p.isLt; omega⟩ : Fin 125000) l))
    (p : Fin 5000) (l : Fin 128) :
    Cert.Spec.normAddP (h := 5000) dv x0 x1 (ix2 p l)
      = Cert.Spec.normAddP (h := 125000) dv A0 A1 (ix2 (⟨b * 5000 + p.val, by have := p.isLt; omega⟩ : Fin 125000) l) := by
  show Ideal.div (x1 (ix2 p l) + Ideal.div (x0 (ix2 p l))
        (max (Ideal.sqrt (∑ k : Fin 64, x0 (ix2 p (Cert.Spec.halfLane l k)) * x0 (ix2 p (Cert.Spec.halfLane l k)))) Cert.Spec.eps)) dv
      = Ideal.div (A1 (ix2 _ l) + Ideal.div (A0 (ix2 _ l))
        (max (Ideal.sqrt (∑ k : Fin 64, A0 (ix2 _ (Cert.Spec.halfLane l k)) * A0 (ix2 _ (Cert.Spec.halfLane l k)))) Cert.Spec.eps)) dv
  simp only [h0, h1]

/-- The printed index maps over the grid: at point `t` every window's block is block `t` of rows, all 128 lanes. -/
theorem idx_p4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- The layer output's block at point `t` is rows `5000 t … 5000 t + 4999` of its array. -/
theorem blkF_p4 (c : Dev nD) (t : Fin cfg4.N) (ht : t.val < 25) (p : Fin 5000) (l : Fin 128) :
    (iblk4 V c 0 t : Vec Ideal S5000x128 .f32) (ix2 p l)
      = (V c (Pipeline.arrRef spec4 0) : Cert.Spec.Arr 125000 128)
          (ix2 (⟨t.val * 5000 + p.val, by have := p.isLt; omega⟩ : Fin 125000) l) := by
  obtain ⟨e0, e1, -⟩ := idx_p4 t
  unfold iblk4
  rw [View.read_apply]
  show V c (Pipeline.arrRef spec4 0) _ = V c (Pipeline.arrRef spec4 0) _
  congr 1
  funext a
  apply Fin.ext
  match a with
  | ⟨0, _⟩ => show win4_0.index t (0 : Fin 2) * 5000 + 1 * p.val = t.val * 5000 + p.val; rw [e0]; omega
  | ⟨1, _⟩ => show win4_0.index t (1 : Fin 2) * 128 + 1 * l.val = l.val; rw [e1]; omega

/-- The running sum's block at point `t` is the same rows of its array. -/
theorem blkA_p4 (c : Dev nD) (t : Fin cfg4.N) (ht : t.val < 25) (p : Fin 5000) (l : Fin 128) :
    (iblk4 V c 1 t : Vec Ideal S5000x128 .f32) (ix2 p l)
      = (V c (Pipeline.arrRef spec4 1) : Cert.Spec.Arr 125000 128)
          (ix2 (⟨t.val * 5000 + p.val, by have := p.isLt; omega⟩ : Fin 125000) l) := by
  obtain ⟨-, -, e0, e1, -⟩ := idx_p4 t
  unfold iblk4
  rw [View.read_apply]
  show V c (Pipeline.arrRef spec4 1) _ = V c (Pipeline.arrRef spec4 1) _
  congr 1
  funext a
  apply Fin.ext
  match a with
  | ⟨0, _⟩ => show win4_1.index t (0 : Fin 2) * 5000 + 1 * p.val = t.val * 5000 + p.val; rw [e0]; omega
  | ⟨1, _⟩ => show win4_1.index t (1 : Fin 2) * 128 + 1 * l.val = l.val; rw [e1]; omega

/-- What point `t` writes back is block `t` of the packed layer of the two whole input arrays. -/
theorem flushed_p4 (c : Dev nD) (t : Fin cfg4.N) :
    (dat4 V c).flushed 2 t = ((cfg4.win 2).blk t).view.read (Elt Ideal)
      (Cert.Spec.normAddP (h := 125000) Cert.Spec.one (V c (Pipeline.arrRef spec4 0)) (V c (Pipeline.arrRef spec4 1))) := by
  have ht : t.val < 25 := by
    have h : t.val < cfg4.N := t.isLt
    have e : cfg4.N = 25 := N_4
    omega
  obtain ⟨-, -, -, -, e0, e1⟩ := idx_p4 t
  show (cfg4.win 2).cut (grid4.coords t) ((dat4 V c).after 2 t) = _
  rw [after4_2, out_p4]
  funext j
  obtain ⟨p, l, rfl⟩ : ∃ (p : Fin 5000) (l : Fin 128), j = ix2 p l := ⟨j 0, j 1, eq_ix2 j⟩
  rw [View.read_apply]
  have e : ((cfg4.win 2).blk t).view.emb (ix2 p l)
      = ix2 (⟨t.val * 5000 + p.val, by have := p.isLt; omega⟩ : Fin 125000) l := by
    funext a
    apply Fin.ext
    match a with
    | ⟨0, _⟩ => show win4_2.index t (0 : Fin 2) * 5000 + 1 * p.val = t.val * 5000 + p.val; rw [e0]; omega
    | ⟨1, _⟩ => show win4_2.index t (1 : Fin 2) * 128 + 1 * l.val = l.val; rw [e1]; omega
  rw [e]
  exact rows_p4 Cert.Spec.one (V c (Pipeline.arrRef spec4 0)) (V c (Pipeline.arrRef spec4 1))
    (iblk4 V c 0 t) (iblk4 V c 1 t) t.val ht (blkF_p4 V c t ht) (blkA_p4 V c t ht) p l

/-- An index of the array is in point `t`'s block iff each coordinate is in the block's range on its axis. -/
theorem mem_blk_p4 (t : Fin cfg4.N) (i : S125000x128.Idx) :
    i ∈ ((cfg4.win 2).blk t).view.set ↔ ∀ a : Fin 2, win4_2.index t a * S5000x128.size a ≤ (i a).val
      ∧ (i a).val < win4_2.index t a * S5000x128.size a + S5000x128.size a := by
  show i ∈ ((View.whole main_call0_v90).slice (win4_2.rect t)).set ↔ _
  rw [View.set_slice_whole, Rect.mem_set_unit]
  exact Iff.rfl

/-- The blocks tile the array: row `r` lies in the block of point `r / 5000`. -/
theorem cover_p4 (i : S125000x128.Idx) :
    ∃ t : Fin cfg4.N, (cfg4.win 2).flush t = true ∧ i ∈ ((cfg4.win 2).blk t).view.set := by
  have hi0 : (i 0).val < 125000 := (i 0).isLt
  have hi1 : (i 1).val < 128 := (i 1).isLt
  have hN : cfg4.N = 25 := N_4
  obtain ⟨t, ht⟩ : ∃ t : Fin cfg4.N, t.val = (i 0).val / 5000 := ⟨⟨(i 0).val / 5000, by rw [hN]; omega⟩, rfl⟩
  obtain ⟨-, -, -, -, e0, e1⟩ := idx_p4 t
  refine ⟨t, flush4_2 t, ?_⟩
  rw [mem_blk_p4]
  intro a
  match a with
  | ⟨0, _⟩ =>
    show win4_2.index t (0 : Fin 2) * 5000 ≤ (i 0).val ∧ (i 0).val < win4_2.index t (0 : Fin 2) * 5000 + 5000
    rw [e0, ht]; omega
  | ⟨1, _⟩ =>
    show win4_2.index t (1 : Fin 2) * 128 ≤ (i 1).val ∧ (i 1).val < win4_2.index t (1 : Fin 2) * 128 + 128
    rw [e1]; omega

/-- The output array after pipeline 4: the packed layer of its two input arrays, divided by the layer's divisor. -/
theorem arrAt4 (c : Dev nD) :
    (dat4 V c).arrAt 2 cfg4.N
      = Cert.Spec.normAddP (h := 125000) Cert.Spec.one (V c (Pipeline.arrRef spec4 0)) (V c (Pipeline.arrRef spec4 1)) :=
  (dat4 V c).arrAt_eq_of_cover 2 _ (fun t _ => flushed_p4 V c t) cover_p4

end Cert.KernelIdeal.KNa

end
-- ==== Proof.KNa5.lean ====
/-
  Pipeline 5: what the whole output array holds when the pipeline has run. Every grid point normalises and adds its
  5000 packed rows, the blocks tile the array, so the array is the packed layer `normAddP` of the two input arrays.

  The body's two stores are read at a lane: each 64-lane half of a packed row is divided by the clamped Euclidean norm of
  that half, added to the running sum and divided by the layer's divisor. Together the two stores are the packed layer of
  the two blocks; the packed layer works row by row, so block `t` of the layer of the arrays is the layer of the arrays'
  blocks `t`; and row `r` of the array lies in the block of point `r / 5000`.
-/
import proofs.«408083_j64364379898214_3_alg».proof.Proof.Gen.KernelIdeal.Frame
import proofs.«408083_j64364379898214_3_alg».proof.Proof.Spec
import Idealize.ShloMosaic.Lib.Pipeline.Value
import Idealize.ShloMosaic.PureOps.Ideal.Laws

set_option maxRecDepth 16384

noncomputable section

namespace Cert.KernelIdeal.KNa

open Cert.KernelIdeal Cert.KernelIdeal.Gen Idealize.ShloMosaic Idealize.ShloMosaic.TcCoe Idealize.ShloMosaic.ValueIdx Idealize.SL.Sem

/-- The sum over the 64 lanes of row `r` of a 5000 × 64 block. -/
theorem laneSum_p5 (v : FVec Ideal S5000x64 .f32) (hφ : FKind.Formats .f32)
    (hacc : (0x00000000#32 : BitVec 32) = 0x00000000#32) (r : Fin 5000) :
    multiReduction .add [1] S5000 v 0x00000000#32 Gen.reduces_S5000x64_S5000 hφ hacc (ix1 r)
      = ∑ k : Fin 64, v (ix2 r k) := by
  refine (Ideal.multiReduction_add_single v 0x00000000#32 Gen.reduces_S5000x64_S5000 hφ hacc (ix1 r)).trans ?_
  refine Finset.sum_congr rfl fun k _ => congrArg v ?_
  funext a
  match a with
  | ⟨0, _⟩ => rfl
  | ⟨1, _⟩ => rfl

/-- Lane `k` of the left half of a 128-lane row. -/
abbrev laneL_p5 (k : Fin 64) : Fin 128 := ⟨k.val, by omega⟩
/-- Lane `k` of the right half of a 128-lane row. -/
abbrev laneR_p5 (k : Fin 64) : Fin 128 := ⟨64 + k.val, by omega⟩

/-- The left 64 lanes cut out of a 128-lane block: lane `k` of the cut is lane `k` of the block. -/
theorem sliceL_p5 (x : FVec Ideal S5000x128 .f32) (r : Fin 5000) (k : Fin 64) :
    extractStridedSlice S5000x64 ![0, 0] x Gen.slices_S5000x128_o0_0_S5000x64 (ix2 r k) = x (ix2 r (laneL_p5 k)) := by
  refine extractStridedSlice_apply _ _ _ (ix2 r k) (ix2 r (laneL_p5 k)) fun a => ?_
  match a with
  | ⟨0, _⟩ => show r.val = 0 + r.val; omega
  | ⟨1, _⟩ => show k.val = 0 + k.val; omega

/-- The right 64 lanes cut out of a 128-lane block: lane `k` of the cut is lane `64 + k` of the block. -/
theorem sliceR_p5 (x : FVec Ideal S5000x128 .f32) (r : Fin 5000) (k : Fin 64) :
    extractStridedSlice S5000x64 ![0, 64] x Gen.slices_S5000x128_o0_64_S5000x64 (ix2 r k) = x (ix2 r (laneR_p5 k)) := by
  refine extractStridedSlice_apply _ _ _ (ix2 r k) (ix2 r (laneR_p5 k)) fun a => ?_
  match a with
  | ⟨0, _⟩ => show r.val = 0 + r.val; omega
  | ⟨1, _⟩ => show 64 + k.val = 64 + k.val; rfl

/-- A column vector spread over 64 lanes reads, in every lane of row `r`, the column's entry at `r`. -/
theorem spreadCol_p5 (v : FVec Ideal S5000x1 .f32) (r : Fin 5000) (k : Fin 64) :
    broadcastTo S5000x64 v Gen.broadcasts_S5000x1_S5000x64 (ix2 r k) = v (ix2 r (0 : Fin 1)) := by
  refine broadcastTo_apply _ _ (ix2 r k) (ix2 r (0 : Fin 1)) fun a => ?_
  match a with
  | ⟨0, _⟩ => rfl
  | ⟨1, _⟩ => rfl

/-- A vector of 5000 entries recast as a column holds entry `r` in row `r`. -/
theorem asCol_p5 (v : FVec Ideal S5000 .f32) (r : Fin 5000) :
    shapeCast S5000x1 v Gen.shapeCasts_S5000_S5000x1 (ix2 r (0 : Fin 1)) = v (ix1 r) := by
  refine shapeCast_apply _ _ (ix2 r (0 : Fin 1)) (ix1 r) ?_
  rw [Shape.rowMajor_val_one, Shape.rowMajor_val_two]
  show r.val = r.val * 1 + 0
  omega

/-- The clamped norm of row `r` of a 64-lane half, spread over the half's lanes. -/
theorem halfNorm_p5 (y : FVec Ideal S5000x64 .f32) (hφ : FKind.Formats .f32)
    (hacc : (0x00000000#32 : BitVec 32) = 0x00000000#32) (r : Fin 5000) (k : Fin 64) :
    broadcastTo S5000x64
        (maximumf (sqrt (shapeCast S5000x1 (multiReduction .add [1] S5000 (mulf y y) 0x00000000#32
            Gen.reduces_S5000x64_S5000 hφ hacc) Gen.shapeCasts_S5000_S5000x1))
          (broadcast S5000x1 (Scalar.ofBits .f32 0x2B8CBCCC#32)))
        Gen.broadcasts_S5000x1_S5000x64 (ix2 r k)
      = max (Ideal.sqrt (∑ q : Fin 64, y (ix2 r q) * y (ix2 r q))) Cert.Spec.eps := by
  refine (spreadCol_p5 _ r k).trans ?_
  show max (Ideal.sqrt (shapeCast S5000x1 _ Gen.shapeCasts_S5000_S5000x1 (ix2 r (0 : Fin 1)))) Cert.Spec.eps = _
  rw [asCol_p5, laneSum_p5]
  rfl

/-- What the body stores into the left half: lane `k` of row `r` is the running sum there plus the layer output there
    over the clamped norm of the row's left half, all over the divisor. -/
theorem payL_p5 (x0 x1 : Vec Ideal S5000x128 .f32) (r : Fin 5000) (k : Fin 64) :
    k5_pay3 x0 x1 (ix2 r k)
      = Ideal.div (x1 (ix2 r (laneL_p5 k)) + Ideal.div (x0 (ix2 r (laneL_p5 k)))
          (max (Ideal.sqrt (∑ q : Fin 64, x0 (ix2 r (laneL_p5 q)) * x0 (ix2 r (laneL_p5 q)))) Cert.Spec.eps)) Cert.Spec.three := by
  unfold k5_pay3 k5_pay1 k5_pay2
  dsimp only
  show Ideal.div (extractStridedSlice S5000x64 ![0, 0] (shapeCast S5000x128 x1 _) _ (ix2 r k)
      + Ideal.div (extractStridedSlice S5000x64 ![0, 0] (shapeCast S5000x128 x0 _) _ (ix2 r k))
          (broadcastTo S5000x64 _ _ (ix2 r k))) (Ideal.ofBits .f32 0x40400000#32) = _
  rw [halfNorm_p5]
  simp only [sliceL_p5, shapeCast_self]

/-- What the body stores into the right half, likewise, over the clamped norm of the row's right half. -/
theorem payR_p5 (x0 x1 : Vec Ideal S5000x128 .f32) (r : Fin 5000) (k : Fin 64) :
    k5_pay4 x0 x1 (ix2 r k)
      = Ideal.div (x1 (ix2 r (laneR_p5 k)) + Ideal.div (x0 (ix2 r (laneR_p5 k)))
          (max (Ideal.sqrt (∑ q : Fin 64, x0 (ix2 r (laneR_p5 q)) * x0 (ix2 r (laneR_p5 q)))) Cert.Spec.eps)) Cert.Spec.three := by
  unfold k5_pay4 k5_pay1 k5_pay2
  dsimp only
  show Ideal.div (extractStridedSlice S5000x64 ![0, 64] (shapeCast S5000x128 x1 _) _ (ix2 r k)
      + Ideal.div (extractStridedSlice S5000x64 ![0, 64] (shapeCast S5000x128 x0 _) _ (ix2 r k))
          (broadcastTo S5000x64 _ _ (ix2 r k))) (Ideal.ofBits .f32 0x40400000#32) = _
  rw [halfNorm_p5]
  simp only [sliceR_p5, shapeCast_self]

/-- The zero offsets of a whole-buffer access. -/
theorem hz_p5 : (![0, 0] : Fin 2 → Nat) = fun _ => 0 := funext fun a => by fin_cases a <;> rfl

/-- The half of a row that a left-half lane lies in is the left half. -/
theorem halfLane_L_p5 (k q : Fin 64) : Cert.Spec.halfLane (laneL_p5 k) q = laneL_p5 q := by
  apply Fin.ext
  show 64 * (k.val / 64) + q.val = q.val
  have := k.isLt
  omega

/-- The half of a row that a right-half lane lies in is the right half. -/
theorem halfLane_R_p5 (k q : Fin 64) : Cert.Spec.halfLane (laneR_p5 k) q = laneR_p5 q := by
  apply Fin.ext
  show 64 * ((64 + k.val) / 64) + q.val = 64 + q.val
  have := k.isLt
  omega

/-- The left half's store is the packed layer of the two blocks, read where the store's rectangle puts it. -/
theorem pieceL_p5 (x0 x1 : Vec Ideal S5000x128 .f32) (x : S5000x64.Idx) :
    k5_pay3 x0 x1 x = Cert.Spec.normAddP (h := 5000) Cert.Spec.three x0 x1 (r5_1.emb x) := by
  obtain ⟨r, k, rfl⟩ : ∃ (r : Fin 5000) (k : Fin 64), x = ix2 r k := ⟨x 0, x 1, eq_ix2 x⟩
  have e : r5_1.emb (ix2 r k) = ix2 r (laneL_p5 k) := by
    funext a; apply Fin.ext
    match a with
    | ⟨0, _⟩ => show 0 + 1 * r.val = r.val; omega
    | ⟨1, _⟩ => show 0 + 1 * k.val = k.val; omega
  rw [e, payL_p5]
  show _ = Ideal.div (x1 (ix2 r (laneL_p5 k)) + Ideal.div (x0 (ix2 r (laneL_p5 k)))
      (max (Ideal.sqrt (∑ q : Fin 64, x0 (ix2 r (Cert.Spec.halfLane (laneL_p5 k) q)) * x0 (ix2 r (Cert.Spec.halfLane (laneL_p5 k) q)))) Cert.Spec.eps)) Cert.Spec.three
  simp only [halfLane_L_p5]

/-- The right half's store likewise. -/
theorem pieceR_p5 (x0 x1 : Vec Ideal S5000x128 .f32) (x : S5000x64.Idx) :
    k5_pay4 x0 x1 x = Cert.Spec.normAddP (h := 5000) Cert.Spec.three x0 x1 (r5_2.emb x) := by
  obtain ⟨r, k, rfl⟩ : ∃ (r : Fin 5000) (k : Fin 64), x = ix2 r k := ⟨x 0, x 1, eq_ix2 x⟩
  have e : r5_2.emb (ix2 r k) = ix2 r (laneR_p5 k) := by
    funext a; apply Fin.ext
    match a with
    | ⟨0, _⟩ => show 0 + 1 * r.val = r.val; omega
    | ⟨1, _⟩ => show 64 + 1 * k.val = 64 + k.val; omega
  rw [e, payR_p5]
  show _ = Ideal.div (x1 (ix2 r (laneR_p5 k)) + Ideal.div (x0 (ix2 r (laneR_p5 k)))
      (max (Ideal.sqrt (∑ q : Fin 64, x0 (ix2 r (Cert.Spec.halfLane (laneR_p5 k) q)) * x0 (ix2 r (Cert.Spec.halfLane (laneR_p5 k) q)))) Cert.Spec.eps)) Cert.Spec.three
  simp only [halfLane_R_p5]

/-- What the body leaves in the output's staging buffer: the packed layer of the two input blocks. -/
theorem out_p5 (x0 x1 : Vec Ideal S5000x128 .f32) :
    out5_2 x0 x1 = Cert.Spec.normAddP (h := 5000) Cert.Spec.three x0 x1 := by
  funext y
  unfold out5_2
  simp only [View.ld_unit_zero (S := S5000x128) hz_p5]
  refine View.canon_apply_of_pieces (Val := Elt Ideal) (S := S5000x128) (e := .f32)
    (Cert.Spec.normAddP (h := 5000) Cert.Spec.three x0 x1) _ ?_ y (cover5_2 _ _ y)
  intro p hp x
  simp only [List.mem_cons, List.not_mem_nil, or_false] at hp
  rcases hp with rfl | rfl
  · exact pieceR_p5 x0 x1 x
  · exact pieceL_p5 x0 x1 x

variable (V : (c : Dev nD) → (b : Ref sig .tc) → Buf (Elt Ideal) ((c : Thread nD τ).loc b))

/-- The packed layer works row by row: on the 5000 rows of block `b` cut out of the two arrays it is the same rows of
    the layer of the arrays. -/
theorem rows_p5 (dv : EReal) (A0 A1 : Cert.Spec.Arr 125000 128) (x0 x1 : Cert.Spec.Arr 5000 128) (b : ℕ) (hb : b < 25)
    (h0 : ∀ (p : Fin 5000) (l : Fin 128), x0 (ix2 p l) = A0 (ix2 (⟨b * 5000 + p.val, by have := p.isLt; omega⟩ : Fin 125000) l))
    (h1 : ∀ (p : Fin 5000) (l : Fin 128), x1 (ix2 p l) = A1 (ix2 (⟨b * 5000 + p.val, by have := p.isLt; omega⟩ : Fin 125000) l))
    (p : Fin 5000) (l : Fin 128) :
    Cert.Spec.normAddP (h := 5000) dv x0 x1 (ix2 p l)
      = Cert.Spec.normAddP (h := 125000) dv A0 A1 (ix2 (⟨b * 5000 + p.val, by have := p.isLt; omega⟩ : Fin 125000) l) := by
  show Ideal.div (x1 (ix2 p l) + Ideal.div (x0 (ix2 p l))
        (max (Ideal.sqrt (∑ k : Fin 64, x0 (ix2 p (Cert.Spec.halfLane l k)) * x0 (ix2 p (Cert.Spec.halfLane l k)))) Cert.Spec.eps)) dv
      = Ideal.div (A1 (ix2 _ l) + Ideal.div (A0 (ix2 _ l))
        (max (Ideal.sqrt (∑ k : Fin 64, A0 (ix2 _ (Cert.Spec.halfLane l k)) * A0 (ix2 _ (Cert.Spec.halfLane l k)))) Cert.Spec.eps)) dv
  simp only [h0, h1]

/-- The printed index maps over the grid: at point `t` every window's block is block `t` of rows, all 128 lanes. -/
theorem idx_p5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- The layer output's block at point `t` is rows `5000 t … 5000 t + 4999` of its array. -/
theorem blkF_p5 (c : Dev nD) (t : Fin cfg5.N) (ht : t.val < 25) (p : Fin 5000) (l : Fin 128) :
    (iblk5 V c 0 t : Vec Ideal S5000x128 .f32) (ix2 p l)
      = (V c (Pipeline.arrRef spec5 0) : Cert.Spec.Arr 125000 128)
          (ix2 (⟨t.val * 5000 + p.val, by have := p.isLt; omega⟩ : Fin 125000) l) := by
  obtain ⟨e0, e1, -⟩ := idx_p5 t
  unfold iblk5
  rw [View.read_apply]
  show V c (Pipeline.arrRef spec5 0) _ = V c (Pipeline.arrRef spec5 0) _
  congr 1
  funext a
  apply Fin.ext
  match a with
  | ⟨0, _⟩ => show win5_0.index t (0 : Fin 2) * 5000 + 1 * p.val = t.val * 5000 + p.val; rw [e0]; omega
  | ⟨1, _⟩ => show win5_0.index t (1 : Fin 2) * 128 + 1 * l.val = l.val; rw [e1]; omega

/-- The running sum's block at point `t` is the same rows of its array. -/
theorem blkA_p5 (c : Dev nD) (t : Fin cfg5.N) (ht : t.val < 25) (p : Fin 5000) (l : Fin 128) :
    (iblk5 V c 1 t : Vec Ideal S5000x128 .f32) (ix2 p l)
      = (V c (Pipeline.arrRef spec5 1) : Cert.Spec.Arr 125000 128)
          (ix2 (⟨t.val * 5000 + p.val, by have := p.isLt; omega⟩ : Fin 125000) l) := by
  obtain ⟨-, -, e0, e1, -⟩ := idx_p5 t
  unfold iblk5
  rw [View.read_apply]
  show V c (Pipeline.arrRef spec5 1) _ = V c (Pipeline.arrRef spec5 1) _
  congr 1
  funext a
  apply Fin.ext
  match a with
  | ⟨0, _⟩ => show win5_1.index t (0 : Fin 2) * 5000 + 1 * p.val = t.val * 5000 + p.val; rw [e0]; omega
  | ⟨1, _⟩ => show win5_1.index t (1 : Fin 2) * 128 + 1 * l.val = l.val; rw [e1]; omega

/-- What point `t` writes back is block `t` of the packed layer of the two whole input arrays. -/
theorem flushed_p5 (c : Dev nD) (t : Fin cfg5.N) :
    (dat5 V c).flushed 2 t = ((cfg5.win 2).blk t).view.read (Elt Ideal)
      (Cert.Spec.normAddP (h := 125000) Cert.Spec.three (V c (Pipeline.arrRef spec5 0)) (V c (Pipeline.arrRef spec5 1))) := by
  have ht : t.val < 25 := by
    have h : t.val < cfg5.N := t.isLt
    have e : cfg5.N = 25 := N_5
    omega
  obtain ⟨-, -, -, -, e0, e1⟩ := idx_p5 t
  show (cfg5.win 2).cut (grid5.coords t) ((dat5 V c).after 2 t) = _
  rw [after5_2, out_p5]
  funext j
  obtain ⟨p, l, rfl⟩ : ∃ (p : Fin 5000) (l : Fin 128), j = ix2 p l := ⟨j 0, j 1, eq_ix2 j⟩
  rw [View.read_apply]
  have e : ((cfg5.win 2).blk t).view.emb (ix2 p l)
      = ix2 (⟨t.val * 5000 + p.val, by have := p.isLt; omega⟩ : Fin 125000) l := by
    funext a
    apply Fin.ext
    match a with
    | ⟨0, _⟩ => show win5_2.index t (0 : Fin 2) * 5000 + 1 * p.val = t.val * 5000 + p.val; rw [e0]; omega
    | ⟨1, _⟩ => show win5_2.index t (1 : Fin 2) * 128 + 1 * l.val = l.val; rw [e1]; omega
  rw [e]
  exact rows_p5 Cert.Spec.three (V c (Pipeline.arrRef spec5 0)) (V c (Pipeline.arrRef spec5 1))
    (iblk5 V c 0 t) (iblk5 V c 1 t) t.val ht (blkF_p5 V c t ht) (blkA_p5 V c t ht) p l

/-- An index of the array is in point `t`'s block iff each coordinate is in the block's range on its axis. -/
theorem mem_blk_p5 (t : Fin cfg5.N) (i : S125000x128.Idx) :
    i ∈ ((cfg5.win 2).blk t).view.set ↔ ∀ a : Fin 2, win5_2.index t a * S5000x128.size a ≤ (i a).val
      ∧ (i a).val < win5_2.index t a * S5000x128.size a + S5000x128.size a := by
  show i ∈ ((View.whole main_call0_v107).slice (win5_2.rect t)).set ↔ _
  rw [View.set_slice_whole, Rect.mem_set_unit]
  exact Iff.rfl

/-- The blocks tile the array: row `r` lies in the block of point `r / 5000`. -/
theorem cover_p5 (i : S125000x128.Idx) :
    ∃ t : Fin cfg5.N, (cfg5.win 2).flush t = true ∧ i ∈ ((cfg5.win 2).blk t).view.set := by
  have hi0 : (i 0).val < 125000 := (i 0).isLt
  have hi1 : (i 1).val < 128 := (i 1).isLt
  have hN : cfg5.N = 25 := N_5
  obtain ⟨t, ht⟩ : ∃ t : Fin cfg5.N, t.val = (i 0).val / 5000 := ⟨⟨(i 0).val / 5000, by rw [hN]; omega⟩, rfl⟩
  obtain ⟨-, -, -, -, e0, e1⟩ := idx_p5 t
  refine ⟨t, flush5_2 t, ?_⟩
  rw [mem_blk_p5]
  intro a
  match a with
  | ⟨0, _⟩ =>
    show win5_2.index t (0 : Fin 2) * 5000 ≤ (i 0).val ∧ (i 0).val < win5_2.index t (0 : Fin 2) * 5000 + 5000
    rw [e0, ht]; omega
  | ⟨1, _⟩ =>
    show win5_2.index t (1 : Fin 2) * 128 ≤ (i 1).val ∧ (i 1).val < win5_2.index t (1 : Fin 2) * 128 + 128
    rw [e1]; omega

/-- The output array after pipeline 5: the packed layer of its two input arrays, divided by the layer's divisor. -/
theorem arrAt5 (c : Dev nD) :
    (dat5 V c).arrAt 2 cfg5.N
      = Cert.Spec.normAddP (h := 125000) Cert.Spec.three (V c (Pipeline.arrRef spec5 0)) (V c (Pipeline.arrRef spec5 1)) :=
  (dat5 V c).arrAt_eq_of_cover 2 _ (fun t _ => flushed_p5 V c t) cover_p5

end Cert.KernelIdeal.KNa

end
-- ==== Proof.KPropUBA.lean ====
/-
  The re-layings of the UB graph's arrays, read at an index. An array of 250000 rows of 64 columns and an array of
  125000 rows of 128 lanes hold the same entries in the same row-major order, so re-laying the first as the second puts
  rows 2 r and 2 r + 1 side by side in packed row r (`Spec.pack`), and re-laying back undoes it (`Spec.unpack`). A
  slice of consecutive whole rows is `Spec.rowsFrom`.
-/
import proofs.«408083_j64364379898214_3_alg».proof.Proof.Gen.KernelIdeal
import proofs.«408083_j64364379898214_3_alg».proof.Proof.Spec
import Idealize.ShloMosaic.Lib.Pipeline.Value

set_option maxRecDepth 16384

noncomputable section

namespace Cert.KernelIdeal.KProp

open Cert.KernelIdeal Cert.KernelIdeal.Facts₀ Cert.KernelIdeal.Facts Idealize.ShloMosaic Idealize.ShloMosaic.ValueIdx

/-- Re-laying 250000 × 64 as 125000 × 128 is packing: the entry at row-major position `128 r + l` is column `l % 64`
    of row `2 r + l / 64`. -/
theorem shapeCast_pack (x : Cert.Spec.Arr 250000 64) :
    shapeCast S125000x128 x shapeCasts_S250000x64_S125000x128
      = Cert.Spec.pack (n := 250000) (h := 125000) (by decide) x := by
  funext j
  obtain ⟨r, l, rfl⟩ : ∃ (r : Fin 125000) (l : Fin 128), j = ix2 r l := ⟨j 0, j 1, eq_ix2 j⟩
  unfold Cert.Spec.pack
  refine shapeCast_apply x _ _ _ ?_
  rw [Shape.rowMajor_val_two, Shape.rowMajor_val_two]
  show (2 * r.val + l.val / 64) * 64 + l.val % 64 = r.val * 128 + l.val
  omega

/-- Re-laying 125000 × 128 as 250000 × 64 is unpacking: the entry at row-major position `64 i + d` is lane
    `64 (i % 2) + d` of packed row `i / 2`. -/
theorem shapeCast_unpack (y : Cert.Spec.Arr 125000 128) :
    shapeCast S250000x64 y shapeCasts_S125000x128_S250000x64
      = Cert.Spec.unpack (n := 250000) (h := 125000) (by decide) y := by
  funext j
  obtain ⟨i, d, rfl⟩ : ∃ (i : Fin 250000) (d : Fin 64), j = ix2 i d := ⟨j 0, j 1, eq_ix2 j⟩
  unfold Cert.Spec.unpack
  refine shapeCast_apply y _ _ _ ?_
  rw [Shape.rowMajor_val_two, Shape.rowMajor_val_two]
  show i.val / 2 * 128 + (64 * (i.val % 2) + d.val) = i.val * 64 + d.val
  omega

/-- The slice of the first 200000 rows. -/
theorem slice_users (x : Cert.Spec.Arr 250000 64) :
    extractStridedSlice S200000x64 ![0, 0] x slices_S250000x64_S200000x64_0_0
      = Cert.Spec.rowsFrom 0 (n := 250000) (k := 200000) (by decide) x := by
  funext j
  obtain ⟨i, d, rfl⟩ : ∃ (i : Fin 200000) (d : Fin 64), j = ix2 i d := ⟨j 0, j 1, eq_ix2 j⟩
  unfold Cert.Spec.rowsFrom
  refine extractStridedSlice_apply _ x _ _ _ fun a => ?_
  match a with
  | ⟨0, _⟩ => rfl
  | ⟨1, _⟩ => show d.val = 0 + d.val; omega

/-- The slice of the last 50000 rows. -/
theorem slice_bundles (x : Cert.Spec.Arr 250000 64) :
    extractStridedSlice S50000x64 ![200000, 0] x slices_S250000x64_S50000x64_200000_0
      = Cert.Spec.rowsFrom 200000 (n := 250000) (k := 50000) (by decide) x := by
  funext j
  obtain ⟨i, d, rfl⟩ : ∃ (i : Fin 50000) (d : Fin 64), j = ix2 i d := ⟨j 0, j 1, eq_ix2 j⟩
  unfold Cert.Spec.rowsFrom
  refine extractStridedSlice_apply _ x _ _ _ fun a => ?_
  match a with
  | ⟨0, _⟩ => rfl
  | ⟨1, _⟩ => show d.val = 0 + d.val; omega

end Cert.KernelIdeal.KProp

end
-- ==== Proof.KPropUBB.lean ====
/-
  Host stretch 4 of the kernel's program, read back. The stretch stacks users over bundles (the features of the UB
  graph), forms one sparse product of them — broadcast the edge values, turn a negative source index into one counted
  from the end, gather the source rows, scale, scatter-add into the destination rows —, and re-lays the product and the
  features as 125000 × 128. It is cut into four short pieces; each piece is read back over arbitrary contents at entry,
  and the pieces are composed.
-/
import proofs.«408083_j64364379898214_3_alg».proof.Proof.Gen.KernelIdeal.Launch
import proofs.«408083_j64364379898214_3_alg».proof.Proof.SpecHost
import Idealize.ShloMosaic.Lib.Pipeline.Frame

set_option maxRecDepth 16384

noncomputable section

namespace Cert.KernelIdeal.KProp

open Cert.KernelIdeal Cert.KernelIdeal.Gen Idealize.ShloMosaic Idealize.ShloMosaic.TcCoe Idealize.SL.Sem

variable (X Y : Valuation τ sig (Elt Ideal))

/-! ## The four pieces of the stretch -/

/-- The re-laying and slices of the BI graph's result, then the stacking of users over bundles. -/
abbrev s4a : List (HloOp τ sig (Elt Ideal)) := hostOps4.take 4
/-- The edge values as a column, and the source index counted from the end where it is negative. -/
abbrev s4b : List (HloOp τ sig (Elt Ideal)) := (hostOps4.drop 4).take 8
/-- Gather, scale and scatter-add. -/
abbrev s4c : List (HloOp τ sig (Elt Ideal)) := (hostOps4.drop 12).take 8
/-- The two re-layings as 125000 × 128. -/
abbrev s4d : List (HloOp τ sig (Elt Ideal)) := hostOps4.drop 20

theorem hostOps4_cut : (hostOps4 : List (HloOp τ sig (Elt Ideal))) = s4a ++ (s4b ++ (s4c ++ s4d)) := rfl

/-- Closes `StableHlo.after piece Y b = Y b` for a piece none of whose operations writes `b`: every operation writes its
    one result buffer, and that reference is not `b`. -/
macro "keeps4" : tactic => `(tactic| (
  refine StableHlo.after_of_forall_not_mem _ _ (List.forall_iff_forall_mem.mp ?_)
  simp only [s4a, s4b, s4c, s4d, hostOps4, List.drop_succ_cons, List.drop_zero, List.take_succ_cons, List.take_zero,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))

/-- Reads a piece's result buffer back as the operations' term over the contents at entry. -/
macro "reads4" : tactic => `(tactic| (
  simp only [s4a, s4b, s4c, s4d, hostOps4, List.drop_succ_cons, List.drop_zero, List.take_succ_cons, List.take_zero]
  after_results_simp
  rfl))

/-! ### First piece -/

theorem s4a_v74 : StableHlo.after s4a Y (Proc.devRef .tc main_call0_v74)
    = SpecHost.featUB (Y (Proc.devRef .tc main_arg0)) (Y (Proc.devRef .tc main_arg2)) := by reads4
theorem s4a_arg13 : StableHlo.after s4a Y (Proc.devRef .tc main_arg13) = Y (Proc.devRef .tc main_arg13) := by keeps4
theorem s4a_arg14 : StableHlo.after s4a Y (Proc.devRef .tc main_arg14) = Y (Proc.devRef .tc main_arg14) := by keeps4
theorem s4a_arg15 : StableHlo.after s4a Y (Proc.devRef .tc main_arg15) = Y (Proc.devRef .tc main_arg15) := by keeps4

/-! ### Second piece -/

theorem s4b_v75 : StableHlo.after s4b Y (Proc.devRef .tc main_call0_v75) = (broadcastInDim S2000000x1 ![0] bcast_S2000000_S2000000x1_0 (Y (Proc.devRef .tc main_arg15))) := by reads4
theorem s4b_v80 : StableHlo.after s4b Y (Proc.devRef .tc main_call0_v80)
    = (select (cmpi .slt (Y (Proc.devRef .tc main_arg14)) (broadcastInDim S2000000 ![] bcast_S_S2000000 (constantI S_ 32 0#32))) (addi (Y (Proc.devRef .tc main_arg14)) (broadcastInDim S2000000 ![] bcast_S_S2000000 (constantI S_ 32 250000#32))) (Y (Proc.devRef .tc main_arg14))) := by reads4
theorem s4b_v74 : StableHlo.after s4b Y (Proc.devRef .tc main_call0_v74) = Y (Proc.devRef .tc main_call0_v74) := by keeps4
theorem s4b_arg13 : StableHlo.after s4b Y (Proc.devRef .tc main_arg13) = Y (Proc.devRef .tc main_arg13) := by keeps4

/-! ### Third piece -/

theorem s4c_v87 : StableHlo.after s4c Y (Proc.devRef .tc main_call0_v87)
    = Host.scatterAdd scatter_S250000x64_S2000000x1_S2000000x64_1_0_0_1
        (broadcastInDim S250000x64 ![] bcast_S_S250000x64 (constant (F := Ideal) S_ .f32 0x00000000#32))
        (broadcastInDim S2000000x1 ![0] bcast_S2000000_S2000000x1_0 (Y (Proc.devRef .tc main_arg13)))
        (mulf (broadcastInDim S2000000x64 ![0, 1] bcast_S2000000x1_S2000000x64_0_1 (Y (Proc.devRef .tc main_call0_v75)))
          (Host.gather gather_S250000x64_S2000000x1_S2000000x64_1_0_n_n_0_1_164 (Y (Proc.devRef .tc main_call0_v74)) (broadcastInDim S2000000x1 ![0] bcast_S2000000_S2000000x1_0 (Y (Proc.devRef .tc main_call0_v80))))) := by reads4
theorem s4c_v74 : StableHlo.after s4c Y (Proc.devRef .tc main_call0_v74) = Y (Proc.devRef .tc main_call0_v74) := by keeps4

/-! ### Fourth piece -/

theorem s4d_v87 : StableHlo.after s4d Y (Proc.devRef .tc main_call0_v87) = Y (Proc.devRef .tc main_call0_v87) := by keeps4
theorem s4d_v88 : StableHlo.after s4d Y (Proc.devRef .tc main_call0_v88)
    = shapeCast S125000x128 (Y (Proc.devRef .tc main_call0_v87)) shapeCasts_S250000x64_S125000x128 := by reads4
theorem s4d_v89 : StableHlo.after s4d Y (Proc.devRef .tc main_call0_v89)
    = shapeCast S125000x128 (Y (Proc.devRef .tc main_call0_v74)) shapeCasts_S250000x64_S125000x128 := by reads4

/-! ## The stretch -/

/-- After the third piece the product's buffer holds the sparse product of the stacked features. -/
theorem s4abc_v87 : StableHlo.after s4c (StableHlo.after s4b (StableHlo.after s4a X)) (Proc.devRef .tc main_call0_v87)
    = SpecHost.spmm250000 (X (Proc.devRef .tc main_arg13)) (X (Proc.devRef .tc main_arg14)) (X (Proc.devRef .tc main_arg15))
        (SpecHost.featUB (X (Proc.devRef .tc main_arg0)) (X (Proc.devRef .tc main_arg2))) := by
  rw [s4c_v87, s4b_arg13, s4b_v75, s4b_v74, s4b_v80, s4a_arg13, s4a_arg14, s4a_arg15, s4a_v74]
  rfl

/-- After the third piece the features' buffer holds users stacked over bundles. -/
theorem s4abc_v74 : StableHlo.after s4c (StableHlo.after s4b (StableHlo.after s4a X)) (Proc.devRef .tc main_call0_v74)
    = SpecHost.featUB (X (Proc.devRef .tc main_arg0)) (X (Proc.devRef .tc main_arg2)) := by
  rw [s4c_v74, s4b_v74, s4a_v74]

/-- Stretch 4 leaves the sparse product of the stacked features in its buffer. -/
theorem after4_v87 : StableHlo.after hostOps4 X (Proc.devRef .tc main_call0_v87)
    = SpecHost.spmm250000 (X (Proc.devRef .tc main_arg13)) (X (Proc.devRef .tc main_arg14)) (X (Proc.devRef .tc main_arg15))
        (SpecHost.featUB (X (Proc.devRef .tc main_arg0)) (X (Proc.devRef .tc main_arg2))) := by
  rw [hostOps4_cut, StableHlo.after_append, StableHlo.after_append, StableHlo.after_append, s4d_v87, s4abc_v87]

/-- Stretch 4 leaves the product re-laid as 125000 × 128 in pipeline 4's first input array. -/
theorem after4_v88 : StableHlo.after hostOps4 X (Proc.devRef .tc main_call0_v88)
    = shapeCast S125000x128 (SpecHost.spmm250000 (X (Proc.devRef .tc main_arg13)) (X (Proc.devRef .tc main_arg14)) (X (Proc.devRef .tc main_arg15))
        (SpecHost.featUB (X (Proc.devRef .tc main_arg0)) (X (Proc.devRef .tc main_arg2)))) shapeCasts_S250000x64_S125000x128 := by
  rw [hostOps4_cut, StableHlo.after_append, StableHlo.after_append, StableHlo.after_append, s4d_v88, s4abc_v87]

/-- Stretch 4 leaves the stacked features re-laid as 125000 × 128 in pipeline 4's second input array. -/
theorem after4_v89 : StableHlo.after hostOps4 X (Proc.devRef .tc main_call0_v89)
    = shapeCast S125000x128 (SpecHost.featUB (X (Proc.devRef .tc main_arg0)) (X (Proc.devRef .tc main_arg2))) shapeCasts_S250000x64_S125000x128 := by
  rw [hostOps4_cut, StableHlo.after_append, StableHlo.after_append, StableHlo.after_append, s4d_v89, s4abc_v74]

end Cert.KernelIdeal.KProp

end
-- ==== Proof.KPropUBC.lean ====
/-
  Host stretch 5 of the kernel's program, read back. The stretch re-lays pipeline 4's output (the running sum after
  the first layer) as 250000 × 64, forms the sparse product of the FIRST product — the same broadcast, index, gather,
  scale and scatter-add as in stretch 4, on the same graph —, and re-lays the second product and the running sum as
  125000 × 128. It is cut into four short pieces; each piece is read back over arbitrary contents at entry, and the
  pieces are composed.
-/
import proofs.«408083_j64364379898214_3_alg».proof.Proof.Gen.KernelIdeal.Launch
import proofs.«408083_j64364379898214_3_alg».proof.Proof.SpecHost
import Idealize.ShloMosaic.Lib.Pipeline.Frame

set_option maxRecDepth 16384

noncomputable section

namespace Cert.KernelIdeal.KProp

open Cert.KernelIdeal Cert.KernelIdeal.Gen Idealize.ShloMosaic Idealize.ShloMosaic.TcCoe Idealize.SL.Sem

variable (X Y : Valuation τ sig (Elt Ideal))

/-! ## The four pieces of the stretch -/

/-- The re-laying of pipeline 4's output as 250000 × 64. -/
abbrev s5a : List (HloOp τ sig (Elt Ideal)) := hostOps5.take 1
/-- The edge values as a column, and the source index counted from the end where it is negative. -/
abbrev s5b : List (HloOp τ sig (Elt Ideal)) := (hostOps5.drop 1).take 8
/-- Gather, scale and scatter-add. -/
abbrev s5c : List (HloOp τ sig (Elt Ideal)) := (hostOps5.drop 9).take 8
/-- The two re-layings as 125000 × 128. -/
abbrev s5d : List (HloOp τ sig (Elt Ideal)) := hostOps5.drop 17

theorem hostOps5_cut : (hostOps5 : List (HloOp τ sig (Elt Ideal))) = s5a ++ (s5b ++ (s5c ++ s5d)) := rfl

/-- Closes `StableHlo.after piece Y b = Y b` for a piece none of whose operations writes `b`: every operation writes its
    one result buffer, and that reference is not `b`. -/
macro "keeps5" : tactic => `(tactic| (
  refine StableHlo.after_of_forall_not_mem _ _ (List.forall_iff_forall_mem.mp ?_)
  simp only [s5a, s5b, s5c, s5d, hostOps5, List.drop_succ_cons, List.drop_zero, List.take_succ_cons, List.take_zero,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))

/-- Reads a piece's result buffer back as the operations' term over the contents at entry. -/
macro "reads5" : tactic => `(tactic| (
  simp only [s5a, s5b, s5c, s5d, hostOps5, List.drop_succ_cons, List.drop_zero, List.take_succ_cons, List.take_zero]
  after_results_simp
  rfl))

/-! ### First piece -/

theorem s5a_v91 : StableHlo.after s5a Y (Proc.devRef .tc main_call0_v91)
    = shapeCast S250000x64 (Y (Proc.devRef .tc main_call0_v90)) shapeCasts_S125000x128_S250000x64 := by reads5
theorem s5a_v87 : StableHlo.after s5a Y (Proc.devRef .tc main_call0_v87) = Y (Proc.devRef .tc main_call0_v87) := by keeps5
theorem s5a_arg13 : StableHlo.after s5a Y (Proc.devRef .tc main_arg13) = Y (Proc.devRef .tc main_arg13) := by keeps5
theorem s5a_arg14 : StableHlo.after s5a Y (Proc.devRef .tc main_arg14) = Y (Proc.devRef .tc main_arg14) := by keeps5
theorem s5a_arg15 : StableHlo.after s5a Y (Proc.devRef .tc main_arg15) = Y (Proc.devRef .tc main_arg15) := by keeps5

/-! ### Second piece -/

theorem s5b_v92 : StableHlo.after s5b Y (Proc.devRef .tc main_call0_v92) = (broadcastInDim S2000000x1 ![0] bcast_S2000000_S2000000x1_0 (Y (Proc.devRef .tc main_arg15))) := by reads5
theorem s5b_v97 : StableHlo.after s5b Y (Proc.devRef .tc main_call0_v97)
    = (select (cmpi .slt (Y (Proc.devRef .tc main_arg14)) (broadcastInDim S2000000 ![] bcast_S_S2000000 (constantI S_ 32 0#32))) (addi (Y (Proc.devRef .tc main_arg14)) (broadcastInDim S2000000 ![] bcast_S_S2000000 (constantI S_ 32 250000#32))) (Y (Proc.devRef .tc main_arg14))) := by reads5
theorem s5b_v87 : StableHlo.after s5b Y (Proc.devRef .tc main_call0_v87) = Y (Proc.devRef .tc main_call0_v87) := by keeps5
theorem s5b_v91 : StableHlo.after s5b Y (Proc.devRef .tc main_call0_v91) = Y (Proc.devRef .tc main_call0_v91) := by keeps5
theorem s5b_arg13 : StableHlo.after s5b Y (Proc.devRef .tc main_arg13) = Y (Proc.devRef .tc main_arg13) := by keeps5

/-! ### Third piece -/

theorem s5c_v104 : StableHlo.after s5c Y (Proc.devRef .tc main_call0_v104)
    = Host.scatterAdd scatter_S250000x64_S2000000x1_S2000000x64_1_0_0_1
        (broadcastInDim S250000x64 ![] bcast_S_S250000x64 (constant (F := Ideal) S_ .f32 0x00000000#32))
        (broadcastInDim S2000000x1 ![0] bcast_S2000000_S2000000x1_0 (Y (Proc.devRef .tc main_arg13)))
        (mulf (broadcastInDim S2000000x64 ![0, 1] bcast_S2000000x1_S2000000x64_0_1 (Y (Proc.devRef .tc main_call0_v92)))
          (Host.gather gather_S250000x64_S2000000x1_S2000000x64_1_0_n_n_0_1_164 (Y (Proc.devRef .tc main_call0_v87)) (broadcastInDim S2000000x1 ![0] bcast_S2000000_S2000000x1_0 (Y (Proc.devRef .tc main_call0_v97))))) := by reads5
theorem s5c_v91 : StableHlo.after s5c Y (Proc.devRef .tc main_call0_v91) = Y (Proc.devRef .tc main_call0_v91) := by keeps5

/-! ### Fourth piece -/

theorem s5d_v105 : StableHlo.after s5d Y (Proc.devRef .tc main_call0_v105)
    = shapeCast S125000x128 (Y (Proc.devRef .tc main_call0_v104)) shapeCasts_S250000x64_S125000x128 := by reads5
theorem s5d_v106 : StableHlo.after s5d Y (Proc.devRef .tc main_call0_v106)
    = shapeCast S125000x128 (Y (Proc.devRef .tc main_call0_v91)) shapeCasts_S250000x64_S125000x128 := by reads5

/-! ## The stretch -/

/-- After the third piece the second product's buffer holds the sparse product of the first product. -/
theorem s5abc_v104 : StableHlo.after s5c (StableHlo.after s5b (StableHlo.after s5a X)) (Proc.devRef .tc main_call0_v104)
    = SpecHost.spmm250000 (X (Proc.devRef .tc main_arg13)) (X (Proc.devRef .tc main_arg14)) (X (Proc.devRef .tc main_arg15)) (X (Proc.devRef .tc main_call0_v87)) := by
  rw [s5c_v104, s5b_arg13, s5b_v92, s5b_v87, s5b_v97, s5a_arg13, s5a_arg14, s5a_arg15, s5a_v87]
  rfl

/-- After the third piece the running sum's buffer holds pipeline 4's output re-laid as 250000 × 64. -/
theorem s5abc_v91 : StableHlo.after s5c (StableHlo.after s5b (StableHlo.after s5a X)) (Proc.devRef .tc main_call0_v91)
    = shapeCast S250000x64 (X (Proc.devRef .tc main_call0_v90)) shapeCasts_S125000x128_S250000x64 := by
  rw [s5c_v91, s5b_v91, s5a_v91]

/-- Stretch 5 leaves the second product, re-laid as 125000 × 128, in pipeline 5's first input array. -/
theorem after5_v105 : StableHlo.after hostOps5 X (Proc.devRef .tc main_call0_v105)
    = shapeCast S125000x128 (SpecHost.spmm250000 (X (Proc.devRef .tc main_arg13)) (X (Proc.devRef .tc main_arg14)) (X (Proc.devRef .tc main_arg15))
        (X (Proc.devRef .tc main_call0_v87))) shapeCasts_S250000x64_S125000x128 := by
  rw [hostOps5_cut, StableHlo.after_append, StableHlo.after_append, StableHlo.after_append, s5d_v105, s5abc_v104]

/-- Stretch 5 leaves the running sum, re-laid as 250000 × 64 and back as 125000 × 128, in pipeline 5's second input
    array. -/
theorem after5_v106 : StableHlo.after hostOps5 X (Proc.devRef .tc main_call0_v106)
    = shapeCast S125000x128 (shapeCast S250000x64 (X (Proc.devRef .tc main_call0_v90)) shapeCasts_S125000x128_S250000x64)
        shapeCasts_S250000x64_S125000x128 := by
  rw [hostOps5_cut, StableHlo.after_append, StableHlo.after_append, StableHlo.after_append, s5d_v106, s5abc_v91]

end Cert.KernelIdeal.KProp

end
-- ==== Proof.KPropUBD.lean ====
/-
  Host stretch 6 of the kernel's program, read back at the two results of the UB graph. Its first three operations
  re-lay pipeline 5's output as 250000 × 64 and slice off the users' rows and the bundles' rows; the thirty-four
  operations that follow (the bundle embedding's accumulations) write neither result.
-/
import proofs.«408083_j64364379898214_3_alg».proof.Proof.Gen.KernelIdeal.Launch
import proofs.«408083_j64364379898214_3_alg».proof.Proof.SpecHost
import Idealize.ShloMosaic.Lib.Pipeline.Frame

set_option maxRecDepth 16384

noncomputable section

namespace Cert.KernelIdeal.KProp

open Cert.KernelIdeal Cert.KernelIdeal.Gen Idealize.ShloMosaic Idealize.ShloMosaic.TcCoe Idealize.SL.Sem

variable (X Y : Valuation τ sig (Elt Ideal))

/-- The re-laying of pipeline 5's output and the two slices. -/
abbrev s6a : List (HloOp τ sig (Elt Ideal)) := hostOps6.take 3
/-- The rest of the stretch. -/
abbrev s6b : List (HloOp τ sig (Elt Ideal)) := hostOps6.drop 3

theorem hostOps6_cut : (hostOps6 : List (HloOp τ sig (Elt Ideal))) = s6a ++ s6b := rfl

/-- Closes `StableHlo.after piece Y b = Y b` for a piece none of whose operations writes `b`: every operation writes its
    one result buffer, and that reference is not `b`. -/
macro "keeps6" : tactic => `(tactic| (
  refine StableHlo.after_of_forall_not_mem _ _ (List.forall_iff_forall_mem.mp ?_)
  simp only [s6a, s6b, hostOps6, List.drop_succ_cons, List.drop_zero, List.take_succ_cons, List.take_zero,
    List.Forall, StableHlo.nullary_writes, StableHlo.unary_writes, StableHlo.binary_writes, StableHlo.ternary_writes,
    StableHlo.reshape_writes, Finset.mem_singleton]
  repeat' apply And.intro
  all_goals exact StableHlo.devRef_ne_of_ne (by decide)))

/-- Reads a piece's result buffer back as the operations' term over the contents at entry. -/
macro "reads6" : tactic => `(tactic| (
  simp only [s6a, s6b, hostOps6, List.drop_succ_cons, List.drop_zero, List.take_succ_cons, List.take_zero]
  after_results_simp
  rfl))

theorem s6a_v0_1 : StableHlo.after s6a Y (Proc.devRef .tc main_v0_1)
    = extractStridedSlice S200000x64 ![0, 0]
        (shapeCast S250000x64 (Y (Proc.devRef .tc main_call0_v107)) shapeCasts_S125000x128_S250000x64) slices_S250000x64_S200000x64_0_0 := by
  reads6
theorem s6a_v0_4 : StableHlo.after s6a Y (Proc.devRef .tc main_v0_4)
    = extractStridedSlice S50000x64 ![200000, 0]
        (shapeCast S250000x64 (Y (Proc.devRef .tc main_call0_v107)) shapeCasts_S125000x128_S250000x64) slices_S250000x64_S50000x64_200000_0 := by
  reads6
theorem s6b_v0_1 : StableHlo.after s6b Y (Proc.devRef .tc main_v0_1) = Y (Proc.devRef .tc main_v0_1) := by keeps6
theorem s6b_v0_4 : StableHlo.after s6b Y (Proc.devRef .tc main_v0_4) = Y (Proc.devRef .tc main_v0_4) := by keeps6

/-- Stretch 6 leaves the first 200000 rows of pipeline 5's output, re-laid as 250000 × 64, in the users' result. -/
theorem after6_v0_1 : StableHlo.after hostOps6 X (Proc.devRef .tc main_v0_1)
    = extractStridedSlice S200000x64 ![0, 0]
        (shapeCast S250000x64 (X (Proc.devRef .tc main_call0_v107)) shapeCasts_S125000x128_S250000x64) slices_S250000x64_S200000x64_0_0 := by
  rw [hostOps6_cut, StableHlo.after_append, s6b_v0_1, s6a_v0_1]

/-- Stretch 6 leaves the last 50000 rows of pipeline 5's output, re-laid as 250000 × 64, in the bundles' result. -/
theorem after6_v0_4 : StableHlo.after hostOps6 X (Proc.devRef .tc main_v0_4)
    = extractStridedSlice S50000x64 ![200000, 0]
        (shapeCast S250000x64 (X (Proc.devRef .tc main_call0_v107)) shapeCasts_S125000x128_S250000x64) slices_S250000x64_S50000x64_200000_0 := by
  rw [hostOps6_cut, StableHlo.after_append, s6b_v0_4, s6a_v0_4]

end Cert.KernelIdeal.KProp

end
-- ==== Proof.KPropUB.lean ====
/-
  The UB graph on the kernel's side: the two host stretches and two pipelines that propagate its features, read
  back as the two layers `prop3` of the stacked features and their sparse products.

  Write `feat` for users stacked over bundles, `f1` for the sparse product of `feat` and `f2` for that of `f1`. Stretch 4
  leaves `f1` and `feat` packed two rows to a 128-lane row; pipeline 4 leaves the packed layer of the two with divisor
  one, which is the packing of `feat` plus the row-normalised `f1`; stretch 5 unpacks it, forms `f2` and packs both;
  pipeline 5 leaves the packed layer with divisor three, the packing of `prop3 feat f1 f2`; stretch 6 unpacks and slices
  off the users' rows and the bundles' rows. No stretch and no pipeline on the way writes an argument, so every stretch
  reads the graph and the two feature arrays as launched.
-/
import proofs.«408083_j64364379898214_3_alg».proof.Proof.Gen.KernelIdeal.Frame
import proofs.«408083_j64364379898214_3_alg».proof.Proof.Spec
import proofs.«408083_j64364379898214_3_alg».proof.Proof.SpecHost
import proofs.«408083_j64364379898214_3_alg».proof.Proof.SpecLemmas
import proofs.«408083_j64364379898214_3_alg».proof.Proof.KNa4
import proofs.«408083_j64364379898214_3_alg».proof.Proof.KNa5
import proofs.«408083_j64364379898214_3_alg».proof.Proof.KPropUBA
import proofs.«408083_j64364379898214_3_alg».proof.Proof.KPropUBB
import proofs.«408083_j64364379898214_3_alg».proof.Proof.KPropUBC
import proofs.«408083_j64364379898214_3_alg».proof.Proof.KPropUBD

set_option maxRecDepth 16384

noncomputable section

namespace Cert.KernelIdeal.KProp

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-! ## The arguments are as launched wherever the propagation reads them

From each boundary the fold is walked forward to the end of the run, where the generated frame reads every argument
back to the launch memory: a host stretch writes only its own result buffers, a pipeline only its output arrays. -/

/-- No operation of the named host stretch writes the reference in the goal. -/
local macro "not_written" ops:ident : tactic => `(tactic| (
  refine List.forall_iff_forall_mem.mp ?_
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The users' features when host stretch 6 starts are the launched ones. -/
theorem W12_arg0 (c : Dev nD) : W12 m ρ c (Proc.devRef .tc main_arg0) = (m ((c : Thread nD τ).loc main_arg0)) :=
  calc W12 m ρ c (Proc.devRef .tc main_arg0)
    _ = W13 m ρ c (Proc.devRef .tc main_arg0) :=
        (StableHlo.after_of_forall_not_mem (b := Proc.devRef .tc main_arg0) _ _ (by not_written hostOps6)).symm
    _ = W14 m ρ c (Proc.devRef .tc main_arg0) := (W14_of_ne m ρ c main_arg0 (by decide)).symm
    _ = (m ((c : Thread nD τ).loc main_arg0)) := W14_main_arg0 m ρ c

/-- The users' features when host stretch 5 starts are the launched ones. -/
theorem W10_arg0 (c : Dev nD) : W10 m ρ c (Proc.devRef .tc main_arg0) = (m ((c : Thread nD τ).loc main_arg0)) :=
  calc W10 m ρ c (Proc.devRef .tc main_arg0)
    _ = W11 m ρ c (Proc.devRef .tc main_arg0) :=
        (StableHlo.after_of_forall_not_mem (b := Proc.devRef .tc main_arg0) _ _ (by not_written hostOps5)).symm
    _ = W12 m ρ c (Proc.devRef .tc main_arg0) := (W12_of_ne m ρ c main_arg0 (by decide)).symm
    _ = (m ((c : Thread nD τ).loc main_arg0)) := W12_arg0 m ρ c

/-- The users' features when host stretch 4 starts are the launched ones. -/
theorem W8_arg0 (c : Dev nD) : W8 m ρ c (Proc.devRef .tc main_arg0) = (m ((c : Thread nD τ).loc main_arg0)) :=
  calc W8 m ρ c (Proc.devRef .tc main_arg0)
    _ = W9 m ρ c (Proc.devRef .tc main_arg0) :=
        (StableHlo.after_of_forall_not_mem (b := Proc.devRef .tc main_arg0) _ _ (by not_written hostOps4)).symm
    _ = W10 m ρ c (Proc.devRef .tc main_arg0) := (W10_of_ne m ρ c main_arg0 (by decide)).symm
    _ = (m ((c : Thread nD τ).loc main_arg0)) := W10_arg0 m ρ c

/-- The bundles' features when host stretch 6 starts are the launched ones. -/
theorem W12_arg2 (c : Dev nD) : W12 m ρ c (Proc.devRef .tc main_arg2) = (m ((c : Thread nD τ).loc main_arg2)) :=
  calc W12 m ρ c (Proc.devRef .tc main_arg2)
    _ = W13 m ρ c (Proc.devRef .tc main_arg2) :=
        (StableHlo.after_of_forall_not_mem (b := Proc.devRef .tc main_arg2) _ _ (by not_written hostOps6)).symm
    _ = W14 m ρ c (Proc.devRef .tc main_arg2) := (W14_of_ne m ρ c main_arg2 (by decide)).symm
    _ = (m ((c : Thread nD τ).loc main_arg2)) := W14_main_arg2 m ρ c

/-- The bundles' features when host stretch 5 starts are the launched ones. -/
theorem W10_arg2 (c : Dev nD) : W10 m ρ c (Proc.devRef .tc main_arg2) = (m ((c : Thread nD τ).loc main_arg2)) :=
  calc W10 m ρ c (Proc.devRef .tc main_arg2)
    _ = W11 m ρ c (Proc.devRef .tc main_arg2) :=
        (StableHlo.after_of_forall_not_mem (b := Proc.devRef .tc main_arg2) _ _ (by not_written hostOps5)).symm
    _ = W12 m ρ c (Proc.devRef .tc main_arg2) := (W12_of_ne m ρ c main_arg2 (by decide)).symm
    _ = (m ((c : Thread nD τ).loc main_arg2)) := W12_arg2 m ρ c

/-- The bundles' features when host stretch 4 starts are the launched ones. -/
theorem W8_arg2 (c : Dev nD) : W8 m ρ c (Proc.devRef .tc main_arg2) = (m ((c : Thread nD τ).loc main_arg2)) :=
  calc W8 m ρ c (Proc.devRef .tc main_arg2)
    _ = W9 m ρ c (Proc.devRef .tc main_arg2) :=
        (StableHlo.after_of_forall_not_mem (b := Proc.devRef .tc main_arg2) _ _ (by not_written hostOps4)).symm
    _ = W10 m ρ c (Proc.devRef .tc main_arg2) := (W10_of_ne m ρ c main_arg2 (by decide)).symm
    _ = (m ((c : Thread nD τ).loc main_arg2)) := W10_arg2 m ρ c

/-- The graph's row indices when host stretch 6 starts are the launched ones. -/
theorem W12_arg13 (c : Dev nD) : W12 m ρ c (Proc.devRef .tc main_arg13) = (m ((c : Thread nD τ).loc main_arg13)) :=
  calc W12 m ρ c (Proc.devRef .tc main_arg13)
    _ = W13 m ρ c (Proc.devRef .tc main_arg13) :=
        (StableHlo.after_of_forall_not_mem (b := Proc.devRef .tc main_arg13) _ _ (by not_written hostOps6)).symm
    _ = W14 m ρ c (Proc.devRef .tc main_arg13) := (W14_of_ne m ρ c main_arg13 (by decide)).symm
    _ = (m ((c : Thread nD τ).loc main_arg13)) := W14_main_arg13 m ρ c

/-- The graph's row indices when host stretch 5 starts are the launched ones. -/
theorem W10_arg13 (c : Dev nD) : W10 m ρ c (Proc.devRef .tc main_arg13) = (m ((c : Thread nD τ).loc main_arg13)) :=
  calc W10 m ρ c (Proc.devRef .tc main_arg13)
    _ = W11 m ρ c (Proc.devRef .tc main_arg13) :=
        (StableHlo.after_of_forall_not_mem (b := Proc.devRef .tc main_arg13) _ _ (by not_written hostOps5)).symm
    _ = W12 m ρ c (Proc.devRef .tc main_arg13) := (W12_of_ne m ρ c main_arg13 (by decide)).symm
    _ = (m ((c : Thread nD τ).loc main_arg13)) := W12_arg13 m ρ c

/-- The graph's row indices when host stretch 4 starts are the launched ones. -/
theorem W8_arg13 (c : Dev nD) : W8 m ρ c (Proc.devRef .tc main_arg13) = (m ((c : Thread nD τ).loc main_arg13)) :=
  calc W8 m ρ c (Proc.devRef .tc main_arg13)
    _ = W9 m ρ c (Proc.devRef .tc main_arg13) :=
        (StableHlo.after_of_forall_not_mem (b := Proc.devRef .tc main_arg13) _ _ (by not_written hostOps4)).symm
    _ = W10 m ρ c (Proc.devRef .tc main_arg13) := (W10_of_ne m ρ c main_arg13 (by decide)).symm
    _ = (m ((c : Thread nD τ).loc main_arg13)) := W10_arg13 m ρ c

/-- The graph's column indices when host stretch 6 starts are the launched ones. -/
theorem W12_arg14 (c : Dev nD) : W12 m ρ c (Proc.devRef .tc main_arg14) = (m ((c : Thread nD τ).loc main_arg14)) :=
  calc W12 m ρ c (Proc.devRef .tc main_arg14)
    _ = W13 m ρ c (Proc.devRef .tc main_arg14) :=
        (StableHlo.after_of_forall_not_mem (b := Proc.devRef .tc main_arg14) _ _ (by not_written hostOps6)).symm
    _ = W14 m ρ c (Proc.devRef .tc main_arg14) := (W14_of_ne m ρ c main_arg14 (by decide)).symm
    _ = (m ((c : Thread nD τ).loc main_arg14)) := W14_main_arg14 m ρ c

/-- The graph's column indices when host stretch 5 starts are the launched ones. -/
theorem W10_arg14 (c : Dev nD) : W10 m ρ c (Proc.devRef .tc main_arg14) = (m ((c : Thread nD τ).loc main_arg14)) :=
  calc W10 m ρ c (Proc.devRef .tc main_arg14)
    _ = W11 m ρ c (Proc.devRef .tc main_arg14) :=
        (StableHlo.after_of_forall_not_mem (b := Proc.devRef .tc main_arg14) _ _ (by not_written hostOps5)).symm
    _ = W12 m ρ c (Proc.devRef .tc main_arg14) := (W12_of_ne m ρ c main_arg14 (by decide)).symm
    _ = (m ((c : Thread nD τ).loc main_arg14)) := W12_arg14 m ρ c

/-- The graph's column indices when host stretch 4 starts are the launched ones. -/
theorem W8_arg14 (c : Dev nD) : W8 m ρ c (Proc.devRef .tc main_arg14) = (m ((c : Thread nD τ).loc main_arg14)) :=
  calc W8 m ρ c (Proc.devRef .tc main_arg14)
    _ = W9 m ρ c (Proc.devRef .tc main_arg14) :=
        (StableHlo.after_of_forall_not_mem (b := Proc.devRef .tc main_arg14) _ _ (by not_written hostOps4)).symm
    _ = W10 m ρ c (Proc.devRef .tc main_arg14) := (W10_of_ne m ρ c main_arg14 (by decide)).symm
    _ = (m ((c : Thread nD τ).loc main_arg14)) := W10_arg14 m ρ c

/-- The graph's edge values when host stretch 6 starts are the launched ones. -/
theorem W12_arg15 (c : Dev nD) : W12 m ρ c (Proc.devRef .tc main_arg15) = (m ((c : Thread nD τ).loc main_arg15)) :=
  calc W12 m ρ c (Proc.devRef .tc main_arg15)
    _ = W13 m ρ c (Proc.devRef .tc main_arg15) :=
        (StableHlo.after_of_forall_not_mem (b := Proc.devRef .tc main_arg15) _ _ (by not_written hostOps6)).symm
    _ = W14 m ρ c (Proc.devRef .tc main_arg15) := (W14_of_ne m ρ c main_arg15 (by decide)).symm
    _ = (m ((c : Thread nD τ).loc main_arg15)) := W14_main_arg15 m ρ c

/-- The graph's edge values when host stretch 5 starts are the launched ones. -/
theorem W10_arg15 (c : Dev nD) : W10 m ρ c (Proc.devRef .tc main_arg15) = (m ((c : Thread nD τ).loc main_arg15)) :=
  calc W10 m ρ c (Proc.devRef .tc main_arg15)
    _ = W11 m ρ c (Proc.devRef .tc main_arg15) :=
        (StableHlo.after_of_forall_not_mem (b := Proc.devRef .tc main_arg15) _ _ (by not_written hostOps5)).symm
    _ = W12 m ρ c (Proc.devRef .tc main_arg15) := (W12_of_ne m ρ c main_arg15 (by decide)).symm
    _ = (m ((c : Thread nD τ).loc main_arg15)) := W12_arg15 m ρ c

/-- The graph's edge values when host stretch 4 starts are the launched ones. -/
theorem W8_arg15 (c : Dev nD) : W8 m ρ c (Proc.devRef .tc main_arg15) = (m ((c : Thread nD τ).loc main_arg15)) :=
  calc W8 m ρ c (Proc.devRef .tc main_arg15)
    _ = W9 m ρ c (Proc.devRef .tc main_arg15) :=
        (StableHlo.after_of_forall_not_mem (b := Proc.devRef .tc main_arg15) _ _ (by not_written hostOps4)).symm
    _ = W10 m ρ c (Proc.devRef .tc main_arg15) := (W10_of_ne m ρ c main_arg15 (by decide)).symm
    _ = (m ((c : Thread nD τ).loc main_arg15)) := W10_arg15 m ρ c

/-! ## The boundaries' contents -/

/-- Users stacked over bundles, as launched. -/
abbrev featK (c : Dev nD) : FVec Ideal S250000x64 .f32 :=
  SpecHost.featUB (m ((c : Thread nD τ).loc main_arg0)) (m ((c : Thread nD τ).loc main_arg2))

/-- One sparse product on the launched graph. -/
abbrev spK (c : Dev nD) (x : FVec Ideal S250000x64 .f32) : FVec Ideal S250000x64 .f32 :=
  SpecHost.spmm250000 (m ((c : Thread nD τ).loc main_arg13)) (m ((c : Thread nD τ).loc main_arg14)) (m ((c : Thread nD τ).loc main_arg15)) x

/-- When pipeline 4 starts, the first product's buffer holds `f1`. -/
theorem W9_v87 (c : Dev nD) : W9 m ρ c (Proc.devRef .tc main_call0_v87) = spK m c (featK m c) := by
  refine (after4_v87 (W8 m ρ c)).trans ?_
  rw [W8_arg13 m ρ c, W8_arg14 m ρ c, W8_arg15 m ρ c, W8_arg0 m ρ c, W8_arg2 m ρ c]

/-- When pipeline 4 starts, its first input array holds `f1` packed. -/
theorem W9_v88 (c : Dev nD) : W9 m ρ c (Proc.devRef .tc main_call0_v88) = Cert.Spec.pack (n := 250000) (h := 125000) (by decide) (spK m c (featK m c)) := by
  refine (after4_v88 (W8 m ρ c)).trans ?_
  rw [W8_arg13 m ρ c, W8_arg14 m ρ c, W8_arg15 m ρ c, W8_arg0 m ρ c, W8_arg2 m ρ c, shapeCast_pack]

/-- When pipeline 4 starts, its second input array holds the stacked features packed. -/
theorem W9_v89 (c : Dev nD) : W9 m ρ c (Proc.devRef .tc main_call0_v89) = Cert.Spec.pack (n := 250000) (h := 125000) (by decide) (featK m c) := by
  refine (after4_v89 (W8 m ρ c)).trans ?_
  rw [W8_arg0 m ρ c, W8_arg2 m ρ c, shapeCast_pack]

/-- Pipeline 4 does not write the first product's buffer. -/
theorem W10_v87 (c : Dev nD) : W10 m ρ c (Proc.devRef .tc main_call0_v87) = spK m c (featK m c) :=
  (W10_of_ne m ρ c main_call0_v87 (by decide)).trans (W9_v87 m ρ c)

/-- Pipeline 4 leaves the first layer packed: the stacked features plus the row-normalised `f1` (the divisor is one). -/
theorem W10_v90 (c : Dev nD) :
    W10 m ρ c (Proc.devRef .tc main_call0_v90) = Cert.Spec.pack (n := 250000) (h := 125000) (by decide) (Cert.Spec.normAdd (spK m c (featK m c)) (featK m c)) := by
  refine (W10_arr m ρ c 2).trans ?_
  refine (KNa.arrAt4 (V9 m ρ) c).trans ?_
  refine (congrArg₂ (Cert.Spec.normAddP (h := 125000) Cert.Spec.one) (W9_v88 m ρ c) (W9_v89 m ρ c)).trans ?_
  rw [Cert.Spec.normAddP_pack]
  congr 1
  funext j
  exact Cert.Spec.div_one _

/-- When pipeline 5 starts, its first input array holds `f2` packed. -/
theorem W11_v105 (c : Dev nD) :
    W11 m ρ c (Proc.devRef .tc main_call0_v105) = Cert.Spec.pack (n := 250000) (h := 125000) (by decide) (spK m c (spK m c (featK m c))) := by
  refine (after5_v105 (W10 m ρ c)).trans ?_
  rw [W10_arg13 m ρ c, W10_arg14 m ρ c, W10_arg15 m ρ c, W10_v87 m ρ c, shapeCast_pack]

/-- When pipeline 5 starts, its second input array holds the first layer packed again: unpacking undoes packing. -/
theorem W11_v106 (c : Dev nD) :
    W11 m ρ c (Proc.devRef .tc main_call0_v106) = Cert.Spec.pack (n := 250000) (h := 125000) (by decide) (Cert.Spec.normAdd (spK m c (featK m c)) (featK m c)) := by
  refine (after5_v106 (W10 m ρ c)).trans ?_
  rw [W10_v90 m ρ c, shapeCast_unpack, Cert.Spec.unpack_pack, shapeCast_pack]

/-- Pipeline 5 leaves the mean of the three summands packed (the divisor is three). -/
theorem W12_v107 (c : Dev nD) :
    W12 m ρ c (Proc.devRef .tc main_call0_v107)
      = Cert.Spec.pack (n := 250000) (h := 125000) (by decide) (Cert.Spec.prop3 (featK m c) (spK m c (featK m c)) (spK m c (spK m c (featK m c)))) := by
  refine (W12_arr m ρ c 2).trans ?_
  refine (KNa.arrAt5 (V11 m ρ) c).trans ?_
  refine (congrArg₂ (Cert.Spec.normAddP (h := 125000) Cert.Spec.three) (W11_v105 m ρ c) (W11_v106 m ρ c)).trans ?_
  exact Cert.Spec.normAddP_pack _ _ _ _

/-- Stretch 6 unpacks pipeline 5's output and slices off the users' rows. -/
theorem W13_v0_1 (c : Dev nD) :
    W13 m ρ c (Proc.devRef .tc main_v0_1)
      = Cert.Spec.rowsFrom 0 (n := 250000) (k := 200000) (by decide)
          (Cert.Spec.prop3 (featK m c) (spK m c (featK m c)) (spK m c (spK m c (featK m c)))) := by
  refine (after6_v0_1 (W12 m ρ c)).trans ?_
  rw [W12_v107 m ρ c, shapeCast_unpack, Cert.Spec.unpack_pack, slice_users]

/-- Stretch 6 unpacks pipeline 5's output and slices off the bundles' rows. -/
theorem W13_v0_4 (c : Dev nD) :
    W13 m ρ c (Proc.devRef .tc main_v0_4)
      = Cert.Spec.rowsFrom 200000 (n := 250000) (k := 50000) (by decide)
          (Cert.Spec.prop3 (featK m c) (spK m c (featK m c)) (spK m c (spK m c (featK m c)))) := by
  refine (after6_v0_4 (W12 m ρ c)).trans ?_
  rw [W12_v107 m ρ c, shapeCast_unpack, Cert.Spec.unpack_pack, slice_bundles]

/-! ## The two results: the last pipeline writes neither -/

/-- What the run leaves in result `main_v0_1`: rows 0 … 199999 of the graph's propagated features. -/
theorem W14_main_v0_1 (c : Dev nD) :
    W14 m ρ c (Proc.devRef .tc main_v0_1)
      = Cert.Spec.rowsFrom 0 (n := 250000) (k := 200000) (by decide) (Cert.KernelIdeal.SpecHost.prop250000 (m ((c : Thread nD τ).loc main_arg13)) (m ((c : Thread nD τ).loc main_arg14)) (m ((c : Thread nD τ).loc main_arg15)) (Cert.KernelIdeal.SpecHost.featUB (m ((c : Thread nD τ).loc main_arg0)) (m ((c : Thread nD τ).loc main_arg2)))) :=
  (W14_of_ne m ρ c main_v0_1 (by decide)).trans (W13_v0_1 m ρ c)

/-- What the run leaves in result `main_v0_4`: rows 200000 … 249999 of the graph's propagated features. -/
theorem W14_main_v0_4 (c : Dev nD) :
    W14 m ρ c (Proc.devRef .tc main_v0_4)
      = Cert.Spec.rowsFrom 200000 (n := 250000) (k := 50000) (by decide) (Cert.KernelIdeal.SpecHost.prop250000 (m ((c : Thread nD τ).loc main_arg13)) (m ((c : Thread nD τ).loc main_arg14)) (m ((c : Thread nD τ).loc main_arg15)) (Cert.KernelIdeal.SpecHost.featUB (m ((c : Thread nD τ).loc main_arg0)) (m ((c : Thread nD τ).loc main_arg2)))) :=
  (W14_of_ne m ρ c main_v0_4 (by decide)).trans (W13_v0_4 m ρ c)

end Cert.KernelIdeal.KProp

end
-- ==== Proof.KBundleHost.lean ====
/-
  The kernel's last host stretch, read back. Before the last pipeline the host accumulates, per bundle, the gathered
  item rows weighted by the edge values (into a 64-column array) and the gathered log-degrees weighted the same way
  (into a 2-column array), and re-lays the bundle sizes as a column. No host operation and no pipeline writes an
  argument, so the stretch reads the arguments as launched; the item rows it gathers are what the fifth pipeline left.
-/
import proofs.«408083_j64364379898214_3_alg».proof.Proof.Gen.KernelIdeal.Frame
import proofs.«408083_j64364379898214_3_alg».proof.Proof.Spec
import proofs.«408083_j64364379898214_3_alg».proof.Proof.SpecHost
import Idealize.ShloMosaic.Lib.Pipeline.Value

set_option maxRecDepth 16384

noncomputable section

namespace Cert.KernelIdeal.KBundleHost

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- No operation of the last host stretch writes the reference in the goal. -/
local macro "not_written6" : tactic => `(tactic| (
  refine List.forall_iff_forall_mem.mp ?_
  simp only [hostOps6, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- The weight matrix when the last pipeline starts is the launched one. -/
theorem W13_arg3 (c : Dev nD) : W13 m ρ c (Proc.devRef .tc main_arg3) = m ((c : Thread nD τ).loc main_arg3) :=
  ((W14_arr m ρ c 2).trans (((dat6 (V13 m ρ) c).arrAt_in 2 rfl _).trans (A_eq6 (V13 m ρ) c 2))).symm.trans
    (W14_main_arg3 m ρ c)

/-- The size table when the last pipeline starts is the launched one. -/
theorem W13_arg4 (c : Dev nD) : W13 m ρ c (Proc.devRef .tc main_arg4) = m ((c : Thread nD τ).loc main_arg4) :=
  ((W14_arr m ρ c 4).trans (((dat6 (V13 m ρ) c).arrAt_in 4 rfl _).trans (A_eq6 (V13 m ρ) c 4))).symm.trans
    (W14_main_arg4 m ρ c)

/-- The item degrees when the last host stretch starts are the launched ones. -/
theorem W12_arg5 (c : Dev nD) : W12 m ρ c (Proc.devRef .tc main_arg5) = m ((c : Thread nD τ).loc main_arg5) :=
  calc W12 m ρ c (Proc.devRef .tc main_arg5)
    _ = W13 m ρ c (Proc.devRef .tc main_arg5) :=
        (StableHlo.after_of_forall_not_mem (b := Proc.devRef .tc main_arg5) _ _ (by not_written6)).symm
    _ = W14 m ρ c (Proc.devRef .tc main_arg5) := (W14_of_ne m ρ c main_arg5 (by decide)).symm
    _ = m ((c : Thread nD τ).loc main_arg5) := W14_main_arg5 m ρ c

/-- The bundle sizes when the last host stretch starts are the launched ones. -/
theorem W12_arg6 (c : Dev nD) : W12 m ρ c (Proc.devRef .tc main_arg6) = m ((c : Thread nD τ).loc main_arg6) :=
  calc W12 m ρ c (Proc.devRef .tc main_arg6)
    _ = W13 m ρ c (Proc.devRef .tc main_arg6) :=
        (StableHlo.after_of_forall_not_mem (b := Proc.devRef .tc main_arg6) _ _ (by not_written6)).symm
    _ = W14 m ρ c (Proc.devRef .tc main_arg6) := (W14_of_ne m ρ c main_arg6 (by decide)).symm
    _ = m ((c : Thread nD τ).loc main_arg6) := W14_main_arg6 m ρ c

/-- The aggregation graph's row indices when the last host stretch starts are the launched ones. -/
theorem W12_arg16 (c : Dev nD) : W12 m ρ c (Proc.devRef .tc main_arg16) = m ((c : Thread nD τ).loc main_arg16) :=
  calc W12 m ρ c (Proc.devRef .tc main_arg16)
    _ = W13 m ρ c (Proc.devRef .tc main_arg16) :=
        (StableHlo.after_of_forall_not_mem (b := Proc.devRef .tc main_arg16) _ _ (by not_written6)).symm
    _ = W14 m ρ c (Proc.devRef .tc main_arg16) := (W14_of_ne m ρ c main_arg16 (by decide)).symm
    _ = m ((c : Thread nD τ).loc main_arg16) := W14_main_arg16 m ρ c

/-- The aggregation graph's column indices when the last host stretch starts are the launched ones. -/
theorem W12_arg17 (c : Dev nD) : W12 m ρ c (Proc.devRef .tc main_arg17) = m ((c : Thread nD τ).loc main_arg17) :=
  calc W12 m ρ c (Proc.devRef .tc main_arg17)
    _ = W13 m ρ c (Proc.devRef .tc main_arg17) :=
        (StableHlo.after_of_forall_not_mem (b := Proc.devRef .tc main_arg17) _ _ (by not_written6)).symm
    _ = W14 m ρ c (Proc.devRef .tc main_arg17) := (W14_of_ne m ρ c main_arg17 (by decide)).symm
    _ = m ((c : Thread nD τ).loc main_arg17) := W14_main_arg17 m ρ c

/-- The aggregation graph's edge values when the last host stretch starts are the launched ones. -/
theorem W12_arg18 (c : Dev nD) : W12 m ρ c (Proc.devRef .tc main_arg18) = m ((c : Thread nD τ).loc main_arg18) :=
  calc W12 m ρ c (Proc.devRef .tc main_arg18)
    _ = W13 m ρ c (Proc.devRef .tc main_arg18) :=
        (StableHlo.after_of_forall_not_mem (b := Proc.devRef .tc main_arg18) _ _ (by not_written6)).symm
    _ = W14 m ρ c (Proc.devRef .tc main_arg18) := (W14_of_ne m ρ c main_arg18 (by decide)).symm
    _ = m ((c : Thread nD τ).loc main_arg18) := W14_main_arg18 m ρ c

/-- The last host stretch over any contents: its 64-column accumulation is the weighted sum, per bundle, of the
    gathered item rows. -/
theorem after6_v124 (V : Valuation τ sig (Elt Ideal)) :
    StableHlo.after hostOps6 V (Proc.devRef .tc main_call0_v124)
      = Cert.KernelIdeal.SpecHost.agg64 (V (Proc.devRef .tc main_arg16)) (V (Proc.devRef .tc main_arg17))
          (V (Proc.devRef .tc main_arg18)) (V (Proc.devRef .tc main_v0_5)) := by
  after_results_simp
  rfl

/-- The last host stretch over any contents: its 2-column accumulation is the same weighted sum of the gathered
    logarithms of one plus the item degrees. -/
theorem after6_v137 (V : Valuation τ sig (Elt Ideal)) :
    StableHlo.after hostOps6 V (Proc.devRef .tc main_call0_v137)
      = Cert.KernelIdeal.SpecHost.agg2 (V (Proc.devRef .tc main_arg16)) (V (Proc.devRef .tc main_arg17))
          (V (Proc.devRef .tc main_arg18)) (Host.log1p (V (Proc.devRef .tc main_arg5))) := by
  after_results_simp
  rfl

/-- The accumulated item rows when the last pipeline starts. -/
theorem W13_v124 (c : Dev nD) : W13 m ρ c (Proc.devRef .tc main_call0_v124) = Cert.KernelIdeal.SpecHost.agg64 (m ((c : Thread nD τ).loc main_arg16)) (m ((c : Thread nD τ).loc main_arg17)) (m ((c : Thread nD τ).loc main_arg18)) (W12 m ρ c (Proc.devRef .tc main_v0_5)) := by
  rw [← W12_arg16 m ρ c, ← W12_arg17 m ρ c, ← W12_arg18 m ρ c]
  exact after6_v124 (W12 m ρ c)

/-- The accumulated log-degrees when the last pipeline starts. -/
theorem W13_v137 (c : Dev nD) : W13 m ρ c (Proc.devRef .tc main_call0_v137) = Cert.KernelIdeal.SpecHost.agg2 (m ((c : Thread nD τ).loc main_arg16)) (m ((c : Thread nD τ).loc main_arg17)) (m ((c : Thread nD τ).loc main_arg18)) (Host.log1p (m ((c : Thread nD τ).loc main_arg5))) := by
  rw [← W12_arg16 m ρ c, ← W12_arg17 m ρ c, ← W12_arg18 m ρ c, ← W12_arg5 m ρ c]
  exact after6_v137 (W12 m ρ c)

/-- The last host stretch over any contents: the column the bundle sizes are re-laid into holds, in row `b`, size `b`. -/
theorem after6_v138_apply (V : Valuation τ sig (Elt Ideal)) (b : Fin 50000) :
    StableHlo.after hostOps6 V (Proc.devRef .tc main_call0_v138) (ix2 b 0) = V (Proc.devRef .tc main_arg6) (ix1 b) := by
  have e : StableHlo.after hostOps6 V (Proc.devRef .tc main_call0_v138)
      = (shapeCast S50000x1 (V (Proc.devRef .tc main_arg6) : IVec S50000 32) Facts₀.shapeCasts_S50000_S50000x1 : IVec S50000x1 32) := by
    after_results_simp
    rfl
  refine (congrFun e (ix2 b 0)).trans ?_
  refine shapeCast_apply _ _ (ix2 b 0) (ix1 b) ?_
  rw [Shape.rowMajor_val_one, Shape.rowMajor_val_two]
  show b.val = b.val * 1 + 0
  omega

/-- The bundle sizes as a column when the last pipeline starts. -/
theorem W13_v138_apply (c : Dev nD) (b : Fin 50000) : W13 m ρ c (Proc.devRef .tc main_call0_v138) (ix2 b 0) = m ((c : Thread nD τ).loc main_arg6) (ix1 b) := by
  rw [← W12_arg6 m ρ c]
  exact after6_v138_apply (W12 m ρ c) b

end Cert.KernelIdeal.KBundleHost

end
-- ==== Proof.KBundle.lean ====
/-
  The bundle embedding on the kernel's side: the last host stretch accumulates, per bundle, the gathered item rows
  and the gathered log-degrees; the last pipeline adds to the first the second against the weight matrix's two columns
  and the size table's row picked by the clamped bundle size.
-/
import proofs.«408083_j64364379898214_3_alg».proof.Proof.Gen.KernelIdeal.Frame
import proofs.«408083_j64364379898214_3_alg».proof.Proof.Spec
import proofs.«408083_j64364379898214_3_alg».proof.Proof.SpecHost
import proofs.«408083_j64364379898214_3_alg».proof.Proof.KBundleHost
import Idealize.ShloMosaic.Lib.Pipeline.Value
import Idealize.ShloMosaic.PureOps.Ideal.Laws

set_option maxRecDepth 16384

noncomputable section

namespace Cert.KernelIdeal.KBundle

open Cert.KernelIdeal Cert.KernelIdeal.Gen Idealize.ShloMosaic Idealize.ShloMosaic.TcCoe Idealize.ShloMosaic.ValueIdx Idealize.SL.Sem

/-! ## Words and the extended reals -/

/-- The size clamp as a word: the word of the clamped size. -/
theorem clampBV (z : BitVec 32) :
    IntOp.minsi 10#32 (IntOp.maxsi 0#32 z) = BitVec.ofNat 32 (Cert.Spec.clip11 z).val := by
  have hlt : z.toNat < 2 ^ 32 := z.isLt
  have h10 : (10#32 : BitVec 32).toInt = 10 := by decide
  have h0 : (0#32 : BitVec 32).toInt = 0 := by decide
  have hz : (2 * z.toNat < 2 ^ 32 ∧ z.toInt = z.toNat) ∨ (¬ 2 * z.toNat < 2 ^ 32 ∧ z.toInt = z.toNat - 2 ^ 32) := by
    have e := BitVec.toInt_eq_toNat_cond z
    by_cases h : 2 * z.toNat < 2 ^ 32
    · left; exact ⟨h, by rw [e, if_pos h]⟩
    · right; exact ⟨h, by rw [e, if_neg h]; norm_num⟩
  apply BitVec.eq_of_toNat_eq
  rw [BitVec.toNat_ofNat]
  unfold IntOp.minsi IntOp.maxsi Cert.Spec.clip11
  simp only [BitVec.slt, decide_eq_true_eq, h0, h10]
  by_cases h1 : z.toInt < 0
  · rw [if_pos h1, h0, if_neg (by omega)]
    show 0 = _
    omega
  · rw [if_neg h1]
    by_cases h2 : 10 < z.toInt
    · rw [if_pos h2]
      show 10 = _
      omega
    · rw [if_neg h2]
      omega

/-- A word compare turned into a float is one where the words agree, -/
theorem ind_self (a : BitVec 32) : (FloatOps.sitofp (F := Ideal) .f32 ((IntOp.cmpi .eq a a).setWidth 32)) = 1 := by
  show (((((IntOp.cmpi .eq a a).setWidth 32).toInt : ℝ)) : EReal) = 1
  unfold IntOp.cmpi
  simp

/-- and zero where they differ. -/
theorem ind_ne (a b : BitVec 32) (h : a ≠ b) : (FloatOps.sitofp (F := Ideal) .f32 ((IntOp.cmpi .eq a b).setWidth 32)) = 0 := by
  show (((((IntOp.cmpi .eq a b).setWidth 32).toInt : ℝ)) : EReal) = 0
  have hb : (a == b) = false := by simpa using h
  unfold IntOp.cmpi
  simp [hb]

/-- The eleven-term sum over the table's rows, each against the compare of the clamped size with its row number, is
    the row at the clamped size: every other summand is zero times an extended real, which is zero. -/
theorem peSum (T : Fin 11 → EReal) (c : BitVec 32) (k : Fin 11) (hc : c = BitVec.ofNat 32 k.val) :
    Ideal.ofBits .f32 0x00000000#32
      + FloatOps.sitofp (F := Ideal) .f32 ((IntOp.cmpi .eq c 0#32).setWidth 32) * T ⟨0, by decide⟩
      + FloatOps.sitofp (F := Ideal) .f32 ((IntOp.cmpi .eq c 1#32).setWidth 32) * T ⟨1, by decide⟩
      + FloatOps.sitofp (F := Ideal) .f32 ((IntOp.cmpi .eq c 2#32).setWidth 32) * T ⟨2, by decide⟩
      + FloatOps.sitofp (F := Ideal) .f32 ((IntOp.cmpi .eq c 3#32).setWidth 32) * T ⟨3, by decide⟩
      + FloatOps.sitofp (F := Ideal) .f32 ((IntOp.cmpi .eq c 4#32).setWidth 32) * T ⟨4, by decide⟩
      + FloatOps.sitofp (F := Ideal) .f32 ((IntOp.cmpi .eq c 5#32).setWidth 32) * T ⟨5, by decide⟩
      + FloatOps.sitofp (F := Ideal) .f32 ((IntOp.cmpi .eq c 6#32).setWidth 32) * T ⟨6, by decide⟩
      + FloatOps.sitofp (F := Ideal) .f32 ((IntOp.cmpi .eq c 7#32).setWidth 32) * T ⟨7, by decide⟩
      + FloatOps.sitofp (F := Ideal) .f32 ((IntOp.cmpi .eq c 8#32).setWidth 32) * T ⟨8, by decide⟩
      + FloatOps.sitofp (F := Ideal) .f32 ((IntOp.cmpi .eq c 9#32).setWidth 32) * T ⟨9, by decide⟩
      + FloatOps.sitofp (F := Ideal) .f32 ((IntOp.cmpi .eq c 10#32).setWidth 32) * T ⟨10, by decide⟩
      = T k := by
  subst hc
  rw [Ideal.ofBits_zero_f32]
  fin_cases k <;> simp (disch := decide) only [ind_self, ind_ne, zero_mul, one_mul, add_zero, zero_add]

/-! ## The body's payload at an index -/

section Layout
variable {α : Type}

/-- A column spread along the lanes reads its row. -/
theorem bcastCol_apply (v : S5000x1.Idx → α) (h : S5000x1.Broadcasts S5000x64) (p : Fin 5000) (q : Fin 64) :
    broadcastTo S5000x64 v h (ix2 p q) = v (ix2 p 0) :=
  broadcastTo_apply v h (ix2 p q) (ix2 p 0) (fun a => match a with | ⟨0, _⟩ => rfl | ⟨1, _⟩ => rfl)

/-- A row spread down the rows reads its lane. -/
theorem bcastRow_apply (v : S1x64.Idx → α) (h : S1x64.Broadcasts S5000x64) (p : Fin 5000) (q : Fin 64) :
    broadcastTo S5000x64 v h (ix2 p q) = v (ix2 0 q) :=
  broadcastTo_apply v h (ix2 p q) (ix2 0 q) (fun a => match a with | ⟨0, _⟩ => rfl | ⟨1, _⟩ => rfl)

/-- Row `kn` of the size table, as a one-row slice. -/
theorem tabRow_apply (t : S11x64.Idx → α) (kn : ℕ) (hk : kn < 11) (h : S11x64.Slices ![kn, 0] S1x64) (q : Fin 64) :
    extractStridedSlice S1x64 ![kn, 0] t h (ix2 0 q) = t (ix2 ⟨kn, hk⟩ q) :=
  extractStridedSlice_apply _ t h _ _ (fun a => match a with | ⟨0, _⟩ => rfl | ⟨1, _⟩ => (Nat.zero_add _).symm)

/-- Column `cn` of the weight matrix, laid along the lanes. -/
theorem wCol_apply (w : S64x2.Idx → α) (cn : ℕ) (hc : cn < 2) (h : S64x2.Slices ![0, cn] S64x1)
    (h1 : S64x1.ShapeCasts S64) (h2 : S64.ShapeCasts S1x64) (q : Fin 64) :
    shapeCast S1x64 (shapeCast S64 (extractStridedSlice S64x1 ![0, cn] w h) h1) h2 (ix2 0 q) = w (ix2 q ⟨cn, hc⟩) := by
  refine (shapeCast_apply _ h2 (ix2 0 q) (ix1 q) ?_).trans ((shapeCast_apply _ h1 (ix1 q) (ix2 q 0) ?_).trans ?_)
  · rw [Shape.rowMajor_val_one, Shape.rowMajor_val_two]; show q.val = 0 * 64 + q.val; omega
  · rw [Shape.rowMajor_val_one, Shape.rowMajor_val_two]; show q.val * 1 + 0 = q.val; omega
  · exact extractStridedSlice_apply _ w h _ _ (fun a => match a with | ⟨0, _⟩ => (Nat.zero_add _).symm | ⟨1, _⟩ => rfl)

/-- Column `cn` of the log-degree block. -/
theorem dCol_apply (d : S5000x2.Idx → α) (cn : ℕ) (hc : cn < 2) (h : S5000x2.Slices ![0, cn] S5000x1) (p : Fin 5000) :
    extractStridedSlice S5000x1 ![0, cn] d h (ix2 p 0) = d (ix2 p ⟨cn, hc⟩) :=
  extractStridedSlice_apply _ d h _ _ (fun a => match a with | ⟨0, _⟩ => (Nat.zero_add _).symm | ⟨1, _⟩ => rfl)

/-- A word compare of two vectors, at an index. -/
theorem cmpi_at {s : Shape} {w : ℕ} (pr : CmpIPredicate) (a b : IVec s w) (i : s.Idx) :
    cmpi pr a b i = IntOp.cmpi pr (a i) (b i) := rfl

end Layout

/-- The degree term at an index. -/
theorem pay2_apply (x1 : Vec Ideal S5000x2 .f32) (x2 : Vec Ideal S64x2 .f32) (p : Fin 5000) (q : Fin 64) :
    k6_pay2 x1 x2 (ix2 p q) = x1 (ix2 p 0) * x2 (ix2 q 0) + x1 (ix2 p 1) * x2 (ix2 q 1) := by
  unfold k6_pay2
  rw [addf_apply, mulf_apply, mulf_apply, bcastCol_apply, bcastCol_apply, bcastRow_apply, bcastRow_apply,
    wCol_apply _ 0 (by decide), wCol_apply _ 1 (by decide), dCol_apply _ 0 (by decide), dCol_apply _ 1 (by decide),
    shapeCast_self]
  rfl

/-- The clamped size at a row, as a word. -/
theorem pay3_apply (x3 : Vec Ideal S5000x1 .i32) (p : Fin 5000) :
    k6_pay3 x3 (ix2 p 0) = BitVec.ofNat 32 (Cert.Spec.clip11 (x3 (ix2 p 0))).val := by
  unfold k6_pay3
  rw [shapeCast_self]
  exact clampBV _

/-- What the body stores at an index of its block: the mean, plus the weighted degree term, plus the weighted row of
    the size table at the clamped size. -/
theorem pay_apply (x0 : Vec Ideal S5000x64 .f32) (x1 : Vec Ideal S5000x2 .f32) (x2 : Vec Ideal S64x2 .f32)
    (x3 : Vec Ideal S5000x1 .i32) (x4 : Vec Ideal S11x64 .f32) (p : Fin 5000) (q : Fin 64) :
    k6_pay1 (k6_pay2 x1 x2) (k6_pay3 x3) x4 (k6_pay6 (k6_pay3 x3) x4 (k6_pay4 x3 x4) k6_pay5) k6_pay7 x0 (ix2 p q)
      = x0 (ix2 p q) + Cert.Spec.kap * (x1 (ix2 p 0) * x2 (ix2 q 0) + x1 (ix2 p 1) * x2 (ix2 q 1))
        + Cert.Spec.kap * x4 (ix2 (Cert.Spec.clip11 (x3 (ix2 p 0))) q) := by
  unfold k6_pay1 k6_pay6 k6_pay4 k6_pay5 k6_pay7
  simp only [addf_apply, mulf_apply, broadcast_apply, bcastCol_apply, bcastRow_apply, sitofp_apply, extui_apply, cmpi_at,
    tabRow_apply _ 0 (by decide), tabRow_apply _ 1 (by decide), tabRow_apply _ 2 (by decide), tabRow_apply _ 3 (by decide),
    tabRow_apply _ 4 (by decide), tabRow_apply _ 5 (by decide), tabRow_apply _ 6 (by decide), tabRow_apply _ 7 (by decide),
    tabRow_apply _ 8 (by decide), tabRow_apply _ 9 (by decide), tabRow_apply _ 10 (by decide),
    shapeCast_self, pay2_apply, pay3_apply]
  exact congrArg (fun s : EReal => x0 (ix2 p q) + Cert.Spec.kap * (x1 (ix2 p 0) * x2 (ix2 q 0) + x1 (ix2 p 1) * x2 (ix2 q 1))
      + Cert.Spec.kap * s)
    (peSum (fun k => x4 (ix2 k q)) _ (Cert.Spec.clip11 (x3 (ix2 p 0))) rfl)

/-- The same point as the bundle embedding of five arrays at the array index `e` the point is written to, given where
    the entries of the five blocks sit in their arrays. -/
theorem point_eq (A0 : Cert.Spec.Arr 50000 64) (A1 : Cert.Spec.Arr 50000 2) (A2 : Cert.Spec.Arr 64 2)
    (A3 : S50000x1.Idx → BitVec 32) (A4 : Cert.Spec.Arr 11 64)
    (x0 : Vec Ideal S5000x64 .f32) (x1 : Vec Ideal S5000x2 .f32) (x2 : Vec Ideal S64x2 .f32)
    (x3 : Vec Ideal S5000x1 .i32) (x4 : Vec Ideal S11x64 .f32)
    (e : S50000x64.Idx) (p : Fin 5000) (q : Fin 64)
    (h0 : x0 (ix2 p q) = A0 e)
    (h1 : ∀ d : Fin 2, x1 (ix2 p d) = A1 (ix2 (e 0) d))
    (h2 : ∀ d : Fin 2, x2 (ix2 q d) = A2 (ix2 (e 1) d))
    (h3 : x3 (ix2 p 0) = A3 (ix2 (e 0) 0))
    (h4 : ∀ k : Fin 11, x4 (ix2 k q) = A4 (ix2 k (e 1))) :
    k6_pay1 (k6_pay2 x1 x2) (k6_pay3 x3) x4 (k6_pay6 (k6_pay3 x3) x4 (k6_pay4 x3 x4) k6_pay5) k6_pay7 x0 (ix2 p q)
      = Cert.Spec.bundleK (nb := 50000) A0 A1 A2 (fun b => A3 (ix2 b 0)) A4 e := by
  rw [pay_apply, h0, h1, h1, h2, h2, h3, h4]
  rfl

/-! ## From blocks to the array -/

theorem hz6 : (![0, 0] : Fin 2 → Nat) = fun _ => 0 := funext fun a => by fin_cases a <;> rfl

/-- The printed index maps, decided over the grid: the mean, the log-degrees, the sizes and the result move one block
    of 5000 rows per point; the weights and the table stay whole. -/
theorem idx_facts6 : ∀ t : Fin cfg6.N,
    win6_0.index t (0 : Fin 2) = win6_5.index t (0 : Fin 2) ∧ win6_0.index t (1 : Fin 2) = win6_5.index t (1 : Fin 2)
    ∧ win6_1.index t (0 : Fin 2) = win6_5.index t (0 : Fin 2) ∧ win6_1.index t (1 : Fin 2) = 0
    ∧ win6_2.index t (0 : Fin 2) = 0 ∧ win6_2.index t (1 : Fin 2) = 0
    ∧ win6_3.index t (0 : Fin 2) = win6_5.index t (0 : Fin 2) ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

section Region
variable (V : (c : Dev nD) → (b : Ref sig .tc) → Buf (Elt Ideal) ((c : Thread nD τ).loc b))

/-- The bundle embedding of the five arrays pipeline 6 reads, as the region finds them. -/
abbrev G6 (c : Dev nD) : Cert.Spec.Arr 50000 64 :=
  Cert.Spec.bundleK (nb := 50000) (V c main_call0_v124) (V c main_call0_v137) (V c main_arg3)
    (fun b => V c main_call0_v138 (ix2 b 0)) (V c main_arg4)

/-- What point `t` writes back is block `t` of that embedding. -/
theorem flushed6_eq (c : Dev nD) (t : Fin cfg6.N) :
    (dat6 V c).flushed 5 t = ((cfg6.win 5).blk t).view.read (Elt Ideal) (G6 V c) := by
  show (cfg6.win 5).cut (grid6.coords t) ((dat6 V c).after 5 t) = _
  rw [after6_5]
  unfold out6_5
  rw [View.canon_unit_zero hz6]
  simp only [View.ld_unit_zero (S := S5000x64) hz6, View.ld_unit_zero (S := S5000x2) hz6, View.ld_unit_zero (S := S64x2) hz6,
    View.ld_unit_zero (S := S5000x1) hz6, View.ld_unit_zero (S := S11x64) hz6]
  obtain ⟨e0, e1, e2, e3, e4, e5, e6, e7, e8, e9, e10, e11⟩ := idx_facts6 t
  funext j
  obtain ⟨p, q, rfl⟩ : ∃ (p : Fin 5000) (q : Fin 64), j = ix2 p q := ⟨j 0, j 1, eq_ix2 j⟩
  refine point_eq (V c main_call0_v124) (V c main_call0_v137) (V c main_arg3) (V c main_call0_v138) (V c main_arg4)
    (iblk6 V c 0 t) (iblk6 V c 1 t) (iblk6 V c 2 t) (iblk6 V c 3 t) (iblk6 V c 4 t)
    (((cfg6.win 5).blk t).view.emb (ix2 p q)) p q ?_ ?_ ?_ ?_ ?_
  · show V c main_call0_v124 (((cfg6.win 0).blk t).view.emb (ix2 p q)) = V c main_call0_v124 (((cfg6.win 5).blk t).view.emb (ix2 p q))
    refine congrArg _ (funext fun a => Fin.ext ?_)
    match a with
    | ⟨0, _⟩ => show win6_0.index t (0 : Fin 2) * 5000 + 1 * p.val = win6_5.index t (0 : Fin 2) * 5000 + 1 * p.val; omega
    | ⟨1, _⟩ => show win6_0.index t (1 : Fin 2) * 64 + 1 * q.val = win6_5.index t (1 : Fin 2) * 64 + 1 * q.val; omega
  · intro d
    show V c main_call0_v137 (((cfg6.win 1).blk t).view.emb (ix2 p d)) = V c main_call0_v137 (ix2 ((((cfg6.win 5).blk t).view.emb (ix2 p q)) 0) d)
    refine congrArg _ (funext fun a => Fin.ext ?_)
    match a with
    | ⟨0, _⟩ => show win6_1.index t (0 : Fin 2) * 5000 + 1 * p.val = win6_5.index t (0 : Fin 2) * 5000 + 1 * p.val; omega
    | ⟨1, _⟩ => show win6_1.index t (1 : Fin 2) * 2 + 1 * d.val = d.val; omega
  · intro d
    show V c main_arg3 (((cfg6.win 2).blk t).view.emb (ix2 q d)) = V c main_arg3 (ix2 ((((cfg6.win 5).blk t).view.emb (ix2 p q)) 1) d)
    refine congrArg _ (funext fun a => Fin.ext ?_)
    match a with
    | ⟨0, _⟩ => show win6_2.index t (0 : Fin 2) * 64 + 1 * q.val = win6_5.index t (1 : Fin 2) * 64 + 1 * q.val; omega
    | ⟨1, _⟩ => show win6_2.index t (1 : Fin 2) * 2 + 1 * d.val = d.val; omega
  · show V c main_call0_v138 (((cfg6.win 3).blk t).view.emb (ix2 p 0)) = V c main_call0_v138 (ix2 ((((cfg6.win 5).blk t).view.emb (ix2 p q)) 0) 0)
    refine congrArg _ (funext fun a => Fin.ext ?_)
    match a with
    | ⟨0, _⟩ => show win6_3.index t (0 : Fin 2) * 5000 + 1 * p.val = win6_5.index t (0 : Fin 2) * 5000 + 1 * p.val; omega
    | ⟨1, _⟩ => show win6_3.index t (1 : Fin 2) * 1 + 1 * (0 : Fin 1).val = (0 : Fin 1).val; omega
  · intro k
    show V c main_arg4 (((cfg6.win 4).blk t).view.emb (ix2 k q)) = V c main_arg4 (ix2 k ((((cfg6.win 5).blk t).view.emb (ix2 p q)) 1))
    refine congrArg _ (funext fun a => Fin.ext ?_)
    match a with
    | ⟨0, _⟩ => show win6_4.index t (0 : Fin 2) * 11 + 1 * k.val = k.val; omega
    | ⟨1, _⟩ => show win6_4.index t (1 : Fin 2) * 64 + 1 * q.val = win6_5.index t (1 : Fin 2) * 64 + 1 * q.val; omega

/-- An index of the result array is in point `t`'s block iff each coordinate is in the block's range on its axis. -/
theorem mem_blk6 (t : Fin cfg6.N) (i : S50000x64.Idx) :
    i ∈ ((cfg6.win 5).blk t).view.set ↔ ∀ a : Fin 2, win6_5.index t a * S5000x64.size a ≤ (i a).val ∧ (i a).val < win6_5.index t a * S5000x64.size a + S5000x64.size a := by
  show i ∈ ((View.whole main_v0_6).slice (win6_5.rect t)).set ↔ _
  rw [View.set_slice_whole, Rect.mem_set_unit]
  exact Iff.rfl

/-- Every row of the result lies in the block of the point numbered by its row over 5000: the ten blocks tile the array. -/
theorem cover6 (i : S50000x64.Idx) :
    ∃ t : Fin cfg6.N, (cfg6.win 5).flush t = true ∧ i ∈ ((cfg6.win 5).blk t).view.set := by
  have hi0 : (i 0).val < 50000 := (i 0).isLt
  have hi1 : (i 1).val < 64 := (i 1).isLt
  obtain ⟨t, ht⟩ : ∃ t : Fin cfg6.N, t.val = (i 0).val / 5000 :=
    ⟨⟨(i 0).val / 5000, by show _ < grid6.N; rw [N_6]; omega⟩, rfl⟩
  obtain ⟨e0, e1, e2, e3, e4, e5, e6, e7, e8, e9, e10, e11⟩ := idx_facts6 t
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 64 ≤ (i 1).val ∧ (i 1).val < win6_5.index t (1 : Fin 2) * 64 + 64; omega

/-- The result array after pipeline 6: the bundle embedding of its five input arrays. -/
theorem arrAt6 (c : Dev nD) : (dat6 V c).arrAt 5 cfg6.N = G6 V c :=
  (dat6 V c).arrAt_eq_of_cover 5 (G6 V c) (fun t _ => flushed6_eq V c t) cover6

end Region

/-! ## The run's last result -/

variable (m : (ℓ : Loc nD τ sig) → Buf (Elt Ideal) ℓ) (ρ : Dev nD → PrngReg)

/-- What the run leaves in result `main_v0_6`, over the item rows `main_v0_5` holds when the last host stretch starts. -/
theorem W14_main_v0_6 (c : Dev nD) :
    W14 m ρ c (Proc.devRef .tc main_v0_6)
      = Cert.Spec.bundleK (nb := 50000)
          (Cert.KernelIdeal.SpecHost.agg64 (m ((c : Thread nD τ).loc main_arg16)) (m ((c : Thread nD τ).loc main_arg17)) (m ((c : Thread nD τ).loc main_arg18)) (W12 m ρ c (Proc.devRef .tc main_v0_5)))
          (Cert.KernelIdeal.SpecHost.agg2 (m ((c : Thread nD τ).loc main_arg16)) (m ((c : Thread nD τ).loc main_arg17)) (m ((c : Thread nD τ).loc main_arg18)) (Host.log1p (m ((c : Thread nD τ).loc main_arg5))))
          (m ((c : Thread nD τ).loc main_arg3)) (fun b => (m ((c : Thread nD τ).loc main_arg6)) (ix1 b)) (m ((c : Thread nD τ).loc main_arg4)) := by
  have h138 : ∀ b : Fin 50000, W13 m ρ c (Proc.devRef .tc main_call0_v138) (ix2 b 0) = m ((c : Thread nD τ).loc main_arg6) (ix1 b) :=
    fun b => KBundleHost.W13_v138_apply m ρ c b
  refine (W14_arr m ρ c 5).trans ((arrAt6 (V13 m ρ) c).trans ?_)
  show Cert.Spec.bundleK (nb := 50000) (W13 m ρ c (Proc.devRef .tc main_call0_v124)) (W13 m ρ c (Proc.devRef .tc main_call0_v137))
    (W13 m ρ c (Proc.devRef .tc main_arg3)) (fun b => W13 m ρ c (Proc.devRef .tc main_call0_v138) (ix2 b 0))
    (W13 m ρ c (Proc.devRef .tc main_arg4)) = _
  rw [KBundleHost.W13_v124, KBundleHost.W13_v137, KBundleHost.W13_arg3, KBundleHost.W13_arg4]
  simp only [h138]

end Cert.KernelIdeal.KBundle

end
-- ==== Proof.RPropUI.lean ====
/-
  The UI graph on the reference's side: its host operations, read one at a time at an index, are the two layers
  `prop3` of the stacked features and their sparse products.
-/
import proofs.«408083_j64364379898214_3_alg».proof.Proof.Gen.ReferenceIdeal.Read
import proofs.«408083_j64364379898214_3_alg».proof.Proof.Spec
import proofs.«408083_j64364379898214_3_alg».proof.Proof.SpecHost

set_option maxRecDepth 16384

noncomputable section

namespace Cert.ReferenceIdeal.RProp

open Cert.ReferenceIdeal Idealize.ShloMosaic Idealize.ShloMosaic.ValueIdx

/-- The gather record of the graph is the same record in both programs. -/
theorem gather300000_eq :
    Cert.ReferenceIdeal.gather_S300000x64_S4000000x1_S4000000x64_1_0_n_n_0_1_164
      = Cert.KernelIdeal.gather_S300000x64_S4000000x1_S4000000x64_1_0_n_n_0_1_164 := rfl

/-- The scatter record of the graph is the same record in both programs. -/
theorem scatter300000_eq :
    Cert.ReferenceIdeal.scatter_S300000x64_S4000000x1_S4000000x64_1_0_0_1
      = Cert.KernelIdeal.scatter_S300000x64_S4000000x1_S4000000x64_1_0_0_1 := rfl

/-- The stacked features. -/
theorem v0_eq (x0 : (⟨S200000x64, .f32⟩ : BufTy).Contents (Elt Ideal)) (x1 : (⟨S100000x64, .f32⟩ : BufTy).Contents (Elt Ideal)) :
    Read.val_main_v0 (F := Ideal) x0 x1 = Cert.KernelIdeal.SpecHost.featUI x0 x1 := rfl

/-- The reference's first sparse product over an arbitrary source array. -/
theorem spmm300000_first (x7 x8 : (⟨S4000000, .i32⟩ : BufTy).Contents (Elt Ideal)) (x9 : (⟨S4000000, .f32⟩ : BufTy).Contents (Elt Ideal))
    (x : (⟨S300000x64, .f32⟩ : BufTy).Contents (Elt Ideal)) :
    Host.scatterAdd scatter_S300000x64_S4000000x1_S4000000x64_1_0_0_1 (Read.val_main_v11 (F := Ideal)) (Read.val_main_v12 (F := Ideal) x7)
        (mulf (Read.val_main_v9 (F := Ideal) x9)
          (Host.gather gather_S300000x64_S4000000x1_S4000000x64_1_0_n_n_0_1_164 x (Read.val_main_v7 (F := Ideal) x8)))
      = Cert.KernelIdeal.SpecHost.spmm300000 x7 x8 x9 x := by
  unfold Read.val_main_v11 Read.val_main_v12 Read.val_main_v9 Read.val_main_v7 Read.val_main_v6 Read.val_main_v5 Read.val_main_v4 Read.val_main_v3 Read.val_main_v2 Read.val_main_v1 Read.val_main_cst Read.val_main_c Read.val_main_c_0
    Cert.KernelIdeal.SpecHost.spmm300000
  rw [gather300000_eq, scatter300000_eq]

/-- The first layer's output is the sparse product of the stacked features. -/
theorem v13_eq (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) :
    Read.val_main_v13 (F := Ideal) x0 x1 x7 x8 x9
      = Cert.KernelIdeal.SpecHost.spmm300000 x7 x8 x9 (Cert.KernelIdeal.SpecHost.featUI x0 x1) := by
  unfold Read.val_main_v13 Read.val_main_v10 Read.val_main_v8
  rw [v0_eq]
  exact spmm300000_first x7 x8 x9 _

/-- The reference's second sparse product over an arbitrary source array. -/
theorem spmm300000_second (x7 x8 : (⟨S4000000, .i32⟩ : BufTy).Contents (Elt Ideal)) (x9 : (⟨S4000000, .f32⟩ : BufTy).Contents (Elt Ideal))
    (x : (⟨S300000x64, .f32⟩ : BufTy).Contents (Elt Ideal)) :
    Host.scatterAdd scatter_S300000x64_S4000000x1_S4000000x64_1_0_0_1 (Read.val_main_v33 (F := Ideal)) (Read.val_main_v34 (F := Ideal) x7)
        (mulf (Read.val_main_v31 (F := Ideal) x9)
          (Host.gather gather_S300000x64_S4000000x1_S4000000x64_1_0_n_n_0_1_164 x (Read.val_main_v29 (F := Ideal) x8)))
      = Cert.KernelIdeal.SpecHost.spmm300000 x7 x8 x9 x := by
  unfold Read.val_main_v33 Read.val_main_v34 Read.val_main_v31 Read.val_main_v29 Read.val_main_v28 Read.val_main_v27 Read.val_main_v26 Read.val_main_v25 Read.val_main_v24 Read.val_main_v23 Read.val_main_cst_5 Read.val_main_c_3 Read.val_main_c_4
    Cert.KernelIdeal.SpecHost.spmm300000
  rw [gather300000_eq, scatter300000_eq]

/-- The second layer's output is the sparse product of the first layer's. -/
theorem v35_eq (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) :
    Read.val_main_v35 (F := Ideal) x0 x1 x7 x8 x9
      = Cert.KernelIdeal.SpecHost.spmm300000 x7 x8 x9 (Read.val_main_v13 (F := Ideal) x0 x1 x7 x8 x9) := by
  unfold Read.val_main_v35 Read.val_main_v32 Read.val_main_v30
  exact spmm300000_second x7 x8 x9 _

/-- The divisor of the first layer at any column of row `r`: the clamped norm of that row of the first layer's output. -/
theorem v20_at (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) (r : Fin 300000) (l : Fin 64) :
    Read.val_main_v20 (F := Ideal) x0 x1 x7 x8 x9 (ix2 r l) = Cert.Spec.rowNrm (Read.val_main_v13 (F := Ideal) x0 x1 x7 x8 x9) r := by
  rw [Read.val_main_v20_apply, Read.val_main_v19_apply, Read.val_main_v18_apply, Read.val_main_cst_2_apply, Read.val_main_v17_apply, Read.val_main_v16_apply, Read.val_main_v15_apply, Read.val_main_cst_1_apply]
  have hsum : ∀ k : Fin 64,
      Read.val_main_v14 (F := Ideal) x0 x1 x7 x8 x9 (Read.idx_main_v15 (Read.idx_main_v16 (Read.idx_main_v20 (ix2 r l))) k)
        = Read.val_main_v13 (F := Ideal) x0 x1 x7 x8 x9 (ix2 r k) * Read.val_main_v13 (F := Ideal) x0 x1 x7 x8 x9 (ix2 r k) := fun k => by
    rw [Read.val_main_v14_apply, Ideal.mulf_def,
      show Read.idx_main_v15 (Read.idx_main_v16 (Read.idx_main_v20 (ix2 r l))) k = ix2 r k from
        funext fun a => Fin.ext (by match a with | ⟨0, _⟩ => rfl | ⟨1, _⟩ => rfl)]
  rw [Finset.sum_congr rfl (fun k _ => hsum k)]
  generalize Read.val_main_v13 (F := Ideal) x0 x1 x7 x8 x9 = f
  rw [Ideal.maximumf_def, Ideal.hostUnary_sqrt_def, Ideal.ofBits_def, Ideal.ofBits_zero_f32, zero_add, Ideal.ofBits_def]
  rfl

/-- The divisor of the second layer at any column of row `r`: the clamped norm of that row of the second layer's output. -/
theorem v42_at (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) (r : Fin 300000) (l : Fin 64) :
    Read.val_main_v42 (F := Ideal) x0 x1 x7 x8 x9 (ix2 r l) = Cert.Spec.rowNrm (Read.val_main_v35 (F := Ideal) x0 x1 x7 x8 x9) r := by
  rw [Read.val_main_v42_apply, Read.val_main_v41_apply, Read.val_main_v40_apply, Read.val_main_cst_7_apply, Read.val_main_v39_apply, Read.val_main_v38_apply, Read.val_main_v37_apply, Read.val_main_cst_6_apply]
  have hsum : ∀ k : Fin 64,
      Read.val_main_v36 (F := Ideal) x0 x1 x7 x8 x9 (Read.idx_main_v37 (Read.idx_main_v38 (Read.idx_main_v42 (ix2 r l))) k)
        = Read.val_main_v35 (F := Ideal) x0 x1 x7 x8 x9 (ix2 r k) * Read.val_main_v35 (F := Ideal) x0 x1 x7 x8 x9 (ix2 r k) := fun k => by
    rw [Read.val_main_v36_apply, Ideal.mulf_def,
      show Read.idx_main_v37 (Read.idx_main_v38 (Read.idx_main_v42 (ix2 r l))) k = ix2 r k from
        funext fun a => Fin.ext (by match a with | ⟨0, _⟩ => rfl | ⟨1, _⟩ => rfl)]
  rw [Finset.sum_congr rfl (fun k _ => hsum k)]
  generalize Read.val_main_v35 (F := Ideal) x0 x1 x7 x8 x9 = f
  rw [Ideal.maximumf_def, Ideal.hostUnary_sqrt_def, Ideal.ofBits_def, Ideal.ofBits_zero_f32, zero_add, Ideal.ofBits_def]
  rfl

/-- Two layers and the mean, written out at one element. -/
theorem prop3_at300000 (a f1 f2 : Cert.Spec.Arr 300000 64) (r : Fin 300000) (l : Fin 64) :
    Ideal.div (a (ix2 r l) + Ideal.div (f1 (ix2 r l)) (Cert.Spec.rowNrm f1 r) + Ideal.div (f2 (ix2 r l)) (Cert.Spec.rowNrm f2 r))
        (Ideal.ofBits .f32 0x40400000#32)
      = Cert.Spec.prop3 a f1 f2 (ix2 r l) := rfl

/-- The mean of the three summands at row `r`, column `l`. -/
theorem v46_at (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) (r : Fin 300000) (l : Fin 64) :
    Read.val_main_v46 (F := Ideal) x0 x1 x7 x8 x9 (ix2 r l)
      = Cert.KernelIdeal.SpecHost.prop300000 x7 x8 x9 (Cert.KernelIdeal.SpecHost.featUI x0 x1) (ix2 r l) := by
  rw [Read.val_main_v46_apply, Read.val_main_v45_apply, Read.val_main_cst_8_apply, Read.val_main_v44_apply, Read.val_main_v43_apply, Read.val_main_v22_apply, Read.val_main_v21_apply,
    v42_at, v20_at, v35_eq, v13_eq, v0_eq]
  unfold Cert.KernelIdeal.SpecHost.prop300000
  generalize Cert.KernelIdeal.SpecHost.spmm300000 x7 x8 x9 (Cert.KernelIdeal.SpecHost.spmm300000 x7 x8 x9 (Cert.KernelIdeal.SpecHost.featUI x0 x1)) = f2
  generalize Cert.KernelIdeal.SpecHost.spmm300000 x7 x8 x9 (Cert.KernelIdeal.SpecHost.featUI x0 x1) = f1
  generalize Cert.KernelIdeal.SpecHost.featUI x0 x1 = a
  rw [Ideal.hostDivf_def, Ideal.hostDivf_def, Ideal.hostDivf_def, Ideal.addf_def, Ideal.addf_def, Ideal.ofBits_def]
  exact prop3_at300000 a f1 f2 r l

/-- The reference's result `main_v47`: rows 0 … 199999 of the graph's propagated features. -/
theorem val_v47_eq (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) :
    Cert.ReferenceIdeal.Read.val_main_v47 (F := Ideal) x0 x1 x7 x8 x9
      = Cert.Spec.rowsFrom 0 (n := 300000) (k := 200000) (by decide)
          (Cert.KernelIdeal.SpecHost.prop300000 x7 x8 x9 (Cert.KernelIdeal.SpecHost.featUI x0 x1)) := by
  funext j
  obtain ⟨p, q, rfl⟩ : ∃ (p : Fin 200000) (q : Fin 64), j = ix2 p q := ⟨j 0, j 1, eq_ix2 j⟩
  rw [Read.val_main_v47_apply,
    show Read.idx_main_v47 (ix2 p q) = ix2 (⟨p.val, by omega⟩ : Fin 300000) q from
      funext fun a => Fin.ext (by match a with | ⟨0, _⟩ => rfl | ⟨1, _⟩ => rfl),
    v46_at]
  unfold Cert.Spec.rowsFrom
  generalize Cert.KernelIdeal.SpecHost.prop300000 x7 x8 x9 (Cert.KernelIdeal.SpecHost.featUI x0 x1) = G
  exact congrArg G (funext fun a => Fin.ext (by
    match a with
    | ⟨0, _⟩ => show p.val = 0 + p.val; omega
    | ⟨1, _⟩ => rfl))

/-- The reference's result `main_v48`: rows 200000 … 299999 of the graph's propagated features. -/
theorem val_v48_eq (x0 : (⟨S200000x64, .f32⟩ : BufTy).Contents (Elt Ideal)) (x1 : (⟨S100000x64, .f32⟩ : BufTy).Contents (Elt Ideal)) (x7 x8 : (⟨S4000000, .i32⟩ : BufTy).Contents (Elt Ideal)) (x9 : (⟨S4000000, .f32⟩ : BufTy).Contents (Elt Ideal)) :
    Cert.ReferenceIdeal.Read.val_main_v48 (F := Ideal) x0 x1 x7 x8 x9
      = Cert.Spec.rowsFrom 200000 (n := 300000) (k := 100000) (by decide)
          (Cert.KernelIdeal.SpecHost.prop300000 x7 x8 x9 (Cert.KernelIdeal.SpecHost.featUI x0 x1)) := by
  funext j
  obtain ⟨p, q, rfl⟩ : ∃ (p : Fin 100000) (q : Fin 64), j = ix2 p q := ⟨j 0, j 1, eq_ix2 j⟩
  rw [Read.val_main_v48_apply,
    show Read.idx_main_v48 (ix2 p q) = ix2 (⟨200000 + p.val, by omega⟩ : Fin 300000) q from
      funext fun a => Fin.ext (by match a with | ⟨0, _⟩ => rfl | ⟨1, _⟩ => rfl),
    v46_at]
  unfold Cert.Spec.rowsFrom
  generalize Cert.KernelIdeal.SpecHost.prop300000 x7 x8 x9 (Cert.KernelIdeal.SpecHost.featUI x0 x1) = G
  exact congrArg G (funext fun a => Fin.ext (by
    match a with
    | ⟨0, _⟩ => rfl
    | ⟨1, _⟩ => rfl))

end Cert.ReferenceIdeal.RProp

end
-- ==== Proof.RPropBI.lean ====
/-
  The BI graph on the reference's side: its host operations, read one at a time at an index, are the two layers
  `prop3` of the stacked features and their sparse products.
-/
import proofs.«408083_j64364379898214_3_alg».proof.Proof.Gen.ReferenceIdeal.Read
import proofs.«408083_j64364379898214_3_alg».proof.Proof.Spec
import proofs.«408083_j64364379898214_3_alg».proof.Proof.SpecHost

set_option maxRecDepth 16384

noncomputable section

namespace Cert.ReferenceIdeal.RProp

open Cert.ReferenceIdeal Idealize.ShloMosaic Idealize.ShloMosaic.ValueIdx

/-- The gather record of the graph is the same record in both programs. -/
theorem gather150000_eq :
    Cert.ReferenceIdeal.gather_S150000x64_S2000000x1_S2000000x64_1_0_n_n_0_1_164
      = Cert.KernelIdeal.gather_S150000x64_S2000000x1_S2000000x64_1_0_n_n_0_1_164 := rfl

/-- The scatter record of the graph is the same record in both programs. -/
theorem scatter150000_eq :
    Cert.ReferenceIdeal.scatter_S150000x64_S2000000x1_S2000000x64_1_0_0_1
      = Cert.KernelIdeal.scatter_S150000x64_S2000000x1_S2000000x64_1_0_0_1 := rfl

/-- The stacked features. -/
theorem v49_eq (x2 : (⟨S50000x64, .f32⟩ : BufTy).Contents (Elt Ideal)) (x1 : (⟨S100000x64, .f32⟩ : BufTy).Contents (Elt Ideal)) :
    Read.val_main_v49 (F := Ideal) x1 x2 = Cert.KernelIdeal.SpecHost.featBI x2 x1 := rfl

/-- The reference's first sparse product over an arbitrary source array. -/
theorem spmm150000_first (x10 x11 : (⟨S2000000, .i32⟩ : BufTy).Contents (Elt Ideal)) (x12 : (⟨S2000000, .f32⟩ : BufTy).Contents (Elt Ideal))
    (x : (⟨S150000x64, .f32⟩ : BufTy).Contents (Elt Ideal)) :
    Host.scatterAdd scatter_S150000x64_S2000000x1_S2000000x64_1_0_0_1 (Read.val_main_v60 (F := Ideal)) (Read.val_main_v61 (F := Ideal) x10)
        (mulf (Read.val_main_v58 (F := Ideal) x12)
          (Host.gather gather_S150000x64_S2000000x1_S2000000x64_1_0_n_n_0_1_164 x (Read.val_main_v56 (F := Ideal) x11)))
      = Cert.KernelIdeal.SpecHost.spmm150000 x10 x11 x12 x := by
  unfold Read.val_main_v60 Read.val_main_v61 Read.val_main_v58 Read.val_main_v56 Read.val_main_v55 Read.val_main_v54 Read.val_main_v53 Read.val_main_v52 Read.val_main_v51 Read.val_main_v50 Read.val_main_cst_11 Read.val_main_c_9 Read.val_main_c_10
    Cert.KernelIdeal.SpecHost.spmm150000
  rw [gather150000_eq, scatter150000_eq]

/-- The first layer's output is the sparse product of the stacked features. -/
theorem v62_eq (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) :
    Read.val_main_v62 (F := Ideal) x1 x2 x10 x11 x12
      = Cert.KernelIdeal.SpecHost.spmm150000 x10 x11 x12 (Cert.KernelIdeal.SpecHost.featBI x2 x1) := by
  unfold Read.val_main_v62 Read.val_main_v59 Read.val_main_v57
  rw [v49_eq]
  exact spmm150000_first x10 x11 x12 _

/-- The reference's second sparse product over an arbitrary source array. -/
theorem spmm150000_second (x10 x11 : (⟨S2000000, .i32⟩ : BufTy).Contents (Elt Ideal)) (x12 : (⟨S2000000, .f32⟩ : BufTy).Contents (Elt Ideal))
    (x : (⟨S150000x64, .f32⟩ : BufTy).Contents (Elt Ideal)) :
    Host.scatterAdd scatter_S150000x64_S2000000x1_S2000000x64_1_0_0_1 (Read.val_main_v82 (F := Ideal)) (Read.val_main_v83 (F := Ideal) x10)
        (mulf (Read.val_main_v80 (F := Ideal) x12)
          (Host.gather gather_S150000x64_S2000000x1_S2000000x64_1_0_n_n_0_1_164 x (Read.val_main_v78 (F := Ideal) x11)))
      = Cert.KernelIdeal.SpecHost.spmm150000 x10 x11 x12 x := by
  unfold Read.val_main_v82 Read.val_main_v83 Read.val_main_v80 Read.val_main_v78 Read.val_main_v77 Read.val_main_v76 Read.val_main_v75 Read.val_main_v74 Read.val_main_v73 Read.val_main_v72 Read.val_main_cst_16 Read.val_main_c_14 Read.val_main_c_15
    Cert.KernelIdeal.SpecHost.spmm150000
  rw [gather150000_eq, scatter150000_eq]

/-- The second layer's output is the sparse product of the first layer's. -/
theorem v84_eq (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) :
    Read.val_main_v84 (F := Ideal) x1 x2 x10 x11 x12
      = Cert.KernelIdeal.SpecHost.spmm150000 x10 x11 x12 (Read.val_main_v62 (F := Ideal) x1 x2 x10 x11 x12) := by
  unfold Read.val_main_v84 Read.val_main_v81 Read.val_main_v79
  exact spmm150000_second x10 x11 x12 _

/-- The divisor of the first layer at any column of row `r`: the clamped norm of that row of the first layer's output. -/
theorem v69_at (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) (r : Fin 150000) (l : Fin 64) :
    Read.val_main_v69 (F := Ideal) x1 x2 x10 x11 x12 (ix2 r l) = Cert.Spec.rowNrm (Read.val_main_v62 (F := Ideal) x1 x2 x10 x11 x12) r := by
  rw [Read.val_main_v69_apply, Read.val_main_v68_apply, Read.val_main_v67_apply, Read.val_main_cst_13_apply, Read.val_main_v66_apply, Read.val_main_v65_apply, Read.val_main_v64_apply, Read.val_main_cst_12_apply]
  have hsum : ∀ k : Fin 64,
      Read.val_main_v63 (F := Ideal) x1 x2 x10 x11 x12 (Read.idx_main_v64 (Read.idx_main_v65 (Read.idx_main_v69 (ix2 r l))) k)
        = Read.val_main_v62 (F := Ideal) x1 x2 x10 x11 x12 (ix2 r k) * Read.val_main_v62 (F := Ideal) x1 x2 x10 x11 x12 (ix2 r k) := fun k => by
    rw [Read.val_main_v63_apply, Ideal.mulf_def,
      show Read.idx_main_v64 (Read.idx_main_v65 (Read.idx_main_v69 (ix2 r l))) k = ix2 r k from
        funext fun a => Fin.ext (by match a with | ⟨0, _⟩ => rfl | ⟨1, _⟩ => rfl)]
  rw [Finset.sum_congr rfl (fun k _ => hsum k)]
  generalize Read.val_main_v62 (F := Ideal) x1 x2 x10 x11 x12 = f
  rw [Ideal.maximumf_def, Ideal.hostUnary_sqrt_def, Ideal.ofBits_def, Ideal.ofBits_zero_f32, zero_add, Ideal.ofBits_def]
  rfl

/-- The divisor of the second layer at any column of row `r`: the clamped norm of that row of the second layer's output. -/
theorem v91_at (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) (r : Fin 150000) (l : Fin 64) :
    Read.val_main_v91 (F := Ideal) x1 x2 x10 x11 x12 (ix2 r l) = Cert.Spec.rowNrm (Read.val_main_v84 (F := Ideal) x1 x2 x10 x11 x12) r := by
  rw [Read.val_main_v91_apply, Read.val_main_v90_apply, Read.val_main_v89_apply, Read.val_main_cst_18_apply, Read.val_main_v88_apply, Read.val_main_v87_apply, Read.val_main_v86_apply, Read.val_main_cst_17_apply]
  have hsum : ∀ k : Fin 64,
      Read.val_main_v85 (F := Ideal) x1 x2 x10 x11 x12 (Read.idx_main_v86 (Read.idx_main_v87 (Read.idx_main_v91 (ix2 r l))) k)
        = Read.val_main_v84 (F := Ideal) x1 x2 x10 x11 x12 (ix2 r k) * Read.val_main_v84 (F := Ideal) x1 x2 x10 x11 x12 (ix2 r k) := fun k => by
    rw [Read.val_main_v85_apply, Ideal.mulf_def,
      show Read.idx_main_v86 (Read.idx_main_v87 (Read.idx_main_v91 (ix2 r l))) k = ix2 r k from
        funext fun a => Fin.ext (by match a with | ⟨0, _⟩ => rfl | ⟨1, _⟩ => rfl)]
  rw [Finset.sum_congr rfl (fun k _ => hsum k)]
  generalize Read.val_main_v84 (F := Ideal) x1 x2 x10 x11 x12 = f
  rw [Ideal.maximumf_def, Ideal.hostUnary_sqrt_def, Ideal.ofBits_def, Ideal.ofBits_zero_f32, zero_add, Ideal.ofBits_def]
  rfl

/-- Two layers and the mean, written out at one element. -/
theorem prop3_at150000 (a f1 f2 : Cert.Spec.Arr 150000 64) (r : Fin 150000) (l : Fin 64) :
    Ideal.div (a (ix2 r l) + Ideal.div (f1 (ix2 r l)) (Cert.Spec.rowNrm f1 r) + Ideal.div (f2 (ix2 r l)) (Cert.Spec.rowNrm f2 r))
        (Ideal.ofBits .f32 0x40400000#32)
      = Cert.Spec.prop3 a f1 f2 (ix2 r l) := rfl

/-- The mean of the three summands at row `r`, column `l`. -/
theorem v95_at (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) (r : Fin 150000) (l : Fin 64) :
    Read.val_main_v95 (F := Ideal) x1 x2 x10 x11 x12 (ix2 r l)
      = Cert.KernelIdeal.SpecHost.prop150000 x10 x11 x12 (Cert.KernelIdeal.SpecHost.featBI x2 x1) (ix2 r l) := by
  rw [Read.val_main_v95_apply, Read.val_main_v94_apply, Read.val_main_cst_19_apply, Read.val_main_v93_apply, Read.val_main_v92_apply, Read.val_main_v71_apply, Read.val_main_v70_apply,
    v91_at, v69_at, v84_eq, v62_eq, v49_eq]
  unfold Cert.KernelIdeal.SpecHost.prop150000
  generalize Cert.KernelIdeal.SpecHost.spmm150000 x10 x11 x12 (Cert.KernelIdeal.SpecHost.spmm150000 x10 x11 x12 (Cert.KernelIdeal.SpecHost.featBI x2 x1)) = f2
  generalize Cert.KernelIdeal.SpecHost.spmm150000 x10 x11 x12 (Cert.KernelIdeal.SpecHost.featBI x2 x1) = f1
  generalize Cert.KernelIdeal.SpecHost.featBI x2 x1 = a
  rw [Ideal.hostDivf_def, Ideal.hostDivf_def, Ideal.hostDivf_def, Ideal.addf_def, Ideal.addf_def, Ideal.ofBits_def]
  exact prop3_at150000 a f1 f2 r l

/-- The reference's result `main_v96`: rows 0 … 49999 of the graph's propagated features. -/
theorem val_v96_eq (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) :
    Cert.ReferenceIdeal.Read.val_main_v96 (F := Ideal) x1 x2 x10 x11 x12
      = Cert.Spec.rowsFrom 0 (n := 150000) (k := 50000) (by decide)
          (Cert.KernelIdeal.SpecHost.prop150000 x10 x11 x12 (Cert.KernelIdeal.SpecHost.featBI x2 x1)) := by
  funext j
  obtain ⟨p, q, rfl⟩ : ∃ (p : Fin 50000) (q : Fin 64), j = ix2 p q := ⟨j 0, j 1, eq_ix2 j⟩
  rw [Read.val_main_v96_apply,
    show Read.idx_main_v96 (ix2 p q) = ix2 (⟨p.val, by omega⟩ : Fin 150000) q from
      funext fun a => Fin.ext (by match a with | ⟨0, _⟩ => rfl | ⟨1, _⟩ => rfl),
    v95_at]
  unfold Cert.Spec.rowsFrom
  generalize Cert.KernelIdeal.SpecHost.prop150000 x10 x11 x12 (Cert.KernelIdeal.SpecHost.featBI x2 x1) = G
  exact congrArg G (funext fun a => Fin.ext (by
    match a with
    | ⟨0, _⟩ => show p.val = 0 + p.val; omega
    | ⟨1, _⟩ => rfl))

/-- The reference's result `main_v97`: rows 50000 … 149999 of the graph's propagated features. -/
theorem val_v97_eq (x2 : (⟨S50000x64, .f32⟩ : BufTy).Contents (Elt Ideal)) (x1 : (⟨S100000x64, .f32⟩ : BufTy).Contents (Elt Ideal)) (x10 x11 : (⟨S2000000, .i32⟩ : BufTy).Contents (Elt Ideal)) (x12 : (⟨S2000000, .f32⟩ : BufTy).Contents (Elt Ideal)) :
    Cert.ReferenceIdeal.Read.val_main_v97 (F := Ideal) x1 x2 x10 x11 x12
      = Cert.Spec.rowsFrom 50000 (n := 150000) (k := 100000) (by decide)
          (Cert.KernelIdeal.SpecHost.prop150000 x10 x11 x12 (Cert.KernelIdeal.SpecHost.featBI x2 x1)) := by
  funext j
  obtain ⟨p, q, rfl⟩ : ∃ (p : Fin 100000) (q : Fin 64), j = ix2 p q := ⟨j 0, j 1, eq_ix2 j⟩
  rw [Read.val_main_v97_apply,
    show Read.idx_main_v97 (ix2 p q) = ix2 (⟨50000 + p.val, by omega⟩ : Fin 150000) q from
      funext fun a => Fin.ext (by match a with | ⟨0, _⟩ => rfl | ⟨1, _⟩ => rfl),
    v95_at]
  unfold Cert.Spec.rowsFrom
  generalize Cert.KernelIdeal.SpecHost.prop150000 x10 x11 x12 (Cert.KernelIdeal.SpecHost.featBI x2 x1) = G
  exact congrArg G (funext fun a => Fin.ext (by
    match a with
    | ⟨0, _⟩ => rfl
    | ⟨1, _⟩ => rfl))

end Cert.ReferenceIdeal.RProp

end
-- ==== Proof.RPropUB.lean ====
/-
  The UB graph on the reference's side: its host operations, read one at a time at an index, are the two layers
  `prop3` of the stacked features and their sparse products.
-/
import proofs.«408083_j64364379898214_3_alg».proof.Proof.Gen.ReferenceIdeal.Read
import proofs.«408083_j64364379898214_3_alg».proof.Proof.Spec
import proofs.«408083_j64364379898214_3_alg».proof.Proof.SpecHost

set_option maxRecDepth 16384

noncomputable section

namespace Cert.ReferenceIdeal.RProp

open Cert.ReferenceIdeal Idealize.ShloMosaic Idealize.ShloMosaic.ValueIdx

/-- The gather record of the graph is the same record in both programs. -/
theorem gather250000_eq :
    Cert.ReferenceIdeal.gather_S250000x64_S2000000x1_S2000000x64_1_0_n_n_0_1_164
      = Cert.KernelIdeal.gather_S250000x64_S2000000x1_S2000000x64_1_0_n_n_0_1_164 := rfl

/-- The scatter record of the graph is the same record in both programs. -/
theorem scatter250000_eq :
    Cert.ReferenceIdeal.scatter_S250000x64_S2000000x1_S2000000x64_1_0_0_1
      = Cert.KernelIdeal.scatter_S250000x64_S2000000x1_S2000000x64_1_0_0_1 := rfl

/-- The stacked features. -/
theorem v98_eq (x0 : (⟨S200000x64, .f32⟩ : BufTy).Contents (Elt Ideal)) (x2 : (⟨S50000x64, .f32⟩ : BufTy).Contents (Elt Ideal)) :
    Read.val_main_v98 (F := Ideal) x0 x2 = Cert.KernelIdeal.SpecHost.featUB x0 x2 := rfl

/-- The reference's first sparse product over an arbitrary source array. -/
theorem spmm250000_first (x13 x14 : (⟨S2000000, .i32⟩ : BufTy).Contents (Elt Ideal)) (x15 : (⟨S2000000, .f32⟩ : BufTy).Contents (Elt Ideal))
    (x : (⟨S250000x64, .f32⟩ : BufTy).Contents (Elt Ideal)) :
    Host.scatterAdd scatter_S250000x64_S2000000x1_S2000000x64_1_0_0_1 (Read.val_main_v109 (F := Ideal)) (Read.val_main_v110 (F := Ideal) x13)
        (mulf (Read.val_main_v107 (F := Ideal) x15)
          (Host.gather gather_S250000x64_S2000000x1_S2000000x64_1_0_n_n_0_1_164 x (Read.val_main_v105 (F := Ideal) x14)))
      = Cert.KernelIdeal.SpecHost.spmm250000 x13 x14 x15 x := by
  unfold Read.val_main_v109 Read.val_main_v110 Read.val_main_v107 Read.val_main_v105 Read.val_main_v104 Read.val_main_v103 Read.val_main_v102 Read.val_main_v101 Read.val_main_v100 Read.val_main_v99 Read.val_main_cst_22 Read.val_main_c_20 Read.val_main_c_21
    Cert.KernelIdeal.SpecHost.spmm250000
  rw [gather250000_eq, scatter250000_eq]

/-- The first layer's output is the sparse product of the stacked features. -/
theorem v111_eq (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) :
    Read.val_main_v111 (F := Ideal) x0 x2 x13 x14 x15
      = Cert.KernelIdeal.SpecHost.spmm250000 x13 x14 x15 (Cert.KernelIdeal.SpecHost.featUB x0 x2) := by
  unfold Read.val_main_v111 Read.val_main_v108 Read.val_main_v106
  rw [v98_eq]
  exact spmm250000_first x13 x14 x15 _

/-- The reference's second sparse product over an arbitrary source array. -/
theorem spmm250000_second (x13 x14 : (⟨S2000000, .i32⟩ : BufTy).Contents (Elt Ideal)) (x15 : (⟨S2000000, .f32⟩ : BufTy).Contents (Elt Ideal))
    (x : (⟨S250000x64, .f32⟩ : BufTy).Contents (Elt Ideal)) :
    Host.scatterAdd scatter_S250000x64_S2000000x1_S2000000x64_1_0_0_1 (Read.val_main_v131 (F := Ideal)) (Read.val_main_v132 (F := Ideal) x13)
        (mulf (Read.val_main_v129 (F := Ideal) x15)
          (Host.gather gather_S250000x64_S2000000x1_S2000000x64_1_0_n_n_0_1_164 x (Read.val_main_v127 (F := Ideal) x14)))
      = Cert.KernelIdeal.SpecHost.spmm250000 x13 x14 x15 x := by
  unfold Read.val_main_v131 Read.val_main_v132 Read.val_main_v129 Read.val_main_v127 Read.val_main_v126 Read.val_main_v125 Read.val_main_v124 Read.val_main_v123 Read.val_main_v122 Read.val_main_v121 Read.val_main_cst_27 Read.val_main_c_25 Read.val_main_c_26
    Cert.KernelIdeal.SpecHost.spmm250000
  rw [gather250000_eq, scatter250000_eq]

/-- The second layer's output is the sparse product of the first layer's. -/
theorem v133_eq (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) :
    Read.val_main_v133 (F := Ideal) x0 x2 x13 x14 x15
      = Cert.KernelIdeal.SpecHost.spmm250000 x13 x14 x15 (Read.val_main_v111 (F := Ideal) x0 x2 x13 x14 x15) := by
  unfold Read.val_main_v133 Read.val_main_v130 Read.val_main_v128
  exact spmm250000_second x13 x14 x15 _

/-- The divisor of the first layer at any column of row `r`: the clamped norm of that row of the first layer's output. -/
theorem v118_at (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) (r : Fin 250000) (l : Fin 64) :
    Read.val_main_v118 (F := Ideal) x0 x2 x13 x14 x15 (ix2 r l) = Cert.Spec.rowNrm (Read.val_main_v111 (F := Ideal) x0 x2 x13 x14 x15) r := by
  rw [Read.val_main_v118_apply, Read.val_main_v117_apply, Read.val_main_v116_apply, Read.val_main_cst_24_apply, Read.val_main_v115_apply, Read.val_main_v114_apply, Read.val_main_v113_apply, Read.val_main_cst_23_apply]
  have hsum : ∀ k : Fin 64,
      Read.val_main_v112 (F := Ideal) x0 x2 x13 x14 x15 (Read.idx_main_v113 (Read.idx_main_v114 (Read.idx_main_v118 (ix2 r l))) k)
        = Read.val_main_v111 (F := Ideal) x0 x2 x13 x14 x15 (ix2 r k) * Read.val_main_v111 (F := Ideal) x0 x2 x13 x14 x15 (ix2 r k) := fun k => by
    rw [Read.val_main_v112_apply, Ideal.mulf_def,
      show Read.idx_main_v113 (Read.idx_main_v114 (Read.idx_main_v118 (ix2 r l))) k = ix2 r k from
        funext fun a => Fin.ext (by match a with | ⟨0, _⟩ => rfl | ⟨1, _⟩ => rfl)]
  rw [Finset.sum_congr rfl (fun k _ => hsum k)]
  generalize Read.val_main_v111 (F := Ideal) x0 x2 x13 x14 x15 = f
  rw [Ideal.maximumf_def, Ideal.hostUnary_sqrt_def, Ideal.ofBits_def, Ideal.ofBits_zero_f32, zero_add, Ideal.ofBits_def]
  rfl

/-- The divisor of the second layer at any column of row `r`: the clamped norm of that row of the second layer's output. -/
theorem v140_at (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) (r : Fin 250000) (l : Fin 64) :
    Read.val_main_v140 (F := Ideal) x0 x2 x13 x14 x15 (ix2 r l) = Cert.Spec.rowNrm (Read.val_main_v133 (F := Ideal) x0 x2 x13 x14 x15) r := by
  rw [Read.val_main_v140_apply, Read.val_main_v139_apply, Read.val_main_v138_apply, Read.val_main_cst_29_apply, Read.val_main_v137_apply, Read.val_main_v136_apply, Read.val_main_v135_apply, Read.val_main_cst_28_apply]
  have hsum : ∀ k : Fin 64,
      Read.val_main_v134 (F := Ideal) x0 x2 x13 x14 x15 (Read.idx_main_v135 (Read.idx_main_v136 (Read.idx_main_v140 (ix2 r l))) k)
        = Read.val_main_v133 (F := Ideal) x0 x2 x13 x14 x15 (ix2 r k) * Read.val_main_v133 (F := Ideal) x0 x2 x13 x14 x15 (ix2 r k) := fun k => by
    rw [Read.val_main_v134_apply, Ideal.mulf_def,
      show Read.idx_main_v135 (Read.idx_main_v136 (Read.idx_main_v140 (ix2 r l))) k = ix2 r k from
        funext fun a => Fin.ext (by match a with | ⟨0, _⟩ => rfl | ⟨1, _⟩ => rfl)]
  rw [Finset.sum_congr rfl (fun k _ => hsum k)]
  generalize Read.val_main_v133 (F := Ideal) x0 x2 x13 x14 x15 = f
  rw [Ideal.maximumf_def, Ideal.hostUnary_sqrt_def, Ideal.ofBits_def, Ideal.ofBits_zero_f32, zero_add, Ideal.ofBits_def]
  rfl

/-- Two layers and the mean, written out at one element. -/
theorem prop3_at250000 (a f1 f2 : Cert.Spec.Arr 250000 64) (r : Fin 250000) (l : Fin 64) :
    Ideal.div (a (ix2 r l) + Ideal.div (f1 (ix2 r l)) (Cert.Spec.rowNrm f1 r) + Ideal.div (f2 (ix2 r l)) (Cert.Spec.rowNrm f2 r))
        (Ideal.ofBits .f32 0x40400000#32)
      = Cert.Spec.prop3 a f1 f2 (ix2 r l) := rfl

/-- The mean of the three summands at row `r`, column `l`. -/
theorem v144_at (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) (r : Fin 250000) (l : Fin 64) :
    Read.val_main_v144 (F := Ideal) x0 x2 x13 x14 x15 (ix2 r l)
      = Cert.KernelIdeal.SpecHost.prop250000 x13 x14 x15 (Cert.KernelIdeal.SpecHost.featUB x0 x2) (ix2 r l) := by
  rw [Read.val_main_v144_apply, Read.val_main_v143_apply, Read.val_main_cst_30_apply, Read.val_main_v142_apply, Read.val_main_v141_apply, Read.val_main_v120_apply, Read.val_main_v119_apply,
    v140_at, v118_at, v133_eq, v111_eq, v98_eq]
  unfold Cert.KernelIdeal.SpecHost.prop250000
  generalize Cert.KernelIdeal.SpecHost.spmm250000 x13 x14 x15 (Cert.KernelIdeal.SpecHost.spmm250000 x13 x14 x15 (Cert.KernelIdeal.SpecHost.featUB x0 x2)) = f2
  generalize Cert.KernelIdeal.SpecHost.spmm250000 x13 x14 x15 (Cert.KernelIdeal.SpecHost.featUB x0 x2) = f1
  generalize Cert.KernelIdeal.SpecHost.featUB x0 x2 = a
  rw [Ideal.hostDivf_def, Ideal.hostDivf_def, Ideal.hostDivf_def, Ideal.addf_def, Ideal.addf_def, Ideal.ofBits_def]
  exact prop3_at250000 a f1 f2 r l

/-- The reference's result `main_v145`: rows 0 … 199999 of the graph's propagated features. -/
theorem val_v145_eq (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) :
    Cert.ReferenceIdeal.Read.val_main_v145 (F := Ideal) x0 x2 x13 x14 x15
      = Cert.Spec.rowsFrom 0 (n := 250000) (k := 200000) (by decide)
          (Cert.KernelIdeal.SpecHost.prop250000 x13 x14 x15 (Cert.KernelIdeal.SpecHost.featUB x0 x2)) := by
  funext j
  obtain ⟨p, q, rfl⟩ : ∃ (p : Fin 200000) (q : Fin 64), j = ix2 p q := ⟨j 0, j 1, eq_ix2 j⟩
  rw [Read.val_main_v145_apply,
    show Read.idx_main_v145 (ix2 p q) = ix2 (⟨p.val, by omega⟩ : Fin 250000) q from
      funext fun a => Fin.ext (by match a with | ⟨0, _⟩ => rfl | ⟨1, _⟩ => rfl),
    v144_at]
  unfold Cert.Spec.rowsFrom
  generalize Cert.KernelIdeal.SpecHost.prop250000 x13 x14 x15 (Cert.KernelIdeal.SpecHost.featUB x0 x2) = G
  exact congrArg G (funext fun a => Fin.ext (by
    match a with
    | ⟨0, _⟩ => show p.val = 0 + p.val; omega
    | ⟨1, _⟩ => rfl))

/-- The reference's result `main_v146`: rows 200000 … 249999 of the graph's propagated features. -/
theorem val_v146_eq (x0 : (⟨S200000x64, .f32⟩ : BufTy).Contents (Elt Ideal)) (x2 : (⟨S50000x64, .f32⟩ : BufTy).Contents (Elt Ideal)) (x13 x14 : (⟨S2000000, .i32⟩ : BufTy).Contents (Elt Ideal)) (x15 : (⟨S2000000, .f32⟩ : BufTy).Contents (Elt Ideal)) :
    Cert.ReferenceIdeal.Read.val_main_v146 (F := Ideal) x0 x2 x13 x14 x15
      = Cert.Spec.rowsFrom 200000 (n := 250000) (k := 50000) (by decide)
          (Cert.KernelIdeal.SpecHost.prop250000 x13 x14 x15 (Cert.KernelIdeal.SpecHost.featUB x0 x2)) := by
  funext j
  obtain ⟨p, q, rfl⟩ : ∃ (p : Fin 50000) (q : Fin 64), j = ix2 p q := ⟨j 0, j 1, eq_ix2 j⟩
  rw [Read.val_main_v146_apply,
    show Read.idx_main_v146 (ix2 p q) = ix2 (⟨200000 + p.val, by omega⟩ : Fin 250000) q from
      funext fun a => Fin.ext (by match a with | ⟨0, _⟩ => rfl | ⟨1, _⟩ => rfl),
    v144_at]
  unfold Cert.Spec.rowsFrom
  generalize Cert.KernelIdeal.SpecHost.prop250000 x13 x14 x15 (Cert.KernelIdeal.SpecHost.featUB x0 x2) = G
  exact congrArg G (funext fun a => Fin.ext (by
    match a with
    | ⟨0, _⟩ => rfl
    | ⟨1, _⟩ => rfl))

end Cert.ReferenceIdeal.RProp

end
-- ==== Proof.BundleLaw.lean ====
/-
  The extended-real algebra of the bundle embedding. A bundle's embedding is a weighted sum, over its edges, of item
  rows; each item row is a gathered row plus a scale times a two-term product of the item's log-degrees with two matrix
  entries. With the weights, the log-degrees, the matrix entries and the scale real, the weighted sum splits into the
  weighted sum of the gathered rows plus the scale times the same two-term product of the accumulated log-degrees —
  whatever the gathered rows are, infinite or not: a real multiple distributes over a sum that has a real summand.
  Also: the scale is a real number, and the logarithm of one plus a real above −1 is real.
-/
import proofs.«408083_j64364379898214_3_alg».proof.Proof.Spec
import Idealize.ShloMosaic.PureOps.Ideal
import Mathlib.Data.EReal.Operations
import Mathlib.Algebra.BigOperators.Group.Finset.Basic
import Mathlib.Algebra.BigOperators.Ring.Finset
import Mathlib.Tactic.Ring
import Mathlib.Tactic.Linarith
import Mathlib.Tactic.NormNum

noncomputable section

namespace Cert.BundleLaw

open Idealize.ShloMosaic

/-- A real multiple distributes over a sum one of whose summands is real, whatever the other is. -/
theorem coe_mul_add (a t : ℝ) (u : EReal) : (a : EReal) * (u + (t : EReal)) = (a : EReal) * u + (a : EReal) * (t : EReal) := by
  induction u using EReal.rec with
  | bot =>
    rw [EReal.bot_add]
    rcases lt_trichotomy a 0 with ha | ha | ha
    · rw [EReal.coe_mul_bot_of_neg ha, ← EReal.coe_mul, EReal.top_add_coe]
    · subst ha; simp only [EReal.coe_zero, zero_mul, add_zero]
    · rw [EReal.coe_mul_bot_of_pos ha, EReal.bot_add]
  | coe x =>
    rw [← EReal.coe_add, ← EReal.coe_mul, ← EReal.coe_mul, ← EReal.coe_mul, ← EReal.coe_add, mul_add]
  | top =>
    rw [EReal.top_add_coe]
    rcases lt_trichotomy a 0 with ha | ha | ha
    · rw [EReal.coe_mul_top_of_neg ha, EReal.bot_add]
    · subst ha; simp only [EReal.coe_zero, zero_mul, add_zero]
    · rw [EReal.coe_mul_top_of_pos ha, ← EReal.coe_mul, EReal.top_add_coe]

/-- The inclusion of the reals carries a finite sum to the sum of the inclusions. -/
theorem coe_sum {ι : Type*} (s : Finset ι) (f : ι → ℝ) : ((∑ e ∈ s, f e : ℝ) : EReal) = ∑ e ∈ s, (f e : EReal) := by
  induction s using Finset.cons_induction with
  | empty => rw [Finset.sum_empty, Finset.sum_empty, EReal.coe_zero]
  | cons i s hi ih => rw [Finset.sum_cons, Finset.sum_cons, EReal.coe_add, ih]

/-- A sum of products of reals, taken in the extended reals, is the inclusion of the real sum of products. -/
theorem sum_coe_mul {ι : Type*} (s : Finset ι) (f g : ι → ℝ) :
    ∑ e ∈ s, (f e : EReal) * (g e : EReal) = ((∑ e ∈ s, f e * g e : ℝ) : EReal) := by
  rw [coe_sum]
  exact Finset.sum_congr rfl fun e _ => (EReal.coe_mul _ _).symm

/-- The per-bundle law, over any finite set of edges: weights a, log-degrees l0 l1, matrix entries w0 w1 and the scale κ real; the gathered rows u arbitrary. -/
theorem sum_law {ι : Type*} (s : Finset ι) (a l0 l1 : ι → ℝ) (u : ι → EReal) (κ w0 w1 : ℝ) :
    ∑ e ∈ s, (a e : EReal) * (u e + (κ : EReal) * ((l0 e : EReal) * (w0 : EReal) + (l1 e : EReal) * (w1 : EReal)))
      = (∑ e ∈ s, (a e : EReal) * u e)
        + (κ : EReal) * ((∑ e ∈ s, (a e : EReal) * (l0 e : EReal)) * (w0 : EReal) + (∑ e ∈ s, (a e : EReal) * (l1 e : EReal)) * (w1 : EReal)) := by
  have hterm : ∀ e, (a e : EReal) * (u e + (κ : EReal) * ((l0 e : EReal) * (w0 : EReal) + (l1 e : EReal) * (w1 : EReal)))
      = (a e : EReal) * u e + (a e : EReal) * ((κ * (l0 e * w0 + l1 e * w1) : ℝ) : EReal) := by
    intro e
    have ht : (κ : EReal) * ((l0 e : EReal) * (w0 : EReal) + (l1 e : EReal) * (w1 : EReal))
        = ((κ * (l0 e * w0 + l1 e * w1) : ℝ) : EReal) := by
      rw [EReal.coe_mul, EReal.coe_add, EReal.coe_mul, EReal.coe_mul]
    rw [ht, coe_mul_add]
  rw [Finset.sum_congr rfl (fun e _ => hterm e), Finset.sum_add_distrib]
  refine congrArg (fun z => (∑ e ∈ s, (a e : EReal) * u e) + z) ?_
  rw [sum_coe_mul, sum_coe_mul, sum_coe_mul, ← EReal.coe_mul, ← EReal.coe_mul, ← EReal.coe_add, ← EReal.coe_mul]
  refine congrArg (fun z : ℝ => (z : EReal)) ?_
  rw [Finset.sum_mul, Finset.sum_mul, ← Finset.sum_add_distrib, Finset.mul_sum]
  exact Finset.sum_congr rfl fun e _ => by ring

/-- The scale 0.05 is a real number. -/
theorem kap_real : ∃ r : ℝ, Cert.Spec.kap = (r : EReal) := by
  refine ⟨(13421773 : ℝ) * (2 : ℝ) ^ (-28 : ℤ), ?_⟩
  show Ideal.ofBits .f32 0x3D4CCCCD#32 = _
  simp [Ideal.ofBits, Ideal.ieee, -EReal.coe_mul]

/-- log1p of a real above −1 is real. -/
theorem log1p_real (r : ℝ) (h : -1 < r) : ∃ s : ℝ, Ideal.log1p (r : EReal) = (s : EReal) := by
  refine ⟨Real.log (1 + r), ?_⟩
  have e : (1 : EReal) + (r : EReal) = ((1 + r : ℝ) : EReal) := by rw [EReal.coe_add, EReal.coe_one]
  unfold Ideal.log1p
  rw [e]
  show (if (1 + r) ≤ 0 then (⊥ : EReal) else (Real.log (1 + r) : EReal)) = _
  rw [if_neg (by linarith)]

end Cert.BundleLaw

end
-- ==== Proof.BundleAlg.lean ====
/-
  The one law that joins the two bundle embeddings. The reference adds the weighted degree term to every item row
  before the per-bundle weighted sum; the kernel sums the item rows and the two log-degrees separately and multiplies
  by the weight matrix afterwards. Where the edge values, the log-degrees and the weights are real numbers the two agree:
  a real multiple distributes over a sum with one real summand whatever the other is, and the rest is arithmetic in ℝ.
-/
import proofs.«408083_j64364379898214_3_alg».proof.ReferenceIdeal
import proofs.«408083_j64364379898214_3_alg».proof.Proof.Gen.ReferenceIdeal
import proofs.«408083_j64364379898214_3_alg».proof.Proof.Spec
import proofs.«408083_j64364379898214_3_alg».proof.Proof.SpecHost
import proofs.«408083_j64364379898214_3_alg».proof.Proof.BundleLaw
import Idealize.ShloMosaic.PureOps.Ideal.Laws
import Idealize.ShloMosaic.Lib.Pipeline.Value
import Mathlib.Data.EReal.Basic
import Mathlib.Data.EReal.Operations

set_option maxRecDepth 16384

noncomputable section

namespace Cert.BundleAlg

open Idealize.ShloMosaic Idealize.ShloMosaic.ValueIdx

/-- The dimension numbers of a scatter of whole rows: update row `e` goes to the operand row its one index names. -/
abbrev rowScatter (N M C : ℕ) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

variable {N M C w : ℕ} (wf : ScatterDims.WF ⟨2, ![N, C]⟩ ⟨2, ![M, 1]⟩ ⟨2, ![M, C]⟩ [1] [0] [0] 1)

theorem rowScatter_start0 (j : (⟨2, ![M, C]⟩ : Shape).Idx) (idx : IVec ⟨2, ![M, 1]⟩ w) :
    (rowScatter N M C wf).start j idx 0 = (idx (ix2 (j 0) (0 : Fin 1))).toInt := by
  unfold ScatterDims.start
  rw [dif_pos (show (0 : Fin 2) ∈ (rowScatter N M C wf).scatterDimsToOperandDims from List.mem_singleton.mpr rfl)]
  have hsi : (rowScatter N M C wf).siIdx j ⟨List.idxOf (0 : Fin 2) (rowScatter N M C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_start1 (j : (⟨2, ![M, C]⟩ : Shape).Idx) (idx : IVec ⟨2, ![M, 1]⟩ w) :
    (rowScatter N M C wf).start j idx 1 = 0 := by
  unfold ScatterDims.start
  rw [dif_neg (show ¬ (1 : Fin 2) ∈ (rowScatter N M C wf).scatterDimsToOperandDims by
    show ¬ (1 : Fin 2) ∈ ([0] : List (Fin 2)); decide)]

theorem rowScatter_window0 (j : (⟨2, ![M, C]⟩ : Shape).Idx) :
    (rowScatter N M C wf).window j 0 = 0 := by
  unfold ScatterDims.window
  rw [dif_neg (show ¬ (0 : Fin 2) ∈ (rowScatter N M C wf).sKept by
    show ¬ (0 : Fin 2) ∈ (List.finRange 2).filter (fun a => a ∉ ([0] : List (Fin 2))); decide)]

theorem rowScatter_window1 (j : (⟨2, ![M, C]⟩ : Shape).Idx) :
    (rowScatter N M C wf).window j 1 = (j 1).val := by
  unfold ScatterDims.window
  rw [dif_pos (show (1 : Fin 2) ∈ (rowScatter N M C wf).sKept by
    show (1 : Fin 2) ∈ (List.finRange 2).filter (fun a => a ∉ ([0] : List (Fin 2))); decide)]
  rfl

/-- Two rank-2 indices with equal coordinates are equal. -/
theorem idx2_ext {n0 n1 : ℕ} (a b : (⟨2, ![n0, n1]⟩ : Shape).Idx) (h0 : (a 0).val = (b 0).val) (h1 : (a 1).val = (b 1).val) : a = b := by
  funext c
  match c with
  | ⟨0, _⟩ => exact Fin.ext h0
  | ⟨1, _⟩ => exact Fin.ext h1

/-- WHERE AN UPDATE LANDS: update element `j` lands on operand element `i` exactly when the row index of `j`'s row,
    read signed, is `i`'s row, and the two are in the same column. -/
theorem rowScatter_resultIdx?_eq_some (j : (⟨2, ![M, C]⟩ : Shape).Idx) (idx : IVec ⟨2, ![M, 1]⟩ w) (i : (⟨2, ![N, C]⟩ : Shape).Idx) :
    (rowScatter N M C wf).resultIdx? j idx = some i
      ↔ (idx (ix2 (j 0) (0 : Fin 1))).toInt = ((i 0).val : ℤ) ∧ (j 1).val = (i 1).val := by
  have hi0 : (i 0).val < N := idx2_lt0 i
  have hj1 : (j 1).val < C := idx2_lt1 j
  unfold ScatterDims.resultIdx?
  split
  · rename_i h
    obtain ⟨h0, h1⟩ := Fin.forall_fin_two.mp h
    rw [rowScatter_start0, rowScatter_window0] at h0
    rw [rowScatter_start1, rowScatter_window1] at h1
    rw [Option.some.injEq]
    constructor
    · intro e
      have e0 : ((rowScatter N M C wf).start j idx 0 + ((rowScatter N M C wf).window j 0 : ℤ)).toNat = (i 0).val :=
        congrArg (fun f : (⟨2, ![N, C]⟩ : Shape).Idx => (f 0).val) e
      have e1 : ((rowScatter N M C wf).start j idx 1 + ((rowScatter N M C wf).window j 1 : ℤ)).toNat = (i 1).val :=
        congrArg (fun f : (⟨2, ![N, C]⟩ : Shape).Idx => (f 1).val) e
      rw [rowScatter_start0, rowScatter_window0] at e0
      rw [rowScatter_start1, rowScatter_window1] at e1
      constructor <;> omega
    · rintro ⟨e0, e1⟩
      refine idx2_ext _ _ ?_ ?_
      · show ((rowScatter N M C wf).start j idx 0 + ((rowScatter N M C wf).window j 0 : ℤ)).toNat = (i 0).val
        rw [rowScatter_start0, rowScatter_window0]; omega
      · show ((rowScatter N M C wf).start j idx 1 + ((rowScatter N M C wf).window j 1 : ℤ)).toNat = (i 1).val
        rw [rowScatter_start1, rowScatter_window1]; omega
  · rename_i h
    constructor
    · intro e; cases e
    · rintro ⟨e0, e1⟩
      refine absurd (Fin.forall_fin_two.mpr ⟨?_, ?_⟩) h
      · rw [rowScatter_start0, rowScatter_window0]
        show 0 ≤ _ + ((0 : ℕ) : ℤ) ∧ _ + ((0 : ℕ) : ℤ) < ((N : ℕ) : ℤ)
        omega
      · rw [rowScatter_start1, rowScatter_window1]
        show 0 ≤ (0 : ℤ) + (((j 1).val : ℕ) : ℤ) ∧ (0 : ℤ) + (((j 1).val : ℕ) : ℤ) < ((C : ℕ) : ℤ)
        omega

/-- The dimension numbers of a gather of whole rows: result row `e` is the operand row its one index names. -/
abbrev rowGather (N M C : ℕ) (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `j`: the operand at the row the index of `j`'s row names, read signed and clamped into
    the operand's rows, and at `j`'s own column. The row does not depend on the number of columns. -/
theorem rowGather_apply {α : Type} (hN : 0 < N)
    (wg : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : (⟨2, ![M, C]⟩ : Shape).Idx) :
    Host.gather (rowGather N M C wg) x idx j
      = x (ix2 ⟨min (idx (ix2 (j 0) (0 : Fin 1))).toInt.toNat (N - 1), by omega⟩ (j 1)) := by
  unfold Host.gather
  congr 1
  refine idx2_ext _ _ ?_ ?_
  · show (rowGather N M C wg).start j idx 0 + (rowGather N M C wg).batchCoord j 0 + (rowGather N M C wg).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N M C wg).startIndexMap from List.mem_singleton.mpr rfl)]
    have hsi : (rowGather N M C wg).siIdx j ⟨List.idxOf (0 : Fin 2) (rowGather N M C wg).startIndexMap,
        List.idxOf_lt_length_iff.2 (List.mem_singleton.mpr rfl)⟩ = ix2 (j 0) (0 : Fin 1) := by
      funext b; refine Fin.ext ?_
      match b with
      | ⟨0, _⟩ => rfl
      | ⟨1, _⟩ => rfl
    rw [hsi]
    rfl
  · show (rowGather N M C wg).start j idx 1 + (rowGather N M C wg).batchCoord j 1 + (rowGather N M C wg).offCoord j 1 = (j 1).val
    rw [GatherDims.batchCoord_eq_zero _ _ _ List.not_mem_nil]
    unfold GatherDims.start
    rw [dif_neg (show ¬ (1 : Fin 2) ∈ (rowGather N M C wg).startIndexMap by
      show ¬ (1 : Fin 2) ∈ ([0] : List (Fin 2)); decide)]
    unfold GatherDims.offCoord
    rw [dif_pos (show (1 : Fin 2) ∈ (rowGather N M C wg).sKept by
      show (1 : Fin 2) ∈ (List.finRange 2).filter (fun a => a ∉ (([0] : List (Fin 2)) ++ [])); decide)]
    show 0 + 0 + (j 1).val = (j 1).val
    omega

/-! ## The scatter-add and the broadcasts read at coordinates -/

/-- THE ROW SCATTER-ADD AT `(b, d)`: the operand there plus the sum, over the update rows whose index read signed is `b`,
    of the update at column `d`. -/
theorem rowScatterAdd_apply (x0 : (⟨2, ![N, C]⟩ : Shape).Idx → EReal) (idx : IVec ⟨2, ![M, 1]⟩ w)
    (upd : (⟨2, ![M, C]⟩ : Shape).Idx → EReal) (b : Fin N) (d : Fin C) :
    Ideal.hostScatterAdd (rowScatter N M C wf) x0 idx upd (ix2 b d)
      = x0 (ix2 b d) + ∑ e ∈ Finset.univ.filter (fun e : Fin M => (idx (ix2 e (0 : Fin 1))).toInt = (b.val : ℤ)), upd (ix2 e d) := by
  unfold Ideal.hostScatterAdd
  congr 1
  refine Finset.sum_bij' (fun j _ => j 0) (fun e _ => ix2 e d) ?_ ?_ ?_ ?_ ?_
  · intro j hj
    have hj' := (rowScatter_resultIdx?_eq_some wf j idx (ix2 b d)).mp (Finset.mem_filter.mp hj).2
    exact Finset.mem_filter.mpr ⟨Finset.mem_univ _, hj'.1⟩
  · intro e he
    refine Finset.mem_filter.mpr ⟨Finset.mem_univ _, (rowScatter_resultIdx?_eq_some wf _ idx (ix2 b d)).mpr ⟨?_, rfl⟩⟩
    exact (Finset.mem_filter.mp he).2
  · intro j hj
    have hj' := (rowScatter_resultIdx?_eq_some wf j idx (ix2 b d)).mp (Finset.mem_filter.mp hj).2
    exact idx2_ext _ _ rfl hj'.2.symm
  · intro e _; rfl
  · intro j hj
    have hj' := (rowScatter_resultIdx?_eq_some wf j idx (ix2 b d)).mp (Finset.mem_filter.mp hj).2
    exact congrArg upd (idx2_ext _ _ rfl hj'.2)

/-- A vector as a column reads, at row `e`, the vector at `e`. -/
theorem bcast_col {α : Type} (h1 : (⟨1, ![M]⟩ : Shape).BroadcastsInDim ⟨2, ![M, 1]⟩ ![0]) (v : (⟨1, ![M]⟩ : Shape).Idx → α)
    (e : Fin M) (z : Fin 1) : broadcastInDim ⟨2, ![M, 1]⟩ ![0] h1 v (ix2 e z) = v (ix1 e) :=
  broadcastInDim_apply _ h1 v _ (ix1 e) (fun a => by
    obtain rfl : a = 0 := Subsingleton.elim _ _
    show e.val = if M = 1 then 0 else e.val
    have := e.isLt
    split <;> omega)

/-- A column laid along the rows of a rectangle reads, at `(e, d)`, the column at `e`. -/
theorem bcast_row {α : Type} (h2 : (⟨2, ![M, 1]⟩ : Shape).BroadcastsInDim ⟨2, ![M, C]⟩ ![0, 1]) (v : (⟨2, ![M, 1]⟩ : Shape).Idx → α)
    (e : Fin M) (d : Fin C) : broadcastInDim ⟨2, ![M, C]⟩ ![0, 1] h2 v (ix2 e d) = v (ix2 e (0 : Fin 1)) :=
  broadcastInDim_apply _ h2 v _ (ix2 e (0 : Fin 1)) (fun a => by
    match a with
    | ⟨0, _⟩ =>
      show e.val = if M = 1 then 0 else e.val
      have := e.isLt
      split <;> omega
    | ⟨1, _⟩ =>
      show 0 = if (1 : ℕ) = 1 then 0 else d.val
      rw [if_pos rfl])

/-- A scalar broadcast to any shape reads the scalar everywhere. -/
theorem bcast_scalar {α : Type} {t : Shape} (h : (⟨0, ![]⟩ : Shape).BroadcastsInDim t ![]) (v : (⟨0, ![]⟩ : Shape).Idx → α)
    (j : t.Idx) : broadcastInDim t ![] h v j = v ix0 :=
  broadcastInDim_apply _ h v j ix0 (fun a => a.elim0)

/-- THE WEIGHTED ROW SUM AT `(b, d)`: gather the rows of `x` the indices `gi` name, scale row `e` by `val e`, add each into
    the row `row e` names, from zero: the sum over the edges `e` whose `row e`, read signed, is `b` of `val e` times
    `x` at the gathered row and column `d`. -/
theorem aggregate_apply {N' : ℕ} (hN' : 0 < N')
    (wg : GatherDims.WF ⟨2, ![N', C]⟩ ⟨2, ![M, 1]⟩ ⟨2, ![M, C]⟩ [1] [0] [] [0] [] 1 ![1, C])
    (hz : (⟨0, ![]⟩ : Shape).BroadcastsInDim ⟨2, ![N, C]⟩ ![])
    (h1 : (⟨1, ![M]⟩ : Shape).BroadcastsInDim ⟨2, ![M, 1]⟩ ![0])
    (h2 : (⟨2, ![M, 1]⟩ : Shape).BroadcastsInDim ⟨2, ![M, C]⟩ ![0, 1])
    (row : IVec ⟨1, ![M]⟩ w) (val : FVec Ideal ⟨1, ![M]⟩ .f32) (x : FVec Ideal ⟨2, ![N', C]⟩ .f32) (gi : IVec ⟨2, ![M, 1]⟩ w)
    (b : Fin N) (d : Fin C) :
    Host.scatterAdd (rowScatter N M C wf)
        (broadcastInDim ⟨2, ![N, C]⟩ ![] hz (constant (F := Ideal) ⟨0, ![]⟩ .f32 0x00000000#32))
        (broadcastInDim ⟨2, ![M, 1]⟩ ![0] h1 row)
        (mulf (broadcastInDim ⟨2, ![M, C]⟩ ![0, 1] h2 (broadcastInDim ⟨2, ![M, 1]⟩ ![0] h1 val))
          (Host.gather (rowGather N' M C wg) x gi)) (ix2 b d)
      = ∑ e ∈ Finset.univ.filter (fun e : Fin M => (row (ix1 e)).toInt = (b.val : ℤ)),
          val (ix1 e) * x (ix2 ⟨min (gi (ix2 e (0 : Fin 1))).toInt.toNat (N' - 1), by omega⟩ d) := by
  show Ideal.hostScatterAdd (rowScatter N M C wf) _ _ _ (ix2 b d) = _
  rw [rowScatterAdd_apply, bcast_scalar]
  show Ideal.ofBits .f32 0x00000000#32 + _ = _
  rw [Ideal.ofBits_zero_f32, zero_add]
  refine Finset.sum_congr (Finset.filter_congr fun e _ => by rw [bcast_col]) fun e _ => ?_
  rw [mulf_apply, bcast_row, bcast_col, rowGather_apply hN']
  rfl

/-! ## The reference's last result -/

section Reference

open Cert.ReferenceIdeal Cert.ReferenceIdeal.Facts₀ Cert.ReferenceIdeal.Facts

/-- A bundle's size clamped into `0 … 10` as the reference's `clip` forms it: the lesser of ten and the greater of zero and the size. -/
def clipSize (bsz : (⟨Cert.ReferenceIdeal.S50000, .i32⟩ : BufTy).Contents (Elt Ideal)) : (⟨Cert.ReferenceIdeal.S50000, .i32⟩ : BufTy).Contents (Elt Ideal) :=
  minsi (broadcastInDim S50000 ![] bcast_S_S50000 (constantI S_ 32 10#32))
    (maxsi (broadcastInDim S50000 ![] bcast_S_S50000 (constantI S_ 32 0#32)) bsz)

/-- The item rows with the weighted degree term added: each row plus 0.05 times the row of log-degrees against the transposed weights. -/
def enriched (UIi : (⟨Cert.ReferenceIdeal.S100000x64, .f32⟩ : BufTy).Contents (Elt Ideal)) (deg : (⟨Cert.ReferenceIdeal.S100000x2, .f32⟩ : BufTy).Contents (Elt Ideal))
    (w : (⟨Cert.ReferenceIdeal.S64x2, .f32⟩ : BufTy).Contents (Elt Ideal)) : (⟨Cert.ReferenceIdeal.S100000x64, .f32⟩ : BufTy).Contents (Elt Ideal) :=
  addf UIi
    (mulf (broadcastInDim S100000x64 ![] bcast_S_S100000x64 (constant (F := Ideal) S_ .f32 0x3D4CCCCD#32))
      (Host.dotGeneral (φ₁ := .f32) (φ₂ := .f32) dot_S100000x2_S2x64_S100000x64_1_0_0_1_n_n none (Host.log1p (φ := .f32) deg)
        (transpose (α := Ideal .f32) S2x64 [1, 0] w transposes_S64x2_S2x64_1_0)))

/-- The weighted row of the size table at the clamped size (a negative index would count from the end; the clamped size is never negative). -/
def sizeTerm (tab : (⟨Cert.ReferenceIdeal.S11x64, .f32⟩ : BufTy).Contents (Elt Ideal)) (bsz : (⟨Cert.ReferenceIdeal.S50000, .i32⟩ : BufTy).Contents (Elt Ideal)) :
    (⟨Cert.ReferenceIdeal.S50000x64, .f32⟩ : BufTy).Contents (Elt Ideal) :=
  mulf (broadcastInDim S50000x64 ![] bcast_S_S50000x64 (constant (F := Ideal) S_ .f32 0x3D4CCCCD#32))
    (Host.gather gather_S11x64_S50000x1_S50000x64_1_0_n_n_0_1_164 tab
      (broadcastInDim S50000x1 ![0] bcast_S50000_S50000x1_0
        (select (cmpi .slt (clipSize bsz) (broadcastInDim S50000 ![] bcast_S_S50000 (constantI S_ 32 0#32)))
          (addi (clipSize bsz) (broadcastInDim S50000 ![] bcast_S_S50000 (constantI S_ 32 11#32)))
          (clipSize bsz))))

/-- The reference's bundle embedding as its host operations form it, over the item rows `UIi`: the weighted degree term
    added to the rows, their per-bundle weighted sum, and the weighted row of the size table at the clamped size. -/
def refBundle (UIi : (⟨Cert.ReferenceIdeal.S100000x64, .f32⟩ : BufTy).Contents (Elt Ideal)) (deg : (⟨Cert.ReferenceIdeal.S100000x2, .f32⟩ : BufTy).Contents (Elt Ideal))
    (w : (⟨Cert.ReferenceIdeal.S64x2, .f32⟩ : BufTy).Contents (Elt Ideal)) (tab : (⟨Cert.ReferenceIdeal.S11x64, .f32⟩ : BufTy).Contents (Elt Ideal)) (bsz : (⟨Cert.ReferenceIdeal.S50000, .i32⟩ : BufTy).Contents (Elt Ideal))
    (row col : (⟨Cert.ReferenceIdeal.S500000, .i32⟩ : BufTy).Contents (Elt Ideal)) (val : (⟨Cert.ReferenceIdeal.S500000, .f32⟩ : BufTy).Contents (Elt Ideal)) : (⟨Cert.ReferenceIdeal.S50000x64, .f32⟩ : BufTy).Contents (Elt Ideal) :=
  addf (Cert.KernelIdeal.SpecHost.agg64 row col val (enriched UIi deg w)) (sizeTerm tab bsz)

/-! ## The two aggregations at a bundle and a column -/

/-- The edges whose destination, read signed, is bundle `b`. -/
def edgesOf (row : (⟨Cert.ReferenceIdeal.S500000, .i32⟩ : BufTy).Contents (Elt Ideal)) (b : Fin 50000) : Finset (Fin 500000) :=
  Finset.univ.filter (fun e : Fin 500000 => (row (ix1 e)).toInt = (b.val : ℤ))

/-- The item row edge `e` reads: its source index (a negative one counted from the end), read signed and clamped into the item rows. -/
def srcRow (col : (⟨Cert.ReferenceIdeal.S500000, .i32⟩ : BufTy).Contents (Elt Ideal)) (e : Fin 500000) : Fin 100000 :=
  ⟨min (Cert.KernelIdeal.SpecHost.aggIdx col (ix2 e (0 : Fin 1))).toInt.toNat (100000 - 1), by omega⟩

theorem agg64_apply (row col : (⟨Cert.ReferenceIdeal.S500000, .i32⟩ : BufTy).Contents (Elt Ideal)) (val : (⟨Cert.ReferenceIdeal.S500000, .f32⟩ : BufTy).Contents (Elt Ideal))
    (x : (⟨Cert.ReferenceIdeal.S100000x64, .f32⟩ : BufTy).Contents (Elt Ideal)) (b : Fin 50000) (d : Fin 64) :
    Cert.KernelIdeal.SpecHost.agg64 row col val x (ix2 b d) = ∑ e ∈ edgesOf row b, val (ix1 e) * x (ix2 (srcRow col e) d) := by
  unfold Cert.KernelIdeal.SpecHost.agg64
  exact aggregate_apply (N := 50000) (M := 500000) (C := 64) (N' := 100000)
    Cert.KernelIdeal.Facts₀.scatter_S50000x64_S500000x1_S500000x64_1_0_0_1_wf (by decide)
    Cert.KernelIdeal.Facts₀.gather_S100000x64_S500000x1_S500000x64_1_0_n_n_0_1_164_wf _ _ _ row val x
    (Cert.KernelIdeal.SpecHost.aggIdx col) b d

theorem agg2_apply (row col : (⟨Cert.ReferenceIdeal.S500000, .i32⟩ : BufTy).Contents (Elt Ideal)) (val : (⟨Cert.ReferenceIdeal.S500000, .f32⟩ : BufTy).Contents (Elt Ideal))
    (x : (⟨Cert.ReferenceIdeal.S100000x2, .f32⟩ : BufTy).Contents (Elt Ideal)) (b : Fin 50000) (k : Fin 2) :
    Cert.KernelIdeal.SpecHost.agg2 row col val x (ix2 b k) = ∑ e ∈ edgesOf row b, val (ix1 e) * x (ix2 (srcRow col e) k) := by
  unfold Cert.KernelIdeal.SpecHost.agg2
  exact aggregate_apply (N := 50000) (M := 500000) (C := 2) (N' := 100000)
    Cert.KernelIdeal.Facts₀.scatter_S50000x2_S500000x1_S500000x2_1_0_0_1_wf (by decide)
    Cert.KernelIdeal.Facts₀.gather_S100000x2_S500000x1_S500000x2_1_0_n_n_0_1_12_wf _ _ _ row val x
    (Cert.KernelIdeal.SpecHost.aggIdx col) b k

/-! ## The enriched rows at an item and a column -/

/-- The matrix product of the log-degrees with the transposed weights at `(i, d)`: the two-term sum over the two degree columns. -/
theorem degProduct_apply (L : (⟨Cert.ReferenceIdeal.S100000x2, .f32⟩ : BufTy).Contents (Elt Ideal)) (w : (⟨Cert.ReferenceIdeal.S64x2, .f32⟩ : BufTy).Contents (Elt Ideal))
    (i : Fin 100000) (d : Fin 64) :
    Host.dotGeneral (φ₁ := .f32) (φ₂ := .f32) dot_S100000x2_S2x64_S100000x64_1_0_0_1_n_n none L
        (transpose (α := Ideal .f32) S2x64 [1, 0] w transposes_S64x2_S2x64_1_0) (ix2 i d)
      = L (ix2 i (0 : Fin 2)) * w (ix2 d (0 : Fin 2)) + L (ix2 i (1 : Fin 2)) * w (ix2 d (1 : Fin 2)) := by
  simp only [Host.dotGeneral]
  rw [Ideal.dotGeneral_apply, ← Equiv.sum_comp (contrEquiv1 dot_S100000x2_S2x64_S100000x64_1_0_0_1_n_n 2 rfl rfl).symm, Fin.sum_univ_two]
  have hl : ∀ k : Fin 2, dot_S100000x2_S2x64_S100000x64_1_0_0_1_n_n.lhsIdx (ix2 i d)
      ((contrEquiv1 dot_S100000x2_S2x64_S100000x64_1_0_0_1_n_n 2 rfl rfl).symm k) = ix2 i k := fun k =>
    idx2_ext _ _
      (by
        unfold DotDims.lhsIdx
        rw [dif_neg (show ¬ (0 : Fin S100000x2.rank) ∈ dot_S100000x2_S2x64_S100000x64_1_0_0_1_n_n.lhsBatch by decide),
          dif_pos (show (0 : Fin S100000x2.rank) ∈ dot_S100000x2_S2x64_S100000x64_1_0_0_1_n_n.lhsNonContracting by decide)]
        rfl)
      ((dot_S100000x2_S2x64_S100000x64_1_0_0_1_n_n.lhsIdx_val_of_single rfl _ _).trans
        (contrEquiv1_symm_val dot_S100000x2_S2x64_S100000x64_1_0_0_1_n_n 2 rfl rfl k))
  have hr : ∀ k : Fin 2, dot_S100000x2_S2x64_S100000x64_1_0_0_1_n_n.rhsIdx (ix2 i d)
      ((contrEquiv1 dot_S100000x2_S2x64_S100000x64_1_0_0_1_n_n 2 rfl rfl).symm k) = ix2 k d := fun k =>
    idx2_ext _ _
      ((dot_S100000x2_S2x64_S100000x64_1_0_0_1_n_n.rhsIdx_val_of_single rfl _ _).trans
        (contrEquiv1_symm_val dot_S100000x2_S2x64_S100000x64_1_0_0_1_n_n 2 rfl rfl k))
      (by
        unfold DotDims.rhsIdx
        rw [dif_neg (show ¬ (1 : Fin S2x64.rank) ∈ dot_S100000x2_S2x64_S100000x64_1_0_0_1_n_n.rhsBatch by decide),
          dif_pos (show (1 : Fin S2x64.rank) ∈ dot_S100000x2_S2x64_S100000x64_1_0_0_1_n_n.rhsNonContracting by decide)]
        rfl)
  rw [hl, hl, hr, hr,
    transpose_apply [1, 0] w transposes_S64x2_S2x64_1_0 (ix2 (0 : Fin 2) d) (ix2 d (0 : Fin 2)) (fun b => match b with
      | ⟨0, _⟩ => rfl
      | ⟨1, _⟩ => rfl),
    transpose_apply [1, 0] w transposes_S64x2_S2x64_1_0 (ix2 (1 : Fin 2) d) (ix2 d (1 : Fin 2)) (fun b => match b with
      | ⟨0, _⟩ => rfl
      | ⟨1, _⟩ => rfl)]

/-- The enriched rows at `(i, d)`: the row's entry plus 0.05 times the two-term degree sum. -/
theorem enriched_apply (UIi : (⟨Cert.ReferenceIdeal.S100000x64, .f32⟩ : BufTy).Contents (Elt Ideal)) (deg : (⟨Cert.ReferenceIdeal.S100000x2, .f32⟩ : BufTy).Contents (Elt Ideal))
    (w : (⟨Cert.ReferenceIdeal.S64x2, .f32⟩ : BufTy).Contents (Elt Ideal)) (i : Fin 100000) (d : Fin 64) :
    enriched UIi deg w (ix2 i d)
      = UIi (ix2 i d) + Cert.Spec.kap * (Host.log1p (F := Ideal) (φ := .f32) deg (ix2 i (0 : Fin 2)) * w (ix2 d (0 : Fin 2))
          + Host.log1p (F := Ideal) (φ := .f32) deg (ix2 i (1 : Fin 2)) * w (ix2 d (1 : Fin 2))) := by
  unfold enriched
  rw [addf_apply, mulf_apply, bcast_scalar, constant_apply, degProduct_apply]

/-! ## The size term at a bundle and a column -/

theorem toInt_maxsi (x y : BitVec 32) : (IntOp.maxsi x y).toInt = max x.toInt y.toInt := by
  unfold IntOp.maxsi BitVec.slt
  by_cases h : y.toInt < x.toInt
  · rw [if_pos (decide_eq_true h)]; omega
  · rw [if_neg (fun hh => h (of_decide_eq_true hh))]; omega

theorem toInt_minsi (x y : BitVec 32) : (IntOp.minsi x y).toInt = min x.toInt y.toInt := by
  unfold IntOp.minsi BitVec.slt
  by_cases h : x.toInt < y.toInt
  · rw [if_pos (decide_eq_true h)]; omega
  · rw [if_neg (fun hh => h (of_decide_eq_true hh))]; omega

/-- The clamped size at bundle `b`, read signed: the size read signed, clamped into `0 … 10`. -/
theorem toInt_clipSize (bsz : (⟨Cert.ReferenceIdeal.S50000, .i32⟩ : BufTy).Contents (Elt Ideal)) (b : Fin 50000) :
    (clipSize bsz (ix1 b)).toInt = min (max (bsz (ix1 b)).toInt 0) 10 := by
  show (IntOp.minsi (broadcastInDim S50000 ![] bcast_S_S50000 (constantI S_ 32 10#32) (ix1 b))
      (IntOp.maxsi (broadcastInDim S50000 ![] bcast_S_S50000 (constantI S_ 32 0#32) (ix1 b)) (bsz (ix1 b)))).toInt = _
  rw [bcast_scalar, bcast_scalar, toInt_minsi, toInt_maxsi]
  show min (10#32 : BitVec 32).toInt (max (0#32 : BitVec 32).toInt (bsz (ix1 b)).toInt) = _
  have h10 : (10#32 : BitVec 32).toInt = 10 := by decide
  have h0 : (0#32 : BitVec 32).toInt = 0 := by decide
  rw [h10, h0]
  omega

/-- The table gather's index at bundle `b`: the clamped size is not negative, so nothing is counted from the end. -/
theorem sizeIdx_apply (bsz : (⟨Cert.ReferenceIdeal.S50000, .i32⟩ : BufTy).Contents (Elt Ideal)) (b : Fin 50000) :
    select (cmpi .slt (clipSize bsz) (broadcastInDim S50000 ![] bcast_S_S50000 (constantI S_ 32 0#32)))
        (addi (clipSize bsz) (broadcastInDim S50000 ![] bcast_S_S50000 (constantI S_ 32 11#32))) (clipSize bsz) (ix1 b)
      = clipSize bsz (ix1 b) := by
  rw [select_apply]
  have hlt : cmpi .slt (clipSize bsz) (broadcastInDim S50000 ![] bcast_S_S50000 (constantI S_ 32 0#32)) (ix1 b) = 0#1 := by
    show BitVec.ofBool (BitVec.slt (clipSize bsz (ix1 b)) (broadcastInDim S50000 ![] bcast_S_S50000 (constantI S_ 32 0#32) (ix1 b))) = 0#1
    rw [bcast_scalar]
    show BitVec.ofBool (BitVec.slt (clipSize bsz (ix1 b)) (0#32)) = 0#1
    unfold BitVec.slt
    have h0 : (0#32 : BitVec 32).toInt = 0 := by decide
    rw [h0, toInt_clipSize, decide_eq_false (by omega)]
    rfl
  rw [hlt, select_zero]

/-- The reference's gather of the size table is a gather of whole rows. -/
theorem tabGather_eq : gather_S11x64_S50000x1_S50000x64_1_0_n_n_0_1_164
    = rowGather 11 50000 64 Cert.ReferenceIdeal.Facts₀.gather_S11x64_S50000x1_S50000x64_1_0_n_n_0_1_164_wf := rfl

/-- The size term at `(b, d)`: 0.05 times the table's row at the clamped size, which is already inside the table's rows. -/
theorem sizeTerm_apply (tab : (⟨Cert.ReferenceIdeal.S11x64, .f32⟩ : BufTy).Contents (Elt Ideal)) (bsz : (⟨Cert.ReferenceIdeal.S50000, .i32⟩ : BufTy).Contents (Elt Ideal))
    (b : Fin 50000) (d : Fin 64) :
    sizeTerm tab bsz (ix2 b d) = Cert.Spec.kap * tab (ix2 (Cert.Spec.clip11 (bsz (ix1 b))) d) := by
  unfold sizeTerm
  rw [mulf_apply, bcast_scalar, constant_apply, tabGather_eq, rowGather_apply (by decide)]
  refine congrArg (fun t => Cert.Spec.kap * tab t) (idx2_ext _ _ ?_ rfl)
  have key : ∀ v : BitVec 32, v.toInt = min (max (bsz (ix1 b)).toInt 0) 10 →
      min v.toInt.toNat (11 - 1) = (min (max (bsz (ix1 b)).toInt 0) 10).toNat := fun v hv => by omega
  refine key _ ?_
  rw [bcast_col, sizeIdx_apply, toInt_clipSize]

/-! ## The law -/

/-- The law: under real edge values, degrees above −1 and real weights, the reference's embedding is the kernel's. -/
theorem refBundle_eq (UIi : (⟨Cert.ReferenceIdeal.S100000x64, .f32⟩ : BufTy).Contents (Elt Ideal)) (deg : (⟨Cert.ReferenceIdeal.S100000x2, .f32⟩ : BufTy).Contents (Elt Ideal))
    (w : (⟨Cert.ReferenceIdeal.S64x2, .f32⟩ : BufTy).Contents (Elt Ideal)) (tab : (⟨Cert.ReferenceIdeal.S11x64, .f32⟩ : BufTy).Contents (Elt Ideal)) (bsz : (⟨Cert.ReferenceIdeal.S50000, .i32⟩ : BufTy).Contents (Elt Ideal))
    (row col : (⟨Cert.ReferenceIdeal.S500000, .i32⟩ : BufTy).Contents (Elt Ideal)) (val : (⟨Cert.ReferenceIdeal.S500000, .f32⟩ : BufTy).Contents (Elt Ideal))
    (hdeg : ∀ i, ∃ r : ℝ, -1 < r ∧ deg i = (r : EReal)) (hval : ∀ e, ∃ r : ℝ, val e = (r : EReal)) (hw : ∀ i, ∃ r : ℝ, w i = (r : EReal)) :
    refBundle UIi deg w tab bsz row col val
      = Cert.Spec.bundleK (nb := 50000) (Cert.KernelIdeal.SpecHost.agg64 row col val UIi)
          (Cert.KernelIdeal.SpecHost.agg2 row col val (Host.log1p deg)) w (fun b => bsz (ix1 b)) tab := by
  funext j
  obtain ⟨b, d, rfl⟩ : ∃ (b : Fin 50000) (d : Fin 64), j = ix2 b d := ⟨j 0, j 1, eq_ix2 j⟩
  -- the reference's side: the sum over the edges of bundle b of the weighted enriched rows, and the size term
  have hL : refBundle UIi deg w tab bsz row col val (ix2 b d)
      = (∑ e ∈ edgesOf row b, val (ix1 e) * (UIi (ix2 (srcRow col e) d)
          + Cert.Spec.kap * (Host.log1p (F := Ideal) (φ := .f32) deg (ix2 (srcRow col e) (0 : Fin 2)) * w (ix2 d (0 : Fin 2))
            + Host.log1p (F := Ideal) (φ := .f32) deg (ix2 (srcRow col e) (1 : Fin 2)) * w (ix2 d (1 : Fin 2)))))
        + Cert.Spec.kap * tab (ix2 (Cert.Spec.clip11 (bsz (ix1 b))) d) := by
    unfold refBundle
    rw [addf_apply, agg64_apply, sizeTerm_apply]
    simp only [enriched_apply]
  -- the kernel's side: the three sums apart
  have hR : Cert.Spec.bundleK (nb := 50000) (Cert.KernelIdeal.SpecHost.agg64 row col val UIi)
        (Cert.KernelIdeal.SpecHost.agg2 row col val (Host.log1p deg)) w (fun b => bsz (ix1 b)) tab (ix2 b d)
      = (∑ e ∈ edgesOf row b, val (ix1 e) * UIi (ix2 (srcRow col e) d))
        + Cert.Spec.kap * ((∑ e ∈ edgesOf row b, val (ix1 e) * Host.log1p (F := Ideal) (φ := .f32) deg (ix2 (srcRow col e) (0 : Fin 2))) * w (ix2 d (0 : Fin 2))
          + (∑ e ∈ edgesOf row b, val (ix1 e) * Host.log1p (F := Ideal) (φ := .f32) deg (ix2 (srcRow col e) (1 : Fin 2))) * w (ix2 d (1 : Fin 2)))
        + Cert.Spec.kap * tab (ix2 (Cert.Spec.clip11 (bsz (ix1 b))) d) := by
    unfold Cert.Spec.bundleK
    show Cert.KernelIdeal.SpecHost.agg64 row col val UIi (ix2 b d)
        + Cert.Spec.kap * (Cert.KernelIdeal.SpecHost.agg2 row col val (Host.log1p deg) (ix2 b (0 : Fin 2)) * w (ix2 d (0 : Fin 2))
          + Cert.KernelIdeal.SpecHost.agg2 row col val (Host.log1p deg) (ix2 b (1 : Fin 2)) * w (ix2 d (1 : Fin 2)))
        + Cert.Spec.kap * tab (ix2 (Cert.Spec.clip11 (bsz (ix1 b))) d) = _
    rw [agg64_apply, agg2_apply, agg2_apply]
  rw [hL, hR]
  refine congrArg (· + Cert.Spec.kap * tab (ix2 (Cert.Spec.clip11 (bsz (ix1 b))) d)) ?_
  -- the real witnesses
  have hlog : ∀ i, ∃ s : ℝ, Host.log1p (F := Ideal) (φ := .f32) deg i = (s : EReal) := fun i => by
    obtain ⟨r, hr, e⟩ := hdeg i
    obtain ⟨s, hs⟩ := Cert.BundleLaw.log1p_real r hr
    exact ⟨s, by show Ideal.log1p (deg i) = _; rw [e, hs]⟩
  choose a ha using hval
  choose wr hwr using hw
  choose lr hlr using hlog
  obtain ⟨κ, hκ⟩ := Cert.BundleLaw.kap_real
  simp only [ha, hwr, hlr, hκ]
  exact Cert.BundleLaw.sum_law (edgesOf row b) (fun e => a (ix1 e)) (fun e => lr (ix2 (srcRow col e) (0 : Fin 2)))
    (fun e => lr (ix2 (srcRow col e) (1 : Fin 2))) (fun e => UIi (ix2 (srcRow col e) d)) κ (wr (ix2 d (0 : Fin 2))) (wr (ix2 d (1 : Fin 2)))

end Reference

end Cert.BundleAlg

end
-- ==== Proof.RBundle.lean ====
/-
  The reference's last result is `refBundle` of its own propagated item rows and the arguments.
-/
import proofs.«408083_j64364379898214_3_alg».proof.Proof.Gen.ReferenceIdeal.Read
import proofs.«408083_j64364379898214_3_alg».proof.Proof.BundleAlg

set_option maxRecDepth 16384

noncomputable section

namespace Cert.ReferenceIdeal.RBundle

open Cert.ReferenceIdeal Idealize.ShloMosaic Idealize.ShloMosaic.ValueIdx

/-- The reference's result `main_v176` over its result `main_v48`. -/
theorem val_v176_eq (x0 : (⟨S200000x64, .f32⟩ : BufTy).Contents (Elt Ideal)) (x1 : (⟨S100000x64, .f32⟩ : BufTy).Contents (Elt Ideal)) (x3 : (⟨S64x2, .f32⟩ : BufTy).Contents (Elt Ideal)) (x4 : (⟨S11x64, .f32⟩ : BufTy).Contents (Elt Ideal))
    (x5 : (⟨S100000x2, .f32⟩ : BufTy).Contents (Elt Ideal)) (x6 : (⟨S50000, .i32⟩ : BufTy).Contents (Elt Ideal)) (x7 x8 : (⟨S4000000, .i32⟩ : BufTy).Contents (Elt Ideal)) (x9 : (⟨S4000000, .f32⟩ : BufTy).Contents (Elt Ideal))
    (x16 x17 : (⟨S500000, .i32⟩ : BufTy).Contents (Elt Ideal)) (x18 : (⟨S500000, .f32⟩ : BufTy).Contents (Elt Ideal)) :
    Cert.ReferenceIdeal.Read.val_main_v176 (F := Ideal) x0 x1 x3 x4 x5 x6 x7 x8 x9 x16 x17 x18
      = Cert.BundleAlg.refBundle (Cert.ReferenceIdeal.Read.val_main_v48 (F := Ideal) x0 x1 x7 x8 x9) x5 x3 x4 x6 x16 x17 x18 := by
  -- the clamp of the size
  have hclip : Cert.ReferenceIdeal.Read.val_main_v166 (F := Ideal) x6 = Cert.BundleAlg.clipSize x6 := rfl
  -- the size term: the select on a negative index, the broadcast, the table gather, the scale
  have hsize : Cert.ReferenceIdeal.Read.val_main_v175 (F := Ideal) x4 x6 = Cert.BundleAlg.sizeTerm x4 x6 := by
    unfold Cert.ReferenceIdeal.Read.val_main_v175 Cert.ReferenceIdeal.Read.val_main_v174 Cert.ReferenceIdeal.Read.val_main_cst_39
      Cert.ReferenceIdeal.Read.val_main_v173 Cert.ReferenceIdeal.Read.val_main_v172 Cert.ReferenceIdeal.Read.val_main_v171
      Cert.ReferenceIdeal.Read.val_main_v170 Cert.ReferenceIdeal.Read.val_main_v169 Cert.ReferenceIdeal.Read.val_main_c_38
      Cert.ReferenceIdeal.Read.val_main_v168 Cert.ReferenceIdeal.Read.val_main_v167 Cert.ReferenceIdeal.Read.val_main_c_37
      Cert.BundleAlg.sizeTerm
    rw [hclip]
  -- the item rows with the weighted degree term added
  have henr : Cert.ReferenceIdeal.Read.val_main_v152 (F := Ideal) x0 x1 x3 x5 x7 x8 x9
      = Cert.BundleAlg.enriched (Cert.ReferenceIdeal.Read.val_main_v48 (F := Ideal) x0 x1 x7 x8 x9) x5 x3 := rfl
  -- their per-bundle weighted sum: the two programs' dimension records have equal bodies
  have hagg : Cert.ReferenceIdeal.Read.val_main_v165 (F := Ideal) x0 x1 x3 x5 x7 x8 x9 x16 x17 x18
      = Cert.KernelIdeal.SpecHost.agg64 x16 x17 x18 (Cert.ReferenceIdeal.Read.val_main_v152 (F := Ideal) x0 x1 x3 x5 x7 x8 x9) := rfl
  unfold Cert.ReferenceIdeal.Read.val_main_v176 Cert.BundleAlg.refBundle
  rw [hagg, henr, hsize]

end Cert.ReferenceIdeal.RBundle

end
-- ==== Proof.PreFacts.lean ====
/-
  What the precondition says of the three inputs the joining law needs: every edge value of the aggregation graph and
  every weight is a real number, and every item degree is a real number above −1.
-/
import proofs.«408083_j64364379898214_3_alg».proof.Defs
import proofs.«408083_j64364379898214_3_alg».proof.Proof.Gen.Pre_finite_inputs
import Idealize.ShloMosaic.Lib.ReduceAll
import Idealize.ShloMosaic.Lib.StableHlo.Predicate
import Idealize.ShloMosaic.Lib.ValueIdx

set_option maxRecDepth 16384

noncomputable section

namespace Cert.PreFacts

open Idealize.ShloMosaic Idealize.ShloMosaic.ValueIdx Idealize.ShloMosaic.TcCoe Idealize.SL.Sem

/-- The rank-0 shape has one index. -/
instance : Subsingleton (⟨0, ![]⟩ : Shape).Idx := ⟨fun a b => funext fun d => d.elim0⟩

/-- The float word `0x7F800000` is +∞. -/
theorem ofBits_inf : Ideal.ofBits .f32 0x7F800000#32 = (⊤ : EReal) := by simp [Ideal.ofBits, Ideal.ieee]

/-- The float word `0xBF800000` is the real −1. -/
theorem ofBits_neg_one : Ideal.ofBits .f32 0xBF800000#32 = ((-1 : ℝ) : EReal) := by
  simp [Ideal.ofBits, Ideal.ieee, -EReal.coe_mul, -EReal.coe_neg]; norm_num

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  rw [ofBits_inf] at h
  unfold Ideal.cmp at h
  induction x using EReal.rec with
  | bot => simp at h
  | coe r => exact ⟨r, rfl⟩
  | top => simp at h

/-- A real number that compares above the float word −1 is above −1. -/
theorem gt_neg_one_of_cmp (r : ℝ)
    (h : Ideal.cmp .ogt (r : EReal) (Ideal.ofBits .f32 0xBF800000#32) = 1#1) : -1 < r := by
  rw [ofBits_neg_one] at h
  have h2 : BitVec.ofBool (decide (((-1 : ℝ) : EReal) < (r : EReal))) = 1#1 := h
  exact EReal.coe_lt_coe_iff.mp (of_decide_eq_true ((StableHlo.Predicate.ofBool_eq_one_iff _).mp h2))

/-- `jnp.all (|x| < +∞)` that came out true: every entry of `x` is a real number. -/
theorem all_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) hr hu ix0 = 1#1) (i : s.Idx) : ∃ r : ℝ, x i = (r : EReal) := by
  have h := Host.reduce_andi_all _ _ hr hu ix0 e i
  exact real_of_abs_lt_inf (x i) h

/-- `jnp.all (x > −1)` that came out true: every real entry of `x` is above −1. -/
theorem all_gt_neg_one {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
        (cmpf .ogt x (broadcastInDim s ![] hb (constant (F := Ideal) ⟨0, ![]⟩ .f32 0xBF800000#32)))
        (constantI ⟨0, ![]⟩ 1 1#1) hr hu ix0 = 1#1) (i : s.Idx) (r : ℝ) (hx : x i = (r : EReal)) : -1 < r := by
  have h := Host.reduce_andi_all _ _ hr hu ix0 e i
  have h' : Ideal.cmp .ogt (x i) (Ideal.ofBits .f32 0xBF800000#32) = 1#1 := h
  rw [hx] at h'
  exact gt_neg_one_of_cmp r h'

open Cert.Pre_finite_inputs in
/-- The printed predicate decoded: the weights, the item degrees and the aggregation graph's edge values are real
    numbers, and the item degrees are above −1. -/
theorem decode (a0 : FVec Ideal S200000x64 .f32) (a1 : FVec Ideal S100000x64 .f32) (a2 : FVec Ideal S50000x64 .f32)
    (a3 : FVec Ideal S64x2 .f32) (a4 : FVec Ideal S11x64 .f32) (a5 : FVec Ideal S100000x2 .f32) (a6 : IVec S50000 32)
    (a7 a8 : IVec S4000000 32) (a9 : FVec Ideal S4000000 .f32) (a10 a11 : IVec S2000000 32)
    (a12 : FVec Ideal S2000000 .f32) (a13 a14 : IVec S2000000 32) (a15 : FVec Ideal S2000000 .f32)
    (a16 a17 : IVec S500000 32) (a18 : FVec Ideal S500000 .f32)
    (h : Cert.Pre_finite_inputs.fn (F := Ideal) a0 a1 a2 a3 a4 a5 a6 a7 a8 a9 a10 a11 a12 a13 a14 a15 a16 a17 a18
      = fun _ => 1#1) :
    (∀ i, ∃ r : ℝ, a3 i = (r : EReal)) ∧ (∀ i, ∃ r : ℝ, -1 < r ∧ a5 i = (r : EReal))
      ∧ (∀ i, ∃ r : ℝ, a18 i = (r : EReal)) := by
  have e := congrFun h ix0
  dsimp only [Cert.Pre_finite_inputs.fn, fn_part1, fn_part2, fn_part3] at e
  simp only [andi, IntOp.andi_eq_one] at e
  obtain ⟨⟨⟨⟨⟨⟨⟨⟨⟨⟨-, -⟩, -⟩, h3⟩, -⟩, h5⟩, -⟩, -⟩, -⟩, h18⟩, hd⟩ := e
  refine ⟨fun i => all_real a3 _ _ _ h3 i, fun i => ?_, fun i => all_real a18 _ _ _ h18 i⟩
  obtain ⟨r, hr⟩ := all_real a5 _ _ _ h5 i
  exact ⟨r, all_gt_neg_one a5 _ _ _ hd i r hr, hr⟩

variable (m : (ℓ : Loc Cert.KernelIdeal.nD Cert.KernelIdeal.τ Cert.KernelIdeal.sig) → Buf (Elt Ideal) ℓ)

/-- Under the precondition every item degree is a real number above −1. -/
theorem deg_real (hpre : Cert.Pre_KernelIdeal m) (c : Dev Cert.KernelIdeal.nD) :
    ∀ i, ∃ r : ℝ, -1 < r ∧ m ((c.tc : Thread Cert.KernelIdeal.nD Cert.KernelIdeal.τ).loc Cert.KernelIdeal.main_arg5) i = (r : EReal) :=
  (decode _ _ _ _ _ _ _ _ _ _ _ _ _ _ _ _ _ _ _ (hpre c)).2.1

/-- Under the precondition every edge value of the aggregation graph is a real number. -/
theorem aggval_real (hpre : Cert.Pre_KernelIdeal m) (c : Dev Cert.KernelIdeal.nD) :
    ∀ e, ∃ r : ℝ, m ((c.tc : Thread Cert.KernelIdeal.nD Cert.KernelIdeal.τ).loc Cert.KernelIdeal.main_arg18) e = (r : EReal) :=
  (decode _ _ _ _ _ _ _ _ _ _ _ _ _ _ _ _ _ _ _ (hpre c)).2.2

/-- Under the precondition every weight is a real number. -/
theorem wdeg_real (hpre : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) :=
  (decode _ _ _ _ _ _ _ _ _ _ _ _ _ _ _ _ _ _ _ (hpre c)).1

end Cert.PreFacts

end
-- ==== Proof.lean ====
/-
  The certificate's claim. The three frames are the generated ones (the reference's is its generated run with the
  results dropped); nothing was rewritten when the kernel was idealized, so `preserves` asks nothing. The equivalence:
  the kernel's run leaves in each result what the fold through its host stretches and seven pipelines computes, which
  is, graph by graph, rows of `prop3` of the stacked features and their sparse products, and for the last result the
  bundle embedding `bundleK`; the reference's run leaves the same terms of its own arguments, the last one by the law
  that a real multiple distributes over the per-bundle sums, for which the precondition gives real edge values, real
  weights and degrees above −1. The arguments agree, so the results are equal.
-/
import proofs.«408083_j64364379898214_3_alg».proof.Defs
import proofs.«408083_j64364379898214_3_alg».proof.Proof.Gen.Kernel
import proofs.«408083_j64364379898214_3_alg».proof.Proof.Gen.Kernel.Frame
import proofs.«408083_j64364379898214_3_alg».proof.Proof.Gen.KernelIdeal
import proofs.«408083_j64364379898214_3_alg».proof.Proof.Gen.KernelIdeal.Frame
import proofs.«408083_j64364379898214_3_alg».proof.Proof.Gen.ReferenceIdeal
import proofs.«408083_j64364379898214_3_alg».proof.Proof.Gen.ReferenceIdeal.Run
import proofs.«408083_j64364379898214_3_alg».proof.Proof.Gen.ReferenceIdeal.Read
import proofs.«408083_j64364379898214_3_alg».proof.Proof.Gen.Pre_finite_inputs
import proofs.«408083_j64364379898214_3_alg».proof.Proof.KRun
import proofs.«408083_j64364379898214_3_alg».proof.Proof.KPropUI
import proofs.«408083_j64364379898214_3_alg».proof.Proof.KPropBI
import proofs.«408083_j64364379898214_3_alg».proof.Proof.KPropUB
import proofs.«408083_j64364379898214_3_alg».proof.Proof.KBundle
import proofs.«408083_j64364379898214_3_alg».proof.Proof.RPropUI
import proofs.«408083_j64364379898214_3_alg».proof.Proof.RPropBI
import proofs.«408083_j64364379898214_3_alg».proof.Proof.RPropUB
import proofs.«408083_j64364379898214_3_alg».proof.Proof.RBundle
import proofs.«408083_j64364379898214_3_alg».proof.Proof.BundleAlg
import proofs.«408083_j64364379898214_3_alg».proof.Proof.PreFacts
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2.2.2.2.2.2.2)
    (Cert.ReferenceIdeal.Value.run (F := Ideal) m ρ)

/-- The kernel's last result over the launch memory: the bundle embedding of the propagated item rows. -/
theorem kernel_bundle (m : (ℓ : Loc Cert.KernelIdeal.nD Cert.KernelIdeal.τ Cert.KernelIdeal.sig) → Buf (Elt Ideal) ℓ) (ρ : Dev Cert.KernelIdeal.nD → PrngReg) (c : Dev Cert.KernelIdeal.nD) :
    Cert.KernelIdeal.Gen.W14 m ρ c (Proc.devRef .tc Cert.KernelIdeal.main_v0_6)
      = Cert.Spec.bundleK (nb := 50000)
        (Cert.KernelIdeal.SpecHost.agg64 (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
          (Cert.Spec.rowsFrom 200000 (n := 300000) (k := 100000) (by decide)
            (Cert.KernelIdeal.SpecHost.prop300000 (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.KernelIdeal.SpecHost.featUI (m ((c.tc : Thread Cert.KernelIdeal.nD Cert.KernelIdeal.τ).loc Cert.KernelIdeal.main_arg0)) (m ((c.tc : Thread Cert.KernelIdeal.nD Cert.KernelIdeal.τ).loc Cert.KernelIdeal.main_arg1))))))
        (Cert.KernelIdeal.SpecHost.agg2 (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (Host.log1p (m ((c.tc : Thread Cert.KernelIdeal.nD Cert.KernelIdeal.τ).loc Cert.KernelIdeal.main_arg5))))
        (m ((c.tc : Thread Cert.KernelIdeal.nD Cert.KernelIdeal.τ).loc Cert.KernelIdeal.main_arg3)) (fun b => (m ((c.tc : Thread Cert.KernelIdeal.nD Cert.KernelIdeal.τ).loc Cert.KernelIdeal.main_arg6)) (ValueIdx.ix1 b)) (m ((c.tc : Thread Cert.KernelIdeal.nD Cert.KernelIdeal.τ).loc Cert.KernelIdeal.main_arg4)) :=
  (Cert.KernelIdeal.KBundle.W14_main_v0_6 m ρ c).trans (by rw [Cert.KernelIdeal.KProp.W12_main_v0_5 m ρ c])

theorem algebraic : Cert.algebraic_KernelIdeal_ReferenceIdeal := by
  intro m g m' g' hpre hagree
  refine ⟨fun c => Cert.Spec.rowsFrom 0 (n := 300000) (k := 200000) (by decide) (Cert.KernelIdeal.SpecHost.prop300000 (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.KernelIdeal.SpecHost.featUI (m ((c.tc : Thread Cert.KernelIdeal.nD Cert.KernelIdeal.τ).loc Cert.KernelIdeal.main_arg0)) (m ((c.tc : Thread Cert.KernelIdeal.nD Cert.KernelIdeal.τ).loc Cert.KernelIdeal.main_arg1)))),
    fun c => Cert.Spec.rowsFrom 0 (n := 250000) (k := 200000) (by decide) (Cert.KernelIdeal.SpecHost.prop250000 (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (Cert.KernelIdeal.SpecHost.featUB (m ((c.tc : Thread Cert.KernelIdeal.nD Cert.KernelIdeal.τ).loc Cert.KernelIdeal.main_arg0)) (m ((c.tc : Thread Cert.KernelIdeal.nD Cert.KernelIdeal.τ).loc Cert.KernelIdeal.main_arg2)))),
    fun c => Cert.Spec.rowsFrom 0 (n := 150000) (k := 50000) (by decide) (Cert.KernelIdeal.SpecHost.prop150000 (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (Cert.KernelIdeal.SpecHost.featBI (m ((c.tc : Thread Cert.KernelIdeal.nD Cert.KernelIdeal.τ).loc Cert.KernelIdeal.main_arg2)) (m ((c.tc : Thread Cert.KernelIdeal.nD Cert.KernelIdeal.τ).loc Cert.KernelIdeal.main_arg1)))),
    fun c => Cert.Spec.rowsFrom 50000 (n := 150000) (k := 100000) (by decide) (Cert.KernelIdeal.SpecHost.prop150000 (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (Cert.KernelIdeal.SpecHost.featBI (m ((c.tc : Thread Cert.KernelIdeal.nD Cert.KernelIdeal.τ).loc Cert.KernelIdeal.main_arg2)) (m ((c.tc : Thread Cert.KernelIdeal.nD Cert.KernelIdeal.τ).loc Cert.KernelIdeal.main_arg1)))),
    fun c => Cert.Spec.rowsFrom 200000 (n := 250000) (k := 50000) (by decide) (Cert.KernelIdeal.SpecHost.prop250000 (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (Cert.KernelIdeal.SpecHost.featUB (m ((c.tc : Thread Cert.KernelIdeal.nD Cert.KernelIdeal.τ).loc Cert.KernelIdeal.main_arg0)) (m ((c.tc : Thread Cert.KernelIdeal.nD Cert.KernelIdeal.τ).loc Cert.KernelIdeal.main_arg2)))),
    fun c => Cert.Spec.rowsFrom 200000 (n := 300000) (k := 100000) (by decide) (Cert.KernelIdeal.SpecHost.prop300000 (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.KernelIdeal.SpecHost.featUI (m ((c.tc : Thread Cert.KernelIdeal.nD Cert.KernelIdeal.τ).loc Cert.KernelIdeal.main_arg0)) (m ((c.tc : Thread Cert.KernelIdeal.nD Cert.KernelIdeal.τ).loc Cert.KernelIdeal.main_arg1)))),
    fun c => Cert.Spec.bundleK (nb := 50000)
        (Cert.KernelIdeal.SpecHost.agg64 (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
          (Cert.Spec.rowsFrom 200000 (n := 300000) (k := 100000) (by decide)
            (Cert.KernelIdeal.SpecHost.prop300000 (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (Cert.KernelIdeal.SpecHost.featUI (m ((c.tc : Thread Cert.KernelIdeal.nD Cert.KernelIdeal.τ).loc Cert.KernelIdeal.main_arg0)) (m ((c.tc : Thread Cert.KernelIdeal.nD Cert.KernelIdeal.τ).loc Cert.KernelIdeal.main_arg1))))))
        (Cert.KernelIdeal.SpecHost.agg2 (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (Host.log1p (m ((c.tc : Thread Cert.KernelIdeal.nD Cert.KernelIdeal.τ).loc Cert.KernelIdeal.main_arg5))))
        (m ((c.tc : Thread Cert.KernelIdeal.nD Cert.KernelIdeal.τ).loc Cert.KernelIdeal.main_arg3)) (fun b => (m ((c.tc : Thread Cert.KernelIdeal.nD Cert.KernelIdeal.τ).loc Cert.KernelIdeal.main_arg6)) (ValueIdx.ix1 b)) (m ((c.tc : Thread Cert.KernelIdeal.nD Cert.KernelIdeal.τ).loc Cert.KernelIdeal.main_arg4)), ?_, ?_⟩
  · refine (θ_run Cert.KernelIdeal.defs _ _).mono (fun r h c => ?_) (Cert.KernelIdeal.KRun.run (F := Ideal) m g)
    exact ⟨(h c _ (Cert.KernelIdeal.Gen.mem_uc Cert.KernelIdeal.main_v0_0 (by decide))).trans (Cert.KernelIdeal.KProp.W14_main_v0_0 m g c),
      (h c _ (Cert.KernelIdeal.Gen.mem_uc Cert.KernelIdeal.main_v0_1 (by decide))).trans (Cert.KernelIdeal.KProp.W14_main_v0_1 m g c),
      (h c _ (Cert.KernelIdeal.Gen.mem_uc Cert.KernelIdeal.main_v0_2 (by decide))).trans (Cert.KernelIdeal.KProp.W14_main_v0_2 m g c),
      (h c _ (Cert.KernelIdeal.Gen.mem_uc Cert.KernelIdeal.main_v0_3 (by decide))).trans (Cert.KernelIdeal.KProp.W14_main_v0_3 m g c),
      (h c _ (Cert.KernelIdeal.Gen.mem_uc Cert.KernelIdeal.main_v0_4 (by decide))).trans (Cert.KernelIdeal.KProp.W14_main_v0_4 m g c),
      (h c _ (Cert.KernelIdeal.Gen.mem_uc Cert.KernelIdeal.main_v0_5 (by decide))).trans (Cert.KernelIdeal.KProp.W14_main_v0_5 m g c),
      (h c _ (Cert.KernelIdeal.Gen.mem_uc Cert.KernelIdeal.main_v0_6 (by decide))).trans (kernel_bundle m g c),
      (h c _ (Cert.KernelIdeal.Gen.mem_uc Cert.KernelIdeal.main_arg0 (by decide))).trans (Cert.KernelIdeal.Gen.W14_main_arg0 m g c),
      (h c _ (Cert.KernelIdeal.Gen.mem_uc Cert.KernelIdeal.main_arg1 (by decide))).trans (Cert.KernelIdeal.Gen.W14_main_arg1 m g c),
      (h c _ (Cert.KernelIdeal.Gen.mem_uc Cert.KernelIdeal.main_arg2 (by decide))).trans (Cert.KernelIdeal.Gen.W14_main_arg2 m g c),
      (h c _ (Cert.KernelIdeal.Gen.mem_uc Cert.KernelIdeal.main_arg3 (by decide))).trans (Cert.KernelIdeal.Gen.W14_main_arg3 m g c),
      (h c _ (Cert.KernelIdeal.Gen.mem_uc Cert.KernelIdeal.main_arg4 (by decide))).trans (Cert.KernelIdeal.Gen.W14_main_arg4 m g c),
      (h c _ (Cert.KernelIdeal.Gen.mem_uc Cert.KernelIdeal.main_arg5 (by decide))).trans (Cert.KernelIdeal.Gen.W14_main_arg5 m g c),
      (h c _ (Cert.KernelIdeal.Gen.mem_uc Cert.KernelIdeal.main_arg6 (by decide))).trans (Cert.KernelIdeal.Gen.W14_main_arg6 m g c),
      (h c _ (Cert.KernelIdeal.Gen.mem_uc Cert.KernelIdeal.main_arg7 (by decide))).trans (Cert.KernelIdeal.Gen.W14_main_arg7 m g c),
      (h c _ (Cert.KernelIdeal.Gen.mem_uc Cert.KernelIdeal.main_arg8 (by decide))).trans (Cert.KernelIdeal.Gen.W14_main_arg8 m g c),
      (h c _ (Cert.KernelIdeal.Gen.mem_uc Cert.KernelIdeal.main_arg9 (by decide))).trans (Cert.KernelIdeal.Gen.W14_main_arg9 m g c),
      (h c _ (Cert.KernelIdeal.Gen.mem_uc Cert.KernelIdeal.main_arg10 (by decide))).trans (Cert.KernelIdeal.Gen.W14_main_arg10 m g c),
      (h c _ (Cert.KernelIdeal.Gen.mem_uc Cert.KernelIdeal.main_arg11 (by decide))).trans (Cert.KernelIdeal.Gen.W14_main_arg11 m g c),
      (h c _ (Cert.KernelIdeal.Gen.mem_uc Cert.KernelIdeal.main_arg12 (by decide))).trans (Cert.KernelIdeal.Gen.W14_main_arg12 m g c),
      (h c _ (Cert.KernelIdeal.Gen.mem_uc Cert.KernelIdeal.main_arg13 (by decide))).trans (Cert.KernelIdeal.Gen.W14_main_arg13 m g c),
      (h c _ (Cert.KernelIdeal.Gen.mem_uc Cert.KernelIdeal.main_arg14 (by decide))).trans (Cert.KernelIdeal.Gen.W14_main_arg14 m g c),
      (h c _ (Cert.KernelIdeal.Gen.mem_uc Cert.KernelIdeal.main_arg15 (by decide))).trans (Cert.KernelIdeal.Gen.W14_main_arg15 m g c),
      (h c _ (Cert.KernelIdeal.Gen.mem_uc Cert.KernelIdeal.main_arg16 (by decide))).trans (Cert.KernelIdeal.Gen.W14_main_arg16 m g c),
      (h c _ (Cert.KernelIdeal.Gen.mem_uc Cert.KernelIdeal.main_arg17 (by decide))).trans (Cert.KernelIdeal.Gen.W14_main_arg17 m g c),
      (h c _ (Cert.KernelIdeal.Gen.mem_uc Cert.KernelIdeal.main_arg18 (by decide))).trans (Cert.KernelIdeal.Gen.W14_main_arg18 m g c)⟩
  · refine (θ_run Cert.ReferenceIdeal.defs _ _).mono (fun r h c => ?_) (Cert.ReferenceIdeal.Value.run (F := Ideal) m' g')
    refine ⟨(h c).1.trans ?_, (h c).2.1.trans ?_, (h c).2.2.1.trans ?_, (h c).2.2.2.1.trans ?_, (h c).2.2.2.2.1.trans ?_, (h c).2.2.2.2.2.1.trans ?_, (h c).2.2.2.2.2.2.1.trans ?_, (h c).2.2.2.2.2.2.2⟩
    · rw [Cert.ReferenceIdeal.Read.val_main_v47_eq, Cert.ReferenceIdeal.RProp.val_v47_eq, (hagree c).1, (hagree c).2.1, (hagree c).2.2.2.2.2.2.2.1, (hagree c).2.2.2.2.2.2.2.2.1, (hagree c).2.2.2.2.2.2.2.2.2.1]
    · rw [Cert.ReferenceIdeal.Read.val_main_v145_eq, Cert.ReferenceIdeal.RProp.val_v145_eq, (hagree c).1, (hagree c).2.2.1, (hagree c).2.2.2.2.2.2.2.2.2.2.2.2.2.1, (hagree c).2.2.2.2.2.2.2.2.2.2.2.2.2.2.1, (hagree c).2.2.2.2.2.2.2.2.2.2.2.2.2.2.2.1]
    · rw [Cert.ReferenceIdeal.Read.val_main_v96_eq, Cert.ReferenceIdeal.RProp.val_v96_eq, (hagree c).2.2.1, (hagree c).2.1, (hagree c).2.2.2.2.2.2.2.2.2.2.1, (hagree c).2.2.2.2.2.2.2.2.2.2.2.1, (hagree c).2.2.2.2.2.2.2.2.2.2.2.2.1]
    · rw [Cert.ReferenceIdeal.Read.val_main_v97_eq, Cert.ReferenceIdeal.RProp.val_v97_eq, (hagree c).2.2.1, (hagree c).2.1, (hagree c).2.2.2.2.2.2.2.2.2.2.1, (hagree c).2.2.2.2.2.2.2.2.2.2.2.1, (hagree c).2.2.2.2.2.2.2.2.2.2.2.2.1]
    · rw [Cert.ReferenceIdeal.Read.val_main_v146_eq, Cert.ReferenceIdeal.RProp.val_v146_eq, (hagree c).1, (hagree c).2.2.1, (hagree c).2.2.2.2.2.2.2.2.2.2.2.2.2.1, (hagree c).2.2.2.2.2.2.2.2.2.2.2.2.2.2.1, (hagree c).2.2.2.2.2.2.2.2.2.2.2.2.2.2.2.1]
    · rw [Cert.ReferenceIdeal.Read.val_main_v48_eq, Cert.ReferenceIdeal.RProp.val_v48_eq, (hagree c).1, (hagree c).2.1, (hagree c).2.2.2.2.2.2.2.1, (hagree c).2.2.2.2.2.2.2.2.1, (hagree c).2.2.2.2.2.2.2.2.2.1]
    · have hd := Cert.PreFacts.deg_real m hpre c
      have hv := Cert.PreFacts.aggval_real m hpre c
      have hw := Cert.PreFacts.wdeg_real m hpre c
      rw [Cert.ReferenceIdeal.Read.val_main_v176_eq, Cert.ReferenceIdeal.RBundle.val_v176_eq, Cert.ReferenceIdeal.RProp.val_v48_eq, (hagree c).1, (hagree c).2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2]
      exact Cert.BundleAlg.refBundle_eq _ _ _ _ _ _ _ _ hd hv hw

/-- The certificate's claim. -/
theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
